-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S50257x768 : Shape := ⟨2, ![50257, 768]⟩
abbrev S_ : Shape := ⟨0, ![]⟩

class Facts : Prop where
  bcast_S_S50257x768 : S_.BroadcastsInDim S50257x768 (![] : Fin 0 → Fin S50257x768.rank)
  reducesTo_S50257x768_S_d0_1 : S50257x768.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : IVec S8x4096 32) (main_arg1 : FVec F S50257x768 .f32) : IVec S_ 1 :=
  let main_v0 : FVec F S50257x768 .f32 := Host.absf main_arg1
  let main_cst : FVec F S_ .f32 := constant S_ .f32 0x7F800000#32
  let main_v1 : FVec F S50257x768 .f32 := broadcastInDim S50257x768 ![] bcast_S_S50257x768 main_cst
  let main_v2 : IVec S50257x768 1 := cmpf .olt main_v0 main_v1
  let main_c : IVec S_ 1 := constantI S_ 1 1#1
  let main_v3 : IVec S_ 1 := (fun x v => Host.reduce IntOp.andi x v reducesTo_S50257x768_S_d0_1 h_S_) main_v2 main_c
  let main_c_0 : IVec S_ 32 := constantI S_ 32 0#32
  let main_v4 : IVec S8x4096 32 := broadcastInDim S8x4096 ![] bcast_S_S8x4096 main_c_0
  let main_v5 : IVec S8x4096 1 := cmpi .sge main_arg0 main_v4
  let main_c_1 : IVec S_ 32 := constantI S_ 32 50257#32
  let main_v6 : IVec S8x4096 32 := broadcastInDim S8x4096 ![] bcast_S_S8x4096 main_c_1
  let main_v7 : IVec S8x4096 1 := cmpi .slt main_arg0 main_v6
  let main_v8 : IVec S8x4096 1 := andi main_v5 main_v7
  let main_c_2 : IVec S_ 1 := constantI S_ 1 1#1
  let main_v9 : IVec S_ 1 := (fun x v => Host.reduce IntOp.andi x v reducesTo_S8x4096_S_d0_1 h_S_) main_v8 main_c_2
  let main_v10 : IVec S_ 1 := andi main_v3 main_v9
  main_v10
-- ==== Kernel.lean ====
abbrev S8x4096 : Shape := ⟨2, ![8, 4096]⟩
abbrev S50257x768 : Shape := ⟨2, ![50257, 768]⟩
abbrev S32768 : Shape := ⟨1, ![32768]⟩
abbrev S32768x768 : Shape := ⟨2, ![32768, 768]⟩
abbrev S128x768 : Shape := ⟨2, ![128, 768]⟩
abbrev S128 : Shape := ⟨1, ![128]⟩
abbrev S1 : Shape := ⟨1, ![1]⟩
abbrev S_ : Shape := ⟨0, ![]⟩
abbrev S1x768 : Shape := ⟨2, ![1, 768]⟩
abbrev S768 : Shape := ⟨1, ![768]⟩
abbrev S8x4096x768 : Shape := ⟨3, ![8, 4096, 768]⟩

abbrev nBuf : Space → Nat
  | .hbm => 4
  | .vmem => 2
  | .smem => 1
  | _ => 0

abbrev bufTy : (tb : Table) → Fin (tcTables nBuf tb) → BufTy
  | .hbm, ⟨0, _⟩ => ⟨S8x4096, .i32⟩
  | .hbm, ⟨1, _⟩ => ⟨S50257x768, .f32⟩
  | .hbm, ⟨2, _⟩ => ⟨S32768x768, .f32⟩
  | .hbm, ⟨3, _⟩ => ⟨S8x4096x768, .f32⟩
  | .local _ .vmem, ⟨0, _⟩ => ⟨S128x768, .f32⟩
  | .local _ .vmem, ⟨1, _⟩ => ⟨S128x768, .f32⟩
  | .local _ .smem, ⟨0, _⟩ => ⟨S32768, .i32⟩
  | _, _ => ⟨S8x4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x768.size a ≤ S50257x768.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x768.size a ≤ S50257x768.size a := fun v3 k0_hw1 => k0_hw1

def k0_off3 (i : grid0.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x768.size a ≤ S50257x768.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x768.size a ≤ S50257x768.size a := fun v12 k0_hw2 => k0_hw2

def k0_off5 (i : grid0.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x768.size a ≤ S50257x768.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x768.size a ≤ S50257x768.size a := fun v21 k0_hw3 => k0_hw3

def k0_off7 (i : grid0.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x768.size a ≤ S50257x768.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x768.size a ≤ S50257x768.size a := fun v30 k0_hw4 => k0_hw4

def k0_off9 (i : grid0.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x768.size a ≤ S50257x768.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x768.size a ≤ S50257x768.size a := fun v39 k0_hw5 => k0_hw5

def k0_off11 (i : grid0.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x768.size a ≤ S50257x768.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x768.size a ≤ S50257x768.size a := fun v48 k0_hw6 => k0_hw6

def k0_off13 (i : grid0.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x768.size a ≤ S50257x768.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x768.size a ≤ S50257x768.size a := fun v57 k0_hw7 => k0_hw7

def k0_off15 (i : grid0.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x768.size a ≤ S50257x768.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x768.size a ≤ S50257x768.size a := fun v66 k0_hw8 => k0_hw8

def k0_off17 (i : grid0.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x768.size a ≤ S50257x768.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x768.size a ≤ S50257x768.size a := fun v75 k0_hw9 => k0_hw9

def k0_off19 (i : grid0.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x768.size a ≤ S50257x768.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x768.size a ≤ S50257x768.size a := fun v84 k0_hw10 => k0_hw10

def k0_off21 (i : grid0.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x768.size a ≤ S50257x768.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x768.size a ≤ S50257x768.size a := fun v93 k0_hw11 => k0_hw11

def k0_off23 (i : grid0.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x768.size a ≤ S50257x768.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x768.size a ≤ S50257x768.size a := fun v102 k0_hw12 => k0_hw12

def k0_off25 (i : grid0.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x768.size a ≤ S50257x768.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x768.size a ≤ S50257x768.size a := fun v111 k0_hw13 => k0_hw13

def k0_off27 (i : grid0.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x768.size a ≤ S50257x768.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x768.size a ≤ S50257x768.size a := fun v120 k0_hw14 => k0_hw14

def k0_off29 (i : grid0.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x768.size a ≤ S50257x768.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x768.size a ≤ S50257x768.size a := fun v129 k0_hw15 => k0_hw15

def k0_off31 (i : grid0.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x768.size a ≤ S50257x768.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x768.size a ≤ S50257x768.size a := fun v138 k0_hw16 => k0_hw16

def k0_off33 (i : grid0.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x768.size a ≤ S50257x768.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x768.size a ≤ S50257x768.size a := fun v147 k0_hw17 => k0_hw17

def k0_off35 (i : grid0.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x768.size a ≤ S50257x768.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x768.size a ≤ S50257x768.size a := fun v156 k0_hw18 => k0_hw18

def k0_off37 (i : grid0.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x768.size a ≤ S50257x768.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x768.size a ≤ S50257x768.size a := fun v165 k0_hw19 => k0_hw19

def k0_off39 (i : grid0.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x768.size a ≤ S50257x768.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x768.size a ≤ S50257x768.size a := fun v174 k0_hw20 => k0_hw20

def k0_off41 (i : grid0.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x768.size a ≤ S50257x768.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x768.size a ≤ S50257x768.size a := fun v183 k0_hw21 => k0_hw21

def k0_off43 (i : grid0.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x768.size a ≤ S50257x768.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x768.size a ≤ S50257x768.size a := fun v192 k0_hw22 => k0_hw22

def k0_off45 (i : grid0.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x768.size a ≤ S50257x768.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x768.size a ≤ S50257x768.size a := fun v201 k0_hw23 => k0_hw23

def k0_off47 (i : grid0.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x768.size a ≤ S50257x768.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x768.size a ≤ S50257x768.size a := fun v210 k0_hw24 => k0_hw24

def k0_off49 (i : grid0.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x768.size a ≤ S50257x768.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x768.size a ≤ S50257x768.size a := fun v219 k0_hw25 => k0_hw25

def k0_off51 (i : grid0.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x768.size a ≤ S50257x768.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x768.size a ≤ S50257x768.size a := fun v228 k0_hw26 => k0_hw26

def k0_off53 (i : grid0.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x768.size a ≤ S50257x768.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x768.size a ≤ S50257x768.size a := fun v237 k0_hw27 => k0_hw27

def k0_off55 (i : grid0.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x768.size a ≤ S50257x768.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x768.size a ≤ S50257x768.size a := fun v246 k0_hw28 => k0_hw28

def k0_off57 (i : grid0.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x768.size a ≤ S50257x768.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x768.size a ≤ S50257x768.size a := fun v255 k0_hw29 => k0_hw29

def k0_off59 (i : grid0.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x768.size a ≤ S50257x768.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x768.size a ≤ S50257x768.size a := fun v264 k0_hw30 => k0_hw30

def k0_off61 (i : grid0.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x768.size a ≤ S50257x768.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x768.size a ≤ S50257x768.size a := fun v273 k0_hw31 => k0_hw31

def k0_off63 (i : grid0.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x768.size a ≤ S50257x768.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x768.size a ≤ S50257x768.size a := fun v282 k0_hw32 => k0_hw32

def k0_off65 (i : grid0.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x768.size a ≤ S50257x768.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x768.size a ≤ S50257x768.size a := fun v291 k0_hw33 => k0_hw33

def k0_off67 (i : grid0.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x768.size a ≤ S50257x768.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x768.size a ≤ S50257x768.size a := fun v300 k0_hw34 => k0_hw34

def k0_off69 (i : grid0.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x768.size a ≤ S50257x768.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x768.size a ≤ S50257x768.size a := fun v309 k0_hw35 => k0_hw35

def k0_off71 (i : grid0.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x768.size a ≤ S50257x768.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x768.size a ≤ S50257x768.size a := fun v318 k0_hw36 => k0_hw36

def k0_off73 (i : grid0.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x768.size a ≤ S50257x768.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x768.size a ≤ S50257x768.size a := fun v327 k0_hw37 => k0_hw37

def k0_off75 (i : grid0.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x768.size a ≤ S50257x768.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x768.size a ≤ S50257x768.size a := fun v336 k0_hw38 => k0_hw38

def k0_off77 (i : grid0.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x768.size a ≤ S50257x768.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x768.size a ≤ S50257x768.size a := fun v345 k0_hw39 => k0_hw39

def k0_off79 (i : grid0.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x768.size a ≤ S50257x768.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x768.size a ≤ S50257x768.size a := fun v354 k0_hw40 => k0_hw40

def k0_off81 (i : grid0.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x768.size a ≤ S50257x768.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x768.size a ≤ S50257x768.size a := fun v363 k0_hw41 => k0_hw41

def k0_off83 (i : grid0.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x768.size a ≤ S50257x768.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x768.size a ≤ S50257x768.size a := fun v372 k0_hw42 => k0_hw42

def k0_off85 (i : grid0.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x768.size a ≤ S50257x768.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x768.size a ≤ S50257x768.size a := fun v381 k0_hw43 => k0_hw43

def k0_off87 (i : grid0.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x768.size a ≤ S50257x768.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x768.size a ≤ S50257x768.size a := fun v390 k0_hw44 => k0_hw44

def k0_off89 (i : grid0.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x768.size a ≤ S50257x768.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x768.size a ≤ S50257x768.size a := fun v399 k0_hw45 => k0_hw45

def k0_off91 (i : grid0.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x768.size a ≤ S50257x768.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x768.size a ≤ S50257x768.size a := fun v408 k0_hw46 => k0_hw46

def k0_off93 (i : grid0.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x768.size a ≤ S50257x768.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x768.size a ≤ S50257x768.size a := fun v417 k0_hw47 => k0_hw47

def k0_off95 (i : grid0.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x768.size a ≤ S50257x768.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x768.size a ≤ S50257x768.size a := fun v426 k0_hw48 => k0_hw48

def k0_off97 (i : grid0.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x768.size a ≤ S50257x768.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x768.size a ≤ S50257x768.size a := fun v435 k0_hw49 => k0_hw49

def k0_off99 (i : grid0.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x768.size a ≤ S50257x768.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x768.size a ≤ S50257x768.size a := fun v444 k0_hw50 => k0_hw50

def k0_off101 (i : grid0.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x768.size a ≤ S50257x768.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x768.size a ≤ S50257x768.size a := fun v453 k0_hw51 => k0_hw51

def k0_off103 (i : grid0.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x768.size a ≤ S50257x768.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x768.size a ≤ S50257x768.size a := fun v462 k0_hw52 => k0_hw52

def k0_off105 (i : grid0.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x768.size a ≤ S50257x768.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x768.size a ≤ S50257x768.size a := fun v471 k0_hw53 => k0_hw53

def k0_off107 (i : grid0.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x768.size a ≤ S50257x768.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x768.size a ≤ S50257x768.size a := fun v480 k0_hw54 => k0_hw54

def k0_off109 (i : grid0.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x768.size a ≤ S50257x768.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x768.size a ≤ S50257x768.size a := fun v489 k0_hw55 => k0_hw55

def k0_off111 (i : grid0.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x768.size a ≤ S50257x768.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x768.size a ≤ S50257x768.size a := fun v498 k0_hw56 => k0_hw56

def k0_off113 (i : grid0.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x768.size a ≤ S50257x768.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x768.size a ≤ S50257x768.size a := fun v507 k0_hw57 => k0_hw57

def k0_off115 (i : grid0.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x768.size a ≤ S50257x768.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x768.size a ≤ S50257x768.size a := fun v516 k0_hw58 => k0_hw58

def k0_off117 (i : grid0.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x768.size a ≤ S50257x768.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x768.size a ≤ S50257x768.size a := fun v525 k0_hw59 => k0_hw59

def k0_off119 (i : grid0.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x768.size a ≤ S50257x768.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x768.size a ≤ S50257x768.size a := fun v534 k0_hw60 => k0_hw60

def k0_off121 (i : grid0.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x768.size a ≤ S50257x768.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x768.size a ≤ S50257x768.size a := fun v543 k0_hw61 => k0_hw61

def k0_off123 (i : grid0.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x768.size a ≤ S50257x768.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x768.size a ≤ S50257x768.size a := fun v552 k0_hw62 => k0_hw62

def k0_off125 (i : grid0.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x768.size a ≤ S50257x768.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x768.size a ≤ S50257x768.size a := fun v561 k0_hw63 => k0_hw63

def k0_off127 (i : grid0.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x768.size a ≤ S50257x768.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x768.size a ≤ S50257x768.size a := fun v570 k0_hw64 => k0_hw64

def k0_off129 (i : grid0.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x768.size a ≤ S50257x768.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x768.size a ≤ S50257x768.size a := fun v579 k0_hw65 => k0_hw65

def k0_off131 (i : grid0.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x768.size a ≤ S50257x768.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x768.size a ≤ S50257x768.size a := fun v588 k0_hw66 => k0_hw66

def k0_off133 (i : grid0.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x768.size a ≤ S50257x768.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x768.size a ≤ S50257x768.size a := fun v597 k0_hw67 => k0_hw67

def k0_off135 (i : grid0.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x768.size a ≤ S50257x768.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x768.size a ≤ S50257x768.size a := fun v606 k0_hw68 => k0_hw68

def k0_off137 (i : grid0.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x768.size a ≤ S50257x768.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x768.size a ≤ S50257x768.size a := fun v615 k0_hw69 => k0_hw69

def k0_off139 (i : grid0.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x768.size a ≤ S50257x768.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x768.size a ≤ S50257x768.size a := fun v624 k0_hw70 => k0_hw70

def k0_off141 (i : grid0.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x768.size a ≤ S50257x768.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x768.size a ≤ S50257x768.size a := fun v633 k0_hw71 => k0_hw71

def k0_off143 (i : grid0.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x768.size a ≤ S50257x768.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x768.size a ≤ S50257x768.size a := fun v642 k0_hw72 => k0_hw72

def k0_off145 (i : grid0.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x768.size a ≤ S50257x768.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x768.size a ≤ S50257x768.size a := fun v651 k0_hw73 => k0_hw73

def k0_off147 (i : grid0.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x768.size a ≤ S50257x768.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x768.size a ≤ S50257x768.size a := fun v660 k0_hw74 => k0_hw74

def k0_off149 (i : grid0.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x768.size a ≤ S50257x768.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x768.size a ≤ S50257x768.size a := fun v669 k0_hw75 => k0_hw75

def k0_off151 (i : grid0.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x768.size a ≤ S50257x768.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x768.size a ≤ S50257x768.size a := fun v678 k0_hw76 => k0_hw76

def k0_off153 (i : grid0.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x768.size a ≤ S50257x768.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x768.size a ≤ S50257x768.size a := fun v687 k0_hw77 => k0_hw77

def k0_off155 (i : grid0.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x768.size a ≤ S50257x768.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x768.size a ≤ S50257x768.size a := fun v696 k0_hw78 => k0_hw78

def k0_off157 (i : grid0.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x768.size a ≤ S50257x768.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x768.size a ≤ S50257x768.size a := fun v705 k0_hw79 => k0_hw79

def k0_off159 (i : grid0.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x768.size a ≤ S50257x768.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x768.size a ≤ S50257x768.size a := fun v714 k0_hw80 => k0_hw80

def k0_off161 (i : grid0.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x768.size a ≤ S50257x768.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x768.size a ≤ S50257x768.size a := fun v723 k0_hw81 => k0_hw81

def k0_off163 (i : grid0.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x768.size a ≤ S50257x768.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x768.size a ≤ S50257x768.size a := fun v732 k0_hw82 => k0_hw82

def k0_off165 (i : grid0.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x768.size a ≤ S50257x768.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x768.size a ≤ S50257x768.size a := fun v741 k0_hw83 => k0_hw83

def k0_off167 (i : grid0.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x768.size a ≤ S50257x768.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x768.size a ≤ S50257x768.size a := fun v750 k0_hw84 => k0_hw84

def k0_off169 (i : grid0.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x768.size a ≤ S50257x768.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x768.size a ≤ S50257x768.size a := fun v759 k0_hw85 => k0_hw85

def k0_off171 (i : grid0.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x768.size a ≤ S50257x768.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x768.size a ≤ S50257x768.size a := fun v768 k0_hw86 => k0_hw86

def k0_off173 (i : grid0.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x768.size a ≤ S50257x768.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x768.size a ≤ S50257x768.size a := fun v777 k0_hw87 => k0_hw87

def k0_off175 (i : grid0.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x768.size a ≤ S50257x768.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x768.size a ≤ S50257x768.size a := fun v786 k0_hw88 => k0_hw88

def k0_off177 (i : grid0.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x768.size a ≤ S50257x768.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x768.size a ≤ S50257x768.size a := fun v795 k0_hw89 => k0_hw89

def k0_off179 (i : grid0.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x768.size a ≤ S50257x768.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x768.size a ≤ S50257x768.size a := fun v804 k0_hw90 => k0_hw90

def k0_off181 (i : grid0.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x768.size a ≤ S50257x768.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x768.size a ≤ S50257x768.size a := fun v813 k0_hw91 => k0_hw91

def k0_off183 (i : grid0.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x768.size a ≤ S50257x768.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x768.size a ≤ S50257x768.size a := fun v822 k0_hw92 => k0_hw92

def k0_off185 (i : grid0.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x768.size a ≤ S50257x768.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x768.size a ≤ S50257x768.size a := fun v831 k0_hw93 => k0_hw93

def k0_off187 (i : grid0.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x768.size a ≤ S50257x768.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x768.size a ≤ S50257x768.size a := fun v840 k0_hw94 => k0_hw94

def k0_off189 (i : grid0.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x768.size a ≤ S50257x768.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x768.size a ≤ S50257x768.size a := fun v849 k0_hw95 => k0_hw95

def k0_off191 (i : grid0.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x768.size a ≤ S50257x768.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x768.size a ≤ S50257x768.size a := fun v858 k0_hw96 => k0_hw96

def k0_off193 (i : grid0.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x768.size a ≤ S50257x768.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x768.size a ≤ S50257x768.size a := fun v867 k0_hw97 => k0_hw97

def k0_off195 (i : grid0.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x768.size a ≤ S50257x768.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x768.size a ≤ S50257x768.size a := fun v876 k0_hw98 => k0_hw98

def k0_off197 (i : grid0.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x768.size a ≤ S50257x768.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x768.size a ≤ S50257x768.size a := fun v885 k0_hw99 => k0_hw99

def k0_off199 (i : grid0.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x768.size a ≤ S50257x768.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x768.size a ≤ S50257x768.size a := fun v894 k0_hw100 => k0_hw100

def k0_off201 (i : grid0.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x768.size a ≤ S50257x768.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x768.size a ≤ S50257x768.size a := fun v903 k0_hw101 => k0_hw101

def k0_off203 (i : grid0.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x768.size a ≤ S50257x768.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x768.size a ≤ S50257x768.size a := fun v912 k0_hw102 => k0_hw102

def k0_off205 (i : grid0.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x768.size a ≤ S50257x768.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x768.size a ≤ S50257x768.size a := fun v921 k0_hw103 => k0_hw103

def k0_off207 (i : grid0.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x768.size a ≤ S50257x768.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x768.size a ≤ S50257x768.size a := fun v930 k0_hw104 => k0_hw104

def k0_off209 (i : grid0.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x768.size a ≤ S50257x768.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x768.size a ≤ S50257x768.size a := fun v939 k0_hw105 => k0_hw105

def k0_off211 (i : grid0.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x768.size a ≤ S50257x768.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x768.size a ≤ S50257x768.size a := fun v948 k0_hw106 => k0_hw106

def k0_off213 (i : grid0.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x768.size a ≤ S50257x768.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x768.size a ≤ S50257x768.size a := fun v957 k0_hw107 => k0_hw107

def k0_off215 (i : grid0.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x768.size a ≤ S50257x768.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x768.size a ≤ S50257x768.size a := fun v966 k0_hw108 => k0_hw108

def k0_off217 (i : grid0.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x768.size a ≤ S50257x768.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x768.size a ≤ S50257x768.size a := fun v975 k0_hw109 => k0_hw109

def k0_off219 (i : grid0.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x768.size a ≤ S50257x768.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x768.size a ≤ S50257x768.size a := fun v984 k0_hw110 => k0_hw110

def k0_off221 (i : grid0.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x768.size a ≤ S50257x768.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x768.size a ≤ S50257x768.size a := fun v993 k0_hw111 => k0_hw111

def k0_off223 (i : grid0.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x768.size a ≤ S50257x768.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x768.size a ≤ S50257x768.size a := fun v1002 k0_hw112 => k0_hw112

def k0_off225 (i : grid0.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x768.size a ≤ S50257x768.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x768.size a ≤ S50257x768.size a := fun v1011 k0_hw113 => k0_hw113

def k0_off227 (i : grid0.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x768.size a ≤ S50257x768.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x768.size a ≤ S50257x768.size a := fun v1020 k0_hw114 => k0_hw114

def k0_off229 (i : grid0.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x768.size a ≤ S50257x768.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x768.size a ≤ S50257x768.size a := fun v1029 k0_hw115 => k0_hw115

def k0_off231 (i : grid0.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x768.size a ≤ S50257x768.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x768.size a ≤ S50257x768.size a := fun v1038 k0_hw116 => k0_hw116

def k0_off233 (i : grid0.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x768.size a ≤ S50257x768.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x768.size a ≤ S50257x768.size a := fun v1047 k0_hw117 => k0_hw117

def k0_off235 (i : grid0.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x768.size a ≤ S50257x768.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x768.size a ≤ S50257x768.size a := fun v1056 k0_hw118 => k0_hw118

def k0_off237 (i : grid0.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x768.size a ≤ S50257x768.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x768.size a ≤ S50257x768.size a := fun v1065 k0_hw119 => k0_hw119

def k0_off239 (i : grid0.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x768.size a ≤ S50257x768.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x768.size a ≤ S50257x768.size a := fun v1074 k0_hw120 => k0_hw120

def k0_off241 (i : grid0.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x768.size a ≤ S50257x768.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x768.size a ≤ S50257x768.size a := fun v1083 k0_hw121 => k0_hw121

def k0_off243 (i : grid0.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x768.size a ≤ S50257x768.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x768.size a ≤ S50257x768.size a := fun v1092 k0_hw122 => k0_hw122

def k0_off245 (i : grid0.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x768.size a ≤ S50257x768.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x768.size a ≤ S50257x768.size a := fun v1101 k0_hw123 => k0_hw123

def k0_off247 (i : grid0.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x768.size a ≤ S50257x768.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x768.size a ≤ S50257x768.size a := fun v1110 k0_hw124 => k0_hw124

def k0_off249 (i : grid0.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x768.size a ≤ S50257x768.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x768.size a ≤ S50257x768.size a := fun v1119 k0_hw125 => k0_hw125

def k0_off251 (i : grid0.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x768.size a ≤ S50257x768.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x768.size a ≤ S50257x768.size a := fun v1128 k0_hw126 => k0_hw126

def k0_off253 (i : grid0.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x768.size a ≤ S50257x768.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x768.size a ≤ S50257x768.size a := fun v1137 k0_hw127 => k0_hw127

def k0_off255 (i : grid0.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x768.size a ≤ S50257x768.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x768.size a ≤ S50257x768.size a := fun v1146 k0_hw128 => k0_hw128

def k0_off257 (i : grid0.Coords) : Fin 1 → Nat :=
  let arg0 : BitVec 32 := BitVec.ofNat 32 (i 0).val
  let c128_i32 : BitVec 32 := 128#32
  let v0 : BitVec 32 := Scalar.muli arg0 c128_i32
  let c0_i32_512 : BitVec 32 := 0#32
  let v1153 : BitVec 32 := Scalar.addi v0 c0_i32_512
  let v1154 : Index := Scalar.indexCast v1153
  ![v1154.toNat]
def k0_off258 (v1155 : BitVec 32) : Fin 2 → Nat :=
  let c0_i32_516 : BitVec 32 := 0#32
  ![v1155.toNat, 0]

def k0_chk129 (v1155 : BitVec 32) : Prop :=
  (∀ a, (k0_off258 v1155) a + S1x768.size a ≤ S50257x768.size a)
instance k0_chk129.dec : ∀ (v1155 : BitVec 32), Decidable (k0_chk129 v1155) := fun v1155 => decidable_of_iff' _ (Iff.of_eq (k0_chk129.eq_1 v1155))
theorem k0_off258_inb : ∀ (v1155 : BitVec 32) (k0_hw129 : k0_chk129 v1155), ∀ a, (k0_off258 v1155) a + S1x768.size a ≤ S50257x768.size a := fun v1155 k0_hw129 => k0_hw129

def k0_off259 (i : grid0.Coords) : Fin 1 → Nat :=
  let arg0 : BitVec 32 := BitVec.ofNat 32 (i 0).val
  let c128_i32 : BitVec 32 := 128#32
  let v0 : BitVec 32 := Scalar.muli arg0 c128_i32
  let c1_i32_517 : BitVec 32 := 1#32
  let v1162 : BitVec 32 := Scalar.addi v0 c1_i32_517
  let v1163 : Index := Scalar.indexCast v1162
  ![v1163.toNat]
def k0_off260 (v1164 : BitVec 32) : Fin 2 → Nat :=
  let c0_i32_521 : BitVec 32 := 0#32
  ![v1164.toNat, 0]

def k0_chk130 (v1164 : BitVec 32) : Prop :=
  (∀ a, (k0_off260 v1164) a + S1x768.size a ≤ S50257x768.size a)
instance k0_chk130.dec : ∀ (v1164 : BitVec 32), Decidable (k0_chk130 v1164) := fun v1164 => decidable_of_iff' _ (Iff.of_eq (k0_chk130.eq_1 v1164))
theorem k0_off260_inb : ∀ (v1164 : BitVec 32) (k0_hw130 : k0_chk130 v1164), ∀ a, (k0_off260 v1164) a + S1x768.size a ≤ S50257x768.size a := fun v1164 k0_hw130 => k0_hw130

def k0_off261 (i : grid0.Coords) : Fin 1 → Nat :=
  let arg0 : BitVec 32 := BitVec.ofNat 32 (i 0).val
  let c128_i32 : BitVec 32 := 128#32
  let v0 : BitVec 32 := Scalar.muli arg0 c128_i32
  let c2_i32_522 : BitVec 32 := 2#32
  let v1171 : BitVec 32 := Scalar.addi v0 c2_i32_522
  let v1172 : Index := Scalar.indexCast v1171
  ![v1172.toNat]
def k0_off262 (v1173 : BitVec 32) : Fin 2 → Nat :=
  let c0_i32_526 : BitVec 32 := 0#32
  ![v1173.toNat, 0]

def k0_chk131 (v1173 : BitVec 32) : Prop :=
  (∀ a, (k0_off262 v1173) a + S1x768.size a ≤ S50257x768.size a)
instance k0_chk131.dec : ∀ (v1173 : BitVec 32), Decidable (k0_chk131 v1173) := fun v1173 => decidable_of_iff' _ (Iff.of_eq (k0_chk131.eq_1 v1173))
theorem k0_off262_inb : ∀ (v1173 : BitVec 32) (k0_hw131 : k0_chk131 v1173), ∀ a, (k0_off262 v1173) a + S1x768.size a ≤ S50257x768.size a := fun v1173 k0_hw131 => k0_hw131

def k0_off263 (i : grid0.Coords) : Fin 1 → Nat :=
  let arg0 : BitVec 32 := BitVec.ofNat 32 (i 0).val
  let c128_i32 : BitVec 32 := 128#32
  let v0 : BitVec 32 := Scalar.muli arg0 c128_i32
  let c3_i32_527 : BitVec 32 := 3#32
  let v1180 : BitVec 32 := Scalar.addi v0 c3_i32_527
  let v1181 : Index := Scalar.indexCast v1180
  ![v1181.toNat]
def k0_off264 (v1182 : BitVec 32) : Fin 2 → Nat :=
  let c0_i32_531 : BitVec 32 := 0#32
  ![v1182.toNat, 0]

def k0_chk132 (v1182 : BitVec 32) : Prop :=
  (∀ a, (k0_off264 v1182) a + S1x768.size a ≤ S50257x768.size a)
instance k0_chk132.dec : ∀ (v1182 : BitVec 32), Decidable (k0_chk132 v1182) := fun v1182 => decidable_of_iff' _ (Iff.of_eq (k0_chk132.eq_1 v1182))
theorem k0_off264_inb : ∀ (v1182 : BitVec 32) (k0_hw132 : k0_chk132 v1182), ∀ a, (k0_off264 v1182) a + S1x768.size a ≤ S50257x768.size a := fun v1182 k0_hw132 => k0_hw132

def k0_off265 (i : grid0.Coords) : Fin 1 → Nat :=
  let arg0 : BitVec 32 := BitVec.ofNat 32 (i 0).val
  let c128_i32 : BitVec 32 := 128#32
  let v0 : BitVec 32 := Scalar.muli arg0 c128_i32
  let c4_i32_532 : BitVec 32 := 4#32
  let v1189 : BitVec 32 := Scalar.addi v0 c4_i32_532
  let v1190 : Index := Scalar.indexCast v1189
  ![v1190.toNat]
def k0_off266 (v1191 : BitVec 32) : Fin 2 → Nat :=
  let c0_i32_536 : BitVec 32 := 0#32
  ![v1191.toNat, 0]

def k0_chk133 (v1191 : BitVec 32) : Prop :=
  (∀ a, (k0_off266 v1191) a + S1x768.size a ≤ S50257x768.size a)
instance k0_chk133.dec : ∀ (v1191 : BitVec 32), Decidable (k0_chk133 v1191) := fun v1191 => decidable_of_iff' _ (Iff.of_eq (k0_chk133.eq_1 v1191))
theorem k0_off266_inb : ∀ (v1191 : BitVec 32) (k0_hw133 : k0_chk133 v1191), ∀ a, (k0_off266 v1191) a + S1x768.size a ≤ S50257x768.size a := fun v1191 k0_hw133 => k0_hw133

def k0_off267 (i : grid0.Coords) : Fin 1 → Nat :=
  let arg0 : BitVec 32 := BitVec.ofNat 32 (i 0).val
  let c128_i32 : BitVec 32 := 128#32
  let v0 : BitVec 32 := Scalar.muli arg0 c128_i32
  let c5_i32_537 : BitVec 32 := 5#32
  let v1198 : BitVec 32 := Scalar.addi v0 c5_i32_537
  let v1199 : Index := Scalar.indexCast v1198
  ![v1199.toNat]
def k0_off268 (v1200 : BitVec 32) : Fin 2 → Nat :=
  let c0_i32_541 : BitVec 32 := 0#32
  ![v1200.toNat, 0]

def k0_chk134 (v1200 : BitVec 32) : Prop :=
  (∀ a, (k0_off268 v1200) a + S1x768.size a ≤ S50257x768.size a)
instance k0_chk134.dec : ∀ (v1200 : BitVec 32), Decidable (k0_chk134 v1200) := fun v1200 => decidable_of_iff' _ (Iff.of_eq (k0_chk134.eq_1 v1200))
theorem k0_off268_inb : ∀ (v1200 : BitVec 32) (k0_hw134 : k0_chk134 v1200), ∀ a, (k0_off268 v1200) a + S1x768.size a ≤ S50257x768.size a := fun v1200 k0_hw134 => k0_hw134

def k0_off269 (i : grid0.Coords) : Fin 1 → Nat :=
  let arg0 : BitVec 32 := BitVec.ofNat 32 (i 0).val
  let c128_i32 : BitVec 32 := 128#32
  let v0 : BitVec 32 := Scalar.muli arg0 c128_i32
  let c6_i32_542 : BitVec 32 := 6#32
  let v1207 : BitVec 32 := Scalar.addi v0 c6_i32_542
  let v1208 : Index := Scalar.indexCast v1207
  ![v1208.toNat]
def k0_off270 (v1209 : BitVec 32) : Fin 2 → Nat :=
  let c0_i32_546 : BitVec 32 := 0#32
  ![v1209.toNat, 0]

def k0_chk135 (v1209 : BitVec 32) : Prop :=
  (∀ a, (k0_off270 v1209) a + S1x768.size a ≤ S50257x768.size a)
instance k0_chk135.dec : ∀ (v1209 : BitVec 32), Decidable (k0_chk135 v1209) := fun v1209 => decidable_of_iff' _ (Iff.of_eq (k0_chk135.eq_1 v1209))
theorem k0_off270_inb : ∀ (v1209 : BitVec 32) (k0_hw135 : k0_chk135 v1209), ∀ a, (k0_off270 v1209) a + S1x768.size a ≤ S50257x768.size a := fun v1209 k0_hw135 => k0_hw135

def k0_off271 (i : grid0.Coords) : Fin 1 → Nat :=
  let arg0 : BitVec 32 := BitVec.ofNat 32 (i 0).val
  let c128_i32 : BitVec 32 := 128#32
  let v0 : BitVec 32 := Scalar.muli arg0 c128_i32
  let c7_i32_547 : BitVec 32 := 7#32
  let v1216 : BitVec 32 := Scalar.addi v0 c7_i32_547
  let v1217 : Index := Scalar.indexCast v1216
  ![v1217.toNat]
def k0_off272 (v1218 : BitVec 32) : Fin 2 → Nat :=
  let c0_i32_551 : BitVec 32 := 0#32
  ![v1218.toNat, 0]

def k0_chk136 (v1218 : BitVec 32) : Prop :=
  (∀ a, (k0_off272 v1218) a + S1x768.size a ≤ S50257x768.size a)
instance k0_chk136.dec : ∀ (v1218 : BitVec 32), Decidable (k0_chk136 v1218) := fun v1218 => decidable_of_iff' _ (Iff.of_eq (k0_chk136.eq_1 v1218))
theorem k0_off272_inb : ∀ (v1218 : BitVec 32) (k0_hw136 : k0_chk136 v1218), ∀ a, (k0_off272 v1218) a + S1x768.size a ≤ S50257x768.size a := fun v1218 k0_hw136 => k0_hw136

def k0_off273 (i : grid0.Coords) : Fin 1 → Nat :=
  let arg0 : BitVec 32 := BitVec.ofNat 32 (i 0).val
  let c128_i32 : BitVec 32 := 128#32
  let v0 : BitVec 32 := Scalar.muli arg0 c128_i32
  let c8_i32_552 : BitVec 32 := 8#32
  let v1225 : BitVec 32 := Scalar.addi v0 c8_i32_552
  let v1226 : Index := Scalar.indexCast v1225
  ![v1226.toNat]
def k0_off274 (v1227 : BitVec 32) : Fin 2 → Nat :=
  let c0_i32_556 : BitVec 32 := 0#32
  ![v1227.toNat, 0]

def k0_chk137 (v1227 : BitVec 32) : Prop :=
  (∀ a, (k0_off274 v1227) a + S1x768.size a ≤ S50257x768.size a)
instance k0_chk137.dec : ∀ (v1227 : BitVec 32), Decidable (k0_chk137 v1227) := fun v1227 => decidable_of_iff' _ (Iff.of_eq (k0_chk137.eq_1 v1227))
theorem k0_off274_inb : ∀ (v1227 : BitVec 32) (k0_hw137 : k0_chk137 v1227), ∀ a, (k0_off274 v1227) a + S1x768.size a ≤ S50257x768.size a := fun v1227 k0_hw137 => k0_hw137

def k0_off275 (i : grid0.Coords) : Fin 1 → Nat :=
  let arg0 : BitVec 32 := BitVec.ofNat 32 (i 0).val
  let c128_i32 : BitVec 32 := 128#32
  let v0 : BitVec 32 := Scalar.muli arg0 c128_i32
  let c9_i32_557 : BitVec 32 := 9#32
  let v1234 : BitVec 32 := Scalar.addi v0 c9_i32_557
  let v1235 : Index := Scalar.indexCast v1234
  ![v1235.toNat]
def k0_off276 (v1236 : BitVec 32) : Fin 2 → Nat :=
  let c0_i32_561 : BitVec 32 := 0#32
  ![v1236.toNat, 0]

def k0_chk138 (v1236 : BitVec 32) : Prop :=
  (∀ a, (k0_off276 v1236) a + S1x768.size a ≤ S50257x768.size a)
instance k0_chk138.dec : ∀ (v1236 : BitVec 32), Decidable (k0_chk138 v1236) := fun v1236 => decidable_of_iff' _ (Iff.of_eq (k0_chk138.eq_1 v1236))
theorem k0_off276_inb : ∀ (v1236 : BitVec 32) (k0_hw138 : k0_chk138 v1236), ∀ a, (k0_off276 v1236) a + S1x768.size a ≤ S50257x768.size a := fun v1236 k0_hw138 => k0_hw138

def k0_off277 (i : grid0.Coords) : Fin 1 → Nat :=
  let arg0 : BitVec 32 := BitVec.ofNat 32 (i 0).val
  let c128_i32 : BitVec 32 := 128#32
  let v0 : BitVec 32 := Scalar.muli arg0 c128_i32
  let c10_i32_562 : BitVec 32 := 10#32
  let v1243 : BitVec 32 := Scalar.addi v0 c10_i32_562
  let v1244 : Index := Scalar.indexCast v1243
  ![v1244.toNat]
def k0_off278 (v1245 : BitVec 32) : Fin 2 → Nat :=
  let c0_i32_566 : BitVec 32 := 0#32
  ![v1245.toNat, 0]

def k0_chk139 (v1245 : BitVec 32) : Prop :=
  (∀ a, (k0_off278 v1245) a + S1x768.size a ≤ S50257x768.size a)
instance k0_chk139.dec : ∀ (v1245 : BitVec 32), Decidable (k0_chk139 v1245) := fun v1245 => decidable_of_iff' _ (Iff.of_eq (k0_chk139.eq_1 v1245))
theorem k0_off278_inb : ∀ (v1245 : BitVec 32) (k0_hw139 : k0_chk139 v1245), ∀ a, (k0_off278 v1245) a + S1x768.size a ≤ S50257x768.size a := fun v1245 k0_hw139 => k0_hw139

def k0_off279 (i : grid0.Coords) : Fin 1 → Nat :=
  let arg0 : BitVec 32 := BitVec.ofNat 32 (i 0).val
  let c128_i32 : BitVec 32 := 128#32
  let v0 : BitVec 32 := Scalar.muli arg0 c128_i32
  let c11_i32_567 : BitVec 32 := 11#32
  let v1252 : BitVec 32 := Scalar.addi v0 c11_i32_567
  let v1253 : Index := Scalar.indexCast v1252
  ![v1253.toNat]
def k0_off280 (v1254 : BitVec 32) : Fin 2 → Nat :=
  let c0_i32_571 : BitVec 32 := 0#32
  ![v1254.toNat, 0]

def k0_chk140 (v1254 : BitVec 32) : Prop :=
  (∀ a, (k0_off280 v1254) a + S1x768.size a ≤ S50257x768.size a)
instance k0_chk140.dec : ∀ (v1254 : BitVec 32), Decidable (k0_chk140 v1254) := fun v1254 => decidable_of_iff' _ (Iff.of_eq (k0_chk140.eq_1 v1254))
theorem k0_off280_inb : ∀ (v1254 : BitVec 32) (k0_hw140 : k0_chk140 v1254), ∀ a, (k0_off280 v1254) a + S1x768.size a ≤ S50257x768.size a := fun v1254 k0_hw140 => k0_hw140

def k0_off281 (i : grid0.Coords) : Fin 1 → Nat :=
  let arg0 : BitVec 32 := BitVec.ofNat 32 (i 0).val
  let c128_i32 : BitVec 32 := 128#32
  let v0 : BitVec 32 := Scalar.muli arg0 c128_i32
  let c12_i32_572 : BitVec 32 := 12#32
  let v1261 : BitVec 32 := Scalar.addi v0 c12_i32_572
  let v1262 : Index := Scalar.indexCast v1261
  ![v1262.toNat]
def k0_off282 (v1263 : BitVec 32) : Fin 2 → Nat :=
  let c0_i32_576 : BitVec 32 := 0#32
  ![v1263.toNat, 0]

def k0_chk141 (v1263 : BitVec 32) : Prop :=
  (∀ a, (k0_off282 v1263) a + S1x768.size a ≤ S50257x768.size a)
instance k0_chk141.dec : ∀ (v1263 : BitVec 32), Decidable (k0_chk141 v1263) := fun v1263 => decidable_of_iff' _ (Iff.of_eq (k0_chk141.eq_1 v1263))
theorem k0_off282_inb : ∀ (v1263 : BitVec 32) (k0_hw141 : k0_chk141 v1263), ∀ a, (k0_off282 v1263) a + S1x768.size a ≤ S50257x768.size a := fun v1263 k0_hw141 => k0_hw141

def k0_off283 (i : grid0.Coords) : Fin 1 → Nat :=
  let arg0 : BitVec 32 := BitVec.ofNat 32 (i 0).val
  let c128_i32 : BitVec 32 := 128#32
  let v0 : BitVec 32 := Scalar.muli arg0 c128_i32
  let c13_i32_577 : BitVec 32 := 13#32
  let v1270 : BitVec 32 := Scalar.addi v0 c13_i32_577
  let v1271 : Index := Scalar.indexCast v1270
  ![v1271.toNat]
def k0_off284 (v1272 : BitVec 32) : Fin 2 → Nat :=
  let c0_i32_581 : BitVec 32 := 0#32
  ![v1272.toNat, 0]

def k0_chk142 (v1272 : BitVec 32) : Prop :=
  (∀ a, (k0_off284 v1272) a + S1x768.size a ≤ S50257x768.size a)
instance k0_chk142.dec : ∀ (v1272 : BitVec 32), Decidable (k0_chk142 v1272) := fun v1272 => decidable_of_iff' _ (Iff.of_eq (k0_chk142.eq_1 v1272))
theorem k0_off284_inb : ∀ (v1272 : BitVec 32) (k0_hw142 : k0_chk142 v1272), ∀ a, (k0_off284 v1272) a + S1x768.size a ≤ S50257x768.size a := fun v1272 k0_hw142 => k0_hw142

def k0_off285 (i : grid0.Coords) : Fin 1 → Nat :=
  let arg0 : BitVec 32 := BitVec.ofNat 32 (i 0).val
  let c128_i32 : BitVec 32 := 128#32
  let v0 : BitVec 32 := Scalar.muli arg0 c128_i32
  let c14_i32_582 : BitVec 32 := 14#32
  let v1279 : BitVec 32 := Scalar.addi v0 c14_i32_582
  let v1280 : Index := Scalar.indexCast v1279
  ![v1280.toNat]
def k0_off286 (v1281 : BitVec 32) : Fin 2 → Nat :=
  let c0_i32_586 : BitVec 32 := 0#32
  ![v1281.toNat, 0]

def k0_chk143 (v1281 : BitVec 32) : Prop :=
  (∀ a, (k0_off286 v1281) a + S1x768.size a ≤ S50257x768.size a)
instance k0_chk143.dec : ∀ (v1281 : BitVec 32), Decidable (k0_chk143 v1281) := fun v1281 => decidable_of_iff' _ (Iff.of_eq (k0_chk143.eq_1 v1281))
theorem k0_off286_inb : ∀ (v1281 : BitVec 32) (k0_hw143 : k0_chk143 v1281), ∀ a, (k0_off286 v1281) a + S1x768.size a ≤ S50257x768.size a := fun v1281 k0_hw143 => k0_hw143

def k0_off287 (i : grid0.Coords) : Fin 1 → Nat :=
  let arg0 : BitVec 32 := BitVec.ofNat 32 (i 0).val
  let c128_i32 : BitVec 32 := 128#32
  let v0 : BitVec 32 := Scalar.muli arg0 c128_i32
  let c15_i32_587 : BitVec 32 := 15#32
  let v1288 : BitVec 32 := Scalar.addi v0 c15_i32_587
  let v1289 : Index := Scalar.indexCast v1288
  ![v1289.toNat]
def k0_off288 (v1290 : BitVec 32) : Fin 2 → Nat :=
  let c0_i32_591 : BitVec 32 := 0#32
  ![v1290.toNat, 0]

def k0_chk144 (v1290 : BitVec 32) : Prop :=
  (∀ a, (k0_off288 v1290) a + S1x768.size a ≤ S50257x768.size a)
instance k0_chk144.dec : ∀ (v1290 : BitVec 32), Decidable (k0_chk144 v1290) := fun v1290 => decidable_of_iff' _ (Iff.of_eq (k0_chk144.eq_1 v1290))
theorem k0_off288_inb : ∀ (v1290 : BitVec 32) (k0_hw144 : k0_chk144 v1290), ∀ a, (k0_off288 v1290) a + S1x768.size a ≤ S50257x768.size a := fun v1290 k0_hw144 => k0_hw144

def k0_off289 (i : grid0.Coords) : Fin 1 → Nat :=
  let arg0 : BitVec 32 := BitVec.ofNat 32 (i 0).val
  let c128_i32 : BitVec 32 := 128#32
  let v0 : BitVec 32 := Scalar.muli arg0 c128_i32
  let c16_i32_592 : BitVec 32 := 16#32
  let v1297 : BitVec 32 := Scalar.addi v0 c16_i32_592
  let v1298 : Index := Scalar.indexCast v1297
  ![v1298.toNat]
def k0_off290 (v1299 : BitVec 32) : Fin 2 → Nat :=
  let c0_i32_596 : BitVec 32 := 0#32
  ![v1299.toNat, 0]

def k0_chk145 (v1299 : BitVec 32) : Prop :=
  (∀ a, (k0_off290 v1299) a + S1x768.size a ≤ S50257x768.size a)
instance k0_chk145.dec : ∀ (v1299 : BitVec 32), Decidable (k0_chk145 v1299) := fun v1299 => decidable_of_iff' _ (Iff.of_eq (k0_chk145.eq_1 v1299))
theorem k0_off290_inb : ∀ (v1299 : BitVec 32) (k0_hw145 : k0_chk145 v1299), ∀ a, (k0_off290 v1299) a + S1x768.size a ≤ S50257x768.size a := fun v1299 k0_hw145 => k0_hw145

def k0_off291 (i : grid0.Coords) : Fin 1 → Nat :=
  let arg0 : BitVec 32 := BitVec.ofNat 32 (i 0).val
  let c128_i32 : BitVec 32 := 128#32
  let v0 : BitVec 32 := Scalar.muli arg0 c128_i32
  let c17_i32_597 : BitVec 32 := 17#32
  let v1306 : BitVec 32 := Scalar.addi v0 c17_i32_597
  let v1307 : Index := Scalar.indexCast v1306
  ![v1307.toNat]
def k0_off292 (v1308 : BitVec 32) : Fin 2 → Nat :=
  let c0_i32_601 : BitVec 32 := 0#32
  ![v1308.toNat, 0]

def k0_chk146 (v1308 : BitVec 32) : Prop :=
  (∀ a, (k0_off292 v1308) a + S1x768.size a ≤ S50257x768.size a)
instance k0_chk146.dec : ∀ (v1308 : BitVec 32), Decidable (k0_chk146 v1308) := fun v1308 => decidable_of_iff' _ (Iff.of_eq (k0_chk146.eq_1 v1308))
theorem k0_off292_inb : ∀ (v1308 : BitVec 32) (k0_hw146 : k0_chk146 v1308), ∀ a, (k0_off292 v1308) a + S1x768.size a ≤ S50257x768.size a := fun v1308 k0_hw146 => k0_hw146

def k0_off293 (i : grid0.Coords) : Fin 1 → Nat :=
  let arg0 : BitVec 32 := BitVec.ofNat 32 (i 0).val
  let c128_i32 : BitVec 32 := 128#32
  let v0 : BitVec 32 := Scalar.muli arg0 c128_i32
  let c18_i32_602 : BitVec 32 := 18#32
  let v1315 : BitVec 32 := Scalar.addi v0 c18_i32_602
  let v1316 : Index := Scalar.indexCast v1315
  ![v1316.toNat]
def k0_off294 (v1317 : BitVec 32) : Fin 2 → Nat :=
  let c0_i32_606 : BitVec 32 := 0#32
  ![v1317.toNat, 0]

def k0_chk147 (v1317 : BitVec 32) : Prop :=
  (∀ a, (k0_off294 v1317) a + S1x768.size a ≤ S50257x768.size a)
instance k0_chk147.dec : ∀ (v1317 : BitVec 32), Decidable (k0_chk147 v1317) := fun v1317 => decidable_of_iff' _ (Iff.of_eq (k0_chk147.eq_1 v1317))
theorem k0_off294_inb : ∀ (v1317 : BitVec 32) (k0_hw147 : k0_chk147 v1317), ∀ a, (k0_off294 v1317) a + S1x768.size a ≤ S50257x768.size a := fun v1317 k0_hw147 => k0_hw147

def k0_off295 (i : grid0.Coords) : Fin 1 → Nat :=
  let arg0 : BitVec 32 := BitVec.ofNat 32 (i 0).val
  let c128_i32 : BitVec 32 := 128#32
  let v0 : BitVec 32 := Scalar.muli arg0 c128_i32
  let c19_i32_607 : BitVec 32 := 19#32
  let v1324 : BitVec 32 := Scalar.addi v0 c19_i32_607
  let v1325 : Index := Scalar.indexCast v1324
  ![v1325.toNat]
def k0_off296 (v1326 : BitVec 32) : Fin 2 → Nat :=
  let c0_i32_611 : BitVec 32 := 0#32
  ![v1326.toNat, 0]

def k0_chk148 (v1326 : BitVec 32) : Prop :=
  (∀ a, (k0_off296 v1326) a + S1x768.size a ≤ S50257x768.size a)
instance k0_chk148.dec : ∀ (v1326 : BitVec 32), Decidable (k0_chk148 v1326) := fun v1326 => decidable_of_iff' _ (Iff.of_eq (k0_chk148.eq_1 v1326))
theorem k0_off296_inb : ∀ (v1326 : BitVec 32) (k0_hw148 : k0_chk148 v1326), ∀ a, (k0_off296 v1326) a + S1x768.size a ≤ S50257x768.size a := fun v1326 k0_hw148 => k0_hw148

def k0_off297 (i : grid0.Coords) : Fin 1 → Nat :=
  let arg0 : BitVec 32 := BitVec.ofNat 32 (i 0).val
  let c128_i32 : BitVec 32 := 128#32
  let v0 : BitVec 32 := Scalar.muli arg0 c128_i32
  let c20_i32_612 : BitVec 32 := 20#32
  let v1333 : BitVec 32 := Scalar.addi v0 c20_i32_612
  let v1334 : Index := Scalar.indexCast v1333
  ![v1334.toNat]
def k0_off298 (v1335 : BitVec 32) : Fin 2 → Nat :=
  let c0_i32_616 : BitVec 32 := 0#32
  ![v1335.toNat, 0]

def k0_chk149 (v1335 : BitVec 32) : Prop :=
  (∀ a, (k0_off298 v1335) a + S1x768.size a ≤ S50257x768.size a)
instance k0_chk149.dec : ∀ (v1335 : BitVec 32), Decidable (k0_chk149 v1335) := fun v1335 => decidable_of_iff' _ (Iff.of_eq (k0_chk149.eq_1 v1335))
theorem k0_off298_inb : ∀ (v1335 : BitVec 32) (k0_hw149 : k0_chk149 v1335), ∀ a, (k0_off298 v1335) a + S1x768.size a ≤ S50257x768.size a := fun v1335 k0_hw149 => k0_hw149

def k0_off299 (i : grid0.Coords) : Fin 1 → Nat :=
  let arg0 : BitVec 32 := BitVec.ofNat 32 (i 0).val
  let c128_i32 : BitVec 32 := 128#32
  let v0 : BitVec 32 := Scalar.muli arg0 c128_i32
  let c21_i32_617 : BitVec 32 := 21#32
  let v1342 : BitVec 32 := Scalar.addi v0 c21_i32_617
  let v1343 : Index := Scalar.indexCast v1342
  ![v1343.toNat]
def k0_off300 (v1344 : BitVec 32) : Fin 2 → Nat :=
  let c0_i32_621 : BitVec 32 := 0#32
  ![v1344.toNat, 0]

def k0_chk150 (v1344 : BitVec 32) : Prop :=
  (∀ a, (k0_off300 v1344) a + S1x768.size a ≤ S50257x768.size a)
instance k0_chk150.dec : ∀ (v1344 : BitVec 32), Decidable (k0_chk150 v1344) := fun v1344 => decidable_of_iff' _ (Iff.of_eq (k0_chk150.eq_1 v1344))
theorem k0_off300_inb : ∀ (v1344 : BitVec 32) (k0_hw150 : k0_chk150 v1344), ∀ a, (k0_off300 v1344) a + S1x768.size a ≤ S50257x768.size a := fun v1344 k0_hw150 => k0_hw150

def k0_off301 (i : grid0.Coords) : Fin 1 → Nat :=
  let arg0 : BitVec 32 := BitVec.ofNat 32 (i 0).val
  let c128_i32 : BitVec 32 := 128#32
  let v0 : BitVec 32 := Scalar.muli arg0 c128_i32
  let c22_i32_622 : BitVec 32 := 22#32
  let v1351 : BitVec 32 := Scalar.addi v0 c22_i32_622
  let v1352 : Index := Scalar.indexCast v1351
  ![v1352.toNat]
def k0_off302 (v1353 : BitVec 32) : Fin 2 → Nat :=
  let c0_i32_626 : BitVec 32 := 0#32
  ![v1353.toNat, 0]

def k0_chk151 (v1353 : BitVec 32) : Prop :=
  (∀ a, (k0_off302 v1353) a + S1x768.size a ≤ S50257x768.size a)
instance k0_chk151.dec : ∀ (v1353 : BitVec 32), Decidable (k0_chk151 v1353) := fun v1353 => decidable_of_iff' _ (Iff.of_eq (k0_chk151.eq_1 v1353))
theorem k0_off302_inb : ∀ (v1353 : BitVec 32) (k0_hw151 : k0_chk151 v1353), ∀ a, (k0_off302 v1353) a + S1x768.size a ≤ S50257x768.size a := fun v1353 k0_hw151 => k0_hw151

def k0_off303 (i : grid0.Coords) : Fin 1 → Nat :=
  let arg0 : BitVec 32 := BitVec.ofNat 32 (i 0).val
  let c128_i32 : BitVec 32 := 128#32
  let v0 : BitVec 32 := Scalar.muli arg0 c128_i32
  let c23_i32_627 : BitVec 32 := 23#32
  let v1360 : BitVec 32 := Scalar.addi v0 c23_i32_627
  let v1361 : Index := Scalar.indexCast v1360
  ![v1361.toNat]
def k0_off304 (v1362 : BitVec 32) : Fin 2 → Nat :=
  let c0_i32_631 : BitVec 32 := 0#32
  ![v1362.toNat, 0]

def k0_chk152 (v1362 : BitVec 32) : Prop :=
  (∀ a, (k0_off304 v1362) a + S1x768.size a ≤ S50257x768.size a)
instance k0_chk152.dec : ∀ (v1362 : BitVec 32), Decidable (k0_chk152 v1362) := fun v1362 => decidable_of_iff' _ (Iff.of_eq (k0_chk152.eq_1 v1362))
theorem k0_off304_inb : ∀ (v1362 : BitVec 32) (k0_hw152 : k0_chk152 v1362), ∀ a, (k0_off304 v1362) a + S1x768.size a ≤ S50257x768.size a := fun v1362 k0_hw152 => k0_hw152

def k0_off305 (i : grid0.Coords) : Fin 1 → Nat :=
  let arg0 : BitVec 32 := BitVec.ofNat 32 (i 0).val
  let c128_i32 : BitVec 32 := 128#32
  let v0 : BitVec 32 := Scalar.muli arg0 c128_i32
  let c24_i32_632 : BitVec 32 := 24#32
  let v1369 : BitVec 32 := Scalar.addi v0 c24_i32_632
  let v1370 : Index := Scalar.indexCast v1369
  ![v1370.toNat]
def k0_off306 (v1371 : BitVec 32) : Fin 2 → Nat :=
  let c0_i32_636 : BitVec 32 := 0#32
  ![v1371.toNat, 0]

def k0_chk153 (v1371 : BitVec 32) : Prop :=
  (∀ a, (k0_off306 v1371) a + S1x768.size a ≤ S50257x768.size a)
instance k0_chk153.dec : ∀ (v1371 : BitVec 32), Decidable (k0_chk153 v1371) := fun v1371 => decidable_of_iff' _ (Iff.of_eq (k0_chk153.eq_1 v1371))
theorem k0_off306_inb : ∀ (v1371 : BitVec 32) (k0_hw153 : k0_chk153 v1371), ∀ a, (k0_off306 v1371) a + S1x768.size a ≤ S50257x768.size a := fun v1371 k0_hw153 => k0_hw153

def k0_off307 (i : grid0.Coords) : Fin 1 → Nat :=
  let arg0 : BitVec 32 := BitVec.ofNat 32 (i 0).val
  let c128_i32 : BitVec 32 := 128#32
  let v0 : BitVec 32 := Scalar.muli arg0 c128_i32
  let c25_i32_637 : BitVec 32 := 25#32
  let v1378 : BitVec 32 := Scalar.addi v0 c25_i32_637
  let v1379 : Index := Scalar.indexCast v1378
  ![v1379.toNat]
def k0_off308 (v1380 : BitVec 32) : Fin 2 → Nat :=
  let c0_i32_641 : BitVec 32 := 0#32
  ![v1380.toNat, 0]

def k0_chk154 (v1380 : BitVec 32) : Prop :=
  (∀ a, (k0_off308 v1380) a + S1x768.size a ≤ S50257x768.size a)
instance k0_chk154.dec : ∀ (v1380 : BitVec 32), Decidable (k0_chk154 v1380) := fun v1380 => decidable_of_iff' _ (Iff.of_eq (k0_chk154.eq_1 v1380))
theorem k0_off308_inb : ∀ (v1380 : BitVec 32) (k0_hw154 : k0_chk154 v1380), ∀ a, (k0_off308 v1380) a + S1x768.size a ≤ S50257x768.size a := fun v1380 k0_hw154 => k0_hw154

def k0_off309 (i : grid0.Coords) : Fin 1 → Nat :=
  let arg0 : BitVec 32 := BitVec.ofNat 32 (i 0).val
  let c128_i32 : BitVec 32 := 128#32
  let v0 : BitVec 32 := Scalar.muli arg0 c128_i32
  let c26_i32_642 : BitVec 32 := 26#32
  let v1387 : BitVec 32 := Scalar.addi v0 c26_i32_642
  let v1388 : Index := Scalar.indexCast v1387
  ![v1388.toNat]
def k0_off310 (v1389 : BitVec 32) : Fin 2 → Nat :=
  let c0_i32_646 : BitVec 32 := 0#32
  ![v1389.toNat, 0]

def k0_chk155 (v1389 : BitVec 32) : Prop :=
  (∀ a, (k0_off310 v1389) a + S1x768.size a ≤ S50257x768.size a)
instance k0_chk155.dec : ∀ (v1389 : BitVec 32), Decidable (k0_chk155 v1389) := fun v1389 => decidable_of_iff' _ (Iff.of_eq (k0_chk155.eq_1 v1389))
theorem k0_off310_inb : ∀ (v1389 : BitVec 32) (k0_hw155 : k0_chk155 v1389), ∀ a, (k0_off310 v1389) a + S1x768.size a ≤ S50257x768.size a := fun v1389 k0_hw155 => k0_hw155

def k0_off311 (i : grid0.Coords) : Fin 1 → Nat :=
  let arg0 : BitVec 32 := BitVec.ofNat 32 (i 0).val
  let c128_i32 : BitVec 32 := 128#32
  let v0 : BitVec 32 := Scalar.muli arg0 c128_i32
  let c27_i32_647 : BitVec 32 := 27#32
  let v1396 : BitVec 32 := Scalar.addi v0 c27_i32_647
  let v1397 : Index := Scalar.indexCast v1396
  ![v1397.toNat]
def k0_off312 (v1398 : BitVec 32) : Fin 2 → Nat :=
  let c0_i32_651 : BitVec 32 := 0#32
  ![v1398.toNat, 0]

def k0_chk156 (v1398 : BitVec 32) : Prop :=
  (∀ a, (k0_off312 v1398) a + S1x768.size a ≤ S50257x768.size a)
instance k0_chk156.dec : ∀ (v1398 : BitVec 32), Decidable (k0_chk156 v1398) := fun v1398 => decidable_of_iff' _ (Iff.of_eq (k0_chk156.eq_1 v1398))
theorem k0_off312_inb : ∀ (v1398 : BitVec 32) (k0_hw156 : k0_chk156 v1398), ∀ a, (k0_off312 v1398) a + S1x768.size a ≤ S50257x768.size a := fun v1398 k0_hw156 => k0_hw156

def k0_off313 (i : grid0.Coords) : Fin 1 → Nat :=
  let arg0 : BitVec 32 := BitVec.ofNat 32 (i 0).val
  let c128_i32 : BitVec 32 := 128#32
  let v0 : BitVec 32 := Scalar.muli arg0 c128_i32
  let c28_i32_652 : BitVec 32 := 28#32
  let v1405 : BitVec 32 := Scalar.addi v0 c28_i32_652
  let v1406 : Index := Scalar.indexCast v1405
  ![v1406.toNat]
def k0_off314 (v1407 : BitVec 32) : Fin 2 → Nat :=
  let c0_i32_656 : BitVec 32 := 0#32
  ![v1407.toNat, 0]

def k0_chk157 (v1407 : BitVec 32) : Prop :=
  (∀ a, (k0_off314 v1407) a + S1x768.size a ≤ S50257x768.size a)
instance k0_chk157.dec : ∀ (v1407 : BitVec 32), Decidable (k0_chk157 v1407) := fun v1407 => decidable_of_iff' _ (Iff.of_eq (k0_chk157.eq_1 v1407))
theorem k0_off314_inb : ∀ (v1407 : BitVec 32) (k0_hw157 : k0_chk157 v1407), ∀ a, (k0_off314 v1407) a + S1x768.size a ≤ S50257x768.size a := fun v1407 k0_hw157 => k0_hw157

def k0_off315 (i : grid0.Coords) : Fin 1 → Nat :=
  let arg0 : BitVec 32 := BitVec.ofNat 32 (i 0).val
  let c128_i32 : BitVec 32 := 128#32
  let v0 : BitVec 32 := Scalar.muli arg0 c128_i32
  let c29_i32_657 : BitVec 32 := 29#32
  let v1414 : BitVec 32 := Scalar.addi v0 c29_i32_657
  let v1415 : Index := Scalar.indexCast v1414
  ![v1415.toNat]
def k0_off316 (v1416 : BitVec 32) : Fin 2 → Nat :=
  let c0_i32_661 : BitVec 32 := 0#32
  ![v1416.toNat, 0]

def k0_chk158 (v1416 : BitVec 32) : Prop :=
  (∀ a, (k0_off316 v1416) a + S1x768.size a ≤ S50257x768.size a)
instance k0_chk158.dec : ∀ (v1416 : BitVec 32), Decidable (k0_chk158 v1416) := fun v1416 => decidable_of_iff' _ (Iff.of_eq (k0_chk158.eq_1 v1416))
theorem k0_off316_inb : ∀ (v1416 : BitVec 32) (k0_hw158 : k0_chk158 v1416), ∀ a, (k0_off316 v1416) a + S1x768.size a ≤ S50257x768.size a := fun v1416 k0_hw158 => k0_hw158

def k0_off317 (i : grid0.Coords) : Fin 1 → Nat :=
  let arg0 : BitVec 32 := BitVec.ofNat 32 (i 0).val
  let c128_i32 : BitVec 32 := 128#32
  let v0 : BitVec 32 := Scalar.muli arg0 c128_i32
  let c30_i32_662 : BitVec 32 := 30#32
  let v1423 : BitVec 32 := Scalar.addi v0 c30_i32_662
  let v1424 : Index := Scalar.indexCast v1423
  ![v1424.toNat]
def k0_off318 (v1425 : BitVec 32) : Fin 2 → Nat :=
  let c0_i32_666 : BitVec 32 := 0#32
  ![v1425.toNat, 0]

def k0_chk159 (v1425 : BitVec 32) : Prop :=
  (∀ a, (k0_off318 v1425) a + S1x768.size a ≤ S50257x768.size a)
instance k0_chk159.dec : ∀ (v1425 : BitVec 32), Decidable (k0_chk159 v1425) := fun v1425 => decidable_of_iff' _ (Iff.of_eq (k0_chk159.eq_1 v1425))
theorem k0_off318_inb : ∀ (v1425 : BitVec 32) (k0_hw159 : k0_chk159 v1425), ∀ a, (k0_off318 v1425) a + S1x768.size a ≤ S50257x768.size a := fun v1425 k0_hw159 => k0_hw159

def k0_off319 (i : grid0.Coords) : Fin 1 → Nat :=
  let arg0 : BitVec 32 := BitVec.ofNat 32 (i 0).val
  let c128_i32 : BitVec 32 := 128#32
  let v0 : BitVec 32 := Scalar.muli arg0 c128_i32
  let c31_i32_667 : BitVec 32 := 31#32
  let v1432 : BitVec 32 := Scalar.addi v0 c31_i32_667
  let v1433 : Index := Scalar.indexCast v1432
  ![v1433.toNat]
def k0_off320 (v1434 : BitVec 32) : Fin 2 → Nat :=
  let c0_i32_671 : BitVec 32 := 0#32
  ![v1434.toNat, 0]

def k0_chk160 (v1434 : BitVec 32) : Prop :=
  (∀ a, (k0_off320 v1434) a + S1x768.size a ≤ S50257x768.size a)
instance k0_chk160.dec : ∀ (v1434 : BitVec 32), Decidable (k0_chk160 v1434) := fun v1434 => decidable_of_iff' _ (Iff.of_eq (k0_chk160.eq_1 v1434))
theorem k0_off320_inb : ∀ (v1434 : BitVec 32) (k0_hw160 : k0_chk160 v1434), ∀ a, (k0_off320 v1434) a + S1x768.size a ≤ S50257x768.size a := fun v1434 k0_hw160 => k0_hw160

def k0_off321 (i : grid0.Coords) : Fin 1 → Nat :=
  let arg0 : BitVec 32 := BitVec.ofNat 32 (i 0).val
  let c128_i32 : BitVec 32 := 128#32
  let v0 : BitVec 32 := Scalar.muli arg0 c128_i32
  let c32_i32_672 : BitVec 32 := 32#32
  let v1441 : BitVec 32 := Scalar.addi v0 c32_i32_672
  let v1442 : Index := Scalar.indexCast v1441
  ![v1442.toNat]
def k0_off322 (v1443 : BitVec 32) : Fin 2 → Nat :=
  let c0_i32_676 : BitVec 32 := 0#32
  ![v1443.toNat, 0]

def k0_chk161 (v1443 : BitVec 32) : Prop :=
  (∀ a, (k0_off322 v1443) a + S1x768.size a ≤ S50257x768.size a)
instance k0_chk161.dec : ∀ (v1443 : BitVec 32), Decidable (k0_chk161 v1443) := fun v1443 => decidable_of_iff' _ (Iff.of_eq (k0_chk161.eq_1 v1443))
theorem k0_off322_inb : ∀ (v1443 : BitVec 32) (k0_hw161 : k0_chk161 v1443), ∀ a, (k0_off322 v1443) a + S1x768.size a ≤ S50257x768.size a := fun v1443 k0_hw161 => k0_hw161

def k0_off323 (i : grid0.Coords) : Fin 1 → Nat :=
  let arg0 : BitVec 32 := BitVec.ofNat 32 (i 0).val
  let c128_i32 : BitVec 32 := 128#32
  let v0 : BitVec 32 := Scalar.muli arg0 c128_i32
  let c33_i32_677 : BitVec 32 := 33#32
  let v1450 : BitVec 32 := Scalar.addi v0 c33_i32_677
  let v1451 : Index := Scalar.indexCast v1450
  ![v1451.toNat]
def k0_off324 (v1452 : BitVec 32) : Fin 2 → Nat :=
  let c0_i32_681 : BitVec 32 := 0#32
  ![v1452.toNat, 0]

def k0_chk162 (v1452 : BitVec 32) : Prop :=
  (∀ a, (k0_off324 v1452) a + S1x768.size a ≤ S50257x768.size a)
instance k0_chk162.dec : ∀ (v1452 : BitVec 32), Decidable (k0_chk162 v1452) := fun v1452 => decidable_of_iff' _ (Iff.of_eq (k0_chk162.eq_1 v1452))
theorem k0_off324_inb : ∀ (v1452 : BitVec 32) (k0_hw162 : k0_chk162 v1452), ∀ a, (k0_off324 v1452) a + S1x768.size a ≤ S50257x768.size a := fun v1452 k0_hw162 => k0_hw162

def k0_off325 (i : grid0.Coords) : Fin 1 → Nat :=
  let arg0 : BitVec 32 := BitVec.ofNat 32 (i 0).val
  let c128_i32 : BitVec 32 := 128#32
  let v0 : BitVec 32 := Scalar.muli arg0 c128_i32
  let c34_i32_682 : BitVec 32 := 34#32
  let v1459 : BitVec 32 := Scalar.addi v0 c34_i32_682
  let v1460 : Index := Scalar.indexCast v1459
  ![v1460.toNat]
def k0_off326 (v1461 : BitVec 32) : Fin 2 → Nat :=
  let c0_i32_686 : BitVec 32 := 0#32
  ![v1461.toNat, 0]

def k0_chk163 (v1461 : BitVec 32) : Prop :=
  (∀ a, (k0_off326 v1461) a + S1x768.size a ≤ S50257x768.size a)
instance k0_chk163.dec : ∀ (v1461 : BitVec 32), Decidable (k0_chk163 v1461) := fun v1461 => decidable_of_iff' _ (Iff.of_eq (k0_chk163.eq_1 v1461))
theorem k0_off326_inb : ∀ (v1461 : BitVec 32) (k0_hw163 : k0_chk163 v1461), ∀ a, (k0_off326 v1461) a + S1x768.size a ≤ S50257x768.size a := fun v1461 k0_hw163 => k0_hw163

def k0_off327 (i : grid0.Coords) : Fin 1 → Nat :=
  let arg0 : BitVec 32 := BitVec.ofNat 32 (i 0).val
  let c128_i32 : BitVec 32 := 128#32
  let v0 : BitVec 32 := Scalar.muli arg0 c128_i32
  let c35_i32_687 : BitVec 32 := 35#32
  let v1468 : BitVec 32 := Scalar.addi v0 c35_i32_687
  let v1469 : Index := Scalar.indexCast v1468
  ![v1469.toNat]
def k0_off328 (v1470 : BitVec 32) : Fin 2 → Nat :=
  let c0_i32_691 : BitVec 32 := 0#32
  ![v1470.toNat, 0]

def k0_chk164 (v1470 : BitVec 32) : Prop :=
  (∀ a, (k0_off328 v1470) a + S1x768.size a ≤ S50257x768.size a)
instance k0_chk164.dec : ∀ (v1470 : BitVec 32), Decidable (k0_chk164 v1470) := fun v1470 => decidable_of_iff' _ (Iff.of_eq (k0_chk164.eq_1 v1470))
theorem k0_off328_inb : ∀ (v1470 : BitVec 32) (k0_hw164 : k0_chk164 v1470), ∀ a, (k0_off328 v1470) a + S1x768.size a ≤ S50257x768.size a := fun v1470 k0_hw164 => k0_hw164

def k0_off329 (i : grid0.Coords) : Fin 1 → Nat :=
  let arg0 : BitVec 32 := BitVec.ofNat 32 (i 0).val
  let c128_i32 : BitVec 32 := 128#32
  let v0 : BitVec 32 := Scalar.muli arg0 c128_i32
  let c36_i32_692 : BitVec 32 := 36#32
  let v1477 : BitVec 32 := Scalar.addi v0 c36_i32_692
  let v1478 : Index := Scalar.indexCast v1477
  ![v1478.toNat]
def k0_off330 (v1479 : BitVec 32) : Fin 2 → Nat :=
  let c0_i32_696 : BitVec 32 := 0#32
  ![v1479.toNat, 0]

def k0_chk165 (v1479 : BitVec 32) : Prop :=
  (∀ a, (k0_off330 v1479) a + S1x768.size a ≤ S50257x768.size a)
instance k0_chk165.dec : ∀ (v1479 : BitVec 32), Decidable (k0_chk165 v1479) := fun v1479 => decidable_of_iff' _ (Iff.of_eq (k0_chk165.eq_1 v1479))
theorem k0_off330_inb : ∀ (v1479 : BitVec 32) (k0_hw165 : k0_chk165 v1479), ∀ a, (k0_off330 v1479) a + S1x768.size a ≤ S50257x768.size a := fun v1479 k0_hw165 => k0_hw165

def k0_off331 (i : grid0.Coords) : Fin 1 → Nat :=
  let arg0 : BitVec 32 := BitVec.ofNat 32 (i 0).val
  let c128_i32 : BitVec 32 := 128#32
  let v0 : BitVec 32 := Scalar.muli arg0 c128_i32
  let c37_i32_697 : BitVec 32 := 37#32
  let v1486 : BitVec 32 := Scalar.addi v0 c37_i32_697
  let v1487 : Index := Scalar.indexCast v1486
  ![v1487.toNat]
def k0_off332 (v1488 : BitVec 32) : Fin 2 → Nat :=
  let c0_i32_701 : BitVec 32 := 0#32
  ![v1488.toNat, 0]

def k0_chk166 (v1488 : BitVec 32) : Prop :=
  (∀ a, (k0_off332 v1488) a + S1x768.size a ≤ S50257x768.size a)
instance k0_chk166.dec : ∀ (v1488 : BitVec 32), Decidable (k0_chk166 v1488) := fun v1488 => decidable_of_iff' _ (Iff.of_eq (k0_chk166.eq_1 v1488))
theorem k0_off332_inb : ∀ (v1488 : BitVec 32) (k0_hw166 : k0_chk166 v1488), ∀ a, (k0_off332 v1488) a + S1x768.size a ≤ S50257x768.size a := fun v1488 k0_hw166 => k0_hw166

def k0_off333 (i : grid0.Coords) : Fin 1 → Nat :=
  let arg0 : BitVec 32 := BitVec.ofNat 32 (i 0).val
  let c128_i32 : BitVec 32 := 128#32
  let v0 : BitVec 32 := Scalar.muli arg0 c128_i32
  let c38_i32_702 : BitVec 32 := 38#32
  let v1495 : BitVec 32 := Scalar.addi v0 c38_i32_702
  let v1496 : Index := Scalar.indexCast v1495
  ![v1496.toNat]
def k0_off334 (v1497 : BitVec 32) : Fin 2 → Nat :=
  let c0_i32_706 : BitVec 32 := 0#32
  ![v1497.toNat, 0]

def k0_chk167 (v1497 : BitVec 32) : Prop :=
  (∀ a, (k0_off334 v1497) a + S1x768.size a ≤ S50257x768.size a)
instance k0_chk167.dec : ∀ (v1497 : BitVec 32), Decidable (k0_chk167 v1497) := fun v1497 => decidable_of_iff' _ (Iff.of_eq (k0_chk167.eq_1 v1497))
theorem k0_off334_inb : ∀ (v1497 : BitVec 32) (k0_hw167 : k0_chk167 v1497), ∀ a, (k0_off334 v1497) a + S1x768.size a ≤ S50257x768.size a := fun v1497 k0_hw167 => k0_hw167

def k0_off335 (i : grid0.Coords) : Fin 1 → Nat :=
  let arg0 : BitVec 32 := BitVec.ofNat 32 (i 0).val
  let c128_i32 : BitVec 32 := 128#32
  let v0 : BitVec 32 := Scalar.muli arg0 c128_i32
  let c39_i32_707 : BitVec 32 := 39#32
  let v1504 : BitVec 32 := Scalar.addi v0 c39_i32_707
  let v1505 : Index := Scalar.indexCast v1504
  ![v1505.toNat]
def k0_off336 (v1506 : BitVec 32) : Fin 2 → Nat :=
  let c0_i32_711 : BitVec 32 := 0#32
  ![v1506.toNat, 0]

def k0_chk168 (v1506 : BitVec 32) : Prop :=
  (∀ a, (k0_off336 v1506) a + S1x768.size a ≤ S50257x768.size a)
instance k0_chk168.dec : ∀ (v1506 : BitVec 32), Decidable (k0_chk168 v1506) := fun v1506 => decidable_of_iff' _ (Iff.of_eq (k0_chk168.eq_1 v1506))
theorem k0_off336_inb : ∀ (v1506 : BitVec 32) (k0_hw168 : k0_chk168 v1506), ∀ a, (k0_off336 v1506) a + S1x768.size a ≤ S50257x768.size a := fun v1506 k0_hw168 => k0_hw168

def k0_off337 (i : grid0.Coords) : Fin 1 → Nat :=
  let arg0 : BitVec 32 := BitVec.ofNat 32 (i 0).val
  let c128_i32 : BitVec 32 := 128#32
  let v0 : BitVec 32 := Scalar.muli arg0 c128_i32
  let c40_i32_712 : BitVec 32 := 40#32
  let v1513 : BitVec 32 := Scalar.addi v0 c40_i32_712
  let v1514 : Index := Scalar.indexCast v1513
  ![v1514.toNat]
def k0_off338 (v1515 : BitVec 32) : Fin 2 → Nat :=
  let c0_i32_716 : BitVec 32 := 0#32
  ![v1515.toNat, 0]

def k0_chk169 (v1515 : BitVec 32) : Prop :=
  (∀ a, (k0_off338 v1515) a + S1x768.size a ≤ S50257x768.size a)
instance k0_chk169.dec : ∀ (v1515 : BitVec 32), Decidable (k0_chk169 v1515) := fun v1515 => decidable_of_iff' _ (Iff.of_eq (k0_chk169.eq_1 v1515))
theorem k0_off338_inb : ∀ (v1515 : BitVec 32) (k0_hw169 : k0_chk169 v1515), ∀ a, (k0_off338 v1515) a + S1x768.size a ≤ S50257x768.size a := fun v1515 k0_hw169 => k0_hw169

def k0_off339 (i : grid0.Coords) : Fin 1 → Nat :=
  let arg0 : BitVec 32 := BitVec.ofNat 32 (i 0).val
  let c128_i32 : BitVec 32 := 128#32
  let v0 : BitVec 32 := Scalar.muli arg0 c128_i32
  let c41_i32_717 : BitVec 32 := 41#32
  let v1522 : BitVec 32 := Scalar.addi v0 c41_i32_717
  let v1523 : Index := Scalar.indexCast v1522
  ![v1523.toNat]
def k0_off340 (v1524 : BitVec 32) : Fin 2 → Nat :=
  let c0_i32_721 : BitVec 32 := 0#32
  ![v1524.toNat, 0]

def k0_chk170 (v1524 : BitVec 32) : Prop :=
  (∀ a, (k0_off340 v1524) a + S1x768.size a ≤ S50257x768.size a)
instance k0_chk170.dec : ∀ (v1524 : BitVec 32), Decidable (k0_chk170 v1524) := fun v1524 => decidable_of_iff' _ (Iff.of_eq (k0_chk170.eq_1 v1524))
theorem k0_off340_inb : ∀ (v1524 : BitVec 32) (k0_hw170 : k0_chk170 v1524), ∀ a, (k0_off340 v1524) a + S1x768.size a ≤ S50257x768.size a := fun v1524 k0_hw170 => k0_hw170

def k0_off341 (i : grid0.Coords) : Fin 1 → Nat :=
  let arg0 : BitVec 32 := BitVec.ofNat 32 (i 0).val
  let c128_i32 : BitVec 32 := 128#32
  let v0 : BitVec 32 := Scalar.muli arg0 c128_i32
  let c42_i32_722 : BitVec 32 := 42#32
  let v1531 : BitVec 32 := Scalar.addi v0 c42_i32_722
  let v1532 : Index := Scalar.indexCast v1531
  ![v1532.toNat]
def k0_off342 (v1533 : BitVec 32) : Fin 2 → Nat :=
  let c0_i32_726 : BitVec 32 := 0#32
  ![v1533.toNat, 0]

def k0_chk171 (v1533 : BitVec 32) : Prop :=
  (∀ a, (k0_off342 v1533) a + S1x768.size a ≤ S50257x768.size a)
instance k0_chk171.dec : ∀ (v1533 : BitVec 32), Decidable (k0_chk171 v1533) := fun v1533 => decidable_of_iff' _ (Iff.of_eq (k0_chk171.eq_1 v1533))
theorem k0_off342_inb : ∀ (v1533 : BitVec 32) (k0_hw171 : k0_chk171 v1533), ∀ a, (k0_off342 v1533) a + S1x768.size a ≤ S50257x768.size a := fun v1533 k0_hw171 => k0_hw171

def k0_off343 (i : grid0.Coords) : Fin 1 → Nat :=
  let arg0 : BitVec 32 := BitVec.ofNat 32 (i 0).val
  let c128_i32 : BitVec 32 := 128#32
  let v0 : BitVec 32 := Scalar.muli arg0 c128_i32
  let c43_i32_727 : BitVec 32 := 43#32
  let v1540 : BitVec 32 := Scalar.addi v0 c43_i32_727
  let v1541 : Index := Scalar.indexCast v1540
  ![v1541.toNat]
def k0_off344 (v1542 : BitVec 32) : Fin 2 → Nat :=
  let c0_i32_731 : BitVec 32 := 0#32
  ![v1542.toNat, 0]

def k0_chk172 (v1542 : BitVec 32) : Prop :=
  (∀ a, (k0_off344 v1542) a + S1x768.size a ≤ S50257x768.size a)
instance k0_chk172.dec : ∀ (v1542 : BitVec 32), Decidable (k0_chk172 v1542) := fun v1542 => decidable_of_iff' _ (Iff.of_eq (k0_chk172.eq_1 v1542))
theorem k0_off344_inb : ∀ (v1542 : BitVec 32) (k0_hw172 : k0_chk172 v1542), ∀ a, (k0_off344 v1542) a + S1x768.size a ≤ S50257x768.size a := fun v1542 k0_hw172 => k0_hw172

def k0_off345 (i : grid0.Coords) : Fin 1 → Nat :=
  let arg0 : BitVec 32 := BitVec.ofNat 32 (i 0).val
  let c128_i32 : BitVec 32 := 128#32
  let v0 : BitVec 32 := Scalar.muli arg0 c128_i32
  let c44_i32_732 : BitVec 32 := 44#32
  let v1549 : BitVec 32 := Scalar.addi v0 c44_i32_732
  let v1550 : Index := Scalar.indexCast v1549
  ![v1550.toNat]
def k0_off346 (v1551 : BitVec 32) : Fin 2 → Nat :=
  let c0_i32_736 : BitVec 32 := 0#32
  ![v1551.toNat, 0]

def k0_chk173 (v1551 : BitVec 32) : Prop :=
  (∀ a, (k0_off346 v1551) a + S1x768.size a ≤ S50257x768.size a)
instance k0_chk173.dec : ∀ (v1551 : BitVec 32), Decidable (k0_chk173 v1551) := fun v1551 => decidable_of_iff' _ (Iff.of_eq (k0_chk173.eq_1 v1551))
theorem k0_off346_inb : ∀ (v1551 : BitVec 32) (k0_hw173 : k0_chk173 v1551), ∀ a, (k0_off346 v1551) a + S1x768.size a ≤ S50257x768.size a := fun v1551 k0_hw173 => k0_hw173

def k0_off347 (i : grid0.Coords) : Fin 1 → Nat :=
  let arg0 : BitVec 32 := BitVec.ofNat 32 (i 0).val
  let c128_i32 : BitVec 32 := 128#32
  let v0 : BitVec 32 := Scalar.muli arg0 c128_i32
  let c45_i32_737 : BitVec 32 := 45#32
  let v1558 : BitVec 32 := Scalar.addi v0 c45_i32_737
  let v1559 : Index := Scalar.indexCast v1558
  ![v1559.toNat]
def k0_off348 (v1560 : BitVec 32) : Fin 2 → Nat :=
  let c0_i32_741 : BitVec 32 := 0#32
  ![v1560.toNat, 0]

def k0_chk174 (v1560 : BitVec 32) : Prop :=
  (∀ a, (k0_off348 v1560) a + S1x768.size a ≤ S50257x768.size a)
instance k0_chk174.dec : ∀ (v1560 : BitVec 32), Decidable (k0_chk174 v1560) := fun v1560 => decidable_of_iff' _ (Iff.of_eq (k0_chk174.eq_1 v1560))
theorem k0_off348_inb : ∀ (v1560 : BitVec 32) (k0_hw174 : k0_chk174 v1560), ∀ a, (k0_off348 v1560) a + S1x768.size a ≤ S50257x768.size a := fun v1560 k0_hw174 => k0_hw174

def k0_off349 (i : grid0.Coords) : Fin 1 → Nat :=
  let arg0 : BitVec 32 := BitVec.ofNat 32 (i 0).val
  let c128_i32 : BitVec 32 := 128#32
  let v0 : BitVec 32 := Scalar.muli arg0 c128_i32
  let c46_i32_742 : BitVec 32 := 46#32
  let v1567 : BitVec 32 := Scalar.addi v0 c46_i32_742
  let v1568 : Index := Scalar.indexCast v1567
  ![v1568.toNat]
def k0_off350 (v1569 : BitVec 32) : Fin 2 → Nat :=
  let c0_i32_746 : BitVec 32 := 0#32
  ![v1569.toNat, 0]

def k0_chk175 (v1569 : BitVec 32) : Prop :=
  (∀ a, (k0_off350 v1569) a + S1x768.size a ≤ S50257x768.size a)
instance k0_chk175.dec : ∀ (v1569 : BitVec 32), Decidable (k0_chk175 v1569) := fun v1569 => decidable_of_iff' _ (Iff.of_eq (k0_chk175.eq_1 v1569))
theorem k0_off350_inb : ∀ (v1569 : BitVec 32) (k0_hw175 : k0_chk175 v1569), ∀ a, (k0_off350 v1569) a + S1x768.size a ≤ S50257x768.size a := fun v1569 k0_hw175 => k0_hw175

def k0_off351 (i : grid0.Coords) : Fin 1 → Nat :=
  let arg0 : BitVec 32 := BitVec.ofNat 32 (i 0).val
  let c128_i32 : BitVec 32 := 128#32
  let v0 : BitVec 32 := Scalar.muli arg0 c128_i32
  let c47_i32_747 : BitVec 32 := 47#32
  let v1576 : BitVec 32 := Scalar.addi v0 c47_i32_747
  let v1577 : Index := Scalar.indexCast v1576
  ![v1577.toNat]
def k0_off352 (v1578 : BitVec 32) : Fin 2 → Nat :=
  let c0_i32_751 : BitVec 32 := 0#32
  ![v1578.toNat, 0]

def k0_chk176 (v1578 : BitVec 32) : Prop :=
  (∀ a, (k0_off352 v1578) a + S1x768.size a ≤ S50257x768.size a)
instance k0_chk176.dec : ∀ (v1578 : BitVec 32), Decidable (k0_chk176 v1578) := fun v1578 => decidable_of_iff' _ (Iff.of_eq (k0_chk176.eq_1 v1578))
theorem k0_off352_inb : ∀ (v1578 : BitVec 32) (k0_hw176 : k0_chk176 v1578), ∀ a, (k0_off352 v1578) a + S1x768.size a ≤ S50257x768.size a := fun v1578 k0_hw176 => k0_hw176

def k0_off353 (i : grid0.Coords) : Fin 1 → Nat :=
  let arg0 : BitVec 32 := BitVec.ofNat 32 (i 0).val
  let c128_i32 : BitVec 32 := 128#32
  let v0 : BitVec 32 := Scalar.muli arg0 c128_i32
  let c48_i32_752 : BitVec 32 := 48#32
  let v1585 : BitVec 32 := Scalar.addi v0 c48_i32_752
  let v1586 : Index := Scalar.indexCast v1585
  ![v1586.toNat]
def k0_off354 (v1587 : BitVec 32) : Fin 2 → Nat :=
  let c0_i32_756 : BitVec 32 := 0#32
  ![v1587.toNat, 0]

def k0_chk177 (v1587 : BitVec 32) : Prop :=
  (∀ a, (k0_off354 v1587) a + S1x768.size a ≤ S50257x768.size a)
instance k0_chk177.dec : ∀ (v1587 : BitVec 32), Decidable (k0_chk177 v1587) := fun v1587 => decidable_of_iff' _ (Iff.of_eq (k0_chk177.eq_1 v1587))
theorem k0_off354_inb : ∀ (v1587 : BitVec 32) (k0_hw177 : k0_chk177 v1587), ∀ a, (k0_off354 v1587) a + S1x768.size a ≤ S50257x768.size a := fun v1587 k0_hw177 => k0_hw177

def k0_off355 (i : grid0.Coords) : Fin 1 → Nat :=
  let arg0 : BitVec 32 := BitVec.ofNat 32 (i 0).val
  let c128_i32 : BitVec 32 := 128#32
  let v0 : BitVec 32 := Scalar.muli arg0 c128_i32
  let c49_i32_757 : BitVec 32 := 49#32
  let v1594 : BitVec 32 := Scalar.addi v0 c49_i32_757
  let v1595 : Index := Scalar.indexCast v1594
  ![v1595.toNat]
def k0_off356 (v1596 : BitVec 32) : Fin 2 → Nat :=
  let c0_i32_761 : BitVec 32 := 0#32
  ![v1596.toNat, 0]

def k0_chk178 (v1596 : BitVec 32) : Prop :=
  (∀ a, (k0_off356 v1596) a + S1x768.size a ≤ S50257x768.size a)
instance k0_chk178.dec : ∀ (v1596 : BitVec 32), Decidable (k0_chk178 v1596) := fun v1596 => decidable_of_iff' _ (Iff.of_eq (k0_chk178.eq_1 v1596))
theorem k0_off356_inb : ∀ (v1596 : BitVec 32) (k0_hw178 : k0_chk178 v1596), ∀ a, (k0_off356 v1596) a + S1x768.size a ≤ S50257x768.size a := fun v1596 k0_hw178 => k0_hw178

def k0_off357 (i : grid0.Coords) : Fin 1 → Nat :=
  let arg0 : BitVec 32 := BitVec.ofNat 32 (i 0).val
  let c128_i32 : BitVec 32 := 128#32
  let v0 : BitVec 32 := Scalar.muli arg0 c128_i32
  let c50_i32_762 : BitVec 32 := 50#32
  let v1603 : BitVec 32 := Scalar.addi v0 c50_i32_762
  let v1604 : Index := Scalar.indexCast v1603
  ![v1604.toNat]
def k0_off358 (v1605 : BitVec 32) : Fin 2 → Nat :=
  let c0_i32_766 : BitVec 32 := 0#32
  ![v1605.toNat, 0]

def k0_chk179 (v1605 : BitVec 32) : Prop :=
  (∀ a, (k0_off358 v1605) a + S1x768.size a ≤ S50257x768.size a)
instance k0_chk179.dec : ∀ (v1605 : BitVec 32), Decidable (k0_chk179 v1605) := fun v1605 => decidable_of_iff' _ (Iff.of_eq (k0_chk179.eq_1 v1605))
theorem k0_off358_inb : ∀ (v1605 : BitVec 32) (k0_hw179 : k0_chk179 v1605), ∀ a, (k0_off358 v1605) a + S1x768.size a ≤ S50257x768.size a := fun v1605 k0_hw179 => k0_hw179

def k0_off359 (i : grid0.Coords) : Fin 1 → Nat :=
  let arg0 : BitVec 32 := BitVec.ofNat 32 (i 0).val
  let c128_i32 : BitVec 32 := 128#32
  let v0 : BitVec 32 := Scalar.muli arg0 c128_i32
  let c51_i32_767 : BitVec 32 := 51#32
  let v1612 : BitVec 32 := Scalar.addi v0 c51_i32_767
  let v1613 : Index := Scalar.indexCast v1612
  ![v1613.toNat]
def k0_off360 (v1614 : BitVec 32) : Fin 2 → Nat :=
  let c0_i32_771 : BitVec 32 := 0#32
  ![v1614.toNat, 0]

def k0_chk180 (v1614 : BitVec 32) : Prop :=
  (∀ a, (k0_off360 v1614) a + S1x768.size a ≤ S50257x768.size a)
instance k0_chk180.dec : ∀ (v1614 : BitVec 32), Decidable (k0_chk180 v1614) := fun v1614 => decidable_of_iff' _ (Iff.of_eq (k0_chk180.eq_1 v1614))
theorem k0_off360_inb : ∀ (v1614 : BitVec 32) (k0_hw180 : k0_chk180 v1614), ∀ a, (k0_off360 v1614) a + S1x768.size a ≤ S50257x768.size a := fun v1614 k0_hw180 => k0_hw180

def k0_off361 (i : grid0.Coords) : Fin 1 → Nat :=
  let arg0 : BitVec 32 := BitVec.ofNat 32 (i 0).val
  let c128_i32 : BitVec 32 := 128#32
  let v0 : BitVec 32 := Scalar.muli arg0 c128_i32
  let c52_i32_772 : BitVec 32 := 52#32
  let v1621 : BitVec 32 := Scalar.addi v0 c52_i32_772
  let v1622 : Index := Scalar.indexCast v1621
  ![v1622.toNat]
def k0_off362 (v1623 : BitVec 32) : Fin 2 → Nat :=
  let c0_i32_776 : BitVec 32 := 0#32
  ![v1623.toNat, 0]

def k0_chk181 (v1623 : BitVec 32) : Prop :=
  (∀ a, (k0_off362 v1623) a + S1x768.size a ≤ S50257x768.size a)
instance k0_chk181.dec : ∀ (v1623 : BitVec 32), Decidable (k0_chk181 v1623) := fun v1623 => decidable_of_iff' _ (Iff.of_eq (k0_chk181.eq_1 v1623))
theorem k0_off362_inb : ∀ (v1623 : BitVec 32) (k0_hw181 : k0_chk181 v1623), ∀ a, (k0_off362 v1623) a + S1x768.size a ≤ S50257x768.size a := fun v1623 k0_hw181 => k0_hw181

def k0_off363 (i : grid0.Coords) : Fin 1 → Nat :=
  let arg0 : BitVec 32 := BitVec.ofNat 32 (i 0).val
  let c128_i32 : BitVec 32 := 128#32
  let v0 : BitVec 32 := Scalar.muli arg0 c128_i32
  let c53_i32_777 : BitVec 32 := 53#32
  let v1630 : BitVec 32 := Scalar.addi v0 c53_i32_777
  let v1631 : Index := Scalar.indexCast v1630
  ![v1631.toNat]
def k0_off364 (v1632 : BitVec 32) : Fin 2 → Nat :=
  let c0_i32_781 : BitVec 32 := 0#32
  ![v1632.toNat, 0]

def k0_chk182 (v1632 : BitVec 32) : Prop :=
  (∀ a, (k0_off364 v1632) a + S1x768.size a ≤ S50257x768.size a)
instance k0_chk182.dec : ∀ (v1632 : BitVec 32), Decidable (k0_chk182 v1632) := fun v1632 => decidable_of_iff' _ (Iff.of_eq (k0_chk182.eq_1 v1632))
theorem k0_off364_inb : ∀ (v1632 : BitVec 32) (k0_hw182 : k0_chk182 v1632), ∀ a, (k0_off364 v1632) a + S1x768.size a ≤ S50257x768.size a := fun v1632 k0_hw182 => k0_hw182

def k0_off365 (i : grid0.Coords) : Fin 1 → Nat :=
  let arg0 : BitVec 32 := BitVec.ofNat 32 (i 0).val
  let c128_i32 : BitVec 32 := 128#32
  let v0 : BitVec 32 := Scalar.muli arg0 c128_i32
  let c54_i32_782 : BitVec 32 := 54#32
  let v1639 : BitVec 32 := Scalar.addi v0 c54_i32_782
  let v1640 : Index := Scalar.indexCast v1639
  ![v1640.toNat]
def k0_off366 (v1641 : BitVec 32) : Fin 2 → Nat :=
  let c0_i32_786 : BitVec 32 := 0#32
  ![v1641.toNat, 0]

def k0_chk183 (v1641 : BitVec 32) : Prop :=
  (∀ a, (k0_off366 v1641) a + S1x768.size a ≤ S50257x768.size a)
instance k0_chk183.dec : ∀ (v1641 : BitVec 32), Decidable (k0_chk183 v1641) := fun v1641 => decidable_of_iff' _ (Iff.of_eq (k0_chk183.eq_1 v1641))
theorem k0_off366_inb : ∀ (v1641 : BitVec 32) (k0_hw183 : k0_chk183 v1641), ∀ a, (k0_off366 v1641) a + S1x768.size a ≤ S50257x768.size a := fun v1641 k0_hw183 => k0_hw183

def k0_off367 (i : grid0.Coords) : Fin 1 → Nat :=
  let arg0 : BitVec 32 := BitVec.ofNat 32 (i 0).val
  let c128_i32 : BitVec 32 := 128#32
  let v0 : BitVec 32 := Scalar.muli arg0 c128_i32
  let c55_i32_787 : BitVec 32 := 55#32
  let v1648 : BitVec 32 := Scalar.addi v0 c55_i32_787
  let v1649 : Index := Scalar.indexCast v1648
  ![v1649.toNat]
def k0_off368 (v1650 : BitVec 32) : Fin 2 → Nat :=
  let c0_i32_791 : BitVec 32 := 0#32
  ![v1650.toNat, 0]

def k0_chk184 (v1650 : BitVec 32) : Prop :=
  (∀ a, (k0_off368 v1650) a + S1x768.size a ≤ S50257x768.size a)
instance k0_chk184.dec : ∀ (v1650 : BitVec 32), Decidable (k0_chk184 v1650) := fun v1650 => decidable_of_iff' _ (Iff.of_eq (k0_chk184.eq_1 v1650))
theorem k0_off368_inb : ∀ (v1650 : BitVec 32) (k0_hw184 : k0_chk184 v1650), ∀ a, (k0_off368 v1650) a + S1x768.size a ≤ S50257x768.size a := fun v1650 k0_hw184 => k0_hw184

def k0_off369 (i : grid0.Coords) : Fin 1 → Nat :=
  let arg0 : BitVec 32 := BitVec.ofNat 32 (i 0).val
  let c128_i32 : BitVec 32 := 128#32
  let v0 : BitVec 32 := Scalar.muli arg0 c128_i32
  let c56_i32_792 : BitVec 32 := 56#32
  let v1657 : BitVec 32 := Scalar.addi v0 c56_i32_792
  let v1658 : Index := Scalar.indexCast v1657
  ![v1658.toNat]
def k0_off370 (v1659 : BitVec 32) : Fin 2 → Nat :=
  let c0_i32_796 : BitVec 32 := 0#32
  ![v1659.toNat, 0]

def k0_chk185 (v1659 : BitVec 32) : Prop :=
  (∀ a, (k0_off370 v1659) a + S1x768.size a ≤ S50257x768.size a)
instance k0_chk185.dec : ∀ (v1659 : BitVec 32), Decidable (k0_chk185 v1659) := fun v1659 => decidable_of_iff' _ (Iff.of_eq (k0_chk185.eq_1 v1659))
theorem k0_off370_inb : ∀ (v1659 : BitVec 32) (k0_hw185 : k0_chk185 v1659), ∀ a, (k0_off370 v1659) a + S1x768.size a ≤ S50257x768.size a := fun v1659 k0_hw185 => k0_hw185

def k0_off371 (i : grid0.Coords) : Fin 1 → Nat :=
  let arg0 : BitVec 32 := BitVec.ofNat 32 (i 0).val
  let c128_i32 : BitVec 32 := 128#32
  let v0 : BitVec 32 := Scalar.muli arg0 c128_i32
  let c57_i32_797 : BitVec 32 := 57#32
  let v1666 : BitVec 32 := Scalar.addi v0 c57_i32_797
  let v1667 : Index := Scalar.indexCast v1666
  ![v1667.toNat]
def k0_off372 (v1668 : BitVec 32) : Fin 2 → Nat :=
  let c0_i32_801 : BitVec 32 := 0#32
  ![v1668.toNat, 0]

def k0_chk186 (v1668 : BitVec 32) : Prop :=
  (∀ a, (k0_off372 v1668) a + S1x768.size a ≤ S50257x768.size a)
instance k0_chk186.dec : ∀ (v1668 : BitVec 32), Decidable (k0_chk186 v1668) := fun v1668 => decidable_of_iff' _ (Iff.of_eq (k0_chk186.eq_1 v1668))
theorem k0_off372_inb : ∀ (v1668 : BitVec 32) (k0_hw186 : k0_chk186 v1668), ∀ a, (k0_off372 v1668) a + S1x768.size a ≤ S50257x768.size a := fun v1668 k0_hw186 => k0_hw186

def k0_off373 (i : grid0.Coords) : Fin 1 → Nat :=
  let arg0 : BitVec 32 := BitVec.ofNat 32 (i 0).val
  let c128_i32 : BitVec 32 := 128#32
  let v0 : BitVec 32 := Scalar.muli arg0 c128_i32
  let c58_i32_802 : BitVec 32 := 58#32
  let v1675 : BitVec 32 := Scalar.addi v0 c58_i32_802
  let v1676 : Index := Scalar.indexCast v1675
  ![v1676.toNat]
def k0_off374 (v1677 : BitVec 32) : Fin 2 → Nat :=
  let c0_i32_806 : BitVec 32 := 0#32
  ![v1677.toNat, 0]

def k0_chk187 (v1677 : BitVec 32) : Prop :=
  (∀ a, (k0_off374 v1677) a + S1x768.size a ≤ S50257x768.size a)
instance k0_chk187.dec : ∀ (v1677 : BitVec 32), Decidable (k0_chk187 v1677) := fun v1677 => decidable_of_iff' _ (Iff.of_eq (k0_chk187.eq_1 v1677))
theorem k0_off374_inb : ∀ (v1677 : BitVec 32) (k0_hw187 : k0_chk187 v1677), ∀ a, (k0_off374 v1677) a + S1x768.size a ≤ S50257x768.size a := fun v1677 k0_hw187 => k0_hw187

def k0_off375 (i : grid0.Coords) : Fin 1 → Nat :=
  let arg0 : BitVec 32 := BitVec.ofNat 32 (i 0).val
  let c128_i32 : BitVec 32 := 128#32
  let v0 : BitVec 32 := Scalar.muli arg0 c128_i32
  let c59_i32_807 : BitVec 32 := 59#32
  let v1684 : BitVec 32 := Scalar.addi v0 c59_i32_807
  let v1685 : Index := Scalar.indexCast v1684
  ![v1685.toNat]
def k0_off376 (v1686 : BitVec 32) : Fin 2 → Nat :=
  let c0_i32_811 : BitVec 32 := 0#32
  ![v1686.toNat, 0]

def k0_chk188 (v1686 : BitVec 32) : Prop :=
  (∀ a, (k0_off376 v1686) a + S1x768.size a ≤ S50257x768.size a)
instance k0_chk188.dec : ∀ (v1686 : BitVec 32), Decidable (k0_chk188 v1686) := fun v1686 => decidable_of_iff' _ (Iff.of_eq (k0_chk188.eq_1 v1686))
theorem k0_off376_inb : ∀ (v1686 : BitVec 32) (k0_hw188 : k0_chk188 v1686), ∀ a, (k0_off376 v1686) a + S1x768.size a ≤ S50257x768.size a := fun v1686 k0_hw188 => k0_hw188

def k0_off377 (i : grid0.Coords) : Fin 1 → Nat :=
  let arg0 : BitVec 32 := BitVec.ofNat 32 (i 0).val
  let c128_i32 : BitVec 32 := 128#32
  let v0 : BitVec 32 := Scalar.muli arg0 c128_i32
  let c60_i32_812 : BitVec 32 := 60#32
  let v1693 : BitVec 32 := Scalar.addi v0 c60_i32_812
  let v1694 : Index := Scalar.indexCast v1693
  ![v1694.toNat]
def k0_off378 (v1695 : BitVec 32) : Fin 2 → Nat :=
  let c0_i32_816 : BitVec 32 := 0#32
  ![v1695.toNat, 0]

def k0_chk189 (v1695 : BitVec 32) : Prop :=
  (∀ a, (k0_off378 v1695) a + S1x768.size a ≤ S50257x768.size a)
instance k0_chk189.dec : ∀ (v1695 : BitVec 32), Decidable (k0_chk189 v1695) := fun v1695 => decidable_of_iff' _ (Iff.of_eq (k0_chk189.eq_1 v1695))
theorem k0_off378_inb : ∀ (v1695 : BitVec 32) (k0_hw189 : k0_chk189 v1695), ∀ a, (k0_off378 v1695) a + S1x768.size a ≤ S50257x768.size a := fun v1695 k0_hw189 => k0_hw189

def k0_off379 (i : grid0.Coords) : Fin 1 → Nat :=
  let arg0 : BitVec 32 := BitVec.ofNat 32 (i 0).val
  let c128_i32 : BitVec 32 := 128#32
  let v0 : BitVec 32 := Scalar.muli arg0 c128_i32
  let c61_i32_817 : BitVec 32 := 61#32
  let v1702 : BitVec 32 := Scalar.addi v0 c61_i32_817
  let v1703 : Index := Scalar.indexCast v1702
  ![v1703.toNat]
def k0_off380 (v1704 : BitVec 32) : Fin 2 → Nat :=
  let c0_i32_821 : BitVec 32 := 0#32
  ![v1704.toNat, 0]

def k0_chk190 (v1704 : BitVec 32) : Prop :=
  (∀ a, (k0_off380 v1704) a + S1x768.size a ≤ S50257x768.size a)
instance k0_chk190.dec : ∀ (v1704 : BitVec 32), Decidable (k0_chk190 v1704) := fun v1704 => decidable_of_iff' _ (Iff.of_eq (k0_chk190.eq_1 v1704))
theorem k0_off380_inb : ∀ (v1704 : BitVec 32) (k0_hw190 : k0_chk190 v1704), ∀ a, (k0_off380 v1704) a + S1x768.size a ≤ S50257x768.size a := fun v1704 k0_hw190 => k0_hw190

def k0_off381 (i : grid0.Coords) : Fin 1 → Nat :=
  let arg0 : BitVec 32 := BitVec.ofNat 32 (i 0).val
  let c128_i32 : BitVec 32 := 128#32
  let v0 : BitVec 32 := Scalar.muli arg0 c128_i32
  let c62_i32_822 : BitVec 32 := 62#32
  let v1711 : BitVec 32 := Scalar.addi v0 c62_i32_822
  let v1712 : Index := Scalar.indexCast v1711
  ![v1712.toNat]
def k0_off382 (v1713 : BitVec 32) : Fin 2 → Nat :=
  let c0_i32_826 : BitVec 32 := 0#32
  ![v1713.toNat, 0]

def k0_chk191 (v1713 : BitVec 32) : Prop :=
  (∀ a, (k0_off382 v1713) a + S1x768.size a ≤ S50257x768.size a)
instance k0_chk191.dec : ∀ (v1713 : BitVec 32), Decidable (k0_chk191 v1713) := fun v1713 => decidable_of_iff' _ (Iff.of_eq (k0_chk191.eq_1 v1713))
theorem k0_off382_inb : ∀ (v1713 : BitVec 32) (k0_hw191 : k0_chk191 v1713), ∀ a, (k0_off382 v1713) a + S1x768.size a ≤ S50257x768.size a := fun v1713 k0_hw191 => k0_hw191

def k0_off383 (i : grid0.Coords) : Fin 1 → Nat :=
  let arg0 : BitVec 32 := BitVec.ofNat 32 (i 0).val
  let c128_i32 : BitVec 32 := 128#32
  let v0 : BitVec 32 := Scalar.muli arg0 c128_i32
  let c63_i32_827 : BitVec 32 := 63#32
  let v1720 : BitVec 32 := Scalar.addi v0 c63_i32_827
  let v1721 : Index := Scalar.indexCast v1720
  ![v1721.toNat]
def k0_off384 (v1722 : BitVec 32) : Fin 2 → Nat :=
  let c0_i32_831 : BitVec 32 := 0#32
  ![v1722.toNat, 0]

def k0_chk192 (v1722 : BitVec 32) : Prop :=
  (∀ a, (k0_off384 v1722) a + S1x768.size a ≤ S50257x768.size a)
instance k0_chk192.dec : ∀ (v1722 : BitVec 32), Decidable (k0_chk192 v1722) := fun v1722 => decidable_of_iff' _ (Iff.of_eq (k0_chk192.eq_1 v1722))
theorem k0_off384_inb : ∀ (v1722 : BitVec 32) (k0_hw192 : k0_chk192 v1722), ∀ a, (k0_off384 v1722) a + S1x768.size a ≤ S50257x768.size a := fun v1722 k0_hw192 => k0_hw192

def k0_off385 (i : grid0.Coords) : Fin 1 → Nat :=
  let arg0 : BitVec 32 := BitVec.ofNat 32 (i 0).val
  let c128_i32 : BitVec 32 := 128#32
  let v0 : BitVec 32 := Scalar.muli arg0 c128_i32
  let c64_i32_832 : BitVec 32 := 64#32
  let v1729 : BitVec 32 := Scalar.addi v0 c64_i32_832
  let v1730 : Index := Scalar.indexCast v1729
  ![v1730.toNat]
def k0_off386 (v1731 : BitVec 32) : Fin 2 → Nat :=
  let c0_i32_836 : BitVec 32 := 0#32
  ![v1731.toNat, 0]

def k0_chk193 (v1731 : BitVec 32) : Prop :=
  (∀ a, (k0_off386 v1731) a + S1x768.size a ≤ S50257x768.size a)
instance k0_chk193.dec : ∀ (v1731 : BitVec 32), Decidable (k0_chk193 v1731) := fun v1731 => decidable_of_iff' _ (Iff.of_eq (k0_chk193.eq_1 v1731))
theorem k0_off386_inb : ∀ (v1731 : BitVec 32) (k0_hw193 : k0_chk193 v1731), ∀ a, (k0_off386 v1731) a + S1x768.size a ≤ S50257x768.size a := fun v1731 k0_hw193 => k0_hw193

def k0_off387 (i : grid0.Coords) : Fin 1 → Nat :=
  let arg0 : BitVec 32 := BitVec.ofNat 32 (i 0).val
  let c128_i32 : BitVec 32 := 128#32
  let v0 : BitVec 32 := Scalar.muli arg0 c128_i32
  let c65_i32_837 : BitVec 32 := 65#32
  let v1738 : BitVec 32 := Scalar.addi v0 c65_i32_837
  let v1739 : Index := Scalar.indexCast v1738
  ![v1739.toNat]
def k0_off388 (v1740 : BitVec 32) : Fin 2 → Nat :=
  let c0_i32_841 : BitVec 32 := 0#32
  ![v1740.toNat, 0]

def k0_chk194 (v1740 : BitVec 32) : Prop :=
  (∀ a, (k0_off388 v1740) a + S1x768.size a ≤ S50257x768.size a)
instance k0_chk194.dec : ∀ (v1740 : BitVec 32), Decidable (k0_chk194 v1740) := fun v1740 => decidable_of_iff' _ (Iff.of_eq (k0_chk194.eq_1 v1740))
theorem k0_off388_inb : ∀ (v1740 : BitVec 32) (k0_hw194 : k0_chk194 v1740), ∀ a, (k0_off388 v1740) a + S1x768.size a ≤ S50257x768.size a := fun v1740 k0_hw194 => k0_hw194

def k0_off389 (i : grid0.Coords) : Fin 1 → Nat :=
  let arg0 : BitVec 32 := BitVec.ofNat 32 (i 0).val
  let c128_i32 : BitVec 32 := 128#32
  let v0 : BitVec 32 := Scalar.muli arg0 c128_i32
  let c66_i32_842 : BitVec 32 := 66#32
  let v1747 : BitVec 32 := Scalar.addi v0 c66_i32_842
  let v1748 : Index := Scalar.indexCast v1747
  ![v1748.toNat]
def k0_off390 (v1749 : BitVec 32) : Fin 2 → Nat :=
  let c0_i32_846 : BitVec 32 := 0#32
  ![v1749.toNat, 0]

def k0_chk195 (v1749 : BitVec 32) : Prop :=
  (∀ a, (k0_off390 v1749) a + S1x768.size a ≤ S50257x768.size a)
instance k0_chk195.dec : ∀ (v1749 : BitVec 32), Decidable (k0_chk195 v1749) := fun v1749 => decidable_of_iff' _ (Iff.of_eq (k0_chk195.eq_1 v1749))
theorem k0_off390_inb : ∀ (v1749 : BitVec 32) (k0_hw195 : k0_chk195 v1749), ∀ a, (k0_off390 v1749) a + S1x768.size a ≤ S50257x768.size a := fun v1749 k0_hw195 => k0_hw195

def k0_off391 (i : grid0.Coords) : Fin 1 → Nat :=
  let arg0 : BitVec 32 := BitVec.ofNat 32 (i 0).val
  let c128_i32 : BitVec 32 := 128#32
  let v0 : BitVec 32 := Scalar.muli arg0 c128_i32
  let c67_i32_847 : BitVec 32 := 67#32
  let v1756 : BitVec 32 := Scalar.addi v0 c67_i32_847
  let v1757 : Index := Scalar.indexCast v1756
  ![v1757.toNat]
def k0_off392 (v1758 : BitVec 32) : Fin 2 → Nat :=
  let c0_i32_851 : BitVec 32 := 0#32
  ![v1758.toNat, 0]

def k0_chk196 (v1758 : BitVec 32) : Prop :=
  (∀ a, (k0_off392 v1758) a + S1x768.size a ≤ S50257x768.size a)
instance k0_chk196.dec : ∀ (v1758 : BitVec 32), Decidable (k0_chk196 v1758) := fun v1758 => decidable_of_iff' _ (Iff.of_eq (k0_chk196.eq_1 v1758))
theorem k0_off392_inb : ∀ (v1758 : BitVec 32) (k0_hw196 : k0_chk196 v1758), ∀ a, (k0_off392 v1758) a + S1x768.size a ≤ S50257x768.size a := fun v1758 k0_hw196 => k0_hw196

def k0_off393 (i : grid0.Coords) : Fin 1 → Nat :=
  let arg0 : BitVec 32 := BitVec.ofNat 32 (i 0).val
  let c128_i32 : BitVec 32 := 128#32
  let v0 : BitVec 32 := Scalar.muli arg0 c128_i32
  let c68_i32_852 : BitVec 32 := 68#32
  let v1765 : BitVec 32 := Scalar.addi v0 c68_i32_852
  let v1766 : Index := Scalar.indexCast v1765
  ![v1766.toNat]
def k0_off394 (v1767 : BitVec 32) : Fin 2 → Nat :=
  let c0_i32_856 : BitVec 32 := 0#32
  ![v1767.toNat, 0]

def k0_chk197 (v1767 : BitVec 32) : Prop :=
  (∀ a, (k0_off394 v1767) a + S1x768.size a ≤ S50257x768.size a)
instance k0_chk197.dec : ∀ (v1767 : BitVec 32), Decidable (k0_chk197 v1767) := fun v1767 => decidable_of_iff' _ (Iff.of_eq (k0_chk197.eq_1 v1767))
theorem k0_off394_inb : ∀ (v1767 : BitVec 32) (k0_hw197 : k0_chk197 v1767), ∀ a, (k0_off394 v1767) a + S1x768.size a ≤ S50257x768.size a := fun v1767 k0_hw197 => k0_hw197

def k0_off395 (i : grid0.Coords) : Fin 1 → Nat :=
  let arg0 : BitVec 32 := BitVec.ofNat 32 (i 0).val
  let c128_i32 : BitVec 32 := 128#32
  let v0 : BitVec 32 := Scalar.muli arg0 c128_i32
  let c69_i32_857 : BitVec 32 := 69#32
  let v1774 : BitVec 32 := Scalar.addi v0 c69_i32_857
  let v1775 : Index := Scalar.indexCast v1774
  ![v1775.toNat]
def k0_off396 (v1776 : BitVec 32) : Fin 2 → Nat :=
  let c0_i32_861 : BitVec 32 := 0#32
  ![v1776.toNat, 0]

def k0_chk198 (v1776 : BitVec 32) : Prop :=
  (∀ a, (k0_off396 v1776) a + S1x768.size a ≤ S50257x768.size a)
instance k0_chk198.dec : ∀ (v1776 : BitVec 32), Decidable (k0_chk198 v1776) := fun v1776 => decidable_of_iff' _ (Iff.of_eq (k0_chk198.eq_1 v1776))
theorem k0_off396_inb : ∀ (v1776 : BitVec 32) (k0_hw198 : k0_chk198 v1776), ∀ a, (k0_off396 v1776) a + S1x768.size a ≤ S50257x768.size a := fun v1776 k0_hw198 => k0_hw198

def k0_off397 (i : grid0.Coords) : Fin 1 → Nat :=
  let arg0 : BitVec 32 := BitVec.ofNat 32 (i 0).val
  let c128_i32 : BitVec 32 := 128#32
  let v0 : BitVec 32 := Scalar.muli arg0 c128_i32
  let c70_i32_862 : BitVec 32 := 70#32
  let v1783 : BitVec 32 := Scalar.addi v0 c70_i32_862
  let v1784 : Index := Scalar.indexCast v1783
  ![v1784.toNat]
def k0_off398 (v1785 : BitVec 32) : Fin 2 → Nat :=
  let c0_i32_866 : BitVec 32 := 0#32
  ![v1785.toNat, 0]

def k0_chk199 (v1785 : BitVec 32) : Prop :=
  (∀ a, (k0_off398 v1785) a + S1x768.size a ≤ S50257x768.size a)
instance k0_chk199.dec : ∀ (v1785 : BitVec 32), Decidable (k0_chk199 v1785) := fun v1785 => decidable_of_iff' _ (Iff.of_eq (k0_chk199.eq_1 v1785))
theorem k0_off398_inb : ∀ (v1785 : BitVec 32) (k0_hw199 : k0_chk199 v1785), ∀ a, (k0_off398 v1785) a + S1x768.size a ≤ S50257x768.size a := fun v1785 k0_hw199 => k0_hw199

def k0_off399 (i : grid0.Coords) : Fin 1 → Nat :=
  let arg0 : BitVec 32 := BitVec.ofNat 32 (i 0).val
  let c128_i32 : BitVec 32 := 128#32
  let v0 : BitVec 32 := Scalar.muli arg0 c128_i32
  let c71_i32_867 : BitVec 32 := 71#32
  let v1792 : BitVec 32 := Scalar.addi v0 c71_i32_867
  let v1793 : Index := Scalar.indexCast v1792
  ![v1793.toNat]
def k0_off400 (v1794 : BitVec 32) : Fin 2 → Nat :=
  let c0_i32_871 : BitVec 32 := 0#32
  ![v1794.toNat, 0]

def k0_chk200 (v1794 : BitVec 32) : Prop :=
  (∀ a, (k0_off400 v1794) a + S1x768.size a ≤ S50257x768.size a)
instance k0_chk200.dec : ∀ (v1794 : BitVec 32), Decidable (k0_chk200 v1794) := fun v1794 => decidable_of_iff' _ (Iff.of_eq (k0_chk200.eq_1 v1794))
theorem k0_off400_inb : ∀ (v1794 : BitVec 32) (k0_hw200 : k0_chk200 v1794), ∀ a, (k0_off400 v1794) a + S1x768.size a ≤ S50257x768.size a := fun v1794 k0_hw200 => k0_hw200

def k0_off401 (i : grid0.Coords) : Fin 1 → Nat :=
  let arg0 : BitVec 32 := BitVec.ofNat 32 (i 0).val
  let c128_i32 : BitVec 32 := 128#32
  let v0 : BitVec 32 := Scalar.muli arg0 c128_i32
  let c72_i32_872 : BitVec 32 := 72#32
  let v1801 : BitVec 32 := Scalar.addi v0 c72_i32_872
  let v1802 : Index := Scalar.indexCast v1801
  ![v1802.toNat]
def k0_off402 (v1803 : BitVec 32) : Fin 2 → Nat :=
  let c0_i32_876 : BitVec 32 := 0#32
  ![v1803.toNat, 0]

def k0_chk201 (v1803 : BitVec 32) : Prop :=
  (∀ a, (k0_off402 v1803) a + S1x768.size a ≤ S50257x768.size a)
instance k0_chk201.dec : ∀ (v1803 : BitVec 32), Decidable (k0_chk201 v1803) := fun v1803 => decidable_of_iff' _ (Iff.of_eq (k0_chk201.eq_1 v1803))
theorem k0_off402_inb : ∀ (v1803 : BitVec 32) (k0_hw201 : k0_chk201 v1803), ∀ a, (k0_off402 v1803) a + S1x768.size a ≤ S50257x768.size a := fun v1803 k0_hw201 => k0_hw201

def k0_off403 (i : grid0.Coords) : Fin 1 → Nat :=
  let arg0 : BitVec 32 := BitVec.ofNat 32 (i 0).val
  let c128_i32 : BitVec 32 := 128#32
  let v0 : BitVec 32 := Scalar.muli arg0 c128_i32
  let c73_i32_877 : BitVec 32 := 73#32
  let v1810 : BitVec 32 := Scalar.addi v0 c73_i32_877
  let v1811 : Index := Scalar.indexCast v1810
  ![v1811.toNat]
def k0_off404 (v1812 : BitVec 32) : Fin 2 → Nat :=
  let c0_i32_881 : BitVec 32 := 0#32
  ![v1812.toNat, 0]

def k0_chk202 (v1812 : BitVec 32) : Prop :=
  (∀ a, (k0_off404 v1812) a + S1x768.size a ≤ S50257x768.size a)
instance k0_chk202.dec : ∀ (v1812 : BitVec 32), Decidable (k0_chk202 v1812) := fun v1812 => decidable_of_iff' _ (Iff.of_eq (k0_chk202.eq_1 v1812))
theorem k0_off404_inb : ∀ (v1812 : BitVec 32) (k0_hw202 : k0_chk202 v1812), ∀ a, (k0_off404 v1812) a + S1x768.size a ≤ S50257x768.size a := fun v1812 k0_hw202 => k0_hw202

def k0_off405 (i : grid0.Coords) : Fin 1 → Nat :=
  let arg0 : BitVec 32 := BitVec.ofNat 32 (i 0).val
  let c128_i32 : BitVec 32 := 128#32
  let v0 : BitVec 32 := Scalar.muli arg0 c128_i32
  let c74_i32_882 : BitVec 32 := 74#32
  let v1819 : BitVec 32 := Scalar.addi v0 c74_i32_882
  let v1820 : Index := Scalar.indexCast v1819
  ![v1820.toNat]
def k0_off406 (v1821 : BitVec 32) : Fin 2 → Nat :=
  let c0_i32_886 : BitVec 32 := 0#32
  ![v1821.toNat, 0]

def k0_chk203 (v1821 : BitVec 32) : Prop :=
  (∀ a, (k0_off406 v1821) a + S1x768.size a ≤ S50257x768.size a)
instance k0_chk203.dec : ∀ (v1821 : BitVec 32), Decidable (k0_chk203 v1821) := fun v1821 => decidable_of_iff' _ (Iff.of_eq (k0_chk203.eq_1 v1821))
theorem k0_off406_inb : ∀ (v1821 : BitVec 32) (k0_hw203 : k0_chk203 v1821), ∀ a, (k0_off406 v1821) a + S1x768.size a ≤ S50257x768.size a := fun v1821 k0_hw203 => k0_hw203

def k0_off407 (i : grid0.Coords) : Fin 1 → Nat :=
  let arg0 : BitVec 32 := BitVec.ofNat 32 (i 0).val
  let c128_i32 : BitVec 32 := 128#32
  let v0 : BitVec 32 := Scalar.muli arg0 c128_i32
  let c75_i32_887 : BitVec 32 := 75#32
  let v1828 : BitVec 32 := Scalar.addi v0 c75_i32_887
  let v1829 : Index := Scalar.indexCast v1828
  ![v1829.toNat]
def k0_off408 (v1830 : BitVec 32) : Fin 2 → Nat :=
  let c0_i32_891 : BitVec 32 := 0#32
  ![v1830.toNat, 0]

def k0_chk204 (v1830 : BitVec 32) : Prop :=
  (∀ a, (k0_off408 v1830) a + S1x768.size a ≤ S50257x768.size a)
instance k0_chk204.dec : ∀ (v1830 : BitVec 32), Decidable (k0_chk204 v1830) := fun v1830 => decidable_of_iff' _ (Iff.of_eq (k0_chk204.eq_1 v1830))
theorem k0_off408_inb : ∀ (v1830 : BitVec 32) (k0_hw204 : k0_chk204 v1830), ∀ a, (k0_off408 v1830) a + S1x768.size a ≤ S50257x768.size a := fun v1830 k0_hw204 => k0_hw204

def k0_off409 (i : grid0.Coords) : Fin 1 → Nat :=
  let arg0 : BitVec 32 := BitVec.ofNat 32 (i 0).val
  let c128_i32 : BitVec 32 := 128#32
  let v0 : BitVec 32 := Scalar.muli arg0 c128_i32
  let c76_i32_892 : BitVec 32 := 76#32
  let v1837 : BitVec 32 := Scalar.addi v0 c76_i32_892
  let v1838 : Index := Scalar.indexCast v1837
  ![v1838.toNat]
def k0_off410 (v1839 : BitVec 32) : Fin 2 → Nat :=
  let c0_i32_896 : BitVec 32 := 0#32
  ![v1839.toNat, 0]

def k0_chk205 (v1839 : BitVec 32) : Prop :=
  (∀ a, (k0_off410 v1839) a + S1x768.size a ≤ S50257x768.size a)
instance k0_chk205.dec : ∀ (v1839 : BitVec 32), Decidable (k0_chk205 v1839) := fun v1839 => decidable_of_iff' _ (Iff.of_eq (k0_chk205.eq_1 v1839))
theorem k0_off410_inb : ∀ (v1839 : BitVec 32) (k0_hw205 : k0_chk205 v1839), ∀ a, (k0_off410 v1839) a + S1x768.size a ≤ S50257x768.size a := fun v1839 k0_hw205 => k0_hw205

def k0_off411 (i : grid0.Coords) : Fin 1 → Nat :=
  let arg0 : BitVec 32 := BitVec.ofNat 32 (i 0).val
  let c128_i32 : BitVec 32 := 128#32
  let v0 : BitVec 32 := Scalar.muli arg0 c128_i32
  let c77_i32_897 : BitVec 32 := 77#32
  let v1846 : BitVec 32 := Scalar.addi v0 c77_i32_897
  let v1847 : Index := Scalar.indexCast v1846
  ![v1847.toNat]
def k0_off412 (v1848 : BitVec 32) : Fin 2 → Nat :=
  let c0_i32_901 : BitVec 32 := 0#32
  ![v1848.toNat, 0]

def k0_chk206 (v1848 : BitVec 32) : Prop :=
  (∀ a, (k0_off412 v1848) a + S1x768.size a ≤ S50257x768.size a)
instance k0_chk206.dec : ∀ (v1848 : BitVec 32), Decidable (k0_chk206 v1848) := fun v1848 => decidable_of_iff' _ (Iff.of_eq (k0_chk206.eq_1 v1848))
theorem k0_off412_inb : ∀ (v1848 : BitVec 32) (k0_hw206 : k0_chk206 v1848), ∀ a, (k0_off412 v1848) a + S1x768.size a ≤ S50257x768.size a := fun v1848 k0_hw206 => k0_hw206

def k0_off413 (i : grid0.Coords) : Fin 1 → Nat :=
  let arg0 : BitVec 32 := BitVec.ofNat 32 (i 0).val
  let c128_i32 : BitVec 32 := 128#32
  let v0 : BitVec 32 := Scalar.muli arg0 c128_i32
  let c78_i32_902 : BitVec 32 := 78#32
  let v1855 : BitVec 32 := Scalar.addi v0 c78_i32_902
  let v1856 : Index := Scalar.indexCast v1855
  ![v1856.toNat]
def k0_off414 (v1857 : BitVec 32) : Fin 2 → Nat :=
  let c0_i32_906 : BitVec 32 := 0#32
  ![v1857.toNat, 0]

def k0_chk207 (v1857 : BitVec 32) : Prop :=
  (∀ a, (k0_off414 v1857) a + S1x768.size a ≤ S50257x768.size a)
instance k0_chk207.dec : ∀ (v1857 : BitVec 32), Decidable (k0_chk207 v1857) := fun v1857 => decidable_of_iff' _ (Iff.of_eq (k0_chk207.eq_1 v1857))
theorem k0_off414_inb : ∀ (v1857 : BitVec 32) (k0_hw207 : k0_chk207 v1857), ∀ a, (k0_off414 v1857) a + S1x768.size a ≤ S50257x768.size a := fun v1857 k0_hw207 => k0_hw207

def k0_off415 (i : grid0.Coords) : Fin 1 → Nat :=
  let arg0 : BitVec 32 := BitVec.ofNat 32 (i 0).val
  let c128_i32 : BitVec 32 := 128#32
  let v0 : BitVec 32 := Scalar.muli arg0 c128_i32
  let c79_i32_907 : BitVec 32 := 79#32
  let v1864 : BitVec 32 := Scalar.addi v0 c79_i32_907
  let v1865 : Index := Scalar.indexCast v1864
  ![v1865.toNat]
def k0_off416 (v1866 : BitVec 32) : Fin 2 → Nat :=
  let c0_i32_911 : BitVec 32 := 0#32
  ![v1866.toNat, 0]

def k0_chk208 (v1866 : BitVec 32) : Prop :=
  (∀ a, (k0_off416 v1866) a + S1x768.size a ≤ S50257x768.size a)
instance k0_chk208.dec : ∀ (v1866 : BitVec 32), Decidable (k0_chk208 v1866) := fun v1866 => decidable_of_iff' _ (Iff.of_eq (k0_chk208.eq_1 v1866))
theorem k0_off416_inb : ∀ (v1866 : BitVec 32) (k0_hw208 : k0_chk208 v1866), ∀ a, (k0_off416 v1866) a + S1x768.size a ≤ S50257x768.size a := fun v1866 k0_hw208 => k0_hw208

def k0_off417 (i : grid0.Coords) : Fin 1 → Nat :=
  let arg0 : BitVec 32 := BitVec.ofNat 32 (i 0).val
  let c128_i32 : BitVec 32 := 128#32
  let v0 : BitVec 32 := Scalar.muli arg0 c128_i32
  let c80_i32_912 : BitVec 32 := 80#32
  let v1873 : BitVec 32 := Scalar.addi v0 c80_i32_912
  let v1874 : Index := Scalar.indexCast v1873
  ![v1874.toNat]
def k0_off418 (v1875 : BitVec 32) : Fin 2 → Nat :=
  let c0_i32_916 : BitVec 32 := 0#32
  ![v1875.toNat, 0]

def k0_chk209 (v1875 : BitVec 32) : Prop :=
  (∀ a, (k0_off418 v1875) a + S1x768.size a ≤ S50257x768.size a)
instance k0_chk209.dec : ∀ (v1875 : BitVec 32), Decidable (k0_chk209 v1875) := fun v1875 => decidable_of_iff' _ (Iff.of_eq (k0_chk209.eq_1 v1875))
theorem k0_off418_inb : ∀ (v1875 : BitVec 32) (k0_hw209 : k0_chk209 v1875), ∀ a, (k0_off418 v1875) a + S1x768.size a ≤ S50257x768.size a := fun v1875 k0_hw209 => k0_hw209

def k0_off419 (i : grid0.Coords) : Fin 1 → Nat :=
  let arg0 : BitVec 32 := BitVec.ofNat 32 (i 0).val
  let c128_i32 : BitVec 32 := 128#32
  let v0 : BitVec 32 := Scalar.muli arg0 c128_i32
  let c81_i32_917 : BitVec 32 := 81#32
  let v1882 : BitVec 32 := Scalar.addi v0 c81_i32_917
  let v1883 : Index := Scalar.indexCast v1882
  ![v1883.toNat]
def k0_off420 (v1884 : BitVec 32) : Fin 2 → Nat :=
  let c0_i32_921 : BitVec 32 := 0#32
  ![v1884.toNat, 0]

def k0_chk210 (v1884 : BitVec 32) : Prop :=
  (∀ a, (k0_off420 v1884) a + S1x768.size a ≤ S50257x768.size a)
instance k0_chk210.dec : ∀ (v1884 : BitVec 32), Decidable (k0_chk210 v1884) := fun v1884 => decidable_of_iff' _ (Iff.of_eq (k0_chk210.eq_1 v1884))
theorem k0_off420_inb : ∀ (v1884 : BitVec 32) (k0_hw210 : k0_chk210 v1884), ∀ a, (k0_off420 v1884) a + S1x768.size a ≤ S50257x768.size a := fun v1884 k0_hw210 => k0_hw210

def k0_off421 (i : grid0.Coords) : Fin 1 → Nat :=
  let arg0 : BitVec 32 := BitVec.ofNat 32 (i 0).val
  let c128_i32 : BitVec 32 := 128#32
  let v0 : BitVec 32 := Scalar.muli arg0 c128_i32
  let c82_i32_922 : BitVec 32 := 82#32
  let v1891 : BitVec 32 := Scalar.addi v0 c82_i32_922
  let v1892 : Index := Scalar.indexCast v1891
  ![v1892.toNat]
def k0_off422 (v1893 : BitVec 32) : Fin 2 → Nat :=
  let c0_i32_926 : BitVec 32 := 0#32
  ![v1893.toNat, 0]

def k0_chk211 (v1893 : BitVec 32) : Prop :=
  (∀ a, (k0_off422 v1893) a + S1x768.size a ≤ S50257x768.size a)
instance k0_chk211.dec : ∀ (v1893 : BitVec 32), Decidable (k0_chk211 v1893) := fun v1893 => decidable_of_iff' _ (Iff.of_eq (k0_chk211.eq_1 v1893))
theorem k0_off422_inb : ∀ (v1893 : BitVec 32) (k0_hw211 : k0_chk211 v1893), ∀ a, (k0_off422 v1893) a + S1x768.size a ≤ S50257x768.size a := fun v1893 k0_hw211 => k0_hw211

def k0_off423 (i : grid0.Coords) : Fin 1 → Nat :=
  let arg0 : BitVec 32 := BitVec.ofNat 32 (i 0).val
  let c128_i32 : BitVec 32 := 128#32
  let v0 : BitVec 32 := Scalar.muli arg0 c128_i32
  let c83_i32_927 : BitVec 32 := 83#32
  let v1900 : BitVec 32 := Scalar.addi v0 c83_i32_927
  let v1901 : Index := Scalar.indexCast v1900
  ![v1901.toNat]
def k0_off424 (v1902 : BitVec 32) : Fin 2 → Nat :=
  let c0_i32_931 : BitVec 32 := 0#32
  ![v1902.toNat, 0]

def k0_chk212 (v1902 : BitVec 32) : Prop :=
  (∀ a, (k0_off424 v1902) a + S1x768.size a ≤ S50257x768.size a)
instance k0_chk212.dec : ∀ (v1902 : BitVec 32), Decidable (k0_chk212 v1902) := fun v1902 => decidable_of_iff' _ (Iff.of_eq (k0_chk212.eq_1 v1902))
theorem k0_off424_inb : ∀ (v1902 : BitVec 32) (k0_hw212 : k0_chk212 v1902), ∀ a, (k0_off424 v1902) a + S1x768.size a ≤ S50257x768.size a := fun v1902 k0_hw212 => k0_hw212

def k0_off425 (i : grid0.Coords) : Fin 1 → Nat :=
  let arg0 : BitVec 32 := BitVec.ofNat 32 (i 0).val
  let c128_i32 : BitVec 32 := 128#32
  let v0 : BitVec 32 := Scalar.muli arg0 c128_i32
  let c84_i32_932 : BitVec 32 := 84#32
  let v1909 : BitVec 32 := Scalar.addi v0 c84_i32_932
  let v1910 : Index := Scalar.indexCast v1909
  ![v1910.toNat]
def k0_off426 (v1911 : BitVec 32) : Fin 2 → Nat :=
  let c0_i32_936 : BitVec 32 := 0#32
  ![v1911.toNat, 0]

def k0_chk213 (v1911 : BitVec 32) : Prop :=
  (∀ a, (k0_off426 v1911) a + S1x768.size a ≤ S50257x768.size a)
instance k0_chk213.dec : ∀ (v1911 : BitVec 32), Decidable (k0_chk213 v1911) := fun v1911 => decidable_of_iff' _ (Iff.of_eq (k0_chk213.eq_1 v1911))
theorem k0_off426_inb : ∀ (v1911 : BitVec 32) (k0_hw213 : k0_chk213 v1911), ∀ a, (k0_off426 v1911) a + S1x768.size a ≤ S50257x768.size a := fun v1911 k0_hw213 => k0_hw213

def k0_off427 (i : grid0.Coords) : Fin 1 → Nat :=
  let arg0 : BitVec 32 := BitVec.ofNat 32 (i 0).val
  let c128_i32 : BitVec 32 := 128#32
  let v0 : BitVec 32 := Scalar.muli arg0 c128_i32
  let c85_i32_937 : BitVec 32 := 85#32
  let v1918 : BitVec 32 := Scalar.addi v0 c85_i32_937
  let v1919 : Index := Scalar.indexCast v1918
  ![v1919.toNat]
def k0_off428 (v1920 : BitVec 32) : Fin 2 → Nat :=
  let c0_i32_941 : BitVec 32 := 0#32
  ![v1920.toNat, 0]

def k0_chk214 (v1920 : BitVec 32) : Prop :=
  (∀ a, (k0_off428 v1920) a + S1x768.size a ≤ S50257x768.size a)
instance k0_chk214.dec : ∀ (v1920 : BitVec 32), Decidable (k0_chk214 v1920) := fun v1920 => decidable_of_iff' _ (Iff.of_eq (k0_chk214.eq_1 v1920))
theorem k0_off428_inb : ∀ (v1920 : BitVec 32) (k0_hw214 : k0_chk214 v1920), ∀ a, (k0_off428 v1920) a + S1x768.size a ≤ S50257x768.size a := fun v1920 k0_hw214 => k0_hw214

def k0_off429 (i : grid0.Coords) : Fin 1 → Nat :=
  let arg0 : BitVec 32 := BitVec.ofNat 32 (i 0).val
  let c128_i32 : BitVec 32 := 128#32
  let v0 : BitVec 32 := Scalar.muli arg0 c128_i32
  let c86_i32_942 : BitVec 32 := 86#32
  let v1927 : BitVec 32 := Scalar.addi v0 c86_i32_942
  let v1928 : Index := Scalar.indexCast v1927
  ![v1928.toNat]
def k0_off430 (v1929 : BitVec 32) : Fin 2 → Nat :=
  let c0_i32_946 : BitVec 32 := 0#32
  ![v1929.toNat, 0]

def k0_chk215 (v1929 : BitVec 32) : Prop :=
  (∀ a, (k0_off430 v1929) a + S1x768.size a ≤ S50257x768.size a)
instance k0_chk215.dec : ∀ (v1929 : BitVec 32), Decidable (k0_chk215 v1929) := fun v1929 => decidable_of_iff' _ (Iff.of_eq (k0_chk215.eq_1 v1929))
theorem k0_off430_inb : ∀ (v1929 : BitVec 32) (k0_hw215 : k0_chk215 v1929), ∀ a, (k0_off430 v1929) a + S1x768.size a ≤ S50257x768.size a := fun v1929 k0_hw215 => k0_hw215

def k0_off431 (i : grid0.Coords) : Fin 1 → Nat :=
  let arg0 : BitVec 32 := BitVec.ofNat 32 (i 0).val
  let c128_i32 : BitVec 32 := 128#32
  let v0 : BitVec 32 := Scalar.muli arg0 c128_i32
  let c87_i32_947 : BitVec 32 := 87#32
  let v1936 : BitVec 32 := Scalar.addi v0 c87_i32_947
  let v1937 : Index := Scalar.indexCast v1936
  ![v1937.toNat]
def k0_off432 (v1938 : BitVec 32) : Fin 2 → Nat :=
  let c0_i32_951 : BitVec 32 := 0#32
  ![v1938.toNat, 0]

def k0_chk216 (v1938 : BitVec 32) : Prop :=
  (∀ a, (k0_off432 v1938) a + S1x768.size a ≤ S50257x768.size a)
instance k0_chk216.dec : ∀ (v1938 : BitVec 32), Decidable (k0_chk216 v1938) := fun v1938 => decidable_of_iff' _ (Iff.of_eq (k0_chk216.eq_1 v1938))
theorem k0_off432_inb : ∀ (v1938 : BitVec 32) (k0_hw216 : k0_chk216 v1938), ∀ a, (k0_off432 v1938) a + S1x768.size a ≤ S50257x768.size a := fun v1938 k0_hw216 => k0_hw216

def k0_off433 (i : grid0.Coords) : Fin 1 → Nat :=
  let arg0 : BitVec 32 := BitVec.ofNat 32 (i 0).val
  let c128_i32 : BitVec 32 := 128#32
  let v0 : BitVec 32 := Scalar.muli arg0 c128_i32
  let c88_i32_952 : BitVec 32 := 88#32
  let v1945 : BitVec 32 := Scalar.addi v0 c88_i32_952
  let v1946 : Index := Scalar.indexCast v1945
  ![v1946.toNat]
def k0_off434 (v1947 : BitVec 32) : Fin 2 → Nat :=
  let c0_i32_956 : BitVec 32 := 0#32
  ![v1947.toNat, 0]

def k0_chk217 (v1947 : BitVec 32) : Prop :=
  (∀ a, (k0_off434 v1947) a + S1x768.size a ≤ S50257x768.size a)
instance k0_chk217.dec : ∀ (v1947 : BitVec 32), Decidable (k0_chk217 v1947) := fun v1947 => decidable_of_iff' _ (Iff.of_eq (k0_chk217.eq_1 v1947))
theorem k0_off434_inb : ∀ (v1947 : BitVec 32) (k0_hw217 : k0_chk217 v1947), ∀ a, (k0_off434 v1947) a + S1x768.size a ≤ S50257x768.size a := fun v1947 k0_hw217 => k0_hw217

def k0_off435 (i : grid0.Coords) : Fin 1 → Nat :=
  let arg0 : BitVec 32 := BitVec.ofNat 32 (i 0).val
  let c128_i32 : BitVec 32 := 128#32
  let v0 : BitVec 32 := Scalar.muli arg0 c128_i32
  let c89_i32_957 : BitVec 32 := 89#32
  let v1954 : BitVec 32 := Scalar.addi v0 c89_i32_957
  let v1955 : Index := Scalar.indexCast v1954
  ![v1955.toNat]
def k0_off436 (v1956 : BitVec 32) : Fin 2 → Nat :=
  let c0_i32_961 : BitVec 32 := 0#32
  ![v1956.toNat, 0]

def k0_chk218 (v1956 : BitVec 32) : Prop :=
  (∀ a, (k0_off436 v1956) a + S1x768.size a ≤ S50257x768.size a)
instance k0_chk218.dec : ∀ (v1956 : BitVec 32), Decidable (k0_chk218 v1956) := fun v1956 => decidable_of_iff' _ (Iff.of_eq (k0_chk218.eq_1 v1956))
theorem k0_off436_inb : ∀ (v1956 : BitVec 32) (k0_hw218 : k0_chk218 v1956), ∀ a, (k0_off436 v1956) a + S1x768.size a ≤ S50257x768.size a := fun v1956 k0_hw218 => k0_hw218

def k0_off437 (i : grid0.Coords) : Fin 1 → Nat :=
  let arg0 : BitVec 32 := BitVec.ofNat 32 (i 0).val
  let c128_i32 : BitVec 32 := 128#32
  let v0 : BitVec 32 := Scalar.muli arg0 c128_i32
  let c90_i32_962 : BitVec 32 := 90#32
  let v1963 : BitVec 32 := Scalar.addi v0 c90_i32_962
  let v1964 : Index := Scalar.indexCast v1963
  ![v1964.toNat]
def k0_off438 (v1965 : BitVec 32) : Fin 2 → Nat :=
  let c0_i32_966 : BitVec 32 := 0#32
  ![v1965.toNat, 0]

def k0_chk219 (v1965 : BitVec 32) : Prop :=
  (∀ a, (k0_off438 v1965) a + S1x768.size a ≤ S50257x768.size a)
instance k0_chk219.dec : ∀ (v1965 : BitVec 32), Decidable (k0_chk219 v1965) := fun v1965 => decidable_of_iff' _ (Iff.of_eq (k0_chk219.eq_1 v1965))
theorem k0_off438_inb : ∀ (v1965 : BitVec 32) (k0_hw219 : k0_chk219 v1965), ∀ a, (k0_off438 v1965) a + S1x768.size a ≤ S50257x768.size a := fun v1965 k0_hw219 => k0_hw219

def k0_off439 (i : grid0.Coords) : Fin 1 → Nat :=
  let arg0 : BitVec 32 := BitVec.ofNat 32 (i 0).val
  let c128_i32 : BitVec 32 := 128#32
  let v0 : BitVec 32 := Scalar.muli arg0 c128_i32
  let c91_i32_967 : BitVec 32 := 91#32
  let v1972 : BitVec 32 := Scalar.addi v0 c91_i32_967
  let v1973 : Index := Scalar.indexCast v1972
  ![v1973.toNat]
def k0_off440 (v1974 : BitVec 32) : Fin 2 → Nat :=
  let c0_i32_971 : BitVec 32 := 0#32
  ![v1974.toNat, 0]

def k0_chk220 (v1974 : BitVec 32) : Prop :=
  (∀ a, (k0_off440 v1974) a + S1x768.size a ≤ S50257x768.size a)
instance k0_chk220.dec : ∀ (v1974 : BitVec 32), Decidable (k0_chk220 v1974) := fun v1974 => decidable_of_iff' _ (Iff.of_eq (k0_chk220.eq_1 v1974))
theorem k0_off440_inb : ∀ (v1974 : BitVec 32) (k0_hw220 : k0_chk220 v1974), ∀ a, (k0_off440 v1974) a + S1x768.size a ≤ S50257x768.size a := fun v1974 k0_hw220 => k0_hw220

def k0_off441 (i : grid0.Coords) : Fin 1 → Nat :=
  let arg0 : BitVec 32 := BitVec.ofNat 32 (i 0).val
  let c128_i32 : BitVec 32 := 128#32
  let v0 : BitVec 32 := Scalar.muli arg0 c128_i32
  let c92_i32_972 : BitVec 32 := 92#32
  let v1981 : BitVec 32 := Scalar.addi v0 c92_i32_972
  let v1982 : Index := Scalar.indexCast v1981
  ![v1982.toNat]
def k0_off442 (v1983 : BitVec 32) : Fin 2 → Nat :=
  let c0_i32_976 : BitVec 32 := 0#32
  ![v1983.toNat, 0]

def k0_chk221 (v1983 : BitVec 32) : Prop :=
  (∀ a, (k0_off442 v1983) a + S1x768.size a ≤ S50257x768.size a)
instance k0_chk221.dec : ∀ (v1983 : BitVec 32), Decidable (k0_chk221 v1983) := fun v1983 => decidable_of_iff' _ (Iff.of_eq (k0_chk221.eq_1 v1983))
theorem k0_off442_inb : ∀ (v1983 : BitVec 32) (k0_hw221 : k0_chk221 v1983), ∀ a, (k0_off442 v1983) a + S1x768.size a ≤ S50257x768.size a := fun v1983 k0_hw221 => k0_hw221

def k0_off443 (i : grid0.Coords) : Fin 1 → Nat :=
  let arg0 : BitVec 32 := BitVec.ofNat 32 (i 0).val
  let c128_i32 : BitVec 32 := 128#32
  let v0 : BitVec 32 := Scalar.muli arg0 c128_i32
  let c93_i32_977 : BitVec 32 := 93#32
  let v1990 : BitVec 32 := Scalar.addi v0 c93_i32_977
  let v1991 : Index := Scalar.indexCast v1990
  ![v1991.toNat]
def k0_off444 (v1992 : BitVec 32) : Fin 2 → Nat :=
  let c0_i32_981 : BitVec 32 := 0#32
  ![v1992.toNat, 0]

def k0_chk222 (v1992 : BitVec 32) : Prop :=
  (∀ a, (k0_off444 v1992) a + S1x768.size a ≤ S50257x768.size a)
instance k0_chk222.dec : ∀ (v1992 : BitVec 32), Decidable (k0_chk222 v1992) := fun v1992 => decidable_of_iff' _ (Iff.of_eq (k0_chk222.eq_1 v1992))
theorem k0_off444_inb : ∀ (v1992 : BitVec 32) (k0_hw222 : k0_chk222 v1992), ∀ a, (k0_off444 v1992) a + S1x768.size a ≤ S50257x768.size a := fun v1992 k0_hw222 => k0_hw222

def k0_off445 (i : grid0.Coords) : Fin 1 → Nat :=
  let arg0 : BitVec 32 := BitVec.ofNat 32 (i 0).val
  let c128_i32 : BitVec 32 := 128#32
  let v0 : BitVec 32 := Scalar.muli arg0 c128_i32
  let c94_i32_982 : BitVec 32 := 94#32
  let v1999 : BitVec 32 := Scalar.addi v0 c94_i32_982
  let v2000 : Index := Scalar.indexCast v1999
  ![v2000.toNat]
def k0_off446 (v2001 : BitVec 32) : Fin 2 → Nat :=
  let c0_i32_986 : BitVec 32 := 0#32
  ![v2001.toNat, 0]

def k0_chk223 (v2001 : BitVec 32) : Prop :=
  (∀ a, (k0_off446 v2001) a + S1x768.size a ≤ S50257x768.size a)
instance k0_chk223.dec : ∀ (v2001 : BitVec 32), Decidable (k0_chk223 v2001) := fun v2001 => decidable_of_iff' _ (Iff.of_eq (k0_chk223.eq_1 v2001))
theorem k0_off446_inb : ∀ (v2001 : BitVec 32) (k0_hw223 : k0_chk223 v2001), ∀ a, (k0_off446 v2001) a + S1x768.size a ≤ S50257x768.size a := fun v2001 k0_hw223 => k0_hw223

def k0_off447 (i : grid0.Coords) : Fin 1 → Nat :=
  let arg0 : BitVec 32 := BitVec.ofNat 32 (i 0).val
  let c128_i32 : BitVec 32 := 128#32
  let v0 : BitVec 32 := Scalar.muli arg0 c128_i32
  let c95_i32_987 : BitVec 32 := 95#32
  let v2008 : BitVec 32 := Scalar.addi v0 c95_i32_987
  let v2009 : Index := Scalar.indexCast v2008
  ![v2009.toNat]
def k0_off448 (v2010 : BitVec 32) : Fin 2 → Nat :=
  let c0_i32_991 : BitVec 32 := 0#32
  ![v2010.toNat, 0]

def k0_chk224 (v2010 : BitVec 32) : Prop :=
  (∀ a, (k0_off448 v2010) a + S1x768.size a ≤ S50257x768.size a)
instance k0_chk224.dec : ∀ (v2010 : BitVec 32), Decidable (k0_chk224 v2010) := fun v2010 => decidable_of_iff' _ (Iff.of_eq (k0_chk224.eq_1 v2010))
theorem k0_off448_inb : ∀ (v2010 : BitVec 32) (k0_hw224 : k0_chk224 v2010), ∀ a, (k0_off448 v2010) a + S1x768.size a ≤ S50257x768.size a := fun v2010 k0_hw224 => k0_hw224

def k0_off449 (i : grid0.Coords) : Fin 1 → Nat :=
  let arg0 : BitVec 32 := BitVec.ofNat 32 (i 0).val
  let c128_i32 : BitVec 32 := 128#32
  let v0 : BitVec 32 := Scalar.muli arg0 c128_i32
  let c96_i32_992 : BitVec 32 := 96#32
  let v2017 : BitVec 32 := Scalar.addi v0 c96_i32_992
  let v2018 : Index := Scalar.indexCast v2017
  ![v2018.toNat]
def k0_off450 (v2019 : BitVec 32) : Fin 2 → Nat :=
  let c0_i32_996 : BitVec 32 := 0#32
  ![v2019.toNat, 0]

def k0_chk225 (v2019 : BitVec 32) : Prop :=
  (∀ a, (k0_off450 v2019) a + S1x768.size a ≤ S50257x768.size a)
instance k0_chk225.dec : ∀ (v2019 : BitVec 32), Decidable (k0_chk225 v2019) := fun v2019 => decidable_of_iff' _ (Iff.of_eq (k0_chk225.eq_1 v2019))
theorem k0_off450_inb : ∀ (v2019 : BitVec 32) (k0_hw225 : k0_chk225 v2019), ∀ a, (k0_off450 v2019) a + S1x768.size a ≤ S50257x768.size a := fun v2019 k0_hw225 => k0_hw225

def k0_off451 (i : grid0.Coords) : Fin 1 → Nat :=
  let arg0 : BitVec 32 := BitVec.ofNat 32 (i 0).val
  let c128_i32 : BitVec 32 := 128#32
  let v0 : BitVec 32 := Scalar.muli arg0 c128_i32
  let c97_i32_997 : BitVec 32 := 97#32
  let v2026 : BitVec 32 := Scalar.addi v0 c97_i32_997
  let v2027 : Index := Scalar.indexCast v2026
  ![v2027.toNat]
def k0_off452 (v2028 : BitVec 32) : Fin 2 → Nat :=
  let c0_i32_1001 : BitVec 32 := 0#32
  ![v2028.toNat, 0]

def k0_chk226 (v2028 : BitVec 32) : Prop :=
  (∀ a, (k0_off452 v2028) a + S1x768.size a ≤ S50257x768.size a)
instance k0_chk226.dec : ∀ (v2028 : BitVec 32), Decidable (k0_chk226 v2028) := fun v2028 => decidable_of_iff' _ (Iff.of_eq (k0_chk226.eq_1 v2028))
theorem k0_off452_inb : ∀ (v2028 : BitVec 32) (k0_hw226 : k0_chk226 v2028), ∀ a, (k0_off452 v2028) a + S1x768.size a ≤ S50257x768.size a := fun v2028 k0_hw226 => k0_hw226

def k0_off453 (i : grid0.Coords) : Fin 1 → Nat :=
  let arg0 : BitVec 32 := BitVec.ofNat 32 (i 0).val
  let c128_i32 : BitVec 32 := 128#32
  let v0 : BitVec 32 := Scalar.muli arg0 c128_i32
  let c98_i32_1002 : BitVec 32 := 98#32
  let v2035 : BitVec 32 := Scalar.addi v0 c98_i32_1002
  let v2036 : Index := Scalar.indexCast v2035
  ![v2036.toNat]
def k0_off454 (v2037 : BitVec 32) : Fin 2 → Nat :=
  let c0_i32_1006 : BitVec 32 := 0#32
  ![v2037.toNat, 0]

def k0_chk227 (v2037 : BitVec 32) : Prop :=
  (∀ a, (k0_off454 v2037) a + S1x768.size a ≤ S50257x768.size a)
instance k0_chk227.dec : ∀ (v2037 : BitVec 32), Decidable (k0_chk227 v2037) := fun v2037 => decidable_of_iff' _ (Iff.of_eq (k0_chk227.eq_1 v2037))
theorem k0_off454_inb : ∀ (v2037 : BitVec 32) (k0_hw227 : k0_chk227 v2037), ∀ a, (k0_off454 v2037) a + S1x768.size a ≤ S50257x768.size a := fun v2037 k0_hw227 => k0_hw227

def k0_off455 (i : grid0.Coords) : Fin 1 → Nat :=
  let arg0 : BitVec 32 := BitVec.ofNat 32 (i 0).val
  let c128_i32 : BitVec 32 := 128#32
  let v0 : BitVec 32 := Scalar.muli arg0 c128_i32
  let c99_i32_1007 : BitVec 32 := 99#32
  let v2044 : BitVec 32 := Scalar.addi v0 c99_i32_1007
  let v2045 : Index := Scalar.indexCast v2044
  ![v2045.toNat]
def k0_off456 (v2046 : BitVec 32) : Fin 2 → Nat :=
  let c0_i32_1011 : BitVec 32 := 0#32
  ![v2046.toNat, 0]

def k0_chk228 (v2046 : BitVec 32) : Prop :=
  (∀ a, (k0_off456 v2046) a + S1x768.size a ≤ S50257x768.size a)
instance k0_chk228.dec : ∀ (v2046 : BitVec 32), Decidable (k0_chk228 v2046) := fun v2046 => decidable_of_iff' _ (Iff.of_eq (k0_chk228.eq_1 v2046))
theorem k0_off456_inb : ∀ (v2046 : BitVec 32) (k0_hw228 : k0_chk228 v2046), ∀ a, (k0_off456 v2046) a + S1x768.size a ≤ S50257x768.size a := fun v2046 k0_hw228 => k0_hw228

def k0_off457 (i : grid0.Coords) : Fin 1 → Nat :=
  let arg0 : BitVec 32 := BitVec.ofNat 32 (i 0).val
  let c128_i32 : BitVec 32 := 128#32
  let v0 : BitVec 32 := Scalar.muli arg0 c128_i32
  let c100_i32_1012 : BitVec 32 := 100#32
  let v2053 : BitVec 32 := Scalar.addi v0 c100_i32_1012
  let v2054 : Index := Scalar.indexCast v2053
  ![v2054.toNat]
def k0_off458 (v2055 : BitVec 32) : Fin 2 → Nat :=
  let c0_i32_1016 : BitVec 32 := 0#32
  ![v2055.toNat, 0]

def k0_chk229 (v2055 : BitVec 32) : Prop :=
  (∀ a, (k0_off458 v2055) a + S1x768.size a ≤ S50257x768.size a)
instance k0_chk229.dec : ∀ (v2055 : BitVec 32), Decidable (k0_chk229 v2055) := fun v2055 => decidable_of_iff' _ (Iff.of_eq (k0_chk229.eq_1 v2055))
theorem k0_off458_inb : ∀ (v2055 : BitVec 32) (k0_hw229 : k0_chk229 v2055), ∀ a, (k0_off458 v2055) a + S1x768.size a ≤ S50257x768.size a := fun v2055 k0_hw229 => k0_hw229

def k0_off459 (i : grid0.Coords) : Fin 1 → Nat :=
  let arg0 : BitVec 32 := BitVec.ofNat 32 (i 0).val
  let c128_i32 : BitVec 32 := 128#32
  let v0 : BitVec 32 := Scalar.muli arg0 c128_i32
  let c101_i32_1017 : BitVec 32 := 101#32
  let v2062 : BitVec 32 := Scalar.addi v0 c101_i32_1017
  let v2063 : Index := Scalar.indexCast v2062
  ![v2063.toNat]
def k0_off460 (v2064 : BitVec 32) : Fin 2 → Nat :=
  let c0_i32_1021 : BitVec 32 := 0#32
  ![v2064.toNat, 0]

def k0_chk230 (v2064 : BitVec 32) : Prop :=
  (∀ a, (k0_off460 v2064) a + S1x768.size a ≤ S50257x768.size a)
instance k0_chk230.dec : ∀ (v2064 : BitVec 32), Decidable (k0_chk230 v2064) := fun v2064 => decidable_of_iff' _ (Iff.of_eq (k0_chk230.eq_1 v2064))
theorem k0_off460_inb : ∀ (v2064 : BitVec 32) (k0_hw230 : k0_chk230 v2064), ∀ a, (k0_off460 v2064) a + S1x768.size a ≤ S50257x768.size a := fun v2064 k0_hw230 => k0_hw230

def k0_off461 (i : grid0.Coords) : Fin 1 → Nat :=
  let arg0 : BitVec 32 := BitVec.ofNat 32 (i 0).val
  let c128_i32 : BitVec 32 := 128#32
  let v0 : BitVec 32 := Scalar.muli arg0 c128_i32
  let c102_i32_1022 : BitVec 32 := 102#32
  let v2071 : BitVec 32 := Scalar.addi v0 c102_i32_1022
  let v2072 : Index := Scalar.indexCast v2071
  ![v2072.toNat]
def k0_off462 (v2073 : BitVec 32) : Fin 2 → Nat :=
  let c0_i32_1026 : BitVec 32 := 0#32
  ![v2073.toNat, 0]

def k0_chk231 (v2073 : BitVec 32) : Prop :=
  (∀ a, (k0_off462 v2073) a + S1x768.size a ≤ S50257x768.size a)
instance k0_chk231.dec : ∀ (v2073 : BitVec 32), Decidable (k0_chk231 v2073) := fun v2073 => decidable_of_iff' _ (Iff.of_eq (k0_chk231.eq_1 v2073))
theorem k0_off462_inb : ∀ (v2073 : BitVec 32) (k0_hw231 : k0_chk231 v2073), ∀ a, (k0_off462 v2073) a + S1x768.size a ≤ S50257x768.size a := fun v2073 k0_hw231 => k0_hw231

def k0_off463 (i : grid0.Coords) : Fin 1 → Nat :=
  let arg0 : BitVec 32 := BitVec.ofNat 32 (i 0).val
  let c128_i32 : BitVec 32 := 128#32
  let v0 : BitVec 32 := Scalar.muli arg0 c128_i32
  let c103_i32_1027 : BitVec 32 := 103#32
  let v2080 : BitVec 32 := Scalar.addi v0 c103_i32_1027
  let v2081 : Index := Scalar.indexCast v2080
  ![v2081.toNat]
def k0_off464 (v2082 : BitVec 32) : Fin 2 → Nat :=
  let c0_i32_1031 : BitVec 32 := 0#32
  ![v2082.toNat, 0]

def k0_chk232 (v2082 : BitVec 32) : Prop :=
  (∀ a, (k0_off464 v2082) a + S1x768.size a ≤ S50257x768.size a)
instance k0_chk232.dec : ∀ (v2082 : BitVec 32), Decidable (k0_chk232 v2082) := fun v2082 => decidable_of_iff' _ (Iff.of_eq (k0_chk232.eq_1 v2082))
theorem k0_off464_inb : ∀ (v2082 : BitVec 32) (k0_hw232 : k0_chk232 v2082), ∀ a, (k0_off464 v2082) a + S1x768.size a ≤ S50257x768.size a := fun v2082 k0_hw232 => k0_hw232

def k0_off465 (i : grid0.Coords) : Fin 1 → Nat :=
  let arg0 : BitVec 32 := BitVec.ofNat 32 (i 0).val
  let c128_i32 : BitVec 32 := 128#32
  let v0 : BitVec 32 := Scalar.muli arg0 c128_i32
  let c104_i32_1032 : BitVec 32 := 104#32
  let v2089 : BitVec 32 := Scalar.addi v0 c104_i32_1032
  let v2090 : Index := Scalar.indexCast v2089
  ![v2090.toNat]
def k0_off466 (v2091 : BitVec 32) : Fin 2 → Nat :=
  let c0_i32_1036 : BitVec 32 := 0#32
  ![v2091.toNat, 0]

def k0_chk233 (v2091 : BitVec 32) : Prop :=
  (∀ a, (k0_off466 v2091) a + S1x768.size a ≤ S50257x768.size a)
instance k0_chk233.dec : ∀ (v2091 : BitVec 32), Decidable (k0_chk233 v2091) := fun v2091 => decidable_of_iff' _ (Iff.of_eq (k0_chk233.eq_1 v2091))
theorem k0_off466_inb : ∀ (v2091 : BitVec 32) (k0_hw233 : k0_chk233 v2091), ∀ a, (k0_off466 v2091) a + S1x768.size a ≤ S50257x768.size a := fun v2091 k0_hw233 => k0_hw233

def k0_off467 (i : grid0.Coords) : Fin 1 → Nat :=
  let arg0 : BitVec 32 := BitVec.ofNat 32 (i 0).val
  let c128_i32 : BitVec 32 := 128#32
  let v0 : BitVec 32 := Scalar.muli arg0 c128_i32
  let c105_i32_1037 : BitVec 32 := 105#32
  let v2098 : BitVec 32 := Scalar.addi v0 c105_i32_1037
  let v2099 : Index := Scalar.indexCast v2098
  ![v2099.toNat]
def k0_off468 (v2100 : BitVec 32) : Fin 2 → Nat :=
  let c0_i32_1041 : BitVec 32 := 0#32
  ![v2100.toNat, 0]

def k0_chk234 (v2100 : BitVec 32) : Prop :=
  (∀ a, (k0_off468 v2100) a + S1x768.size a ≤ S50257x768.size a)
instance k0_chk234.dec : ∀ (v2100 : BitVec 32), Decidable (k0_chk234 v2100) := fun v2100 => decidable_of_iff' _ (Iff.of_eq (k0_chk234.eq_1 v2100))
theorem k0_off468_inb : ∀ (v2100 : BitVec 32) (k0_hw234 : k0_chk234 v2100), ∀ a, (k0_off468 v2100) a + S1x768.size a ≤ S50257x768.size a := fun v2100 k0_hw234 => k0_hw234

def k0_off469 (i : grid0.Coords) : Fin 1 → Nat :=
  let arg0 : BitVec 32 := BitVec.ofNat 32 (i 0).val
  let c128_i32 : BitVec 32 := 128#32
  let v0 : BitVec 32 := Scalar.muli arg0 c128_i32
  let c106_i32_1042 : BitVec 32 := 106#32
  let v2107 : BitVec 32 := Scalar.addi v0 c106_i32_1042
  let v2108 : Index := Scalar.indexCast v2107
  ![v2108.toNat]
def k0_off470 (v2109 : BitVec 32) : Fin 2 → Nat :=
  let c0_i32_1046 : BitVec 32 := 0#32
  ![v2109.toNat, 0]

def k0_chk235 (v2109 : BitVec 32) : Prop :=
  (∀ a, (k0_off470 v2109) a + S1x768.size a ≤ S50257x768.size a)
instance k0_chk235.dec : ∀ (v2109 : BitVec 32), Decidable (k0_chk235 v2109) := fun v2109 => decidable_of_iff' _ (Iff.of_eq (k0_chk235.eq_1 v2109))
theorem k0_off470_inb : ∀ (v2109 : BitVec 32) (k0_hw235 : k0_chk235 v2109), ∀ a, (k0_off470 v2109) a + S1x768.size a ≤ S50257x768.size a := fun v2109 k0_hw235 => k0_hw235

def k0_off471 (i : grid0.Coords) : Fin 1 → Nat :=
  let arg0 : BitVec 32 := BitVec.ofNat 32 (i 0).val
  let c128_i32 : BitVec 32 := 128#32
  let v0 : BitVec 32 := Scalar.muli arg0 c128_i32
  let c107_i32_1047 : BitVec 32 := 107#32
  let v2116 : BitVec 32 := Scalar.addi v0 c107_i32_1047
  let v2117 : Index := Scalar.indexCast v2116
  ![v2117.toNat]
def k0_off472 (v2118 : BitVec 32) : Fin 2 → Nat :=
  let c0_i32_1051 : BitVec 32 := 0#32
  ![v2118.toNat, 0]

def k0_chk236 (v2118 : BitVec 32) : Prop :=
  (∀ a, (k0_off472 v2118) a + S1x768.size a ≤ S50257x768.size a)
instance k0_chk236.dec : ∀ (v2118 : BitVec 32), Decidable (k0_chk236 v2118) := fun v2118 => decidable_of_iff' _ (Iff.of_eq (k0_chk236.eq_1 v2118))
theorem k0_off472_inb : ∀ (v2118 : BitVec 32) (k0_hw236 : k0_chk236 v2118), ∀ a, (k0_off472 v2118) a + S1x768.size a ≤ S50257x768.size a := fun v2118 k0_hw236 => k0_hw236

def k0_off473 (i : grid0.Coords) : Fin 1 → Nat :=
  let arg0 : BitVec 32 := BitVec.ofNat 32 (i 0).val
  let c128_i32 : BitVec 32 := 128#32
  let v0 : BitVec 32 := Scalar.muli arg0 c128_i32
  let c108_i32_1052 : BitVec 32 := 108#32
  let v2125 : BitVec 32 := Scalar.addi v0 c108_i32_1052
  let v2126 : Index := Scalar.indexCast v2125
  ![v2126.toNat]
def k0_off474 (v2127 : BitVec 32) : Fin 2 → Nat :=
  let c0_i32_1056 : BitVec 32 := 0#32
  ![v2127.toNat, 0]

def k0_chk237 (v2127 : BitVec 32) : Prop :=
  (∀ a, (k0_off474 v2127) a + S1x768.size a ≤ S50257x768.size a)
instance k0_chk237.dec : ∀ (v2127 : BitVec 32), Decidable (k0_chk237 v2127) := fun v2127 => decidable_of_iff' _ (Iff.of_eq (k0_chk237.eq_1 v2127))
theorem k0_off474_inb : ∀ (v2127 : BitVec 32) (k0_hw237 : k0_chk237 v2127), ∀ a, (k0_off474 v2127) a + S1x768.size a ≤ S50257x768.size a := fun v2127 k0_hw237 => k0_hw237

def k0_off475 (i : grid0.Coords) : Fin 1 → Nat :=
  let arg0 : BitVec 32 := BitVec.ofNat 32 (i 0).val
  let c128_i32 : BitVec 32 := 128#32
  let v0 : BitVec 32 := Scalar.muli arg0 c128_i32
  let c109_i32_1057 : BitVec 32 := 109#32
  let v2134 : BitVec 32 := Scalar.addi v0 c109_i32_1057
  let v2135 : Index := Scalar.indexCast v2134
  ![v2135.toNat]
def k0_off476 (v2136 : BitVec 32) : Fin 2 → Nat :=
  let c0_i32_1061 : BitVec 32 := 0#32
  ![v2136.toNat, 0]

def k0_chk238 (v2136 : BitVec 32) : Prop :=
  (∀ a, (k0_off476 v2136) a + S1x768.size a ≤ S50257x768.size a)
instance k0_chk238.dec : ∀ (v2136 : BitVec 32), Decidable (k0_chk238 v2136) := fun v2136 => decidable_of_iff' _ (Iff.of_eq (k0_chk238.eq_1 v2136))
theorem k0_off476_inb : ∀ (v2136 : BitVec 32) (k0_hw238 : k0_chk238 v2136), ∀ a, (k0_off476 v2136) a + S1x768.size a ≤ S50257x768.size a := fun v2136 k0_hw238 => k0_hw238

def k0_off477 (i : grid0.Coords) : Fin 1 → Nat :=
  let arg0 : BitVec 32 := BitVec.ofNat 32 (i 0).val
  let c128_i32 : BitVec 32 := 128#32
  let v0 : BitVec 32 := Scalar.muli arg0 c128_i32
  let c110_i32_1062 : BitVec 32 := 110#32
  let v2143 : BitVec 32 := Scalar.addi v0 c110_i32_1062
  let v2144 : Index := Scalar.indexCast v2143
  ![v2144.toNat]
def k0_off478 (v2145 : BitVec 32) : Fin 2 → Nat :=
  let c0_i32_1066 : BitVec 32 := 0#32
  ![v2145.toNat, 0]

def k0_chk239 (v2145 : BitVec 32) : Prop :=
  (∀ a, (k0_off478 v2145) a + S1x768.size a ≤ S50257x768.size a)
instance k0_chk239.dec : ∀ (v2145 : BitVec 32), Decidable (k0_chk239 v2145) := fun v2145 => decidable_of_iff' _ (Iff.of_eq (k0_chk239.eq_1 v2145))
theorem k0_off478_inb : ∀ (v2145 : BitVec 32) (k0_hw239 : k0_chk239 v2145), ∀ a, (k0_off478 v2145) a + S1x768.size a ≤ S50257x768.size a := fun v2145 k0_hw239 => k0_hw239

def k0_off479 (i : grid0.Coords) : Fin 1 → Nat :=
  let arg0 : BitVec 32 := BitVec.ofNat 32 (i 0).val
  let c128_i32 : BitVec 32 := 128#32
  let v0 : BitVec 32 := Scalar.muli arg0 c128_i32
  let c111_i32_1067 : BitVec 32 := 111#32
  let v2152 : BitVec 32 := Scalar.addi v0 c111_i32_1067
  let v2153 : Index := Scalar.indexCast v2152
  ![v2153.toNat]
def k0_off480 (v2154 : BitVec 32) : Fin 2 → Nat :=
  let c0_i32_1071 : BitVec 32 := 0#32
  ![v2154.toNat, 0]

def k0_chk240 (v2154 : BitVec 32) : Prop :=
  (∀ a, (k0_off480 v2154) a + S1x768.size a ≤ S50257x768.size a)
instance k0_chk240.dec : ∀ (v2154 : BitVec 32), Decidable (k0_chk240 v2154) := fun v2154 => decidable_of_iff' _ (Iff.of_eq (k0_chk240.eq_1 v2154))
theorem k0_off480_inb : ∀ (v2154 : BitVec 32) (k0_hw240 : k0_chk240 v2154), ∀ a, (k0_off480 v2154) a + S1x768.size a ≤ S50257x768.size a := fun v2154 k0_hw240 => k0_hw240

def k0_off481 (i : grid0.Coords) : Fin 1 → Nat :=
  let arg0 : BitVec 32 := BitVec.ofNat 32 (i 0).val
  let c128_i32 : BitVec 32 := 128#32
  let v0 : BitVec 32 := Scalar.muli arg0 c128_i32
  let c112_i32_1072 : BitVec 32 := 112#32
  let v2161 : BitVec 32 := Scalar.addi v0 c112_i32_1072
  let v2162 : Index := Scalar.indexCast v2161
  ![v2162.toNat]
def k0_off482 (v2163 : BitVec 32) : Fin 2 → Nat :=
  let c0_i32_1076 : BitVec 32 := 0#32
  ![v2163.toNat, 0]

def k0_chk241 (v2163 : BitVec 32) : Prop :=
  (∀ a, (k0_off482 v2163) a + S1x768.size a ≤ S50257x768.size a)
instance k0_chk241.dec : ∀ (v2163 : BitVec 32), Decidable (k0_chk241 v2163) := fun v2163 => decidable_of_iff' _ (Iff.of_eq (k0_chk241.eq_1 v2163))
theorem k0_off482_inb : ∀ (v2163 : BitVec 32) (k0_hw241 : k0_chk241 v2163), ∀ a, (k0_off482 v2163) a + S1x768.size a ≤ S50257x768.size a := fun v2163 k0_hw241 => k0_hw241

def k0_off483 (i : grid0.Coords) : Fin 1 → Nat :=
  let arg0 : BitVec 32 := BitVec.ofNat 32 (i 0).val
  let c128_i32 : BitVec 32 := 128#32
  let v0 : BitVec 32 := Scalar.muli arg0 c128_i32
  let c113_i32_1077 : BitVec 32 := 113#32
  let v2170 : BitVec 32 := Scalar.addi v0 c113_i32_1077
  let v2171 : Index := Scalar.indexCast v2170
  ![v2171.toNat]
def k0_off484 (v2172 : BitVec 32) : Fin 2 → Nat :=
  let c0_i32_1081 : BitVec 32 := 0#32
  ![v2172.toNat, 0]

def k0_chk242 (v2172 : BitVec 32) : Prop :=
  (∀ a, (k0_off484 v2172) a + S1x768.size a ≤ S50257x768.size a)
instance k0_chk242.dec : ∀ (v2172 : BitVec 32), Decidable (k0_chk242 v2172) := fun v2172 => decidable_of_iff' _ (Iff.of_eq (k0_chk242.eq_1 v2172))
theorem k0_off484_inb : ∀ (v2172 : BitVec 32) (k0_hw242 : k0_chk242 v2172), ∀ a, (k0_off484 v2172) a + S1x768.size a ≤ S50257x768.size a := fun v2172 k0_hw242 => k0_hw242

def k0_off485 (i : grid0.Coords) : Fin 1 → Nat :=
  let arg0 : BitVec 32 := BitVec.ofNat 32 (i 0).val
  let c128_i32 : BitVec 32 := 128#32
  let v0 : BitVec 32 := Scalar.muli arg0 c128_i32
  let c114_i32_1082 : BitVec 32 := 114#32
  let v2179 : BitVec 32 := Scalar.addi v0 c114_i32_1082
  let v2180 : Index := Scalar.indexCast v2179
  ![v2180.toNat]
def k0_off486 (v2181 : BitVec 32) : Fin 2 → Nat :=
  let c0_i32_1086 : BitVec 32 := 0#32
  ![v2181.toNat, 0]

def k0_chk243 (v2181 : BitVec 32) : Prop :=
  (∀ a, (k0_off486 v2181) a + S1x768.size a ≤ S50257x768.size a)
instance k0_chk243.dec : ∀ (v2181 : BitVec 32), Decidable (k0_chk243 v2181) := fun v2181 => decidable_of_iff' _ (Iff.of_eq (k0_chk243.eq_1 v2181))
theorem k0_off486_inb : ∀ (v2181 : BitVec 32) (k0_hw243 : k0_chk243 v2181), ∀ a, (k0_off486 v2181) a + S1x768.size a ≤ S50257x768.size a := fun v2181 k0_hw243 => k0_hw243

def k0_off487 (i : grid0.Coords) : Fin 1 → Nat :=
  let arg0 : BitVec 32 := BitVec.ofNat 32 (i 0).val
  let c128_i32 : BitVec 32 := 128#32
  let v0 : BitVec 32 := Scalar.muli arg0 c128_i32
  let c115_i32_1087 : BitVec 32 := 115#32
  let v2188 : BitVec 32 := Scalar.addi v0 c115_i32_1087
  let v2189 : Index := Scalar.indexCast v2188
  ![v2189.toNat]
def k0_off488 (v2190 : BitVec 32) : Fin 2 → Nat :=
  let c0_i32_1091 : BitVec 32 := 0#32
  ![v2190.toNat, 0]

def k0_chk244 (v2190 : BitVec 32) : Prop :=
  (∀ a, (k0_off488 v2190) a + S1x768.size a ≤ S50257x768.size a)
instance k0_chk244.dec : ∀ (v2190 : BitVec 32), Decidable (k0_chk244 v2190) := fun v2190 => decidable_of_iff' _ (Iff.of_eq (k0_chk244.eq_1 v2190))
theorem k0_off488_inb : ∀ (v2190 : BitVec 32) (k0_hw244 : k0_chk244 v2190), ∀ a, (k0_off488 v2190) a + S1x768.size a ≤ S50257x768.size a := fun v2190 k0_hw244 => k0_hw244

def k0_off489 (i : grid0.Coords) : Fin 1 → Nat :=
  let arg0 : BitVec 32 := BitVec.ofNat 32 (i 0).val
  let c128_i32 : BitVec 32 := 128#32
  let v0 : BitVec 32 := Scalar.muli arg0 c128_i32
  let c116_i32_1092 : BitVec 32 := 116#32
  let v2197 : BitVec 32 := Scalar.addi v0 c116_i32_1092
  let v2198 : Index := Scalar.indexCast v2197
  ![v2198.toNat]
def k0_off490 (v2199 : BitVec 32) : Fin 2 → Nat :=
  let c0_i32_1096 : BitVec 32 := 0#32
  ![v2199.toNat, 0]

def k0_chk245 (v2199 : BitVec 32) : Prop :=
  (∀ a, (k0_off490 v2199) a + S1x768.size a ≤ S50257x768.size a)
instance k0_chk245.dec : ∀ (v2199 : BitVec 32), Decidable (k0_chk245 v2199) := fun v2199 => decidable_of_iff' _ (Iff.of_eq (k0_chk245.eq_1 v2199))
theorem k0_off490_inb : ∀ (v2199 : BitVec 32) (k0_hw245 : k0_chk245 v2199), ∀ a, (k0_off490 v2199) a + S1x768.size a ≤ S50257x768.size a := fun v2199 k0_hw245 => k0_hw245

def k0_off491 (i : grid0.Coords) : Fin 1 → Nat :=
  let arg0 : BitVec 32 := BitVec.ofNat 32 (i 0).val
  let c128_i32 : BitVec 32 := 128#32
  let v0 : BitVec 32 := Scalar.muli arg0 c128_i32
  let c117_i32_1097 : BitVec 32 := 117#32
  let v2206 : BitVec 32 := Scalar.addi v0 c117_i32_1097
  let v2207 : Index := Scalar.indexCast v2206
  ![v2207.toNat]
def k0_off492 (v2208 : BitVec 32) : Fin 2 → Nat :=
  let c0_i32_1101 : BitVec 32 := 0#32
  ![v2208.toNat, 0]

def k0_chk246 (v2208 : BitVec 32) : Prop :=
  (∀ a, (k0_off492 v2208) a + S1x768.size a ≤ S50257x768.size a)
instance k0_chk246.dec : ∀ (v2208 : BitVec 32), Decidable (k0_chk246 v2208) := fun v2208 => decidable_of_iff' _ (Iff.of_eq (k0_chk246.eq_1 v2208))
theorem k0_off492_inb : ∀ (v2208 : BitVec 32) (k0_hw246 : k0_chk246 v2208), ∀ a, (k0_off492 v2208) a + S1x768.size a ≤ S50257x768.size a := fun v2208 k0_hw246 => k0_hw246

def k0_off493 (i : grid0.Coords) : Fin 1 → Nat :=
  let arg0 : BitVec 32 := BitVec.ofNat 32 (i 0).val
  let c128_i32 : BitVec 32 := 128#32
  let v0 : BitVec 32 := Scalar.muli arg0 c128_i32
  let c118_i32_1102 : BitVec 32 := 118#32
  let v2215 : BitVec 32 := Scalar.addi v0 c118_i32_1102
  let v2216 : Index := Scalar.indexCast v2215
  ![v2216.toNat]
def k0_off494 (v2217 : BitVec 32) : Fin 2 → Nat :=
  let c0_i32_1106 : BitVec 32 := 0#32
  ![v2217.toNat, 0]

def k0_chk247 (v2217 : BitVec 32) : Prop :=
  (∀ a, (k0_off494 v2217) a + S1x768.size a ≤ S50257x768.size a)
instance k0_chk247.dec : ∀ (v2217 : BitVec 32), Decidable (k0_chk247 v2217) := fun v2217 => decidable_of_iff' _ (Iff.of_eq (k0_chk247.eq_1 v2217))
theorem k0_off494_inb : ∀ (v2217 : BitVec 32) (k0_hw247 : k0_chk247 v2217), ∀ a, (k0_off494 v2217) a + S1x768.size a ≤ S50257x768.size a := fun v2217 k0_hw247 => k0_hw247

def k0_off495 (i : grid0.Coords) : Fin 1 → Nat :=
  let arg0 : BitVec 32 := BitVec.ofNat 32 (i 0).val
  let c128_i32 : BitVec 32 := 128#32
  let v0 : BitVec 32 := Scalar.muli arg0 c128_i32
  let c119_i32_1107 : BitVec 32 := 119#32
  let v2224 : BitVec 32 := Scalar.addi v0 c119_i32_1107
  let v2225 : Index := Scalar.indexCast v2224
  ![v2225.toNat]
def k0_off496 (v2226 : BitVec 32) : Fin 2 → Nat :=
  let c0_i32_1111 : BitVec 32 := 0#32
  ![v2226.toNat, 0]

def k0_chk248 (v2226 : BitVec 32) : Prop :=
  (∀ a, (k0_off496 v2226) a + S1x768.size a ≤ S50257x768.size a)
instance k0_chk248.dec : ∀ (v2226 : BitVec 32), Decidable (k0_chk248 v2226) := fun v2226 => decidable_of_iff' _ (Iff.of_eq (k0_chk248.eq_1 v2226))
theorem k0_off496_inb : ∀ (v2226 : BitVec 32) (k0_hw248 : k0_chk248 v2226), ∀ a, (k0_off496 v2226) a + S1x768.size a ≤ S50257x768.size a := fun v2226 k0_hw248 => k0_hw248

def k0_off497 (i : grid0.Coords) : Fin 1 → Nat :=
  let arg0 : BitVec 32 := BitVec.ofNat 32 (i 0).val
  let c128_i32 : BitVec 32 := 128#32
  let v0 : BitVec 32 := Scalar.muli arg0 c128_i32
  let c120_i32_1112 : BitVec 32 := 120#32
  let v2233 : BitVec 32 := Scalar.addi v0 c120_i32_1112
  let v2234 : Index := Scalar.indexCast v2233
  ![v2234.toNat]
def k0_off498 (v2235 : BitVec 32) : Fin 2 → Nat :=
  let c0_i32_1116 : BitVec 32 := 0#32
  ![v2235.toNat, 0]

def k0_chk249 (v2235 : BitVec 32) : Prop :=
  (∀ a, (k0_off498 v2235) a + S1x768.size a ≤ S50257x768.size a)
instance k0_chk249.dec : ∀ (v2235 : BitVec 32), Decidable (k0_chk249 v2235) := fun v2235 => decidable_of_iff' _ (Iff.of_eq (k0_chk249.eq_1 v2235))
theorem k0_off498_inb : ∀ (v2235 : BitVec 32) (k0_hw249 : k0_chk249 v2235), ∀ a, (k0_off498 v2235) a + S1x768.size a ≤ S50257x768.size a := fun v2235 k0_hw249 => k0_hw249

def k0_off499 (i : grid0.Coords) : Fin 1 → Nat :=
  let arg0 : BitVec 32 := BitVec.ofNat 32 (i 0).val
  let c128_i32 : BitVec 32 := 128#32
  let v0 : BitVec 32 := Scalar.muli arg0 c128_i32
  let c121_i32_1117 : BitVec 32 := 121#32
  let v2242 : BitVec 32 := Scalar.addi v0 c121_i32_1117
  let v2243 : Index := Scalar.indexCast v2242
  ![v2243.toNat]
def k0_off500 (v2244 : BitVec 32) : Fin 2 → Nat :=
  let c0_i32_1121 : BitVec 32 := 0#32
  ![v2244.toNat, 0]

def k0_chk250 (v2244 : BitVec 32) : Prop :=
  (∀ a, (k0_off500 v2244) a + S1x768.size a ≤ S50257x768.size a)
instance k0_chk250.dec : ∀ (v2244 : BitVec 32), Decidable (k0_chk250 v2244) := fun v2244 => decidable_of_iff' _ (Iff.of_eq (k0_chk250.eq_1 v2244))
theorem k0_off500_inb : ∀ (v2244 : BitVec 32) (k0_hw250 : k0_chk250 v2244), ∀ a, (k0_off500 v2244) a + S1x768.size a ≤ S50257x768.size a := fun v2244 k0_hw250 => k0_hw250

def k0_off501 (i : grid0.Coords) : Fin 1 → Nat :=
  let arg0 : BitVec 32 := BitVec.ofNat 32 (i 0).val
  let c128_i32 : BitVec 32 := 128#32
  let v0 : BitVec 32 := Scalar.muli arg0 c128_i32
  let c122_i32_1122 : BitVec 32 := 122#32
  let v2251 : BitVec 32 := Scalar.addi v0 c122_i32_1122
  let v2252 : Index := Scalar.indexCast v2251
  ![v2252.toNat]
def k0_off502 (v2253 : BitVec 32) : Fin 2 → Nat :=
  let c0_i32_1126 : BitVec 32 := 0#32
  ![v2253.toNat, 0]

def k0_chk251 (v2253 : BitVec 32) : Prop :=
  (∀ a, (k0_off502 v2253) a + S1x768.size a ≤ S50257x768.size a)
instance k0_chk251.dec : ∀ (v2253 : BitVec 32), Decidable (k0_chk251 v2253) := fun v2253 => decidable_of_iff' _ (Iff.of_eq (k0_chk251.eq_1 v2253))
theorem k0_off502_inb : ∀ (v2253 : BitVec 32) (k0_hw251 : k0_chk251 v2253), ∀ a, (k0_off502 v2253) a + S1x768.size a ≤ S50257x768.size a := fun v2253 k0_hw251 => k0_hw251

def k0_off503 (i : grid0.Coords) : Fin 1 → Nat :=
  let arg0 : BitVec 32 := BitVec.ofNat 32 (i 0).val
  let c128_i32 : BitVec 32 := 128#32
  let v0 : BitVec 32 := Scalar.muli arg0 c128_i32
  let c123_i32_1127 : BitVec 32 := 123#32
  let v2260 : BitVec 32 := Scalar.addi v0 c123_i32_1127
  let v2261 : Index := Scalar.indexCast v2260
  ![v2261.toNat]
def k0_off504 (v2262 : BitVec 32) : Fin 2 → Nat :=
  let c0_i32_1131 : BitVec 32 := 0#32
  ![v2262.toNat, 0]

def k0_chk252 (v2262 : BitVec 32) : Prop :=
  (∀ a, (k0_off504 v2262) a + S1x768.size a ≤ S50257x768.size a)
instance k0_chk252.dec : ∀ (v2262 : BitVec 32), Decidable (k0_chk252 v2262) := fun v2262 => decidable_of_iff' _ (Iff.of_eq (k0_chk252.eq_1 v2262))
theorem k0_off504_inb : ∀ (v2262 : BitVec 32) (k0_hw252 : k0_chk252 v2262), ∀ a, (k0_off504 v2262) a + S1x768.size a ≤ S50257x768.size a := fun v2262 k0_hw252 => k0_hw252

def k0_off505 (i : grid0.Coords) : Fin 1 → Nat :=
  let arg0 : BitVec 32 := BitVec.ofNat 32 (i 0).val
  let c128_i32 : BitVec 32 := 128#32
  let v0 : BitVec 32 := Scalar.muli arg0 c128_i32
  let c124_i32_1132 : BitVec 32 := 124#32
  let v2269 : BitVec 32 := Scalar.addi v0 c124_i32_1132
  let v2270 : Index := Scalar.indexCast v2269
  ![v2270.toNat]
def k0_off506 (v2271 : BitVec 32) : Fin 2 → Nat :=
  let c0_i32_1136 : BitVec 32 := 0#32
  ![v2271.toNat, 0]

def k0_chk253 (v2271 : BitVec 32) : Prop :=
  (∀ a, (k0_off506 v2271) a + S1x768.size a ≤ S50257x768.size a)
instance k0_chk253.dec : ∀ (v2271 : BitVec 32), Decidable (k0_chk253 v2271) := fun v2271 => decidable_of_iff' _ (Iff.of_eq (k0_chk253.eq_1 v2271))
theorem k0_off506_inb : ∀ (v2271 : BitVec 32) (k0_hw253 : k0_chk253 v2271), ∀ a, (k0_off506 v2271) a + S1x768.size a ≤ S50257x768.size a := fun v2271 k0_hw253 => k0_hw253

def k0_off507 (i : grid0.Coords) : Fin 1 → Nat :=
  let arg0 : BitVec 32 := BitVec.ofNat 32 (i 0).val
  let c128_i32 : BitVec 32 := 128#32
  let v0 : BitVec 32 := Scalar.muli arg0 c128_i32
  let c125_i32_1137 : BitVec 32 := 125#32
  let v2278 : BitVec 32 := Scalar.addi v0 c125_i32_1137
  let v2279 : Index := Scalar.indexCast v2278
  ![v2279.toNat]
def k0_off508 (v2280 : BitVec 32) : Fin 2 → Nat :=
  let c0_i32_1141 : BitVec 32 := 0#32
  ![v2280.toNat, 0]

def k0_chk254 (v2280 : BitVec 32) : Prop :=
  (∀ a, (k0_off508 v2280) a + S1x768.size a ≤ S50257x768.size a)
instance k0_chk254.dec : ∀ (v2280 : BitVec 32), Decidable (k0_chk254 v2280) := fun v2280 => decidable_of_iff' _ (Iff.of_eq (k0_chk254.eq_1 v2280))
theorem k0_off508_inb : ∀ (v2280 : BitVec 32) (k0_hw254 : k0_chk254 v2280), ∀ a, (k0_off508 v2280) a + S1x768.size a ≤ S50257x768.size a := fun v2280 k0_hw254 => k0_hw254

def k0_off509 (i : grid0.Coords) : Fin 1 → Nat :=
  let arg0 : BitVec 32 := BitVec.ofNat 32 (i 0).val
  let c128_i32 : BitVec 32 := 128#32
  let v0 : BitVec 32 := Scalar.muli arg0 c128_i32
  let c126_i32_1142 : BitVec 32 := 126#32
  let v2287 : BitVec 32 := Scalar.addi v0 c126_i32_1142
  let v2288 : Index := Scalar.indexCast v2287
  ![v2288.toNat]
def k0_off510 (v2289 : BitVec 32) : Fin 2 → Nat :=
  let c0_i32_1146 : BitVec 32 := 0#32
  ![v2289.toNat, 0]

def k0_chk255 (v2289 : BitVec 32) : Prop :=
  (∀ a, (k0_off510 v2289) a + S1x768.size a ≤ S50257x768.size a)
instance k0_chk255.dec : ∀ (v2289 : BitVec 32), Decidable (k0_chk255 v2289) := fun v2289 => decidable_of_iff' _ (Iff.of_eq (k0_chk255.eq_1 v2289))
theorem k0_off510_inb : ∀ (v2289 : BitVec 32) (k0_hw255 : k0_chk255 v2289), ∀ a, (k0_off510 v2289) a + S1x768.size a ≤ S50257x768.size a := fun v2289 k0_hw255 => k0_hw255

def k0_off511 (i : grid0.Coords) : Fin 1 → Nat :=
  let arg0 : BitVec 32 := BitVec.ofNat 32 (i 0).val
  let c128_i32 : BitVec 32 := 128#32
  let v0 : BitVec 32 := Scalar.muli arg0 c128_i32
  let c127_i32_1147 : BitVec 32 := 127#32
  let v2296 : BitVec 32 := Scalar.addi v0 c127_i32_1147
  let v2297 : Index := Scalar.indexCast v2296
  ![v2297.toNat]
def k0_off512 (v2298 : BitVec 32) : Fin 2 → Nat :=
  let c0_i32_1151 : BitVec 32 := 0#32
  ![v2298.toNat, 0]

def k0_chk256 (v2298 : BitVec 32) : Prop :=
  (∀ a, (k0_off512 v2298) a + S1x768.size a ≤ S50257x768.size a)
instance k0_chk256.dec : ∀ (v2298 : BitVec 32), Decidable (k0_chk256 v2298) := fun v2298 => decidable_of_iff' _ (Iff.of_eq (k0_chk256.eq_1 v2298))
theorem k0_off512_inb : ∀ (v2298 : BitVec 32) (k0_hw256 : k0_chk256 v2298), ∀ a, (k0_off512 v2298) a + S1x768.size a ≤ S50257x768.size a := fun v2298 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S8x4096_S32768 : S8x4096.ShapeCasts S32768
  numel1_S1 : S1.numel = 1
  inb_S128_S1_0 : ∀ a, (![0] : Fin 1 → Nat) a + S1.size a ≤ S128.size a
  squeezes_S1_S_ : S1.Squeezes S_
  inb_S128x768_S1x768_0_0 : ∀ a, (![0, 0] : Fin 2 → Nat) a + S1x768.size a ≤ S128x768.size a
  squeezes_S1x768_S768 : S1x768.Squeezes S768
  inb_S128_S1_1 : ∀ a, (![1] : Fin 1 → Nat) a + S1.size a ≤ S128.size a
  inb_S128x768_S1x768_1_0 : ∀ a, (![1, 0] : Fin 2 → Nat) a + S1x768.size a ≤ S128x768.size a
  inb_S128_S1_2 : ∀ a, (![2] : Fin 1 → Nat) a + S1.size a ≤ S128.size a
  inb_S128x768_S1x768_2_0 : ∀ a, (![2, 0] : Fin 2 → Nat) a + S1x768.size a ≤ S128x768.size a
  inb_S128_S1_3 : ∀ a, (![3] : Fin 1 → Nat) a + S1.size a ≤ S128.size a
  inb_S128x768_S1x768_3_0 : ∀ a, (![3, 0] : Fin 2 → Nat) a + S1x768.size a ≤ S128x768.size a
  inb_S128_S1_4 : ∀ a, (![4] : Fin 1 → Nat) a + S1.size a ≤ S128.size a
  inb_S128x768_S1x768_4_0 : ∀ a, (![4, 0] : Fin 2 → Nat) a + S1x768.size a ≤ S128x768.size a
  inb_S128_S1_5 : ∀ a, (![5] : Fin 1 → Nat) a + S1.size a ≤ S128.size a
  inb_S128x768_S1x768_5_0 : ∀ a, (![5, 0] : Fin 2 → Nat) a + S1x768.size a ≤ S128x768.size a
  inb_S128_S1_6 : ∀ a, (![6] : Fin 1 → Nat) a + S1.size a ≤ S128.size a
  inb_S128x768_S1x768_6_0 : ∀ a, (![6, 0] : Fin 2 → Nat) a + S1x768.size a ≤ S128x768.size a
  inb_S128_S1_7 : ∀ a, (![7] : Fin 1 → Nat) a + S1.size a ≤ S128.size a
  inb_S128x768_S1x768_7_0 : ∀ a, (![7, 0] : Fin 2 → Nat) a + S1x768.size a ≤ S128x768.size a
  inb_S128_S1_8 : ∀ a, (![8] : Fin 1 → Nat) a + S1.size a ≤ S128.size a
  inb_S128x768_S1x768_8_0 : ∀ a, (![8, 0] : Fin 2 → Nat) a + S1x768.size a ≤ S128x768.size a
  inb_S128_S1_9 : ∀ a, (![9] : Fin 1 → Nat) a + S1.size a ≤ S128.size a
  inb_S128x768_S1x768_9_0 : ∀ a, (![9, 0] : Fin 2 → Nat) a + S1x768.size a ≤ S128x768.size a
  inb_S128_S1_10 : ∀ a, (![10] : Fin 1 → Nat) a + S1.size a ≤ S128.size a
  inb_S128x768_S1x768_10_0 : ∀ a, (![10, 0] : Fin 2 → Nat) a + S1x768.size a ≤ S128x768.size a
  inb_S128_S1_11 : ∀ a, (![11] : Fin 1 → Nat) a + S1.size a ≤ S128.size a
  inb_S128x768_S1x768_11_0 : ∀ a, (![11, 0] : Fin 2 → Nat) a + S1x768.size a ≤ S128x768.size a
  inb_S128_S1_12 : ∀ a, (![12] : Fin 1 → Nat) a + S1.size a ≤ S128.size a
  inb_S128x768_S1x768_12_0 : ∀ a, (![12, 0] : Fin 2 → Nat) a + S1x768.size a ≤ S128x768.size a
  inb_S128_S1_13 : ∀ a, (![13] : Fin 1 → Nat) a + S1.size a ≤ S128.size a
  inb_S128x768_S1x768_13_0 : ∀ a, (![13, 0] : Fin 2 → Nat) a + S1x768.size a ≤ S128x768.size a
  inb_S128_S1_14 : ∀ a, (![14] : Fin 1 → Nat) a + S1.size a ≤ S128.size a
  inb_S128x768_S1x768_14_0 : ∀ a, (![14, 0] : Fin 2 → Nat) a + S1x768.size a ≤ S128x768.size a
  inb_S128_S1_15 : ∀ a, (![15] : Fin 1 → Nat) a + S1.size a ≤ S128.size a
  inb_S128x768_S1x768_15_0 : ∀ a, (![15, 0] : Fin 2 → Nat) a + S1x768.size a ≤ S128x768.size a
  inb_S128_S1_16 : ∀ a, (![16] : Fin 1 → Nat) a + S1.size a ≤ S128.size a
  inb_S128x768_S1x768_16_0 : ∀ a, (![16, 0] : Fin 2 → Nat) a + S1x768.size a ≤ S128x768.size a
  inb_S128_S1_17 : ∀ a, (![17] : Fin 1 → Nat) a + S1.size a ≤ S128.size a
  inb_S128x768_S1x768_17_0 : ∀ a, (![17, 0] : Fin 2 → Nat) a + S1x768.size a ≤ S128x768.size a
  inb_S128_S1_18 : ∀ a, (![18] : Fin 1 → Nat) a + S1.size a ≤ S128.size a
  inb_S128x768_S1x768_18_0 : ∀ a, (![18, 0] : Fin 2 → Nat) a + S1x768.size a ≤ S128x768.size a
  inb_S128_S1_19 : ∀ a, (![19] : Fin 1 → Nat) a + S1.size a ≤ S128.size a
  inb_S128x768_S1x768_19_0 : ∀ a, (![19, 0] : Fin 2 → Nat) a + S1x768.size a ≤ S128x768.size a
  inb_S128_S1_20 : ∀ a, (![20] : Fin 1 → Nat) a + S1.size a ≤ S128.size a
  inb_S128x768_S1x768_20_0 : ∀ a, (![20, 0] : Fin 2 → Nat) a + S1x768.size a ≤ S128x768.size a
  inb_S128_S1_21 : ∀ a, (![21] : Fin 1 → Nat) a + S1.size a ≤ S128.size a
  inb_S128x768_S1x768_21_0 : ∀ a, (![21, 0] : Fin 2 → Nat) a + S1x768.size a ≤ S128x768.size a
  inb_S128_S1_22 : ∀ a, (![22] : Fin 1 → Nat) a + S1.size a ≤ S128.size a
  inb_S128x768_S1x768_22_0 : ∀ a, (![22, 0] : Fin 2 → Nat) a + S1x768.size a ≤ S128x768.size a
  inb_S128_S1_23 : ∀ a, (![23] : Fin 1 → Nat) a + S1.size a ≤ S128.size a
  inb_S128x768_S1x768_23_0 : ∀ a, (![23, 0] : Fin 2 → Nat) a + S1x768.size a ≤ S128x768.size a
  inb_S128_S1_24 : ∀ a, (![24] : Fin 1 → Nat) a + S1.size a ≤ S128.size a
  inb_S128x768_S1x768_24_0 : ∀ a, (![24, 0] : Fin 2 → Nat) a + S1x768.size a ≤ S128x768.size a
  inb_S128_S1_25 : ∀ a, (![25] : Fin 1 → Nat) a + S1.size a ≤ S128.size a
  inb_S128x768_S1x768_25_0 : ∀ a, (![25, 0] : Fin 2 → Nat) a + S1x768.size a ≤ S128x768.size a
  inb_S128_S1_26 : ∀ a, (![26] : Fin 1 → Nat) a + S1.size a ≤ S128.size a
  inb_S128x768_S1x768_26_0 : ∀ a, (![26, 0] : Fin 2 → Nat) a + S1x768.size a ≤ S128x768.size a
  inb_S128_S1_27 : ∀ a, (![27] : Fin 1 → Nat) a + S1.size a ≤ S128.size a
  inb_S128x768_S1x768_27_0 : ∀ a, (![27, 0] : Fin 2 → Nat) a + S1x768.size a ≤ S128x768.size a
  inb_S128_S1_28 : ∀ a, (![28] : Fin 1 → Nat) a + S1.size a ≤ S128.size a
  inb_S128x768_S1x768_28_0 : ∀ a, (![28, 0] : Fin 2 → Nat) a + S1x768.size a ≤ S128x768.size a
  inb_S128_S1_29 : ∀ a, (![29] : Fin 1 → Nat) a + S1.size a ≤ S128.size a
  inb_S128x768_S1x768_29_0 : ∀ a, (![29, 0] : Fin 2 → Nat) a + S1x768.size a ≤ S128x768.size a
  inb_S128_S1_30 : ∀ a, (![30] : Fin 1 → Nat) a + S1.size a ≤ S128.size a
  inb_S128x768_S1x768_30_0 : ∀ a, (![30, 0] : Fin 2 → Nat) a + S1x768.size a ≤ S128x768.size a
  inb_S128_S1_31 : ∀ a, (![31] : Fin 1 → Nat) a + S1.size a ≤ S128.size a
  inb_S128x768_S1x768_31_0 : ∀ a, (![31, 0] : Fin 2 → Nat) a + S1x768.size a ≤ S128x768.size a
  inb_S128_S1_32 : ∀ a, (![32] : Fin 1 → Nat) a + S1.size a ≤ S128.size a
  inb_S128x768_S1x768_32_0 : ∀ a, (![32, 0] : Fin 2 → Nat) a + S1x768.size a ≤ S128x768.size a
  inb_S128_S1_33 : ∀ a, (![33] : Fin 1 → Nat) a + S1.size a ≤ S128.size a
  inb_S128x768_S1x768_33_0 : ∀ a, (![33, 0] : Fin 2 → Nat) a + S1x768.size a ≤ S128x768.size a
  inb_S128_S1_34 : ∀ a, (![34] : Fin 1 → Nat) a + S1.size a ≤ S128.size a
  inb_S128x768_S1x768_34_0 : ∀ a, (![34, 0] : Fin 2 → Nat) a + S1x768.size a ≤ S128x768.size a
  inb_S128_S1_35 : ∀ a, (![35] : Fin 1 → Nat) a + S1.size a ≤ S128.size a
  inb_S128x768_S1x768_35_0 : ∀ a, (![35, 0] : Fin 2 → Nat) a + S1x768.size a ≤ S128x768.size a
  inb_S128_S1_36 : ∀ a, (![36] : Fin 1 → Nat) a + S1.size a ≤ S128.size a
  inb_S128x768_S1x768_36_0 : ∀ a, (![36, 0] : Fin 2 → Nat) a + S1x768.size a ≤ S128x768.size a
  inb_S128_S1_37 : ∀ a, (![37] : Fin 1 → Nat) a + S1.size a ≤ S128.size a
  inb_S128x768_S1x768_37_0 : ∀ a, (![37, 0] : Fin 2 → Nat) a + S1x768.size a ≤ S128x768.size a
  inb_S128_S1_38 : ∀ a, (![38] : Fin 1 → Nat) a + S1.size a ≤ S128.size a
  inb_S128x768_S1x768_38_0 : ∀ a, (![38, 0] : Fin 2 → Nat) a + S1x768.size a ≤ S128x768.size a
  inb_S128_S1_39 : ∀ a, (![39] : Fin 1 → Nat) a + S1.size a ≤ S128.size a
  inb_S128x768_S1x768_39_0 : ∀ a, (![39, 0] : Fin 2 → Nat) a + S1x768.size a ≤ S128x768.size a
  inb_S128_S1_40 : ∀ a, (![40] : Fin 1 → Nat) a + S1.size a ≤ S128.size a
  inb_S128x768_S1x768_40_0 : ∀ a, (![40, 0] : Fin 2 → Nat) a + S1x768.size a ≤ S128x768.size a
  inb_S128_S1_41 : ∀ a, (![41] : Fin 1 → Nat) a + S1.size a ≤ S128.size a
  inb_S128x768_S1x768_41_0 : ∀ a, (![41, 0] : Fin 2 → Nat) a + S1x768.size a ≤ S128x768.size a
  inb_S128_S1_42 : ∀ a, (![42] : Fin 1 → Nat) a + S1.size a ≤ S128.size a
  inb_S128x768_S1x768_42_0 : ∀ a, (![42, 0] : Fin 2 → Nat) a + S1x768.size a ≤ S128x768.size a
  inb_S128_S1_43 : ∀ a, (![43] : Fin 1 → Nat) a + S1.size a ≤ S128.size a
  inb_S128x768_S1x768_43_0 : ∀ a, (![43, 0] : Fin 2 → Nat) a + S1x768.size a ≤ S128x768.size a
  inb_S128_S1_44 : ∀ a, (![44] : Fin 1 → Nat) a + S1.size a ≤ S128.size a
  inb_S128x768_S1x768_44_0 : ∀ a, (![44, 0] : Fin 2 → Nat) a + S1x768.size a ≤ S128x768.size a
  inb_S128_S1_45 : ∀ a, (![45] : Fin 1 → Nat) a + S1.size a ≤ S128.size a
  inb_S128x768_S1x768_45_0 : ∀ a, (![45, 0] : Fin 2 → Nat) a + S1x768.size a ≤ S128x768.size a
  inb_S128_S1_46 : ∀ a, (![46] : Fin 1 → Nat) a + S1.size a ≤ S128.size a
  inb_S128x768_S1x768_46_0 : ∀ a, (![46, 0] : Fin 2 → Nat) a + S1x768.size a ≤ S128x768.size a
  inb_S128_S1_47 : ∀ a, (![47] : Fin 1 → Nat) a + S1.size a ≤ S128.size a
  inb_S128x768_S1x768_47_0 : ∀ a, (![47, 0] : Fin 2 → Nat) a + S1x768.size a ≤ S128x768.size a
  inb_S128_S1_48 : ∀ a, (![48] : Fin 1 → Nat) a + S1.size a ≤ S128.size a
  inb_S128x768_S1x768_48_0 : ∀ a, (![48, 0] : Fin 2 → Nat) a + S1x768.size a ≤ S128x768.size a
  inb_S128_S1_49 : ∀ a, (![49] : Fin 1 → Nat) a + S1.size a ≤ S128.size a
  inb_S128x768_S1x768_49_0 : ∀ a, (![49, 0] : Fin 2 → Nat) a + S1x768.size a ≤ S128x768.size a
  inb_S128_S1_50 : ∀ a, (![50] : Fin 1 → Nat) a + S1.size a ≤ S128.size a
  inb_S128x768_S1x768_50_0 : ∀ a, (![50, 0] : Fin 2 → Nat) a + S1x768.size a ≤ S128x768.size a
  inb_S128_S1_51 : ∀ a, (![51] : Fin 1 → Nat) a + S1.size a ≤ S128.size a
  inb_S128x768_S1x768_51_0 : ∀ a, (![51, 0] : Fin 2 → Nat) a + S1x768.size a ≤ S128x768.size a
  inb_S128_S1_52 : ∀ a, (![52] : Fin 1 → Nat) a + S1.size a ≤ S128.size a
  inb_S128x768_S1x768_52_0 : ∀ a, (![52, 0] : Fin 2 → Nat) a + S1x768.size a ≤ S128x768.size a
  inb_S128_S1_53 : ∀ a, (![53] : Fin 1 → Nat) a + S1.size a ≤ S128.size a
  inb_S128x768_S1x768_53_0 : ∀ a, (![53, 0] : Fin 2 → Nat) a + S1x768.size a ≤ S128x768.size a
  inb_S128_S1_54 : ∀ a, (![54] : Fin 1 → Nat) a + S1.size a ≤ S128.size a
  inb_S128x768_S1x768_54_0 : ∀ a, (![54, 0] : Fin 2 → Nat) a + S1x768.size a ≤ S128x768.size a
  inb_S128_S1_55 : ∀ a, (![55] : Fin 1 → Nat) a + S1.size a ≤ S128.size a
  inb_S128x768_S1x768_55_0 : ∀ a, (![55, 0] : Fin 2 → Nat) a + S1x768.size a ≤ S128x768.size a
  inb_S128_S1_56 : ∀ a, (![56] : Fin 1 → Nat) a + S1.size a ≤ S128.size a
  inb_S128x768_S1x768_56_0 : ∀ a, (![56, 0] : Fin 2 → Nat) a + S1x768.size a ≤ S128x768.size a
  inb_S128_S1_57 : ∀ a, (![57] : Fin 1 → Nat) a + S1.size a ≤ S128.size a
  inb_S128x768_S1x768_57_0 : ∀ a, (![57, 0] : Fin 2 → Nat) a + S1x768.size a ≤ S128x768.size a
  inb_S128_S1_58 : ∀ a, (![58] : Fin 1 → Nat) a + S1.size a ≤ S128.size a
  inb_S128x768_S1x768_58_0 : ∀ a, (![58, 0] : Fin 2 → Nat) a + S1x768.size a ≤ S128x768.size a
  inb_S128_S1_59 : ∀ a, (![59] : Fin 1 → Nat) a + S1.size a ≤ S128.size a
  inb_S128x768_S1x768_59_0 : ∀ a, (![59, 0] : Fin 2 → Nat) a + S1x768.size a ≤ S128x768.size a
  inb_S128_S1_60 : ∀ a, (![60] : Fin 1 → Nat) a + S1.size a ≤ S128.size a
  inb_S128x768_S1x768_60_0 : ∀ a, (![60, 0] : Fin 2 → Nat) a + S1x768.size a ≤ S128x768.size a
  inb_S128_S1_61 : ∀ a, (![61] : Fin 1 → Nat) a + S1.size a ≤ S128.size a
  inb_S128x768_S1x768_61_0 : ∀ a, (![61, 0] : Fin 2 → Nat) a + S1x768.size a ≤ S128x768.size a
  inb_S128_S1_62 : ∀ a, (![62] : Fin 1 → Nat) a + S1.size a ≤ S128.size a
  inb_S128x768_S1x768_62_0 : ∀ a, (![62, 0] : Fin 2 → Nat) a + S1x768.size a ≤ S128x768.size a
  inb_S128_S1_63 : ∀ a, (![63] : Fin 1 → Nat) a + S1.size a ≤ S128.size a
  inb_S128x768_S1x768_63_0 : ∀ a, (![63, 0] : Fin 2 → Nat) a + S1x768.size a ≤ S128x768.size a
  inb_S128_S1_64 : ∀ a, (![64] : Fin 1 → Nat) a + S1.size a ≤ S128.size a
  inb_S128x768_S1x768_64_0 : ∀ a, (![64, 0] : Fin 2 → Nat) a + S1x768.size a ≤ S128x768.size a
  inb_S128_S1_65 : ∀ a, (![65] : Fin 1 → Nat) a + S1.size a ≤ S128.size a
  inb_S128x768_S1x768_65_0 : ∀ a, (![65, 0] : Fin 2 → Nat) a + S1x768.size a ≤ S128x768.size a
  inb_S128_S1_66 : ∀ a, (![66] : Fin 1 → Nat) a + S1.size a ≤ S128.size a
  inb_S128x768_S1x768_66_0 : ∀ a, (![66, 0] : Fin 2 → Nat) a + S1x768.size a ≤ S128x768.size a
  inb_S128_S1_67 : ∀ a, (![67] : Fin 1 → Nat) a + S1.size a ≤ S128.size a
  inb_S128x768_S1x768_67_0 : ∀ a, (![67, 0] : Fin 2 → Nat) a + S1x768.size a ≤ S128x768.size a
  inb_S128_S1_68 : ∀ a, (![68] : Fin 1 → Nat) a + S1.size a ≤ S128.size a
  inb_S128x768_S1x768_68_0 : ∀ a, (![68, 0] : Fin 2 → Nat) a + S1x768.size a ≤ S128x768.size a
  inb_S128_S1_69 : ∀ a, (![69] : Fin 1 → Nat) a + S1.size a ≤ S128.size a
  inb_S128x768_S1x768_69_0 : ∀ a, (![69, 0] : Fin 2 → Nat) a + S1x768.size a ≤ S128x768.size a
  inb_S128_S1_70 : ∀ a, (![70] : Fin 1 → Nat) a + S1.size a ≤ S128.size a
  inb_S128x768_S1x768_70_0 : ∀ a, (![70, 0] : Fin 2 → Nat) a + S1x768.size a ≤ S128x768.size a
  inb_S128_S1_71 : ∀ a, (![71] : Fin 1 → Nat) a + S1.size a ≤ S128.size a
  inb_S128x768_S1x768_71_0 : ∀ a, (![71, 0] : Fin 2 → Nat) a + S1x768.size a ≤ S128x768.size a
  inb_S128_S1_72 : ∀ a, (![72] : Fin 1 → Nat) a + S1.size a ≤ S128.size a
  inb_S128x768_S1x768_72_0 : ∀ a, (![72, 0] : Fin 2 → Nat) a + S1x768.size a ≤ S128x768.size a
  inb_S128_S1_73 : ∀ a, (![73] : Fin 1 → Nat) a + S1.size a ≤ S128.size a
  inb_S128x768_S1x768_73_0 : ∀ a, (![73, 0] : Fin 2 → Nat) a + S1x768.size a ≤ S128x768.size a
  inb_S128_S1_74 : ∀ a, (![74] : Fin 1 → Nat) a + S1.size a ≤ S128.size a
  inb_S128x768_S1x768_74_0 : ∀ a, (![74, 0] : Fin 2 → Nat) a + S1x768.size a ≤ S128x768.size a
  inb_S128_S1_75 : ∀ a, (![75] : Fin 1 → Nat) a + S1.size a ≤ S128.size a
  inb_S128x768_S1x768_75_0 : ∀ a, (![75, 0] : Fin 2 → Nat) a + S1x768.size a ≤ S128x768.size a
  inb_S128_S1_76 : ∀ a, (![76] : Fin 1 → Nat) a + S1.size a ≤ S128.size a
  inb_S128x768_S1x768_76_0 : ∀ a, (![76, 0] : Fin 2 → Nat) a + S1x768.size a ≤ S128x768.size a
  inb_S128_S1_77 : ∀ a, (![77] : Fin 1 → Nat) a + S1.size a ≤ S128.size a
  inb_S128x768_S1x768_77_0 : ∀ a, (![77, 0] : Fin 2 → Nat) a + S1x768.size a ≤ S128x768.size a
  inb_S128_S1_78 : ∀ a, (![78] : Fin 1 → Nat) a + S1.size a ≤ S128.size a
  inb_S128x768_S1x768_78_0 : ∀ a, (![78, 0] : Fin 2 → Nat) a + S1x768.size a ≤ S128x768.size a
  inb_S128_S1_79 : ∀ a, (![79] : Fin 1 → Nat) a + S1.size a ≤ S128.size a
  inb_S128x768_S1x768_79_0 : ∀ a, (![79, 0] : Fin 2 → Nat) a + S1x768.size a ≤ S128x768.size a
  inb_S128_S1_80 : ∀ a, (![80] : Fin 1 → Nat) a + S1.size a ≤ S128.size a
  inb_S128x768_S1x768_80_0 : ∀ a, (![80, 0] : Fin 2 → Nat) a + S1x768.size a ≤ S128x768.size a
  inb_S128_S1_81 : ∀ a, (![81] : Fin 1 → Nat) a + S1.size a ≤ S128.size a
  inb_S128x768_S1x768_81_0 : ∀ a, (![81, 0] : Fin 2 → Nat) a + S1x768.size a ≤ S128x768.size a
  inb_S128_S1_82 : ∀ a, (![82] : Fin 1 → Nat) a + S1.size a ≤ S128.size a
  inb_S128x768_S1x768_82_0 : ∀ a, (![82, 0] : Fin 2 → Nat) a + S1x768.size a ≤ S128x768.size a
  inb_S128_S1_83 : ∀ a, (![83] : Fin 1 → Nat) a + S1.size a ≤ S128.size a
  inb_S128x768_S1x768_83_0 : ∀ a, (![83, 0] : Fin 2 → Nat) a + S1x768.size a ≤ S128x768.size a
  inb_S128_S1_84 : ∀ a, (![84] : Fin 1 → Nat) a + S1.size a ≤ S128.size a
  inb_S128x768_S1x768_84_0 : ∀ a, (![84, 0] : Fin 2 → Nat) a + S1x768.size a ≤ S128x768.size a
  inb_S128_S1_85 : ∀ a, (![85] : Fin 1 → Nat) a + S1.size a ≤ S128.size a
  inb_S128x768_S1x768_85_0 : ∀ a, (![85, 0] : Fin 2 → Nat) a + S1x768.size a ≤ S128x768.size a
  inb_S128_S1_86 : ∀ a, (![86] : Fin 1 → Nat) a + S1.size a ≤ S128.size a
  inb_S128x768_S1x768_86_0 : ∀ a, (![86, 0] : Fin 2 → Nat) a + S1x768.size a ≤ S128x768.size a
  inb_S128_S1_87 : ∀ a, (![87] : Fin 1 → Nat) a + S1.size a ≤ S128.size a
  inb_S128x768_S1x768_87_0 : ∀ a, (![87, 0] : Fin 2 → Nat) a + S1x768.size a ≤ S128x768.size a
  inb_S128_S1_88 : ∀ a, (![88] : Fin 1 → Nat) a + S1.size a ≤ S128.size a
  inb_S128x768_S1x768_88_0 : ∀ a, (![88, 0] : Fin 2 → Nat) a + S1x768.size a ≤ S128x768.size a
  inb_S128_S1_89 : ∀ a, (![89] : Fin 1 → Nat) a + S1.size a ≤ S128.size a
  inb_S128x768_S1x768_89_0 : ∀ a, (![89, 0] : Fin 2 → Nat) a + S1x768.size a ≤ S128x768.size a
  inb_S128_S1_90 : ∀ a, (![90] : Fin 1 → Nat) a + S1.size a ≤ S128.size a
  inb_S128x768_S1x768_90_0 : ∀ a, (![90, 0] : Fin 2 → Nat) a + S1x768.size a ≤ S128x768.size a
  inb_S128_S1_91 : ∀ a, (![91] : Fin 1 → Nat) a + S1.size a ≤ S128.size a
  inb_S128x768_S1x768_91_0 : ∀ a, (![91, 0] : Fin 2 → Nat) a + S1x768.size a ≤ S128x768.size a
  inb_S128_S1_92 : ∀ a, (![92] : Fin 1 → Nat) a + S1.size a ≤ S128.size a
  inb_S128x768_S1x768_92_0 : ∀ a, (![92, 0] : Fin 2 → Nat) a + S1x768.size a ≤ S128x768.size a
  inb_S128_S1_93 : ∀ a, (![93] : Fin 1 → Nat) a + S1.size a ≤ S128.size a
  inb_S128x768_S1x768_93_0 : ∀ a, (![93, 0] : Fin 2 → Nat) a + S1x768.size a ≤ S128x768.size a
  inb_S128_S1_94 : ∀ a, (![94] : Fin 1 → Nat) a + S1.size a ≤ S128.size a
  inb_S128x768_S1x768_94_0 : ∀ a, (![94, 0] : Fin 2 → Nat) a + S1x768.size a ≤ S128x768.size a
  inb_S128_S1_95 : ∀ a, (![95] : Fin 1 → Nat) a + S1.size a ≤ S128.size a
  inb_S128x768_S1x768_95_0 : ∀ a, (![95, 0] : Fin 2 → Nat) a + S1x768.size a ≤ S128x768.size a
  inb_S128_S1_96 : ∀ a, (![96] : Fin 1 → Nat) a + S1.size a ≤ S128.size a
  inb_S128x768_S1x768_96_0 : ∀ a, (![96, 0] : Fin 2 → Nat) a + S1x768.size a ≤ S128x768.size a
  inb_S128_S1_97 : ∀ a, (![97] : Fin 1 → Nat) a + S1.size a ≤ S128.size a
  inb_S128x768_S1x768_97_0 : ∀ a, (![97, 0] : Fin 2 → Nat) a + S1x768.size a ≤ S128x768.size a
  inb_S128_S1_98 : ∀ a, (![98] : Fin 1 → Nat) a + S1.size a ≤ S128.size a
  inb_S128x768_S1x768_98_0 : ∀ a, (![98, 0] : Fin 2 → Nat) a + S1x768.size a ≤ S128x768.size a
  inb_S128_S1_99 : ∀ a, (![99] : Fin 1 → Nat) a + S1.size a ≤ S128.size a
  inb_S128x768_S1x768_99_0 : ∀ a, (![99, 0] : Fin 2 → Nat) a + S1x768.size a ≤ S128x768.size a
  inb_S128_S1_100 : ∀ a, (![100] : Fin 1 → Nat) a + S1.size a ≤ S128.size a
  inb_S128x768_S1x768_100_0 : ∀ a, (![100, 0] : Fin 2 → Nat) a + S1x768.size a ≤ S128x768.size a
  inb_S128_S1_101 : ∀ a, (![101] : Fin 1 → Nat) a + S1.size a ≤ S128.size a
  inb_S128x768_S1x768_101_0 : ∀ a, (![101, 0] : Fin 2 → Nat) a + S1x768.size a ≤ S128x768.size a
  inb_S128_S1_102 : ∀ a, (![102] : Fin 1 → Nat) a + S1.size a ≤ S128.size a
  inb_S128x768_S1x768_102_0 : ∀ a, (![102, 0] : Fin 2 → Nat) a + S1x768.size a ≤ S128x768.size a
  inb_S128_S1_103 : ∀ a, (![103] : Fin 1 → Nat) a + S1.size a ≤ S128.size a
  inb_S128x768_S1x768_103_0 : ∀ a, (![103, 0] : Fin 2 → Nat) a + S1x768.size a ≤ S128x768.size a
  inb_S128_S1_104 : ∀ a, (![104] : Fin 1 → Nat) a + S1.size a ≤ S128.size a
  inb_S128x768_S1x768_104_0 : ∀ a, (![104, 0] : Fin 2 → Nat) a + S1x768.size a ≤ S128x768.size a
  inb_S128_S1_105 : ∀ a, (![105] : Fin 1 → Nat) a + S1.size a ≤ S128.size a
  inb_S128x768_S1x768_105_0 : ∀ a, (![105, 0] : Fin 2 → Nat) a + S1x768.size a ≤ S128x768.size a
  inb_S128_S1_106 : ∀ a, (![106] : Fin 1 → Nat) a + S1.size a ≤ S128.size a
  inb_S128x768_S1x768_106_0 : ∀ a, (![106, 0] : Fin 2 → Nat) a + S1x768.size a ≤ S128x768.size a
  inb_S128_S1_107 : ∀ a, (![107] : Fin 1 → Nat) a + S1.size a ≤ S128.size a
  inb_S128x768_S1x768_107_0 : ∀ a, (![107, 0] : Fin 2 → Nat) a + S1x768.size a ≤ S128x768.size a
  inb_S128_S1_108 : ∀ a, (![108] : Fin 1 → Nat) a + S1.size a ≤ S128.size a
  inb_S128x768_S1x768_108_0 : ∀ a, (![108, 0] : Fin 2 → Nat) a + S1x768.size a ≤ S128x768.size a
  inb_S128_S1_109 : ∀ a, (![109] : Fin 1 → Nat) a + S1.size a ≤ S128.size a
  inb_S128x768_S1x768_109_0 : ∀ a, (![109, 0] : Fin 2 → Nat) a + S1x768.size a ≤ S128x768.size a
  inb_S128_S1_110 : ∀ a, (![110] : Fin 1 → Nat) a + S1.size a ≤ S128.size a
  inb_S128x768_S1x768_110_0 : ∀ a, (![110, 0] : Fin 2 → Nat) a + S1x768.size a ≤ S128x768.size a
  inb_S128_S1_111 : ∀ a, (![111] : Fin 1 → Nat) a + S1.size a ≤ S128.size a
  inb_S128x768_S1x768_111_0 : ∀ a, (![111, 0] : Fin 2 → Nat) a + S1x768.size a ≤ S128x768.size a
  inb_S128_S1_112 : ∀ a, (![112] : Fin 1 → Nat) a + S1.size a ≤ S128.size a
  inb_S128x768_S1x768_112_0 : ∀ a, (![112, 0] : Fin 2 → Nat) a + S1x768.size a ≤ S128x768.size a
  inb_S128_S1_113 : ∀ a, (![113] : Fin 1 → Nat) a + S1.size a ≤ S128.size a
  inb_S128x768_S1x768_113_0 : ∀ a, (![113, 0] : Fin 2 → Nat) a + S1x768.size a ≤ S128x768.size a
  inb_S128_S1_114 : ∀ a, (![114] : Fin 1 → Nat) a + S1.size a ≤ S128.size a
  inb_S128x768_S1x768_114_0 : ∀ a, (![114, 0] : Fin 2 → Nat) a + S1x768.size a ≤ S128x768.size a
  inb_S128_S1_115 : ∀ a, (![115] : Fin 1 → Nat) a + S1.size a ≤ S128.size a
  inb_S128x768_S1x768_115_0 : ∀ a, (![115, 0] : Fin 2 → Nat) a + S1x768.size a ≤ S128x768.size a
  inb_S128_S1_116 : ∀ a, (![116] : Fin 1 → Nat) a + S1.size a ≤ S128.size a
  inb_S128x768_S1x768_116_0 : ∀ a, (![116, 0] : Fin 2 → Nat) a + S1x768.size a ≤ S128x768.size a
  inb_S128_S1_117 : ∀ a, (![117] : Fin 1 → Nat) a + S1.size a ≤ S128.size a
  inb_S128x768_S1x768_117_0 : ∀ a, (![117, 0] : Fin 2 → Nat) a + S1x768.size a ≤ S128x768.size a
  inb_S128_S1_118 : ∀ a, (![118] : Fin 1 → Nat) a + S1.size a ≤ S128.size a
  inb_S128x768_S1x768_118_0 : ∀ a, (![118, 0] : Fin 2 → Nat) a + S1x768.size a ≤ S128x768.size a
  inb_S128_S1_119 : ∀ a, (![119] : Fin 1 → Nat) a + S1.size a ≤ S128.size a
  inb_S128x768_S1x768_119_0 : ∀ a, (![119, 0] : Fin 2 → Nat) a + S1x768.size a ≤ S128x768.size a
  inb_S128_S1_120 : ∀ a, (![120] : Fin 1 → Nat) a + S1.size a ≤ S128.size a
  inb_S128x768_S1x768_120_0 : ∀ a, (![120, 0] : Fin 2 → Nat) a + S1x768.size a ≤ S128x768.size a
  inb_S128_S1_121 : ∀ a, (![121] : Fin 1 → Nat) a + S1.size a ≤ S128.size a
  inb_S128x768_S1x768_121_0 : ∀ a, (![121, 0] : Fin 2 → Nat) a + S1x768.size a ≤ S128x768.size a
  inb_S128_S1_122 : ∀ a, (![122] : Fin 1 → Nat) a + S1.size a ≤ S128.size a
  inb_S128x768_S1x768_122_0 : ∀ a, (![122, 0] : Fin 2 → Nat) a + S1x768.size a ≤ S128x768.size a
  inb_S128_S1_123 : ∀ a, (![123] : Fin 1 → Nat) a + S1.size a ≤ S128.size a
  inb_S128x768_S1x768_123_0 : ∀ a, (![123, 0] : Fin 2 → Nat) a + S1x768.size a ≤ S128x768.size a
  inb_S128_S1_124 : ∀ a, (![124] : Fin 1 → Nat) a + S1.size a ≤ S128.size a
  inb_S128x768_S1x768_124_0 : ∀ a, (![124, 0] : Fin 2 → Nat) a + S1x768.size a ≤ S128x768.size a
  inb_S128_S1_125 : ∀ a, (![125] : Fin 1 → Nat) a + S1.size a ≤ S128.size a
  inb_S128x768_S1x768_125_0 : ∀ a, (![125, 0] : Fin 2 → Nat) a + S1x768.size a ≤ S128x768.size a
  inb_S128_S1_126 : ∀ a, (![126] : Fin 1 → Nat) a + S1.size a ≤ S128.size a
  inb_S128x768_S1x768_126_0 : ∀ a, (![126, 0] : Fin 2 → Nat) a + S1x768.size a ≤ S128x768.size a
  inb_S128_S1_127 : ∀ a, (![127] : Fin 1 → Nat) a + S1.size a ≤ S128.size a
  inb_S128x768_S1x768_127_0 : ∀ a, (![127, 0] : Fin 2 → Nat) a + S1x768.size a ≤ S128x768.size a
  shapeCasts_S32768x768_S8x4096x768 : S32768x768.ShapeCasts S8x4096x768
  hcc0_scratch0 : 2 + S128.numel ≤ 130
  hrank0 : 0 < grid0.rank
  k0_off1_inb : ∀ i : grid0.Coords, ∀ a, (k0_off1 i) a + S1.size a ≤ S32768.size a
  k0_off3_inb : ∀ i : grid0.Coords, ∀ a, (k0_off3 i) a + S1.size a ≤ S32768.size a
  k0_off5_inb : ∀ i : grid0.Coords, ∀ a, (k0_off5 i) a + S1.size a ≤ S32768.size a
  k0_off7_inb : ∀ i : grid0.Coords, ∀ a, (k0_off7 i) a + S1.size a ≤ S32768.size a
  k0_off9_inb : ∀ i : grid0.Coords, ∀ a, (k0_off9 i) a + S1.size a ≤ S32768.size a
  k0_off11_inb : ∀ i : grid0.Coords, ∀ a, (k0_off11 i) a + S1.size a ≤ S32768.size a
  k0_off13_inb : ∀ i : grid0.Coords, ∀ a, (k0_off13 i) a + S1.size a ≤ S32768.size a
  k0_off15_inb : ∀ i : grid0.Coords, ∀ a, (k0_off15 i) a + S1.size a ≤ S32768.size a
  k0_off17_inb : ∀ i : grid0.Coords, ∀ a, (k0_off17 i) a + S1.size a ≤ S32768.size a
  k0_off19_inb : ∀ i : grid0.Coords, ∀ a, (k0_off19 i) a + S1.size a ≤ S32768.size a
  k0_off21_inb : ∀ i : grid0.Coords, ∀ a, (k0_off21 i) a + S1.size a ≤ S32768.size a
  k0_off23_inb : ∀ i : grid0.Coords, ∀ a, (k0_off23 i) a + S1.size a ≤ S32768.size a
  k0_off25_inb : ∀ i : grid0.Coords, ∀ a, (k0_off25 i) a + S1.size a ≤ S32768.size a
  k0_off27_inb : ∀ i : grid0.Coords, ∀ a, (k0_off27 i) a + S1.size a ≤ S32768.size a
  k0_off29_inb : ∀ i : grid0.Coords, ∀ a, (k0_off29 i) a + S1.size a ≤ S32768.size a
  k0_off31_inb : ∀ i : grid0.Coords, ∀ a, (k0_off31 i) a + S1.size a ≤ S32768.size a
  k0_off33_inb : ∀ i : grid0.Coords, ∀ a, (k0_off33 i) a + S1.size a ≤ S32768.size a
  k0_off35_inb : ∀ i : grid0.Coords, ∀ a, (k0_off35 i) a + S1.size a ≤ S32768.size a
  k0_off37_inb : ∀ i : grid0.Coords, ∀ a, (k0_off37 i) a + S1.size a ≤ S32768.size a
  k0_off39_inb : ∀ i : grid0.Coords, ∀ a, (k0_off39 i) a + S1.size a ≤ S32768.size a
  k0_off41_inb : ∀ i : grid0.Coords, ∀ a, (k0_off41 i) a + S1.size a ≤ S32768.size a
  k0_off43_inb : ∀ i : grid0.Coords, ∀ a, (k0_off43 i) a + S1.size a ≤ S32768.size a
  k0_off45_inb : ∀ i : grid0.Coords, ∀ a, (k0_off45 i) a + S1.size a ≤ S32768.size a
  k0_off47_inb : ∀ i : grid0.Coords, ∀ a, (k0_off47 i) a + S1.size a ≤ S32768.size a
  k0_off49_inb : ∀ i : grid0.Coords, ∀ a, (k0_off49 i) a + S1.size a ≤ S32768.size a
  k0_off51_inb : ∀ i : grid0.Coords, ∀ a, (k0_off51 i) a + S1.size a ≤ S32768.size a
  k0_off53_inb : ∀ i : grid0.Coords, ∀ a, (k0_off53 i) a + S1.size a ≤ S32768.size a
  k0_off55_inb : ∀ i : grid0.Coords, ∀ a, (k0_off55 i) a + S1.size a ≤ S32768.size a
  k0_off57_inb : ∀ i : grid0.Coords, ∀ a, (k0_off57 i) a + S1.size a ≤ S32768.size a
  k0_off59_inb : ∀ i : grid0.Coords, ∀ a, (k0_off59 i) a + S1.size a ≤ S32768.size a
  k0_off61_inb : ∀ i : grid0.Coords, ∀ a, (k0_off61 i) a + S1.size a ≤ S32768.size a
  k0_off63_inb : ∀ i : grid0.Coords, ∀ a, (k0_off63 i) a + S1.size a ≤ S32768.size a
  k0_off65_inb : ∀ i : grid0.Coords, ∀ a, (k0_off65 i) a + S1.size a ≤ S32768.size a
  k0_off67_inb : ∀ i : grid0.Coords, ∀ a, (k0_off67 i) a + S1.size a ≤ S32768.size a
  k0_off69_inb : ∀ i : grid0.Coords, ∀ a, (k0_off69 i) a + S1.size a ≤ S32768.size a
  k0_off71_inb : ∀ i : grid0.Coords, ∀ a, (k0_off71 i) a + S1.size a ≤ S32768.size a
  k0_off73_inb : ∀ i : grid0.Coords, ∀ a, (k0_off73 i) a + S1.size a ≤ S32768.size a
  k0_off75_inb : ∀ i : grid0.Coords, ∀ a, (k0_off75 i) a + S1.size a ≤ S32768.size a
  k0_off77_inb : ∀ i : grid0.Coords, ∀ a, (k0_off77 i) a + S1.size a ≤ S32768.size a
  k0_off79_inb : ∀ i : grid0.Coords, ∀ a, (k0_off79 i) a + S1.size a ≤ S32768.size a
  k0_off81_inb : ∀ i : grid0.Coords, ∀ a, (k0_off81 i) a + S1.size a ≤ S32768.size a
  k0_off83_inb : ∀ i : grid0.Coords, ∀ a, (k0_off83 i) a + S1.size a ≤ S32768.size a
  k0_off85_inb : ∀ i : grid0.Coords, ∀ a, (k0_off85 i) a + S1.size a ≤ S32768.size a
  k0_off87_inb : ∀ i : grid0.Coords, ∀ a, (k0_off87 i) a + S1.size a ≤ S32768.size a
  k0_off89_inb : ∀ i : grid0.Coords, ∀ a, (k0_off89 i) a + S1.size a ≤ S32768.size a
  k0_off91_inb : ∀ i : grid0.Coords, ∀ a, (k0_off91 i) a + S1.size a ≤ S32768.size a
  k0_off93_inb : ∀ i : grid0.Coords, ∀ a, (k0_off93 i) a + S1.size a ≤ S32768.size a
  k0_off95_inb : ∀ i : grid0.Coords, ∀ a, (k0_off95 i) a + S1.size a ≤ S32768.size a
  k0_off97_inb : ∀ i : grid0.Coords, ∀ a, (k0_off97 i) a + S1.size a ≤ S32768.size a
  k0_off99_inb : ∀ i : grid0.Coords, ∀ a, (k0_off99 i) a + S1.size a ≤ S32768.size a
  k0_off101_inb : ∀ i : grid0.Coords, ∀ a, (k0_off101 i) a + S1.size a ≤ S32768.size a
  k0_off103_inb : ∀ i : grid0.Coords, ∀ a, (k0_off103 i) a + S1.size a ≤ S32768.size a
  k0_off105_inb : ∀ i : grid0.Coords, ∀ a, (k0_off105 i) a + S1.size a ≤ S32768.size a
  k0_off107_inb : ∀ i : grid0.Coords, ∀ a, (k0_off107 i) a + S1.size a ≤ S32768.size a
  k0_off109_inb : ∀ i : grid0.Coords, ∀ a, (k0_off109 i) a + S1.size a ≤ S32768.size a
  k0_off111_inb : ∀ i : grid0.Coords, ∀ a, (k0_off111 i) a + S1.size a ≤ S32768.size a
  k0_off113_inb : ∀ i : grid0.Coords, ∀ a, (k0_off113 i) a + S1.size a ≤ S32768.size a
  k0_off115_inb : ∀ i : grid0.Coords, ∀ a, (k0_off115 i) a + S1.size a ≤ S32768.size a
  k0_off117_inb : ∀ i : grid0.Coords, ∀ a, (k0_off117 i) a + S1.size a ≤ S32768.size a
  k0_off119_inb : ∀ i : grid0.Coords, ∀ a, (k0_off119 i) a + S1.size a ≤ S32768.size a
  k0_off121_inb : ∀ i : grid0.Coords, ∀ a, (k0_off121 i) a + S1.size a ≤ S32768.size a
  k0_off123_inb : ∀ i : grid0.Coords, ∀ a, (k0_off123 i) a + S1.size a ≤ S32768.size a
  k0_off125_inb : ∀ i : grid0.Coords, ∀ a, (k0_off125 i) a + S1.size a ≤ S32768.size a
  k0_off127_inb : ∀ i : grid0.Coords, ∀ a, (k0_off127 i) a + S1.size a ≤ S32768.size a
  k0_off129_inb : ∀ i : grid0.Coords, ∀ a, (k0_off129 i) a + S1.size a ≤ S32768.size a
  k0_off131_inb : ∀ i : grid0.Coords, ∀ a, (k0_off131 i) a + S1.size a ≤ S32768.size a
  k0_off133_inb : ∀ i : grid0.Coords, ∀ a, (k0_off133 i) a + S1.size a ≤ S32768.size a
  k0_off135_inb : ∀ i : grid0.Coords, ∀ a, (k0_off135 i) a + S1.size a ≤ S32768.size a
  k0_off137_inb : ∀ i : grid0.Coords, ∀ a, (k0_off137 i) a + S1.size a ≤ S32768.size a
  k0_off139_inb : ∀ i : grid0.Coords, ∀ a, (k0_off139 i) a + S1.size a ≤ S32768.size a
  k0_off141_inb : ∀ i : grid0.Coords, ∀ a, (k0_off141 i) a + S1.size a ≤ S32768.size a
  k0_off143_inb : ∀ i : grid0.Coords, ∀ a, (k0_off143 i) a + S1.size a ≤ S32768.size a
  k0_off145_inb : ∀ i : grid0.Coords, ∀ a, (k0_off145 i) a + S1.size a ≤ S32768.size a
  k0_off147_inb : ∀ i : grid0.Coords, ∀ a, (k0_off147 i) a + S1.size a ≤ S32768.size a
  k0_off149_inb : ∀ i : grid0.Coords, ∀ a, (k0_off149 i) a + S1.size a ≤ S32768.size a
  k0_off151_inb : ∀ i : grid0.Coords, ∀ a, (k0_off151 i) a + S1.size a ≤ S32768.size a
  k0_off153_inb : ∀ i : grid0.Coords, ∀ a, (k0_off153 i) a + S1.size a ≤ S32768.size a
  k0_off155_inb : ∀ i : grid0.Coords, ∀ a, (k0_off155 i) a + S1.size a ≤ S32768.size a
  k0_off157_inb : ∀ i : grid0.Coords, ∀ a, (k0_off157 i) a + S1.size a ≤ S32768.size a
  k0_off159_inb : ∀ i : grid0.Coords, ∀ a, (k0_off159 i) a + S1.size a ≤ S32768.size a
  k0_off161_inb : ∀ i : grid0.Coords, ∀ a, (k0_off161 i) a + S1.size a ≤ S32768.size a
  k0_off163_inb : ∀ i : grid0.Coords, ∀ a, (k0_off163 i) a + S1.size a ≤ S32768.size a
  k0_off165_inb : ∀ i : grid0.Coords, ∀ a, (k0_off165 i) a + S1.size a ≤ S32768.size a
  k0_off167_inb : ∀ i : grid0.Coords, ∀ a, (k0_off167 i) a + S1.size a ≤ S32768.size a
  k0_off169_inb : ∀ i : grid0.Coords, ∀ a, (k0_off169 i) a + S1.size a ≤ S32768.size a
  k0_off171_inb : ∀ i : grid0.Coords, ∀ a, (k0_off171 i) a + S1.size a ≤ S32768.size a
  k0_off173_inb : ∀ i : grid0.Coords, ∀ a, (k0_off173 i) a + S1.size a ≤ S32768.size a
  k0_off175_inb : ∀ i : grid0.Coords, ∀ a, (k0_off175 i) a + S1.size a ≤ S32768.size a
  k0_off177_inb : ∀ i : grid0.Coords, ∀ a, (k0_off177 i) a + S1.size a ≤ S32768.size a
  k0_off179_inb : ∀ i : grid0.Coords, ∀ a, (k0_off179 i) a + S1.size a ≤ S32768.size a
  k0_off181_inb : ∀ i : grid0.Coords, ∀ a, (k0_off181 i) a + S1.size a ≤ S32768.size a
  k0_off183_inb : ∀ i : grid0.Coords, ∀ a, (k0_off183 i) a + S1.size a ≤ S32768.size a
  k0_off185_inb : ∀ i : grid0.Coords, ∀ a, (k0_off185 i) a + S1.size a ≤ S32768.size a
  k0_off187_inb : ∀ i : grid0.Coords, ∀ a, (k0_off187 i) a + S1.size a ≤ S32768.size a
  k0_off189_inb : ∀ i : grid0.Coords, ∀ a, (k0_off189 i) a + S1.size a ≤ S32768.size a
  k0_off191_inb : ∀ i : grid0.Coords, ∀ a, (k0_off191 i) a + S1.size a ≤ S32768.size a
  k0_off193_inb : ∀ i : grid0.Coords, ∀ a, (k0_off193 i) a + S1.size a ≤ S32768.size a
  k0_off195_inb : ∀ i : grid0.Coords, ∀ a, (k0_off195 i) a + S1.size a ≤ S32768.size a
  k0_off197_inb : ∀ i : grid0.Coords, ∀ a, (k0_off197 i) a + S1.size a ≤ S32768.size a
  k0_off199_inb : ∀ i : grid0.Coords, ∀ a, (k0_off199 i) a + S1.size a ≤ S32768.size a
  k0_off201_inb : ∀ i : grid0.Coords, ∀ a, (k0_off201 i) a + S1.size a ≤ S32768.size a
  k0_off203_inb : ∀ i : grid0.Coords, ∀ a, (k0_off203 i) a + S1.size a ≤ S32768.size a
  k0_off205_inb : ∀ i : grid0.Coords, ∀ a, (k0_off205 i) a + S1.size a ≤ S32768.size a
  k0_off207_inb : ∀ i : grid0.Coords, ∀ a, (k0_off207 i) a + S1.size a ≤ S32768.size a
  k0_off209_inb : ∀ i : grid0.Coords, ∀ a, (k0_off209 i) a + S1.size a ≤ S32768.size a
  k0_off211_inb : ∀ i : grid0.Coords, ∀ a, (k0_off211 i) a + S1.size a ≤ S32768.size a
  k0_off213_inb : ∀ i : grid0.Coords, ∀ a, (k0_off213 i) a + S1.size a ≤ S32768.size a
  k0_off215_inb : ∀ i : grid0.Coords, ∀ a, (k0_off215 i) a + S1.size a ≤ S32768.size a
  k0_off217_inb : ∀ i : grid0.Coords, ∀ a, (k0_off217 i) a + S1.size a ≤ S32768.size a
  k0_off219_inb : ∀ i : grid0.Coords, ∀ a, (k0_off219 i) a + S1.size a ≤ S32768.size a
  k0_off221_inb : ∀ i : grid0.Coords, ∀ a, (k0_off221 i) a + S1.size a ≤ S32768.size a
  k0_off223_inb : ∀ i : grid0.Coords, ∀ a, (k0_off223 i) a + S1.size a ≤ S32768.size a
  k0_off225_inb : ∀ i : grid0.Coords, ∀ a, (k0_off225 i) a + S1.size a ≤ S32768.size a
  k0_off227_inb : ∀ i : grid0.Coords, ∀ a, (k0_off227 i) a + S1.size a ≤ S32768.size a
  k0_off229_inb : ∀ i : grid0.Coords, ∀ a, (k0_off229 i) a + S1.size a ≤ S32768.size a
  k0_off231_inb : ∀ i : grid0.Coords, ∀ a, (k0_off231 i) a + S1.size a ≤ S32768.size a
  k0_off233_inb : ∀ i : grid0.Coords, ∀ a, (k0_off233 i) a + S1.size a ≤ S32768.size a
  k0_off235_inb : ∀ i : grid0.Coords, ∀ a, (k0_off235 i) a + S1.size a ≤ S32768.size a
  k0_off237_inb : ∀ i : grid0.Coords, ∀ a, (k0_off237 i) a + S1.size a ≤ S32768.size a
  k0_off239_inb : ∀ i : grid0.Coords, ∀ a, (k0_off239 i) a + S1.size a ≤ S32768.size a
  k0_off241_inb : ∀ i : grid0.Coords, ∀ a, (k0_off241 i) a + S1.size a ≤ S32768.size a
  k0_off243_inb : ∀ i : grid0.Coords, ∀ a, (k0_off243 i) a + S1.size a ≤ S32768.size a
  k0_off245_inb : ∀ i : grid0.Coords, ∀ a, (k0_off245 i) a + S1.size a ≤ S32768.size a
  k0_off247_inb : ∀ i : grid0.Coords, ∀ a, (k0_off247 i) a + S1.size a ≤ S32768.size a
  k0_off249_inb : ∀ i : grid0.Coords, ∀ a, (k0_off249 i) a + S1.size a ≤ S32768.size a
  k0_off251_inb : ∀ i : grid0.Coords, ∀ a, (k0_off251 i) a + S1.size a ≤ S32768.size a
  k0_off253_inb : ∀ i : grid0.Coords, ∀ a, (k0_off253 i) a + S1.size a ≤ S32768.size a
  k0_off255_inb : ∀ i : grid0.Coords, ∀ a, (k0_off255 i) a + S1.size a ≤ S32768.size a
  k0_off257_inb : ∀ i : grid0.Coords, ∀ a, (k0_off257 i) a + S1.size a ≤ S32768.size a
  k0_off259_inb : ∀ i : grid0.Coords, ∀ a, (k0_off259 i) a + S1.size a ≤ S32768.size a
  k0_off261_inb : ∀ i : grid0.Coords, ∀ a, (k0_off261 i) a + S1.size a ≤ S32768.size a
  k0_off263_inb : ∀ i : grid0.Coords, ∀ a, (k0_off263 i) a + S1.size a ≤ S32768.size a
  k0_off265_inb : ∀ i : grid0.Coords, ∀ a, (k0_off265 i) a + S1.size a ≤ S32768.size a
  k0_off267_inb : ∀ i : grid0.Coords, ∀ a, (k0_off267 i) a + S1.size a ≤ S32768.size a
  k0_off269_inb : ∀ i : grid0.Coords, ∀ a, (k0_off269 i) a + S1.size a ≤ S32768.size a
  k0_off271_inb : ∀ i : grid0.Coords, ∀ a, (k0_off271 i) a + S1.size a ≤ S32768.size a
  k0_off273_inb : ∀ i : grid0.Coords, ∀ a, (k0_off273 i) a + S1.size a ≤ S32768.size a
  k0_off275_inb : ∀ i : grid0.Coords, ∀ a, (k0_off275 i) a + S1.size a ≤ S32768.size a
  k0_off277_inb : ∀ i : grid0.Coords, ∀ a, (k0_off277 i) a + S1.size a ≤ S32768.size a
  k0_off279_inb : ∀ i : grid0.Coords, ∀ a, (k0_off279 i) a + S1.size a ≤ S32768.size a
  k0_off281_inb : ∀ i : grid0.Coords, ∀ a, (k0_off281 i) a + S1.size a ≤ S32768.size a
  k0_off283_inb : ∀ i : grid0.Coords, ∀ a, (k0_off283 i) a + S1.size a ≤ S32768.size a
  k0_off285_inb : ∀ i : grid0.Coords, ∀ a, (k0_off285 i) a + S1.size a ≤ S32768.size a
  k0_off287_inb : ∀ i : grid0.Coords, ∀ a, (k0_off287 i) a + S1.size a ≤ S32768.size a
  k0_off289_inb : ∀ i : grid0.Coords, ∀ a, (k0_off289 i) a + S1.size a ≤ S32768.size a
  k0_off291_inb : ∀ i : grid0.Coords, ∀ a, (k0_off291 i) a + S1.size a ≤ S32768.size a
  k0_off293_inb : ∀ i : grid0.Coords, ∀ a, (k0_off293 i) a + S1.size a ≤ S32768.size a
  k0_off295_inb : ∀ i : grid0.Coords, ∀ a, (k0_off295 i) a + S1.size a ≤ S32768.size a
  k0_off297_inb : ∀ i : grid0.Coords, ∀ a, (k0_off297 i) a + S1.size a ≤ S32768.size a
  k0_off299_inb : ∀ i : grid0.Coords, ∀ a, (k0_off299 i) a + S1.size a ≤ S32768.size a
  k0_off301_inb : ∀ i : grid0.Coords, ∀ a, (k0_off301 i) a + S1.size a ≤ S32768.size a
  k0_off303_inb : ∀ i : grid0.Coords, ∀ a, (k0_off303 i) a + S1.size a ≤ S32768.size a
  k0_off305_inb : ∀ i : grid0.Coords, ∀ a, (k0_off305 i) a + S1.size a ≤ S32768.size a
  k0_off307_inb : ∀ i : grid0.Coords, ∀ a, (k0_off307 i) a + S1.size a ≤ S32768.size a
  k0_off309_inb : ∀ i : grid0.Coords, ∀ a, (k0_off309 i) a + S1.size a ≤ S32768.size a
  k0_off311_inb : ∀ i : grid0.Coords, ∀ a, (k0_off311 i) a + S1.size a ≤ S32768.size a
  k0_off313_inb : ∀ i : grid0.Coords, ∀ a, (k0_off313 i) a + S1.size a ≤ S32768.size a
  k0_off315_inb : ∀ i : grid0.Coords, ∀ a, (k0_off315 i) a + S1.size a ≤ S32768.size a
  k0_off317_inb : ∀ i : grid0.Coords, ∀ a, (k0_off317 i) a + S1.size a ≤ S32768.size a
  k0_off319_inb : ∀ i : grid0.Coords, ∀ a, (k0_off319 i) a + S1.size a ≤ S32768.size a
  k0_off321_inb : ∀ i : grid0.Coords, ∀ a, (k0_off321 i) a + S1.size a ≤ S32768.size a
  k0_off323_inb : ∀ i : grid0.Coords, ∀ a, (k0_off323 i) a + S1.size a ≤ S32768.size a
  k0_off325_inb : ∀ i : grid0.Coords, ∀ a, (k0_off325 i) a + S1.size a ≤ S32768.size a
  k0_off327_inb : ∀ i : grid0.Coords, ∀ a, (k0_off327 i) a + S1.size a ≤ S32768.size a
  k0_off329_inb : ∀ i : grid0.Coords, ∀ a, (k0_off329 i) a + S1.size a ≤ S32768.size a
  k0_off331_inb : ∀ i : grid0.Coords, ∀ a, (k0_off331 i) a + S1.size a ≤ S32768.size a
  k0_off333_inb : ∀ i : grid0.Coords, ∀ a, (k0_off333 i) a + S1.size a ≤ S32768.size a
  k0_off335_inb : ∀ i : grid0.Coords, ∀ a, (k0_off335 i) a + S1.size a ≤ S32768.size a
  k0_off337_inb : ∀ i : grid0.Coords, ∀ a, (k0_off337 i) a + S1.size a ≤ S32768.size a
  k0_off339_inb : ∀ i : grid0.Coords, ∀ a, (k0_off339 i) a + S1.size a ≤ S32768.size a
  k0_off341_inb : ∀ i : grid0.Coords, ∀ a, (k0_off341 i) a + S1.size a ≤ S32768.size a
  k0_off343_inb : ∀ i : grid0.Coords, ∀ a, (k0_off343 i) a + S1.size a ≤ S32768.size a
  k0_off345_inb : ∀ i : grid0.Coords, ∀ a, (k0_off345 i) a + S1.size a ≤ S32768.size a
  k0_off347_inb : ∀ i : grid0.Coords, ∀ a, (k0_off347 i) a + S1.size a ≤ S32768.size a
  k0_off349_inb : ∀ i : grid0.Coords, ∀ a, (k0_off349 i) a + S1.size a ≤ S32768.size a
  k0_off351_inb : ∀ i : grid0.Coords, ∀ a, (k0_off351 i) a + S1.size a ≤ S32768.size a
  k0_off353_inb : ∀ i : grid0.Coords, ∀ a, (k0_off353 i) a + S1.size a ≤ S32768.size a
  k0_off355_inb : ∀ i : grid0.Coords, ∀ a, (k0_off355 i) a + S1.size a ≤ S32768.size a
  k0_off357_inb : ∀ i : grid0.Coords, ∀ a, (k0_off357 i) a + S1.size a ≤ S32768.size a
  k0_off359_inb : ∀ i : grid0.Coords, ∀ a, (k0_off359 i) a + S1.size a ≤ S32768.size a
  k0_off361_inb : ∀ i : grid0.Coords, ∀ a, (k0_off361 i) a + S1.size a ≤ S32768.size a
  k0_off363_inb : ∀ i : grid0.Coords, ∀ a, (k0_off363 i) a + S1.size a ≤ S32768.size a
  k0_off365_inb : ∀ i : grid0.Coords, ∀ a, (k0_off365 i) a + S1.size a ≤ S32768.size a
  k0_off367_inb : ∀ i : grid0.Coords, ∀ a, (k0_off367 i) a + S1.size a ≤ S32768.size a
  k0_off369_inb : ∀ i : grid0.Coords, ∀ a, (k0_off369 i) a + S1.size a ≤ S32768.size a
  k0_off371_inb : ∀ i : grid0.Coords, ∀ a, (k0_off371 i) a + S1.size a ≤ S32768.size a
  k0_off373_inb : ∀ i : grid0.Coords, ∀ a, (k0_off373 i) a + S1.size a ≤ S32768.size a
  k0_off375_inb : ∀ i : grid0.Coords, ∀ a, (k0_off375 i) a + S1.size a ≤ S32768.size a
  k0_off377_inb : ∀ i : grid0.Coords, ∀ a, (k0_off377 i) a + S1.size a ≤ S32768.size a
  k0_off379_inb : ∀ i : grid0.Coords, ∀ a, (k0_off379 i) a + S1.size a ≤ S32768.size a
  k0_off381_inb : ∀ i : grid0.Coords, ∀ a, (k0_off381 i) a + S1.size a ≤ S32768.size a
  k0_off383_inb : ∀ i : grid0.Coords, ∀ a, (k0_off383 i) a + S1.size a ≤ S32768.size a
  k0_off385_inb : ∀ i : grid0.Coords, ∀ a, (k0_off385 i) a + S1.size a ≤ S32768.size a
  k0_off387_inb : ∀ i : grid0.Coords, ∀ a, (k0_off387 i) a + S1.size a ≤ S32768.size a
  k0_off389_inb : ∀ i : grid0.Coords, ∀ a, (k0_off389 i) a + S1.size a ≤ S32768.size a
  k0_off391_inb : ∀ i : grid0.Coords, ∀ a, (k0_off391 i) a + S1.size a ≤ S32768.size a
  k0_off393_inb : ∀ i : grid0.Coords, ∀ a, (k0_off393 i) a + S1.size a ≤ S32768.size a
  k0_off395_inb : ∀ i : grid0.Coords, ∀ a, (k0_off395 i) a + S1.size a ≤ S32768.size a
  k0_off397_inb : ∀ i : grid0.Coords, ∀ a, (k0_off397 i) a + S1.size a ≤ S32768.size a
  k0_off399_inb : ∀ i : grid0.Coords, ∀ a, (k0_off399 i) a + S1.size a ≤ S32768.size a
  k0_off401_inb : ∀ i : grid0.Coords, ∀ a, (k0_off401 i) a + S1.size a ≤ S32768.size a
  k0_off403_inb : ∀ i : grid0.Coords, ∀ a, (k0_off403 i) a + S1.size a ≤ S32768.size a
  k0_off405_inb : ∀ i : grid0.Coords, ∀ a, (k0_off405 i) a + S1.size a ≤ S32768.size a
  k0_off407_inb : ∀ i : grid0.Coords, ∀ a, (k0_off407 i) a + S1.size a ≤ S32768.size a
  k0_off409_inb : ∀ i : grid0.Coords, ∀ a, (k0_off409 i) a + S1.size a ≤ S32768.size a
  k0_off411_inb : ∀ i : grid0.Coords, ∀ a, (k0_off411 i) a + S1.size a ≤ S32768.size a
  k0_off413_inb : ∀ i : grid0.Coords, ∀ a, (k0_off413 i) a + S1.size a ≤ S32768.size a
  k0_off415_inb : ∀ i : grid0.Coords, ∀ a, (k0_off415 i) a + S1.size a ≤ S32768.size a
  k0_off417_inb : ∀ i : grid0.Coords, ∀ a, (k0_off417 i) a + S1.size a ≤ S32768.size a
  k0_off419_inb : ∀ i : grid0.Coords, ∀ a, (k0_off419 i) a + S1.size a ≤ S32768.size a
  k0_off421_inb : ∀ i : grid0.Coords, ∀ a, (k0_off421 i) a + S1.size a ≤ S32768.size a
  k0_off423_inb : ∀ i : grid0.Coords, ∀ a, (k0_off423 i) a + S1.size a ≤ S32768.size a
  k0_off425_inb : ∀ i : grid0.Coords, ∀ a, (k0_off425 i) a + S1.size a ≤ S32768.size a
  k0_off427_inb : ∀ i : grid0.Coords, ∀ a, (k0_off427 i) a + S1.size a ≤ S32768.size a
  k0_off429_inb : ∀ i : grid0.Coords, ∀ a, (k0_off429 i) a + S1.size a ≤ S32768.size a
  k0_off431_inb : ∀ i : grid0.Coords, ∀ a, (k0_off431 i) a + S1.size a ≤ S32768.size a
  k0_off433_inb : ∀ i : grid0.Coords, ∀ a, (k0_off433 i) a + S1.size a ≤ S32768.size a
  k0_off435_inb : ∀ i : grid0.Coords, ∀ a, (k0_off435 i) a + S1.size a ≤ S32768.size a
  k0_off437_inb : ∀ i : grid0.Coords, ∀ a, (k0_off437 i) a + S1.size a ≤ S32768.size a
  k0_off439_inb : ∀ i : grid0.Coords, ∀ a, (k0_off439 i) a + S1.size a ≤ S32768.size a
  k0_off441_inb : ∀ i : grid0.Coords, ∀ a, (k0_off441 i) a + S1.size a ≤ S32768.size a
  k0_off443_inb : ∀ i : grid0.Coords, ∀ a, (k0_off443 i) a + S1.size a ≤ S32768.size a
  k0_off445_inb : ∀ i : grid0.Coords, ∀ a, (k0_off445 i) a + S1.size a ≤ S32768.size a
  k0_off447_inb : ∀ i : grid0.Coords, ∀ a, (k0_off447 i) a + S1.size a ≤ S32768.size a
  k0_off449_inb : ∀ i : grid0.Coords, ∀ a, (k0_off449 i) a + S1.size a ≤ S32768.size a
  k0_off451_inb : ∀ i : grid0.Coords, ∀ a, (k0_off451 i) a + S1.size a ≤ S32768.size a
  k0_off453_inb : ∀ i : grid0.Coords, ∀ a, (k0_off453 i) a + S1.size a ≤ S32768.size a
  k0_off455_inb : ∀ i : grid0.Coords, ∀ a, (k0_off455 i) a + S1.size a ≤ S32768.size a
  k0_off457_inb : ∀ i : grid0.Coords, ∀ a, (k0_off457 i) a + S1.size a ≤ S32768.size a
  k0_off459_inb : ∀ i : grid0.Coords, ∀ a, (k0_off459 i) a + S1.size a ≤ S32768.size a
  k0_off461_inb : ∀ i : grid0.Coords, ∀ a, (k0_off461 i) a + S1.size a ≤ S32768.size a
  k0_off463_inb : ∀ i : grid0.Coords, ∀ a, (k0_off463 i) a + S1.size a ≤ S32768.size a
  k0_off465_inb : ∀ i : grid0.Coords, ∀ a, (k0_off465 i) a + S1.size a ≤ S32768.size a
  k0_off467_inb : ∀ i : grid0.Coords, ∀ a, (k0_off467 i) a + S1.size a ≤ S32768.size a
  k0_off469_inb : ∀ i : grid0.Coords, ∀ a, (k0_off469 i) a + S1.size a ≤ S32768.size a
  k0_off471_inb : ∀ i : grid0.Coords, ∀ a, (k0_off471 i) a + S1.size a ≤ S32768.size a
  k0_off473_inb : ∀ i : grid0.Coords, ∀ a, (k0_off473 i) a + S1.size a ≤ S32768.size a
  k0_off475_inb : ∀ i : grid0.Coords, ∀ a, (k0_off475 i) a + S1.size a ≤ S32768.size a
  k0_off477_inb : ∀ i : grid0.Coords, ∀ a, (k0_off477 i) a + S1.size a ≤ S32768.size a
  k0_off479_inb : ∀ i : grid0.Coords, ∀ a, (k0_off479 i) a + S1.size a ≤ S32768.size a
  k0_off481_inb : ∀ i : grid0.Coords, ∀ a, (k0_off481 i) a + S1.size a ≤ S32768.size a
  k0_off483_inb : ∀ i : grid0.Coords, ∀ a, (k0_off483 i) a + S1.size a ≤ S32768.size a
  k0_off485_inb : ∀ i : grid0.Coords, ∀ a, (k0_off485 i) a + S1.size a ≤ S32768.size a
  k0_off487_inb : ∀ i : grid0.Coords, ∀ a, (k0_off487 i) a + S1.size a ≤ S32768.size a
  k0_off489_inb : ∀ i : grid0.Coords, ∀ a, (k0_off489 i) a + S1.size a ≤ S32768.size a
  k0_off491_inb : ∀ i : grid0.Coords, ∀ a, (k0_off491 i) a + S1.size a ≤ S32768.size a
  k0_off493_inb : ∀ i : grid0.Coords, ∀ a, (k0_off493 i) a + S1.size a ≤ S32768.size a
  k0_off495_inb : ∀ i : grid0.Coords, ∀ a, (k0_off495 i) a + S1.size a ≤ S32768.size a
  k0_off497_inb : ∀ i : grid0.Coords, ∀ a, (k0_off497 i) a + S1.size a ≤ S32768.size a
  k0_off499_inb : ∀ i : grid0.Coords, ∀ a, (k0_off499 i) a + S1.size a ≤ S32768.size a
  k0_off501_inb : ∀ i : grid0.Coords, ∀ a, (k0_off501 i) a + S1.size a ≤ S32768.size a
  k0_off503_inb : ∀ i : grid0.Coords, ∀ a, (k0_off503 i) a + S1.size a ≤ S32768.size a
  k0_off505_inb : ∀ i : grid0.Coords, ∀ a, (k0_off505 i) a + S1.size a ≤ S32768.size a
  k0_off507_inb : ∀ i : grid0.Coords, ∀ a, (k0_off507 i) a + S1.size a ≤ S32768.size a
  k0_off509_inb : ∀ i : grid0.Coords, ∀ a, (k0_off509 i) a + S1.size a ≤ S32768.size a
  k0_off511_inb : ∀ i : grid0.Coords, ∀ a, (k0_off511 i) a + S1.size a ≤ S32768.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S128x768.size a ≤ S32768x768.size a
  hwx0_0 : ∀ i : grid0.Coords, EltTy.bits .f32 = 32 ∨ (Rect.block (s := S32768x768) S128x768.size (cc0_transform_1 i) (hinb0_0 i)).WholeWords (EltTy.packing .f32)

variable [Facts₀]

abbrev cc0_scratch0 : DmaSems sig S128 := SemArray.consecutive 2 S128 hcc0_scratch0

abbrev spec0_0 : Pipeline.WinSpec sig grid0.rank :=
  Pipeline.WinSpec.ofSpec (Memref.whole main_v1) S128x768.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S8x4096 : Shape := ⟨2, ![8, 4096]⟩
abbrev S50257x768 : Shape := ⟨2, ![50257, 768]⟩
abbrev S_ : Shape := ⟨0, ![]⟩
abbrev S8x4096x1 : Shape := ⟨3, ![8, 4096, 1]⟩
abbrev S8x4096x768 : Shape := ⟨3, ![8, 4096, 768]⟩

abbrev nBuf : Space → Nat
  | .hbm => 11
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S50257x768, .f32⟩
  | .hbm, ⟨2, _⟩ => ⟨S_, .i32⟩
  | .hbm, ⟨3, _⟩ => ⟨S8x4096, .i32⟩
  | .hbm, ⟨4, _⟩ => ⟨S8x4096, .i1⟩
  | .hbm, ⟨5, _⟩ => ⟨S_, .i32⟩
  | .hbm, ⟨6, _⟩ => ⟨S8x4096, .i32⟩
  | .hbm, ⟨7, _⟩ => ⟨S8x4096, .i32⟩
  | .hbm, ⟨8, _⟩ => ⟨S8x4096, .i32⟩
  | .hbm, ⟨9, _⟩ => ⟨S8x4096x1, .i32⟩
  | .hbm, ⟨10, _⟩ => ⟨S8x4096x768, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  gather_S50257x768_S8x4096x1_S8x4096x768_2_0_n_n_0_2_1768_wf : GatherDims.WF S50257x768 S8x4096x1 S8x4096x768 [2] [0] [] [0] [] 2 ![1, 768]

variable [Facts₀]

def gather_S50257x768_S8x4096x1_S8x4096x768_2_0_n_n_0_2_1768 : GatherDims S50257x768 S8x4096x1 S8x4096x768 where
  offsetDims := [2]
  collapsedSliceDims := [0]
  operandBatchingDims := []
  startIndicesBatchingDims := []
  startIndexMap := [0]
  indexVectorDim := 2
  sliceSizes := ![1, 768]
  wf := gather_S50257x768_S8x4096x1_S8x4096x768_2_0_n_n_0_2_1768_wf

class Facts : Prop extends Facts₀ where

variable [Facts]
-- ==== Proof.TokRange.lean ====
/-
  The precondition, decoded at one token word.

  The precondition is the conjunction of two `all`s: every entry of the embedding table is finite, and every token
  word `t` satisfies `0 ≤ t` and `t < 50257` as a SIGNED 32-bit word. Read at one index of the token array the second
  conjunct says that the word, read as an unsigned number, is below the table's 50257 rows: a word that is
  non-negative as a signed number is its unsigned value, and that value is below 50257.
-/
import proofs.«413693_j16020228014144_1_alg».proof.Pre_finite_inputs
import Idealize.ShloMosaic.Lib.ReduceAll

namespace Cert.TokRange

open Idealize.ShloMosaic

instance : Subsingleton Cert.Pre_finite_inputs.S_.Idx := ⟨fun a b => funext fun d => d.elim0⟩

/-- A 32-bit word that is `≥ 0` and `< 50257` as a signed number is below 50257 as an unsigned one. -/
theorem toNat_lt_of_signed (t : BitVec 32) (h0 : (0#32).toInt ≤ t.toInt) (h1 : t.toInt < (50257#32).toInt) :
    t.toNat < 50257 := by
  have e0 : (0#32 : BitVec 32).toInt = 0 := by decide
  have e1 : (50257#32 : BitVec 32).toInt = 50257 := by decide
  rw [e0] at h0; rw [e1] at h1
  rw [BitVec.toInt_eq_toNat_cond] at h0 h1
  have := t.isLt
  split at h0 <;> omega

/-- Under the precondition every token word names a row of the table. -/
theorem tok_lt {F : FTy → Type} [FloatOps F] [Cert.Pre_finite_inputs.Facts]
    (tok : IVec Cert.Pre_finite_inputs.S8x4096 32) (W : FVec F Cert.Pre_finite_inputs.S50257x768 .f32)
    (h : Cert.Pre_finite_inputs.fn (F := F) tok W = fun _ => 1#1) (y : Cert.Pre_finite_inputs.S8x4096.Idx) :
    (tok y).toNat < 50257 := by
  have e := congrFun h (fun a => a.elim0)
  dsimp only [Cert.Pre_finite_inputs.fn] at e
  obtain ⟨-, e2⟩ := IntOp.andi_eq_one.1 e
  have ey := Host.reduce_andi_all _ _ _ _ _ e2 y
  obtain ⟨hge, hlt⟩ := IntOp.andi_eq_one.1 ey
  exact toNat_lt_of_signed _ (IntOp.cmpi_sge.1 hge) (IntOp.cmpi_slt.1 hlt)

end Cert.TokRange
-- ==== Proof.Spec.lean ====
/-
  The embedding lookup, as one function of the two argument arrays.

  `embed tok W` is the array `out[b, s, k] = W[tok[b, s], k]`: row `tok[b, s]` of the table `W`, for every position
  `(b, s)` of the token array. A token word names a row through `rowOf`: the word's unsigned value, reduced modulo
  the table's 50257 rows so that the function is total; for a word below 50257 — every word the precondition admits —
  it is the word's value itself (`rowOf_val`).
  `embedFlat` is the same lookup over the token array flattened to 32768 words, into a 32768 × 768 array: what the
  kernel's grid produces block by block before its result is reshaped.
-/
import Idealize.ShloMosaic.Lib.ValueIdx

namespace Cert.Spec

open Idealize.ShloMosaic Idealize.ShloMosaic.ValueIdx

/-- The table row a token word names: its unsigned value modulo the number of rows. -/
def rowOf (t : BitVec 32) : Fin 50257 := ⟨t.toNat % 50257, Nat.mod_lt _ (by decide)⟩

/-- For a word below the number of rows, the row is the word's value. -/
theorem rowOf_val (t : BitVec 32) (h : t.toNat < 50257) : (rowOf t).val = t.toNat := Nat.mod_eq_of_lt h

/-- `out[b, s, k] = W[tok[b, s], k]`. -/
def embed {α : Type} (tok : (⟨2, ![8, 4096]⟩ : Shape).Idx → BitVec 32) (W : (⟨2, ![50257, 768]⟩ : Shape).Idx → α) :
    (⟨3, ![8, 4096, 768]⟩ : Shape).Idx → α :=
  fun i => W (ix2 (rowOf (tok (ix2 (⟨(i 0).val, (i 0).isLt⟩ : Fin 8) (⟨(i 1).val, (i 1).isLt⟩ : Fin 4096))))
    (⟨(i 2).val, (i 2).isLt⟩ : Fin 768))

/-- `out[n, k] = W[tok[n], k]` over the flattened token array. -/
def embedFlat {α : Type} (tok : (⟨1, ![32768]⟩ : Shape).Idx → BitVec 32) (W : (⟨2, ![50257, 768]⟩ : Shape).Idx → α) :
    (⟨2, ![32768, 768]⟩ : Shape).Idx → α :=
  fun i => W (ix2 (rowOf (tok (ix1 (⟨(i 0).val, (i 0).isLt⟩ : Fin 32768)))) (⟨(i 1).val, (i 1).isLt⟩ : Fin 768))

end Cert.Spec
-- ==== Proof.RefValue.lean ====
/-
  The reference computation, read one element at a time.

  The reference indexes the table by the token array: each token word t is first replaced by t + 50257 when it is
  negative as a signed number, the result is given a trailing axis of extent 1, and a gather with a one-row slice
  reads, for output element (b, s, k), the table at row clamp(start, 0, 50256) and column k, where start is the
  adjusted word at (b, s) read signed.

  When every token word is below 50257 as an unsigned number it is below 2^31, so it is non-negative as a signed number:
  the sign test fails and the adjustment keeps the word, its signed reading is its unsigned value, and the clamp leaves a
  value already at most 50256 alone. So output element (b, s, k) is the table at row tokens[b, s], column k: the
  embedding lookup Spec.embed (val_embed). The run of the reference's nine operations ends with its result buffer holding
  that composed term of the two arguments, which are left unchanged; rewriting the term gives the run's result as
  Spec.embed of the arguments' launch contents (run_embed).
-/
import proofs.«413693_j16020228014144_1_alg».proof.Proof.Gen.ReferenceIdeal.Run
import proofs.«413693_j16020228014144_1_alg».proof.Proof.Gen.ReferenceIdeal.Read
import proofs.«413693_j16020228014144_1_alg».proof.Proof.Spec
import Idealize.ShloMosaic.Lib.ValueIdx
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The gather's dimension numbers: a 50257 × 768 operand, start indices 8 × 4096 × 1, slices of one row. -/
abbrev rowDims : GatherDims S50257x768 S8x4096x1 S8x4096x768 :=
  gather_S50257x768_S8x4096x1_S8x4096x768_2_0_n_n_0_2_1768

/-- The gather at (b, s, k): the operand at the row the start index idx[b, s, 0] names, read signed and clamped into
    [0, 50256], and at column k. -/
theorem gather_row_apply {α : Type} (x : S50257x768.Idx → α) (idx : IVec S8x4096x1 32)
    (b : Fin 8) (s : Fin 4096) (k : Fin 768) :
    Host.gather rowDims x idx (ix3 b s k)
      = x (ix2 (⟨min (idx (ix3 b s (0 : Fin 1))).toInt.toNat 50256, by omega⟩ : Fin 50257) k) := by
  unfold Host.gather
  congr 1
  funext a
  refine Fin.ext ?_
  match a with
  | ⟨0, _⟩ =>
    show rowDims.start (ix3 b s k) idx 0 + rowDims.batchCoord (ix3 b s k) 0 + rowDims.offCoord (ix3 b s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b s k) ⟨List.idxOf (0 : Fin 2) rowDims.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show rowDims.start (ix3 b s k) idx 1 + rowDims.batchCoord (ix3 b s k) 1 + rowDims.offCoord (ix3 b s k) 1 = k.val
    have h1 : (1 : Fin 2) ∉ rowDims.startIndexMap := by decide
    have hk : (1 : Fin 2) ∈ rowDims.sKept := by decide
    rw [GatherDims.batchCoord_eq_zero _ _ _ List.not_mem_nil]
    unfold GatherDims.start GatherDims.offCoord
    rw [dif_neg h1, dif_pos hk]
    simp only [Nat.add_zero, Nat.zero_add]
    rfl

variable {F : FTy → Type} [FloatOps F]

/-- A token word below 50257 is non-negative as a signed number, so the reference's adjustment of negative indices
    (add 50257 where the word is below zero) keeps it. -/
theorem adjust_keep (tok : (⟨S8x4096, .i32⟩ : BufTy).Contents (Elt F)) (y : S8x4096.Idx) (h : (tok y).toNat < 50257) :
    Read.val_main_v4 (F := F) tok y = tok y := by
  rw [Read.val_main_v4_apply, Read.val_main_v1_apply, Read.val_main_v0_apply, Read.val_main_c_apply]
  unfold Scalar.select
  refine if_neg fun hc => ?_
  have hlt := (Predicate.slt_iff_toNat (a := tok y) (b := 0#32) (by omega) (by decide)).mp hc
  exact Nat.not_lt_zero _ hlt

/-- Under the range hypothesis the reference's gather reads row tok[b, s] of the table. -/
theorem val_embed {F : FTy → Type} [FloatOps F] (tok : (⟨S8x4096, .i32⟩ : BufTy).Contents (Elt F)) (W : (⟨S50257x768, .f32⟩ : BufTy).Contents (Elt F))
    (hrange : ∀ y : S8x4096.Idx, (tok y).toNat < 50257) :
    Cert.ReferenceIdeal.Read.val_main_v6 (F := F) tok W = Cert.Spec.embed tok W := by
  funext i
  obtain ⟨b, s, k, rfl⟩ : ∃ b s k, i = ix3 b s k := ⟨i 0, i 1, i 2, eq_ix3 i⟩
  -- the position (b, s) of the token array, as the start-index array's (b, s, 0) reads it and as the lookup names it
  have hy : Read.idx_main_v5 (ix3 b s (0 : Fin 1)) = ix2 (⟨b.val, b.isLt⟩ : Fin 8) (⟨s.val, s.isLt⟩ : Fin 4096) := by
    funext a
    match a with
    | ⟨0, _⟩ => rfl
    | ⟨1, _⟩ => rfl
  show Host.gather rowDims W (Read.val_main_v5 (F := F) tok) (ix3 b s k)
    = W (ix2 (Spec.rowOf (tok (ix2 (⟨b.val, b.isLt⟩ : Fin 8) (⟨s.val, s.isLt⟩ : Fin 4096)))) (⟨k.val, k.isLt⟩ : Fin 768))
  have hr := hrange (ix2 (⟨b.val, b.isLt⟩ : Fin 8) (⟨s.val, s.isLt⟩ : Fin 4096))
  -- the start word at (b, s, 0) is the token word itself
  have hw : Read.val_main_v5 (F := F) tok (ix3 b s (0 : Fin 1))
      = tok (ix2 (⟨b.val, b.isLt⟩ : Fin 8) (⟨s.val, s.isLt⟩ : Fin 4096)) := by
    rw [Read.val_main_v5_apply, hy, adjust_keep tok _ hr]
  rw [gather_row_apply]
  refine congrArg (fun r : Fin 50257 => W (ix2 r k)) (Fin.ext ?_)
  show min (Read.val_main_v5 (F := F) tok (ix3 b s (0 : Fin 1))).toInt.toNat 50256 = (Spec.rowOf _).val
  rw [hw, Spec.rowOf_val _ hr, Predicate.toInt_eq_toNat_of_lt (by omega), Int.toNat_natCast]
  exact Nat.min_eq_left (by omega)

/-- Every run of the reference ends with its result buffer holding the embedding lookup of the two arguments' launch
    contents, and the arguments as they were. -/
theorem run_embed {F : FTy → Type} [FloatOps F] (m : (ℓ : Loc nD τ sig) → Buf (Elt F) ℓ) (ρ : Dev nD → PrngReg)
    (hrange : ∀ (c : Dev nD) (y : S8x4096.Idx), (m ((c.tc : Thread nD τ).loc main_arg0) y).toNat < 50257) :
    θ_run defs (onTc (τ := τ) (main (F := F))) ⟨m, fun _ => 0, ρ⟩ fun r => ∀ c : Dev nD,
      r.2.mem ((c.tc : Thread nD τ).loc main_v6) = Cert.Spec.embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h6, h0, h1⟩ := h c
      refine ⟨?_, h0, h1⟩
      rw [h6, Read.val_main_v6_eq]
      exact val_embed _ _ (hrange c))
    (Value.run m ρ)

end Cert.ReferenceIdeal.RefValue

end
-- ==== Proof.BodyK.lean ====
/-
  The kernel body's vocabulary: the resource algebra its run is stated in, the kernel's own semaphores, and the value
  one grid step leaves in the output block.
-/
import proofs.«413693_j16020228014144_1_alg».proof.Proof.Gen.Kernel
import proofs.«413693_j16020228014144_1_alg».proof.Proof.Gen.Kernel.Skeleton
import proofs.«413693_j16020228014144_1_alg».proof.Proof.Spec
import Idealize.ShloMosaic.Lib.Tactic
import Idealize.ShloMosaic.Lib.Pipeline.Kit

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-- The resource algebra: the rounds library's for the pipeline's staging cells, beside the counters the transfers'
    invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own semaphores: the 128 scratch DMA semaphores, cells 2 to 129 of the pool (cells 0 and 1 are the
    output window's two staging buffers'). Copy `j` of a grid step completes on cell `2 + j`. -/
abbrev osem : Fin 128 → SemLoc sig := fun k => .dma (Fin.natAdd 2 k)

/-- What a grid step leaves in the output window's staging buffer: row `j` of the block is the table row that token
    `128 · i + j` of the flattened token array names. -/
def gathered (i : grid0.Coords) (ftok : S32768.Idx → BitVec 32) (fW : S50257x768.Idx → Elt F .f32) :
    S128x768.Idx → Elt F .f32 :=
  fun y => fW (ValueIdx.ix2 (Cert.Spec.rowOf (ftok (ValueIdx.ix1 (⟨128 * (i 0).val + (y 0).val, by
    have h0 : (i 0).val < 256 := (i 0).isLt
    have h1 : (y 0).val < 128 := (y 0).isLt
    omega⟩ : Fin 32768)))) (⟨(y 1).val, (y 1).isLt⟩ : Fin 768))

end Cert.Kernel.Body

end
-- ==== Proof.DataK.lean ====
/-
  The pipeline's proof data for the one kernel region.

  @main is a reshape of the token array to 32768 words (the prefetched table), the kernel region over a grid of 256
  steps with one output window of 128 × 768 blocks, and a reshape of the 32768 × 768 result to 8 × 4096 × 768.
  `V` is what the buffers hold when the region is entered (the first reshape has run). The prefetched table is
  pinned at the flattened tokens (`adm`). After grid step `t` the output window's staging buffer holds the 128 table
  rows that tokens `128 t … 128 t + 127` name (`Body.gathered`); between steps the kernel's invariant `Φc` holds the
  embedding table whole, the token table, the 128 semaphores at zero and the scoped buffers no window stages.
-/
import proofs.«413693_j16020228014144_1_alg».proof.Proof.BodyK
import proofs.«413693_j16020228014144_1_alg».proof.Proof.Gen.Kernel.Launch
import Idealize.ShloMosaic.Lib.Pipeline.Regions

noncomputable section

namespace Cert.Kernel.Data

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the token array has been flattened into the table. -/
abbrev V (c : Dev nD) (b : Ref sig .tc) : Buf (Elt F) ((c : Thread nD τ).loc b) := StableHlo.after hostOps0 (V₀ m ρ c) b

/-- The prefetched table's contents on core 0 … the program is compiled for one device; the table is the same
    function of the memory on every core. -/
abbrev tbl : pre0.Contents (Elt F) := fun k => match k with | ⟨0, _⟩ => V m ρ 0 main_v0

/-- The table's admissible contents: the index maps do not read it, so any contents are admissible. -/
abbrev adm : (p : Fin 1) → (pcfgs (F := F) p).Adm := fun _ => ⟨tbl m ρ, trivial⟩

/-- The invariant between grid steps: the embedding table whole at its launch contents, the token table at the
    flattened tokens, the kernel's 128 semaphores at zero, the scoped buffers no window stages. -/
def Φc (c : Dev nD) : sProp 𝕄 :=
  iprop(pt c (Memref.whole main_arg1) (V m ρ c main_arg1)
    ∗ Pipeline.prefHeld (Ix := Unit) (Name := ℕ) (U := UU nD τ) (Lvl := ℕ) pre0 c (fun _ => fullShare) (tbl m ρ)
    ∗ Pipeline.ownSems0 (Ix := Unit) (Name := ℕ) (U := UU nD τ) (Lvl := ℕ) (Val := Elt F) (τ := τ) osem c
    ∗ Pipeline.scopedRest (Ix := Unit) (Name := ℕ) (U := UU nD τ) (Lvl := ℕ) (Val := Elt F) spec0 c)

/-- The proof data on core `c`: the result array at its entry contents; after step `t` the staging buffer at the
    128 gathered rows; the invariant; nothing owed; the full share. -/
def dats (_ : Fin 1) (c : Dev nD) : Dat τ (Elt F) Unit ℕ (UU nD τ) ℕ (Pipeline.pin (pcfgs (F := F)) (adm m ρ) 0) c where
  A w := V m ρ c (Pipeline.arrRef spec0 w)
  after w t := match w with | ⟨0, _⟩ => gathered (grid0.coords t) (V m ρ c main_v0) (V m ρ c main_arg1)
  Φ _ := Φc m ρ c
  q _ := fullShare
  owed _ := 0

end Cert.Kernel.Data

end
-- ==== Proof.RowsK.lean ====
/-
  The output block row by row, and what one row copy moves.

  A grid step fills the 128 × 768 staging block one row at a time: copy `j` moves one row of the embedding table — the
  row a token word names — into row `j` of the block. This module states the block as its 128 rows (each row's elements
  held on their own: `rows_split`, `rows_join`), what a scalar read of the token table returns (`tok_read`), and what
  the copy's source row reads as (`row_payload`): entry `k` of the payload is entry `(w, k)` of the table, `w` the word.
-/
import proofs.«413693_j16020228014144_1_alg».proof.Proof.BodyK

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- A memref's window held by exactly its own elements, at the buffer contents `f`. -/
abbrev heldOwn (c : Dev nD) {sp : Space} {S : Shape} {e : EltTy} (M : Memref sig .tc sp S e) (f : Buf (Elt F) (M.view.loc (c : Thread nD τ))) : sProp 𝕄 :=
  M.view.loc (c : Thread nD τ) ↦[M.view.set]{fullShare} f

/-- Row `j` of the block lies inside it. -/
theorem rowInb (j : Fin 128) : ∀ a, (![j.val, 0] : Fin 2 → Nat) a + S1x768.size a ≤ S128x768.size a := by
  intro a; fin_cases a
  · show j.val + 1 ≤ 128; omega
  · show 0 + 768 ≤ 768; omega

/-- Row `j` of the staging block as the kernel names a copy's destination: the unit-row slice, its unit axis dropped. -/
abbrev rowM (M3 : Memref sig .tc .vmem S128x768 .f32) (j : Fin 128) : Memref sig .tc .vmem S768 .f32 :=
  (M3.slice (Rect.unit (s := S128x768) ![j.val, 0] S1x768.size (rowInb j)) (fun _ => rfl)).squeeze S768 squeezes_S1x768_S768

/-- The table row a word names as the kernel names a copy's source: the unit-row slice at the word, its unit axis dropped. -/
abbrev srcRow (w : BitVec 32) (hw : ∀ a, (![w.toNat, 0] : Fin 2 → Nat) a + S1x768.size a ≤ S50257x768.size a) :
    Memref sig .tc .hbm S768 .f32 :=
  ((Memref.whole main_arg1).slice (Rect.unit (s := S50257x768) ![w.toNat, 0] S1x768.size hw) (fun _ => rfl)).squeeze S768 squeezes_S1x768_S768

/-- A word below the table's 50257 rows names a row inside the table. -/
theorem chk_of_lt (t : BitVec 32) (h : t.toNat < 50257) :
    ∀ a, (![t.toNat, 0] : Fin 2 → Nat) a + S1x768.size a ≤ S50257x768.size a := by
  intro a; fin_cases a
  · show t.toNat + 1 ≤ 50257; omega
  · show 0 + 768 ≤ 768; omega

/-- The element under index `y` of a unit row of a two-axis memref, its unit axis dropped, is the memref's element at
    `(r, y)`: the squeeze puts the unit coordinate `0` back in front, and the unit rectangle adds its offsets `(r, 0)`. -/
theorem unitRow_emb {κ : Kind} {sp : Space} {e : EltTy} {n : Nat} (M : Memref sig κ sp (⟨2, ![n, 768]⟩ : Shape) e) (r : Nat)
    (h : ∀ a, (![r, 0] : Fin 2 → Nat) a + S1x768.size a ≤ (⟨2, ![n, 768]⟩ : Shape).size a) (y : S768.Idx) :
    ((M.slice (Rect.unit (s := (⟨2, ![n, 768]⟩ : Shape)) ![r, 0] S1x768.size h) (fun _ => rfl)).squeeze S768 squeezes_S1x768_S768).view.emb y
      = M.view.emb (ValueIdx.ix2 (⟨r, by have := h 0; simp only [S1x768] at this; exact this⟩ : Fin n) (⟨(y 0).val, (y 0).isLt⟩ : Fin 768)) := by
  show M.view.emb ((Rect.unit (s := (⟨2, ![n, 768]⟩ : Shape)) ![r, 0] S1x768.size h).emb (Shape.reshapeEquiv squeezes_S1x768_S768.numel_eq y)) = _
  congr 1
  have hy : Shape.reshapeEquiv squeezes_S1x768_S768.numel_eq y = Fin.cons ⟨0, Nat.one_pos⟩ y :=
    Shape.reshapeEquiv_cons_one (n := 1) (d := ![768]) squeezes_S1x768_S768.numel_eq y
  rw [hy]
  funext a
  apply Fin.ext
  fin_cases a
  · show r + 1 * 0 = r; omega
  · show 0 + 1 * (y 0).val = (y 0).val; omega

/-- A scalar read of the token table at a one-word rectangle is the table's word at the rectangle's offset. -/
theorem tok_read (c : Dev nD) (ftok : Bf (F := F) c (Memref.whole main_v0)) (off : Fin 1 → Nat)
    (h : ∀ a, off a + S1.size a ≤ S32768.size a) (hn : 0 < S1.numel) :
    View.readAt (Elt F) (Memref.whole main_v0).view (Rect.unit (s := S32768) off S1.size h).toLoadRect ftok (Shape.Idx.first hn)
      = ftok (ValueIdx.ix1 (⟨off 0, by have := h 0; simp only [S1, S32768] at this; exact this⟩ : Fin 32768)) := by
  show ftok ((Rect.unit (s := S32768) off S1.size h).emb (Shape.Idx.first hn)) = _
  congr 1
  funext a
  apply Fin.ext
  fin_cases a
  show off 0 + 1 * 0 = off 0
  omega

/-- What a row copy moves: entry `k` of the payload is entry `(w, k)` of the table. -/
theorem row_payload (c : Dev nD) (fW : Bf (F := F) c (Memref.whole main_arg1)) (w : BitVec 32)
    (hw : ∀ a, (![w.toNat, 0] : Fin 2 → Nat) a + S1x768.size a ≤ S50257x768.size a) :
    ReadAs.same.apply (View.read (Elt F) (srcRow w hw).view fW)
      = fun y : S768.Idx => fW (ValueIdx.ix2 (⟨w.toNat, by have := hw 0; simp only [S1x768, S50257x768] at this; exact this⟩ : Fin 50257) (⟨(y 0).val, (y 0).isLt⟩ : Fin 768)) := by
  funext y
  show fW ((srcRow w hw).view.emb y) = _
  congr 1
  exact unitRow_emb (Memref.whole main_arg1) w.toNat hw y

end Cert.Kernel.Body

end
-- ==== Proof.RowValK.lean ====
/-
  One row of a grid step's result, and that a row copy's payload is that row.

  `rowVal i ftok fW j` is row `j` of the block grid step `i` produces: the table row that token `128 · i + j` names.
  A copy's payload is read off the table at the word the kernel loaded; the loaded word is the token table's word at
  offset `128 · i + j`, and a word below 50257 names the row of its own value: so the payload is `rowVal`.
-/
import proofs.«413693_j16020228014144_1_alg».proof.Proof.RowsK

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- Row `j` of what grid step `i` leaves in the block: the table row token `128 · i + j` names. -/
def rowVal (i : grid0.Coords) (ftok : S32768.Idx → BitVec 32) (fW : S50257x768.Idx → Elt F .f32) (j : Fin 128) :
    S768.Idx → Elt F .f32 :=
  fun y => fW (ValueIdx.ix2 (Cert.Spec.rowOf (ftok (ValueIdx.ix1 (⟨128 * (i 0).val + j.val, by
    have h0 : (i 0).val < 256 := (i 0).isLt
    have h1 : j.val < 128 := j.isLt
    omega⟩ : Fin 32768)))) (⟨(y 0).val, (y 0).isLt⟩ : Fin 768))

/-- The block of `gathered` is its rows. -/
theorem gathered_eq_rows (i : grid0.Coords) (ftok : S32768.Idx → BitVec 32) (fW : S50257x768.Idx → Elt F .f32) :
    gathered i ftok fW
      = fun y : S128x768.Idx => rowVal i ftok fW (⟨(y 0).val, (y 0).isLt⟩ : Fin 128) (ValueIdx.ix1 (⟨(y 1).val, (y 1).isLt⟩ : Fin 768)) :=
  rfl

/-- The payload of copy `j` of grid step `i` — the table read at the row the loaded word names, the word read off the
    token table at the step's `j`-th offset — is row `j` of the step's result. -/
theorem payload_fact (c : Dev nD) (i : grid0.Coords) (ftok : Bf (F := F) c (Memref.whole main_v0))
    (fW : Bf (F := F) c (Memref.whole main_arg1)) (htok : ∀ y : S32768.Idx, (ftok y).toNat < 50257) (j : Fin 128)
    (off : Fin 1 → Nat) (hoff : off = ![128 * (i 0).val + j.val])
    (h : ∀ a, off a + S1.size a ≤ S32768.size a) (hn : 0 < S1.numel)
    (hw : ∀ a, (![(View.readAt (Elt F) (Memref.whole main_v0).view (Rect.unit (s := S32768) off S1.size h).toLoadRect ftok (Shape.Idx.first hn)).toNat, 0] : Fin 2 → Nat) a + S1x768.size a ≤ S50257x768.size a) :
    ReadAs.same.apply (View.read (Elt F)
        (srcRow (View.readAt (Elt F) (Memref.whole main_v0).view (Rect.unit (s := S32768) off S1.size h).toLoadRect ftok (Shape.Idx.first hn)) hw).view fW)
      = rowVal i ftok fW j := by
  subst hoff
  rw [row_payload]
  funext y
  unfold rowVal
  refine congrArg fW (congrArg (fun r => ValueIdx.ix2 r _) (Fin.ext ?_))
  rw [Cert.Spec.rowOf_val _ (htok _)]
  show (View.readAt (Elt F) (Memref.whole main_v0).view _ ftok _).toNat = _
  rw [tok_read]
  rfl

/-- A row of the block overwritten whole by a payload that equals `v`: the form in which a run that names its payloads
    hands the row back. -/
def rowOut (c : Dev nD) (M : Memref sig .tc .vmem S768 .f32) (f3 : Buf (Elt F) (M.view.loc (c : Thread nD τ)))
    (v : S768.Idx → Elt F .f32) : sProp 𝕄 :=
  iprop(∃ P : S768.Idx → Elt F .f32, ⌜P = v⌝ ∗ heldOwn (F := F) c M (M.view.writes (Elt F) f3 [⟨Rect.whole S768, P⟩]))

/-- It is the row overwritten by `v`. -/
theorem rowOut_elim (c : Dev nD) (M : Memref sig .tc .vmem S768 .f32) (f3 : Buf (Elt F) (M.view.loc (c : Thread nD τ)))
    (v : S768.Idx → Elt F .f32) :
    rowOut (F := F) c M f3 v ⊢ heldOwn (F := F) c M (M.view.writes (Elt F) f3 [⟨Rect.whole S768, v⟩]) := by
  unfold rowOut
  iintro ⟨%P, %hP, H⟩
  subst hP
  iexact H

/-! The four families the run's context is made of, by row `j`. -/

/-- The table's read share for semaphore cell `2 + j`. -/
abbrev tokH (c : Dev nD) (fW : Bf (F := F) c (Memref.whole main_arg1)) (j : Fin 128) : sProp 𝕄 :=
  (Memref.whole main_arg1).view.loc (c : Thread nD τ) ↦{Transfers.shareTokN fullShare (j.val + 2)} fW
/-- Row `j` of the block, held on its own. -/
abbrev rowH (c : Dev nD) (M3 : Memref sig .tc .vmem S128x768 .f32) (f3 : Buf (Elt F) (M3.view.loc (c : Thread nD τ))) (j : Fin 128) : sProp 𝕄 :=
  heldOwn (F := F) c (rowM M3 j) f3
/-- Semaphore `j` of the kernel's 128 at zero. -/
abbrev semH (c : Dev nD) (j : Fin 128) : sProp 𝕄 := semVal ((c : Thread nD τ), osem j) 0
/-- Row `j` after the step. -/
abbrev rowOutH (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) (j : Fin 128) : sProp 𝕄 :=
  rowOut (F := F) c (rowM M3 j) f3 (rowVal i ftok fW j)

end Cert.Kernel.Body

end
-- ==== Proof.BodyRunK.lean ====
/- One grid step of the kernel body, run on the block held row by row.

  The body starts 128 row copies, copy j from the table row its loaded token word names into row j of the block, on
  semaphore 2 + j, and then waits for each. While they are all in flight the table is read by 128 transfers at once: it is
  held as one read share per semaphore cell; the block is held as its 128 rows, each row's elements on their own, so that
  each copy takes exactly its own row. Every token word is below the table's 50257 rows, which is what each copy's source
  row being inside the table asks. After the waits every share and every row is back, row j overwritten whole by copy j's
  payload, which is row j of the step's result (payload_fact). The four chains below are the families tokH, rowH, semH and
  rowOutH written out member by member, as the run meets them.
-/
import proofs.«413693_j16020228014144_1_alg».proof.Proof.RowValK

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- The table's 128 read shares, one per semaphore cell 2 … 129. -/
def toksChain (c : Dev nD) (fW : Bf (F := F) c (Memref.whole main_arg1)) : sProp 𝕄 :=
  iprop(((Memref.whole main_arg1).view.loc (c : Thread nD τ) ↦{Transfers.shareTokN fullShare 2} fW)
    ∗ ((Memref.whole main_arg1).view.loc (c : Thread nD τ) ↦{Transfers.shareTokN fullShare 3} fW)
    ∗ ((Memref.whole main_arg1).view.loc (c : Thread nD τ) ↦{Transfers.shareTokN fullShare 4} fW)
    ∗ ((Memref.whole main_arg1).view.loc (c : Thread nD τ) ↦{Transfers.shareTokN fullShare 5} fW)
    ∗ ((Memref.whole main_arg1).view.loc (c : Thread nD τ) ↦{Transfers.shareTokN fullShare 6} fW)
    ∗ ((Memref.whole main_arg1).view.loc (c : Thread nD τ) ↦{Transfers.shareTokN fullShare 7} fW)
    ∗ ((Memref.whole main_arg1).view.loc (c : Thread nD τ) ↦{Transfers.shareTokN fullShare 8} fW)
    ∗ ((Memref.whole main_arg1).view.loc (c : Thread nD τ) ↦{Transfers.shareTokN fullShare 9} fW)
    ∗ ((Memref.whole main_arg1).view.loc (c : Thread nD τ) ↦{Transfers.shareTokN fullShare 10} fW)
    ∗ ((Memref.whole main_arg1).view.loc (c : Thread nD τ) ↦{Transfers.shareTokN fullShare 11} fW)
    ∗ ((Memref.whole main_arg1).view.loc (c : Thread nD τ) ↦{Transfers.shareTokN fullShare 12} fW)
    ∗ ((Memref.whole main_arg1).view.loc (c : Thread nD τ) ↦{Transfers.shareTokN fullShare 13} fW)
    ∗ ((Memref.whole main_arg1).view.loc (c : Thread nD τ) ↦{Transfers.shareTokN fullShare 14} fW)
    ∗ ((Memref.whole main_arg1).view.loc (c : Thread nD τ) ↦{Transfers.shareTokN fullShare 15} fW)
    ∗ ((Memref.whole main_arg1).view.loc (c : Thread nD τ) ↦{Transfers.shareTokN fullShare 16} fW)
    ∗ ((Memref.whole main_arg1).view.loc (c : Thread nD τ) ↦{Transfers.shareTokN fullShare 17} fW)
    ∗ ((Memref.whole main_arg1).view.loc (c : Thread nD τ) ↦{Transfers.shareTokN fullShare 18} fW)
    ∗ ((Memref.whole main_arg1).view.loc (c : Thread nD τ) ↦{Transfers.shareTokN fullShare 19} fW)
    ∗ ((Memref.whole main_arg1).view.loc (c : Thread nD τ) ↦{Transfers.shareTokN fullShare 20} fW)
    ∗ ((Memref.whole main_arg1).view.loc (c : Thread nD τ) ↦{Transfers.shareTokN fullShare 21} fW)
    ∗ ((Memref.whole main_arg1).view.loc (c : Thread nD τ) ↦{Transfers.shareTokN fullShare 22} fW)
    ∗ ((Memref.whole main_arg1).view.loc (c : Thread nD τ) ↦{Transfers.shareTokN fullShare 23} fW)
    ∗ ((Memref.whole main_arg1).view.loc (c : Thread nD τ) ↦{Transfers.shareTokN fullShare 24} fW)
    ∗ ((Memref.whole main_arg1).view.loc (c : Thread nD τ) ↦{Transfers.shareTokN fullShare 25} fW)
    ∗ ((Memref.whole main_arg1).view.loc (c : Thread nD τ) ↦{Transfers.shareTokN fullShare 26} fW)
    ∗ ((Memref.whole main_arg1).view.loc (c : Thread nD τ) ↦{Transfers.shareTokN fullShare 27} fW)
    ∗ ((Memref.whole main_arg1).view.loc (c : Thread nD τ) ↦{Transfers.shareTokN fullShare 28} fW)
    ∗ ((Memref.whole main_arg1).view.loc (c : Thread nD τ) ↦{Transfers.shareTokN fullShare 29} fW)
    ∗ ((Memref.whole main_arg1).view.loc (c : Thread nD τ) ↦{Transfers.shareTokN fullShare 30} fW)
    ∗ ((Memref.whole main_arg1).view.loc (c : Thread nD τ) ↦{Transfers.shareTokN fullShare 31} fW)
    ∗ ((Memref.whole main_arg1).view.loc (c : Thread nD τ) ↦{Transfers.shareTokN fullShare 32} fW)
    ∗ ((Memref.whole main_arg1).view.loc (c : Thread nD τ) ↦{Transfers.shareTokN fullShare 33} fW)
    ∗ ((Memref.whole main_arg1).view.loc (c : Thread nD τ) ↦{Transfers.shareTokN fullShare 34} fW)
    ∗ ((Memref.whole main_arg1).view.loc (c : Thread nD τ) ↦{Transfers.shareTokN fullShare 35} fW)
    ∗ ((Memref.whole main_arg1).view.loc (c : Thread nD τ) ↦{Transfers.shareTokN fullShare 36} fW)
    ∗ ((Memref.whole main_arg1).view.loc (c : Thread nD τ) ↦{Transfers.shareTokN fullShare 37} fW)
    ∗ ((Memref.whole main_arg1).view.loc (c : Thread nD τ) ↦{Transfers.shareTokN fullShare 38} fW)
    ∗ ((Memref.whole main_arg1).view.loc (c : Thread nD τ) ↦{Transfers.shareTokN fullShare 39} fW)
    ∗ ((Memref.whole main_arg1).view.loc (c : Thread nD τ) ↦{Transfers.shareTokN fullShare 40} fW)
    ∗ ((Memref.whole main_arg1).view.loc (c : Thread nD τ) ↦{Transfers.shareTokN fullShare 41} fW)
    ∗ ((Memref.whole main_arg1).view.loc (c : Thread nD τ) ↦{Transfers.shareTokN fullShare 42} fW)
    ∗ ((Memref.whole main_arg1).view.loc (c : Thread nD τ) ↦{Transfers.shareTokN fullShare 43} fW)
    ∗ ((Memref.whole main_arg1).view.loc (c : Thread nD τ) ↦{Transfers.shareTokN fullShare 44} fW)
    ∗ ((Memref.whole main_arg1).view.loc (c : Thread nD τ) ↦{Transfers.shareTokN fullShare 45} fW)
    ∗ ((Memref.whole main_arg1).view.loc (c : Thread nD τ) ↦{Transfers.shareTokN fullShare 46} fW)
    ∗ ((Memref.whole main_arg1).view.loc (c : Thread nD τ) ↦{Transfers.shareTokN fullShare 47} fW)
    ∗ ((Memref.whole main_arg1).view.loc (c : Thread nD τ) ↦{Transfers.shareTokN fullShare 48} fW)
    ∗ ((Memref.whole main_arg1).view.loc (c : Thread nD τ) ↦{Transfers.shareTokN fullShare 49} fW)
    ∗ ((Memref.whole main_arg1).view.loc (c : Thread nD τ) ↦{Transfers.shareTokN fullShare 50} fW)
    ∗ ((Memref.whole main_arg1).view.loc (c : Thread nD τ) ↦{Transfers.shareTokN fullShare 51} fW)
    ∗ ((Memref.whole main_arg1).view.loc (c : Thread nD τ) ↦{Transfers.shareTokN fullShare 52} fW)
    ∗ ((Memref.whole main_arg1).view.loc (c : Thread nD τ) ↦{Transfers.shareTokN fullShare 53} fW)
    ∗ ((Memref.whole main_arg1).view.loc (c : Thread nD τ) ↦{Transfers.shareTokN fullShare 54} fW)
    ∗ ((Memref.whole main_arg1).view.loc (c : Thread nD τ) ↦{Transfers.shareTokN fullShare 55} fW)
    ∗ ((Memref.whole main_arg1).view.loc (c : Thread nD τ) ↦{Transfers.shareTokN fullShare 56} fW)
    ∗ ((Memref.whole main_arg1).view.loc (c : Thread nD τ) ↦{Transfers.shareTokN fullShare 57} fW)
    ∗ ((Memref.whole main_arg1).view.loc (c : Thread nD τ) ↦{Transfers.shareTokN fullShare 58} fW)
    ∗ ((Memref.whole main_arg1).view.loc (c : Thread nD τ) ↦{Transfers.shareTokN fullShare 59} fW)
    ∗ ((Memref.whole main_arg1).view.loc (c : Thread nD τ) ↦{Transfers.shareTokN fullShare 60} fW)
    ∗ ((Memref.whole main_arg1).view.loc (c : Thread nD τ) ↦{Transfers.shareTokN fullShare 61} fW)
    ∗ ((Memref.whole main_arg1).view.loc (c : Thread nD τ) ↦{Transfers.shareTokN fullShare 62} fW)
    ∗ ((Memref.whole main_arg1).view.loc (c : Thread nD τ) ↦{Transfers.shareTokN fullShare 63} fW)
    ∗ ((Memref.whole main_arg1).view.loc (c : Thread nD τ) ↦{Transfers.shareTokN fullShare 64} fW)
    ∗ ((Memref.whole main_arg1).view.loc (c : Thread nD τ) ↦{Transfers.shareTokN fullShare 65} fW)
    ∗ ((Memref.whole main_arg1).view.loc (c : Thread nD τ) ↦{Transfers.shareTokN fullShare 66} fW)
    ∗ ((Memref.whole main_arg1).view.loc (c : Thread nD τ) ↦{Transfers.shareTokN fullShare 67} fW)
    ∗ ((Memref.whole main_arg1).view.loc (c : Thread nD τ) ↦{Transfers.shareTokN fullShare 68} fW)
    ∗ ((Memref.whole main_arg1).view.loc (c : Thread nD τ) ↦{Transfers.shareTokN fullShare 69} fW)
    ∗ ((Memref.whole main_arg1).view.loc (c : Thread nD τ) ↦{Transfers.shareTokN fullShare 70} fW)
    ∗ ((Memref.whole main_arg1).view.loc (c : Thread nD τ) ↦{Transfers.shareTokN fullShare 71} fW)
    ∗ ((Memref.whole main_arg1).view.loc (c : Thread nD τ) ↦{Transfers.shareTokN fullShare 72} fW)
    ∗ ((Memref.whole main_arg1).view.loc (c : Thread nD τ) ↦{Transfers.shareTokN fullShare 73} fW)
    ∗ ((Memref.whole main_arg1).view.loc (c : Thread nD τ) ↦{Transfers.shareTokN fullShare 74} fW)
    ∗ ((Memref.whole main_arg1).view.loc (c : Thread nD τ) ↦{Transfers.shareTokN fullShare 75} fW)
    ∗ ((Memref.whole main_arg1).view.loc (c : Thread nD τ) ↦{Transfers.shareTokN fullShare 76} fW)
    ∗ ((Memref.whole main_arg1).view.loc (c : Thread nD τ) ↦{Transfers.shareTokN fullShare 77} fW)
    ∗ ((Memref.whole main_arg1).view.loc (c : Thread nD τ) ↦{Transfers.shareTokN fullShare 78} fW)
    ∗ ((Memref.whole main_arg1).view.loc (c : Thread nD τ) ↦{Transfers.shareTokN fullShare 79} fW)
    ∗ ((Memref.whole main_arg1).view.loc (c : Thread nD τ) ↦{Transfers.shareTokN fullShare 80} fW)
    ∗ ((Memref.whole main_arg1).view.loc (c : Thread nD τ) ↦{Transfers.shareTokN fullShare 81} fW)
    ∗ ((Memref.whole main_arg1).view.loc (c : Thread nD τ) ↦{Transfers.shareTokN fullShare 82} fW)
    ∗ ((Memref.whole main_arg1).view.loc (c : Thread nD τ) ↦{Transfers.shareTokN fullShare 83} fW)
    ∗ ((Memref.whole main_arg1).view.loc (c : Thread nD τ) ↦{Transfers.shareTokN fullShare 84} fW)
    ∗ ((Memref.whole main_arg1).view.loc (c : Thread nD τ) ↦{Transfers.shareTokN fullShare 85} fW)
    ∗ ((Memref.whole main_arg1).view.loc (c : Thread nD τ) ↦{Transfers.shareTokN fullShare 86} fW)
    ∗ ((Memref.whole main_arg1).view.loc (c : Thread nD τ) ↦{Transfers.shareTokN fullShare 87} fW)
    ∗ ((Memref.whole main_arg1).view.loc (c : Thread nD τ) ↦{Transfers.shareTokN fullShare 88} fW)
    ∗ ((Memref.whole main_arg1).view.loc (c : Thread nD τ) ↦{Transfers.shareTokN fullShare 89} fW)
    ∗ ((Memref.whole main_arg1).view.loc (c : Thread nD τ) ↦{Transfers.shareTokN fullShare 90} fW)
    ∗ ((Memref.whole main_arg1).view.loc (c : Thread nD τ) ↦{Transfers.shareTokN fullShare 91} fW)
    ∗ ((Memref.whole main_arg1).view.loc (c : Thread nD τ) ↦{Transfers.shareTokN fullShare 92} fW)
    ∗ ((Memref.whole main_arg1).view.loc (c : Thread nD τ) ↦{Transfers.shareTokN fullShare 93} fW)
    ∗ ((Memref.whole main_arg1).view.loc (c : Thread nD τ) ↦{Transfers.shareTokN fullShare 94} fW)
    ∗ ((Memref.whole main_arg1).view.loc (c : Thread nD τ) ↦{Transfers.shareTokN fullShare 95} fW)
    ∗ ((Memref.whole main_arg1).view.loc (c : Thread nD τ) ↦{Transfers.shareTokN fullShare 96} fW)
    ∗ ((Memref.whole main_arg1).view.loc (c : Thread nD τ) ↦{Transfers.shareTokN fullShare 97} fW)
    ∗ ((Memref.whole main_arg1).view.loc (c : Thread nD τ) ↦{Transfers.shareTokN fullShare 98} fW)
    ∗ ((Memref.whole main_arg1).view.loc (c : Thread nD τ) ↦{Transfers.shareTokN fullShare 99} fW)
    ∗ ((Memref.whole main_arg1).view.loc (c : Thread nD τ) ↦{Transfers.shareTokN fullShare 100} fW)
    ∗ ((Memref.whole main_arg1).view.loc (c : Thread nD τ) ↦{Transfers.shareTokN fullShare 101} fW)
    ∗ ((Memref.whole main_arg1).view.loc (c : Thread nD τ) ↦{Transfers.shareTokN fullShare 102} fW)
    ∗ ((Memref.whole main_arg1).view.loc (c : Thread nD τ) ↦{Transfers.shareTokN fullShare 103} fW)
    ∗ ((Memref.whole main_arg1).view.loc (c : Thread nD τ) ↦{Transfers.shareTokN fullShare 104} fW)
    ∗ ((Memref.whole main_arg1).view.loc (c : Thread nD τ) ↦{Transfers.shareTokN fullShare 105} fW)
    ∗ ((Memref.whole main_arg1).view.loc (c : Thread nD τ) ↦{Transfers.shareTokN fullShare 106} fW)
    ∗ ((Memref.whole main_arg1).view.loc (c : Thread nD τ) ↦{Transfers.shareTokN fullShare 107} fW)
    ∗ ((Memref.whole main_arg1).view.loc (c : Thread nD τ) ↦{Transfers.shareTokN fullShare 108} fW)
    ∗ ((Memref.whole main_arg1).view.loc (c : Thread nD τ) ↦{Transfers.shareTokN fullShare 109} fW)
    ∗ ((Memref.whole main_arg1).view.loc (c : Thread nD τ) ↦{Transfers.shareTokN fullShare 110} fW)
    ∗ ((Memref.whole main_arg1).view.loc (c : Thread nD τ) ↦{Transfers.shareTokN fullShare 111} fW)
    ∗ ((Memref.whole main_arg1).view.loc (c : Thread nD τ) ↦{Transfers.shareTokN fullShare 112} fW)
    ∗ ((Memref.whole main_arg1).view.loc (c : Thread nD τ) ↦{Transfers.shareTokN fullShare 113} fW)
    ∗ ((Memref.whole main_arg1).view.loc (c : Thread nD τ) ↦{Transfers.shareTokN fullShare 114} fW)
    ∗ ((Memref.whole main_arg1).view.loc (c : Thread nD τ) ↦{Transfers.shareTokN fullShare 115} fW)
    ∗ ((Memref.whole main_arg1).view.loc (c : Thread nD τ) ↦{Transfers.shareTokN fullShare 116} fW)
    ∗ ((Memref.whole main_arg1).view.loc (c : Thread nD τ) ↦{Transfers.shareTokN fullShare 117} fW)
    ∗ ((Memref.whole main_arg1).view.loc (c : Thread nD τ) ↦{Transfers.shareTokN fullShare 118} fW)
    ∗ ((Memref.whole main_arg1).view.loc (c : Thread nD τ) ↦{Transfers.shareTokN fullShare 119} fW)
    ∗ ((Memref.whole main_arg1).view.loc (c : Thread nD τ) ↦{Transfers.shareTokN fullShare 120} fW)
    ∗ ((Memref.whole main_arg1).view.loc (c : Thread nD τ) ↦{Transfers.shareTokN fullShare 121} fW)
    ∗ ((Memref.whole main_arg1).view.loc (c : Thread nD τ) ↦{Transfers.shareTokN fullShare 122} fW)
    ∗ ((Memref.whole main_arg1).view.loc (c : Thread nD τ) ↦{Transfers.shareTokN fullShare 123} fW)
    ∗ ((Memref.whole main_arg1).view.loc (c : Thread nD τ) ↦{Transfers.shareTokN fullShare 124} fW)
    ∗ ((Memref.whole main_arg1).view.loc (c : Thread nD τ) ↦{Transfers.shareTokN fullShare 125} fW)
    ∗ ((Memref.whole main_arg1).view.loc (c : Thread nD τ) ↦{Transfers.shareTokN fullShare 126} fW)
    ∗ ((Memref.whole main_arg1).view.loc (c : Thread nD τ) ↦{Transfers.shareTokN fullShare 127} fW)
    ∗ ((Memref.whole main_arg1).view.loc (c : Thread nD τ) ↦{Transfers.shareTokN fullShare 128} fW)
    ∗ ((Memref.whole main_arg1).view.loc (c : Thread nD τ) ↦{Transfers.shareTokN fullShare 129} fW))

/-- The block's 128 rows, each held on its own, at one buffer contents. -/
def rowsInChain (c : Dev nD) (M3 : Memref sig .tc .vmem S128x768 .f32) (f3 : Buf (Elt F) (M3.view.loc (c : Thread nD τ))) : sProp 𝕄 :=
  iprop(heldOwn (F := F) c ((M3.slice (Rect.unit (s := S128x768) ![0, 0] S1x768.size inb_S128x768_S1x768_0_0) (fun _ => rfl)).squeeze S768 squeezes_S1x768_S768) f3
    ∗ heldOwn (F := F) c ((M3.slice (Rect.unit (s := S128x768) ![1, 0] S1x768.size inb_S128x768_S1x768_1_0) (fun _ => rfl)).squeeze S768 squeezes_S1x768_S768) f3
    ∗ heldOwn (F := F) c ((M3.slice (Rect.unit (s := S128x768) ![2, 0] S1x768.size inb_S128x768_S1x768_2_0) (fun _ => rfl)).squeeze S768 squeezes_S1x768_S768) f3
    ∗ heldOwn (F := F) c ((M3.slice (Rect.unit (s := S128x768) ![3, 0] S1x768.size inb_S128x768_S1x768_3_0) (fun _ => rfl)).squeeze S768 squeezes_S1x768_S768) f3
    ∗ heldOwn (F := F) c ((M3.slice (Rect.unit (s := S128x768) ![4, 0] S1x768.size inb_S128x768_S1x768_4_0) (fun _ => rfl)).squeeze S768 squeezes_S1x768_S768) f3
    ∗ heldOwn (F := F) c ((M3.slice (Rect.unit (s := S128x768) ![5, 0] S1x768.size inb_S128x768_S1x768_5_0) (fun _ => rfl)).squeeze S768 squeezes_S1x768_S768) f3
    ∗ heldOwn (F := F) c ((M3.slice (Rect.unit (s := S128x768) ![6, 0] S1x768.size inb_S128x768_S1x768_6_0) (fun _ => rfl)).squeeze S768 squeezes_S1x768_S768) f3
    ∗ heldOwn (F := F) c ((M3.slice (Rect.unit (s := S128x768) ![7, 0] S1x768.size inb_S128x768_S1x768_7_0) (fun _ => rfl)).squeeze S768 squeezes_S1x768_S768) f3
    ∗ heldOwn (F := F) c ((M3.slice (Rect.unit (s := S128x768) ![8, 0] S1x768.size inb_S128x768_S1x768_8_0) (fun _ => rfl)).squeeze S768 squeezes_S1x768_S768) f3
    ∗ heldOwn (F := F) c ((M3.slice (Rect.unit (s := S128x768) ![9, 0] S1x768.size inb_S128x768_S1x768_9_0) (fun _ => rfl)).squeeze S768 squeezes_S1x768_S768) f3
    ∗ heldOwn (F := F) c ((M3.slice (Rect.unit (s := S128x768) ![10, 0] S1x768.size inb_S128x768_S1x768_10_0) (fun _ => rfl)).squeeze S768 squeezes_S1x768_S768) f3
    ∗ heldOwn (F := F) c ((M3.slice (Rect.unit (s := S128x768) ![11, 0] S1x768.size inb_S128x768_S1x768_11_0) (fun _ => rfl)).squeeze S768 squeezes_S1x768_S768) f3
    ∗ heldOwn (F := F) c ((M3.slice (Rect.unit (s := S128x768) ![12, 0] S1x768.size inb_S128x768_S1x768_12_0) (fun _ => rfl)).squeeze S768 squeezes_S1x768_S768) f3
    ∗ heldOwn (F := F) c ((M3.slice (Rect.unit (s := S128x768) ![13, 0] S1x768.size inb_S128x768_S1x768_13_0) (fun _ => rfl)).squeeze S768 squeezes_S1x768_S768) f3
    ∗ heldOwn (F := F) c ((M3.slice (Rect.unit (s := S128x768) ![14, 0] S1x768.size inb_S128x768_S1x768_14_0) (fun _ => rfl)).squeeze S768 squeezes_S1x768_S768) f3
    ∗ heldOwn (F := F) c ((M3.slice (Rect.unit (s := S128x768) ![15, 0] S1x768.size inb_S128x768_S1x768_15_0) (fun _ => rfl)).squeeze S768 squeezes_S1x768_S768) f3
    ∗ heldOwn (F := F) c ((M3.slice (Rect.unit (s := S128x768) ![16, 0] S1x768.size inb_S128x768_S1x768_16_0) (fun _ => rfl)).squeeze S768 squeezes_S1x768_S768) f3
    ∗ heldOwn (F := F) c ((M3.slice (Rect.unit (s := S128x768) ![17, 0] S1x768.size inb_S128x768_S1x768_17_0) (fun _ => rfl)).squeeze S768 squeezes_S1x768_S768) f3
    ∗ heldOwn (F := F) c ((M3.slice (Rect.unit (s := S128x768) ![18, 0] S1x768.size inb_S128x768_S1x768_18_0) (fun _ => rfl)).squeeze S768 squeezes_S1x768_S768) f3
    ∗ heldOwn (F := F) c ((M3.slice (Rect.unit (s := S128x768) ![19, 0] S1x768.size inb_S128x768_S1x768_19_0) (fun _ => rfl)).squeeze S768 squeezes_S1x768_S768) f3
    ∗ heldOwn (F := F) c ((M3.slice (Rect.unit (s := S128x768) ![20, 0] S1x768.size inb_S128x768_S1x768_20_0) (fun _ => rfl)).squeeze S768 squeezes_S1x768_S768) f3
    ∗ heldOwn (F := F) c ((M3.slice (Rect.unit (s := S128x768) ![21, 0] S1x768.size inb_S128x768_S1x768_21_0) (fun _ => rfl)).squeeze S768 squeezes_S1x768_S768) f3
    ∗ heldOwn (F := F) c ((M3.slice (Rect.unit (s := S128x768) ![22, 0] S1x768.size inb_S128x768_S1x768_22_0) (fun _ => rfl)).squeeze S768 squeezes_S1x768_S768) f3
    ∗ heldOwn (F := F) c ((M3.slice (Rect.unit (s := S128x768) ![23, 0] S1x768.size inb_S128x768_S1x768_23_0) (fun _ => rfl)).squeeze S768 squeezes_S1x768_S768) f3
    ∗ heldOwn (F := F) c ((M3.slice (Rect.unit (s := S128x768) ![24, 0] S1x768.size inb_S128x768_S1x768_24_0) (fun _ => rfl)).squeeze S768 squeezes_S1x768_S768) f3
    ∗ heldOwn (F := F) c ((M3.slice (Rect.unit (s := S128x768) ![25, 0] S1x768.size inb_S128x768_S1x768_25_0) (fun _ => rfl)).squeeze S768 squeezes_S1x768_S768) f3
    ∗ heldOwn (F := F) c ((M3.slice (Rect.unit (s := S128x768) ![26, 0] S1x768.size inb_S128x768_S1x768_26_0) (fun _ => rfl)).squeeze S768 squeezes_S1x768_S768) f3
    ∗ heldOwn (F := F) c ((M3.slice (Rect.unit (s := S128x768) ![27, 0] S1x768.size inb_S128x768_S1x768_27_0) (fun _ => rfl)).squeeze S768 squeezes_S1x768_S768) f3
    ∗ heldOwn (F := F) c ((M3.slice (Rect.unit (s := S128x768) ![28, 0] S1x768.size inb_S128x768_S1x768_28_0) (fun _ => rfl)).squeeze S768 squeezes_S1x768_S768) f3
    ∗ heldOwn (F := F) c ((M3.slice (Rect.unit (s := S128x768) ![29, 0] S1x768.size inb_S128x768_S1x768_29_0) (fun _ => rfl)).squeeze S768 squeezes_S1x768_S768) f3
    ∗ heldOwn (F := F) c ((M3.slice (Rect.unit (s := S128x768) ![30, 0] S1x768.size inb_S128x768_S1x768_30_0) (fun _ => rfl)).squeeze S768 squeezes_S1x768_S768) f3
    ∗ heldOwn (F := F) c ((M3.slice (Rect.unit (s := S128x768) ![31, 0] S1x768.size inb_S128x768_S1x768_31_0) (fun _ => rfl)).squeeze S768 squeezes_S1x768_S768) f3
    ∗ heldOwn (F := F) c ((M3.slice (Rect.unit (s := S128x768) ![32, 0] S1x768.size inb_S128x768_S1x768_32_0) (fun _ => rfl)).squeeze S768 squeezes_S1x768_S768) f3
    ∗ heldOwn (F := F) c ((M3.slice (Rect.unit (s := S128x768) ![33, 0] S1x768.size inb_S128x768_S1x768_33_0) (fun _ => rfl)).squeeze S768 squeezes_S1x768_S768) f3
    ∗ heldOwn (F := F) c ((M3.slice (Rect.unit (s := S128x768) ![34, 0] S1x768.size inb_S128x768_S1x768_34_0) (fun _ => rfl)).squeeze S768 squeezes_S1x768_S768) f3
    ∗ heldOwn (F := F) c ((M3.slice (Rect.unit (s := S128x768) ![35, 0] S1x768.size inb_S128x768_S1x768_35_0) (fun _ => rfl)).squeeze S768 squeezes_S1x768_S768) f3
    ∗ heldOwn (F := F) c ((M3.slice (Rect.unit (s := S128x768) ![36, 0] S1x768.size inb_S128x768_S1x768_36_0) (fun _ => rfl)).squeeze S768 squeezes_S1x768_S768) f3
    ∗ heldOwn (F := F) c ((M3.slice (Rect.unit (s := S128x768) ![37, 0] S1x768.size inb_S128x768_S1x768_37_0) (fun _ => rfl)).squeeze S768 squeezes_S1x768_S768) f3
    ∗ heldOwn (F := F) c ((M3.slice (Rect.unit (s := S128x768) ![38, 0] S1x768.size inb_S128x768_S1x768_38_0) (fun _ => rfl)).squeeze S768 squeezes_S1x768_S768) f3
    ∗ heldOwn (F := F) c ((M3.slice (Rect.unit (s := S128x768) ![39, 0] S1x768.size inb_S128x768_S1x768_39_0) (fun _ => rfl)).squeeze S768 squeezes_S1x768_S768) f3
    ∗ heldOwn (F := F) c ((M3.slice (Rect.unit (s := S128x768) ![40, 0] S1x768.size inb_S128x768_S1x768_40_0) (fun _ => rfl)).squeeze S768 squeezes_S1x768_S768) f3
    ∗ heldOwn (F := F) c ((M3.slice (Rect.unit (s := S128x768) ![41, 0] S1x768.size inb_S128x768_S1x768_41_0) (fun _ => rfl)).squeeze S768 squeezes_S1x768_S768) f3
    ∗ heldOwn (F := F) c ((M3.slice (Rect.unit (s := S128x768) ![42, 0] S1x768.size inb_S128x768_S1x768_42_0) (fun _ => rfl)).squeeze S768 squeezes_S1x768_S768) f3
    ∗ heldOwn (F := F) c ((M3.slice (Rect.unit (s := S128x768) ![43, 0] S1x768.size inb_S128x768_S1x768_43_0) (fun _ => rfl)).squeeze S768 squeezes_S1x768_S768) f3
    ∗ heldOwn (F := F) c ((M3.slice (Rect.unit (s := S128x768) ![44, 0] S1x768.size inb_S128x768_S1x768_44_0) (fun _ => rfl)).squeeze S768 squeezes_S1x768_S768) f3
    ∗ heldOwn (F := F) c ((M3.slice (Rect.unit (s := S128x768) ![45, 0] S1x768.size inb_S128x768_S1x768_45_0) (fun _ => rfl)).squeeze S768 squeezes_S1x768_S768) f3
    ∗ heldOwn (F := F) c ((M3.slice (Rect.unit (s := S128x768) ![46, 0] S1x768.size inb_S128x768_S1x768_46_0) (fun _ => rfl)).squeeze S768 squeezes_S1x768_S768) f3
    ∗ heldOwn (F := F) c ((M3.slice (Rect.unit (s := S128x768) ![47, 0] S1x768.size inb_S128x768_S1x768_47_0) (fun _ => rfl)).squeeze S768 squeezes_S1x768_S768) f3
    ∗ heldOwn (F := F) c ((M3.slice (Rect.unit (s := S128x768) ![48, 0] S1x768.size inb_S128x768_S1x768_48_0) (fun _ => rfl)).squeeze S768 squeezes_S1x768_S768) f3
    ∗ heldOwn (F := F) c ((M3.slice (Rect.unit (s := S128x768) ![49, 0] S1x768.size inb_S128x768_S1x768_49_0) (fun _ => rfl)).squeeze S768 squeezes_S1x768_S768) f3
    ∗ heldOwn (F := F) c ((M3.slice (Rect.unit (s := S128x768) ![50, 0] S1x768.size inb_S128x768_S1x768_50_0) (fun _ => rfl)).squeeze S768 squeezes_S1x768_S768) f3
    ∗ heldOwn (F := F) c ((M3.slice (Rect.unit (s := S128x768) ![51, 0] S1x768.size inb_S128x768_S1x768_51_0) (fun _ => rfl)).squeeze S768 squeezes_S1x768_S768) f3
    ∗ heldOwn (F := F) c ((M3.slice (Rect.unit (s := S128x768) ![52, 0] S1x768.size inb_S128x768_S1x768_52_0) (fun _ => rfl)).squeeze S768 squeezes_S1x768_S768) f3
    ∗ heldOwn (F := F) c ((M3.slice (Rect.unit (s := S128x768) ![53, 0] S1x768.size inb_S128x768_S1x768_53_0) (fun _ => rfl)).squeeze S768 squeezes_S1x768_S768) f3
    ∗ heldOwn (F := F) c ((M3.slice (Rect.unit (s := S128x768) ![54, 0] S1x768.size inb_S128x768_S1x768_54_0) (fun _ => rfl)).squeeze S768 squeezes_S1x768_S768) f3
    ∗ heldOwn (F := F) c ((M3.slice (Rect.unit (s := S128x768) ![55, 0] S1x768.size inb_S128x768_S1x768_55_0) (fun _ => rfl)).squeeze S768 squeezes_S1x768_S768) f3
    ∗ heldOwn (F := F) c ((M3.slice (Rect.unit (s := S128x768) ![56, 0] S1x768.size inb_S128x768_S1x768_56_0) (fun _ => rfl)).squeeze S768 squeezes_S1x768_S768) f3
    ∗ heldOwn (F := F) c ((M3.slice (Rect.unit (s := S128x768) ![57, 0] S1x768.size inb_S128x768_S1x768_57_0) (fun _ => rfl)).squeeze S768 squeezes_S1x768_S768) f3
    ∗ heldOwn (F := F) c ((M3.slice (Rect.unit (s := S128x768) ![58, 0] S1x768.size inb_S128x768_S1x768_58_0) (fun _ => rfl)).squeeze S768 squeezes_S1x768_S768) f3
    ∗ heldOwn (F := F) c ((M3.slice (Rect.unit (s := S128x768) ![59, 0] S1x768.size inb_S128x768_S1x768_59_0) (fun _ => rfl)).squeeze S768 squeezes_S1x768_S768) f3
    ∗ heldOwn (F := F) c ((M3.slice (Rect.unit (s := S128x768) ![60, 0] S1x768.size inb_S128x768_S1x768_60_0) (fun _ => rfl)).squeeze S768 squeezes_S1x768_S768) f3
    ∗ heldOwn (F := F) c ((M3.slice (Rect.unit (s := S128x768) ![61, 0] S1x768.size inb_S128x768_S1x768_61_0) (fun _ => rfl)).squeeze S768 squeezes_S1x768_S768) f3
    ∗ heldOwn (F := F) c ((M3.slice (Rect.unit (s := S128x768) ![62, 0] S1x768.size inb_S128x768_S1x768_62_0) (fun _ => rfl)).squeeze S768 squeezes_S1x768_S768) f3
    ∗ heldOwn (F := F) c ((M3.slice (Rect.unit (s := S128x768) ![63, 0] S1x768.size inb_S128x768_S1x768_63_0) (fun _ => rfl)).squeeze S768 squeezes_S1x768_S768) f3
    ∗ heldOwn (F := F) c ((M3.slice (Rect.unit (s := S128x768) ![64, 0] S1x768.size inb_S128x768_S1x768_64_0) (fun _ => rfl)).squeeze S768 squeezes_S1x768_S768) f3
    ∗ heldOwn (F := F) c ((M3.slice (Rect.unit (s := S128x768) ![65, 0] S1x768.size inb_S128x768_S1x768_65_0) (fun _ => rfl)).squeeze S768 squeezes_S1x768_S768) f3
    ∗ heldOwn (F := F) c ((M3.slice (Rect.unit (s := S128x768) ![66, 0] S1x768.size inb_S128x768_S1x768_66_0) (fun _ => rfl)).squeeze S768 squeezes_S1x768_S768) f3
    ∗ heldOwn (F := F) c ((M3.slice (Rect.unit (s := S128x768) ![67, 0] S1x768.size inb_S128x768_S1x768_67_0) (fun _ => rfl)).squeeze S768 squeezes_S1x768_S768) f3
    ∗ heldOwn (F := F) c ((M3.slice (Rect.unit (s := S128x768) ![68, 0] S1x768.size inb_S128x768_S1x768_68_0) (fun _ => rfl)).squeeze S768 squeezes_S1x768_S768) f3
    ∗ heldOwn (F := F) c ((M3.slice (Rect.unit (s := S128x768) ![69, 0] S1x768.size inb_S128x768_S1x768_69_0) (fun _ => rfl)).squeeze S768 squeezes_S1x768_S768) f3
    ∗ heldOwn (F := F) c ((M3.slice (Rect.unit (s := S128x768) ![70, 0] S1x768.size inb_S128x768_S1x768_70_0) (fun _ => rfl)).squeeze S768 squeezes_S1x768_S768) f3
    ∗ heldOwn (F := F) c ((M3.slice (Rect.unit (s := S128x768) ![71, 0] S1x768.size inb_S128x768_S1x768_71_0) (fun _ => rfl)).squeeze S768 squeezes_S1x768_S768) f3
    ∗ heldOwn (F := F) c ((M3.slice (Rect.unit (s := S128x768) ![72, 0] S1x768.size inb_S128x768_S1x768_72_0) (fun _ => rfl)).squeeze S768 squeezes_S1x768_S768) f3
    ∗ heldOwn (F := F) c ((M3.slice (Rect.unit (s := S128x768) ![73, 0] S1x768.size inb_S128x768_S1x768_73_0) (fun _ => rfl)).squeeze S768 squeezes_S1x768_S768) f3
    ∗ heldOwn (F := F) c ((M3.slice (Rect.unit (s := S128x768) ![74, 0] S1x768.size inb_S128x768_S1x768_74_0) (fun _ => rfl)).squeeze S768 squeezes_S1x768_S768) f3
    ∗ heldOwn (F := F) c ((M3.slice (Rect.unit (s := S128x768) ![75, 0] S1x768.size inb_S128x768_S1x768_75_0) (fun _ => rfl)).squeeze S768 squeezes_S1x768_S768) f3
    ∗ heldOwn (F := F) c ((M3.slice (Rect.unit (s := S128x768) ![76, 0] S1x768.size inb_S128x768_S1x768_76_0) (fun _ => rfl)).squeeze S768 squeezes_S1x768_S768) f3
    ∗ heldOwn (F := F) c ((M3.slice (Rect.unit (s := S128x768) ![77, 0] S1x768.size inb_S128x768_S1x768_77_0) (fun _ => rfl)).squeeze S768 squeezes_S1x768_S768) f3
    ∗ heldOwn (F := F) c ((M3.slice (Rect.unit (s := S128x768) ![78, 0] S1x768.size inb_S128x768_S1x768_78_0) (fun _ => rfl)).squeeze S768 squeezes_S1x768_S768) f3
    ∗ heldOwn (F := F) c ((M3.slice (Rect.unit (s := S128x768) ![79, 0] S1x768.size inb_S128x768_S1x768_79_0) (fun _ => rfl)).squeeze S768 squeezes_S1x768_S768) f3
    ∗ heldOwn (F := F) c ((M3.slice (Rect.unit (s := S128x768) ![80, 0] S1x768.size inb_S128x768_S1x768_80_0) (fun _ => rfl)).squeeze S768 squeezes_S1x768_S768) f3
    ∗ heldOwn (F := F) c ((M3.slice (Rect.unit (s := S128x768) ![81, 0] S1x768.size inb_S128x768_S1x768_81_0) (fun _ => rfl)).squeeze S768 squeezes_S1x768_S768) f3
    ∗ heldOwn (F := F) c ((M3.slice (Rect.unit (s := S128x768) ![82, 0] S1x768.size inb_S128x768_S1x768_82_0) (fun _ => rfl)).squeeze S768 squeezes_S1x768_S768) f3
    ∗ heldOwn (F := F) c ((M3.slice (Rect.unit (s := S128x768) ![83, 0] S1x768.size inb_S128x768_S1x768_83_0) (fun _ => rfl)).squeeze S768 squeezes_S1x768_S768) f3
    ∗ heldOwn (F := F) c ((M3.slice (Rect.unit (s := S128x768) ![84, 0] S1x768.size inb_S128x768_S1x768_84_0) (fun _ => rfl)).squeeze S768 squeezes_S1x768_S768) f3
    ∗ heldOwn (F := F) c ((M3.slice (Rect.unit (s := S128x768) ![85, 0] S1x768.size inb_S128x768_S1x768_85_0) (fun _ => rfl)).squeeze S768 squeezes_S1x768_S768) f3
    ∗ heldOwn (F := F) c ((M3.slice (Rect.unit (s := S128x768) ![86, 0] S1x768.size inb_S128x768_S1x768_86_0) (fun _ => rfl)).squeeze S768 squeezes_S1x768_S768) f3
    ∗ heldOwn (F := F) c ((M3.slice (Rect.unit (s := S128x768) ![87, 0] S1x768.size inb_S128x768_S1x768_87_0) (fun _ => rfl)).squeeze S768 squeezes_S1x768_S768) f3
    ∗ heldOwn (F := F) c ((M3.slice (Rect.unit (s := S128x768) ![88, 0] S1x768.size inb_S128x768_S1x768_88_0) (fun _ => rfl)).squeeze S768 squeezes_S1x768_S768) f3
    ∗ heldOwn (F := F) c ((M3.slice (Rect.unit (s := S128x768) ![89, 0] S1x768.size inb_S128x768_S1x768_89_0) (fun _ => rfl)).squeeze S768 squeezes_S1x768_S768) f3
    ∗ heldOwn (F := F) c ((M3.slice (Rect.unit (s := S128x768) ![90, 0] S1x768.size inb_S128x768_S1x768_90_0) (fun _ => rfl)).squeeze S768 squeezes_S1x768_S768) f3
    ∗ heldOwn (F := F) c ((M3.slice (Rect.unit (s := S128x768) ![91, 0] S1x768.size inb_S128x768_S1x768_91_0) (fun _ => rfl)).squeeze S768 squeezes_S1x768_S768) f3
    ∗ heldOwn (F := F) c ((M3.slice (Rect.unit (s := S128x768) ![92, 0] S1x768.size inb_S128x768_S1x768_92_0) (fun _ => rfl)).squeeze S768 squeezes_S1x768_S768) f3
    ∗ heldOwn (F := F) c ((M3.slice (Rect.unit (s := S128x768) ![93, 0] S1x768.size inb_S128x768_S1x768_93_0) (fun _ => rfl)).squeeze S768 squeezes_S1x768_S768) f3
    ∗ heldOwn (F := F) c ((M3.slice (Rect.unit (s := S128x768) ![94, 0] S1x768.size inb_S128x768_S1x768_94_0) (fun _ => rfl)).squeeze S768 squeezes_S1x768_S768) f3
    ∗ heldOwn (F := F) c ((M3.slice (Rect.unit (s := S128x768) ![95, 0] S1x768.size inb_S128x768_S1x768_95_0) (fun _ => rfl)).squeeze S768 squeezes_S1x768_S768) f3
    ∗ heldOwn (F := F) c ((M3.slice (Rect.unit (s := S128x768) ![96, 0] S1x768.size inb_S128x768_S1x768_96_0) (fun _ => rfl)).squeeze S768 squeezes_S1x768_S768) f3
    ∗ heldOwn (F := F) c ((M3.slice (Rect.unit (s := S128x768) ![97, 0] S1x768.size inb_S128x768_S1x768_97_0) (fun _ => rfl)).squeeze S768 squeezes_S1x768_S768) f3
    ∗ heldOwn (F := F) c ((M3.slice (Rect.unit (s := S128x768) ![98, 0] S1x768.size inb_S128x768_S1x768_98_0) (fun _ => rfl)).squeeze S768 squeezes_S1x768_S768) f3
    ∗ heldOwn (F := F) c ((M3.slice (Rect.unit (s := S128x768) ![99, 0] S1x768.size inb_S128x768_S1x768_99_0) (fun _ => rfl)).squeeze S768 squeezes_S1x768_S768) f3
    ∗ heldOwn (F := F) c ((M3.slice (Rect.unit (s := S128x768) ![100, 0] S1x768.size inb_S128x768_S1x768_100_0) (fun _ => rfl)).squeeze S768 squeezes_S1x768_S768) f3
    ∗ heldOwn (F := F) c ((M3.slice (Rect.unit (s := S128x768) ![101, 0] S1x768.size inb_S128x768_S1x768_101_0) (fun _ => rfl)).squeeze S768 squeezes_S1x768_S768) f3
    ∗ heldOwn (F := F) c ((M3.slice (Rect.unit (s := S128x768) ![102, 0] S1x768.size inb_S128x768_S1x768_102_0) (fun _ => rfl)).squeeze S768 squeezes_S1x768_S768) f3
    ∗ heldOwn (F := F) c ((M3.slice (Rect.unit (s := S128x768) ![103, 0] S1x768.size inb_S128x768_S1x768_103_0) (fun _ => rfl)).squeeze S768 squeezes_S1x768_S768) f3
    ∗ heldOwn (F := F) c ((M3.slice (Rect.unit (s := S128x768) ![104, 0] S1x768.size inb_S128x768_S1x768_104_0) (fun _ => rfl)).squeeze S768 squeezes_S1x768_S768) f3
    ∗ heldOwn (F := F) c ((M3.slice (Rect.unit (s := S128x768) ![105, 0] S1x768.size inb_S128x768_S1x768_105_0) (fun _ => rfl)).squeeze S768 squeezes_S1x768_S768) f3
    ∗ heldOwn (F := F) c ((M3.slice (Rect.unit (s := S128x768) ![106, 0] S1x768.size inb_S128x768_S1x768_106_0) (fun _ => rfl)).squeeze S768 squeezes_S1x768_S768) f3
    ∗ heldOwn (F := F) c ((M3.slice (Rect.unit (s := S128x768) ![107, 0] S1x768.size inb_S128x768_S1x768_107_0) (fun _ => rfl)).squeeze S768 squeezes_S1x768_S768) f3
    ∗ heldOwn (F := F) c ((M3.slice (Rect.unit (s := S128x768) ![108, 0] S1x768.size inb_S128x768_S1x768_108_0) (fun _ => rfl)).squeeze S768 squeezes_S1x768_S768) f3
    ∗ heldOwn (F := F) c ((M3.slice (Rect.unit (s := S128x768) ![109, 0] S1x768.size inb_S128x768_S1x768_109_0) (fun _ => rfl)).squeeze S768 squeezes_S1x768_S768) f3
    ∗ heldOwn (F := F) c ((M3.slice (Rect.unit (s := S128x768) ![110, 0] S1x768.size inb_S128x768_S1x768_110_0) (fun _ => rfl)).squeeze S768 squeezes_S1x768_S768) f3
    ∗ heldOwn (F := F) c ((M3.slice (Rect.unit (s := S128x768) ![111, 0] S1x768.size inb_S128x768_S1x768_111_0) (fun _ => rfl)).squeeze S768 squeezes_S1x768_S768) f3
    ∗ heldOwn (F := F) c ((M3.slice (Rect.unit (s := S128x768) ![112, 0] S1x768.size inb_S128x768_S1x768_112_0) (fun _ => rfl)).squeeze S768 squeezes_S1x768_S768) f3
    ∗ heldOwn (F := F) c ((M3.slice (Rect.unit (s := S128x768) ![113, 0] S1x768.size inb_S128x768_S1x768_113_0) (fun _ => rfl)).squeeze S768 squeezes_S1x768_S768) f3
    ∗ heldOwn (F := F) c ((M3.slice (Rect.unit (s := S128x768) ![114, 0] S1x768.size inb_S128x768_S1x768_114_0) (fun _ => rfl)).squeeze S768 squeezes_S1x768_S768) f3
    ∗ heldOwn (F := F) c ((M3.slice (Rect.unit (s := S128x768) ![115, 0] S1x768.size inb_S128x768_S1x768_115_0) (fun _ => rfl)).squeeze S768 squeezes_S1x768_S768) f3
    ∗ heldOwn (F := F) c ((M3.slice (Rect.unit (s := S128x768) ![116, 0] S1x768.size inb_S128x768_S1x768_116_0) (fun _ => rfl)).squeeze S768 squeezes_S1x768_S768) f3
    ∗ heldOwn (F := F) c ((M3.slice (Rect.unit (s := S128x768) ![117, 0] S1x768.size inb_S128x768_S1x768_117_0) (fun _ => rfl)).squeeze S768 squeezes_S1x768_S768) f3
    ∗ heldOwn (F := F) c ((M3.slice (Rect.unit (s := S128x768) ![118, 0] S1x768.size inb_S128x768_S1x768_118_0) (fun _ => rfl)).squeeze S768 squeezes_S1x768_S768) f3
    ∗ heldOwn (F := F) c ((M3.slice (Rect.unit (s := S128x768) ![119, 0] S1x768.size inb_S128x768_S1x768_119_0) (fun _ => rfl)).squeeze S768 squeezes_S1x768_S768) f3
    ∗ heldOwn (F := F) c ((M3.slice (Rect.unit (s := S128x768) ![120, 0] S1x768.size inb_S128x768_S1x768_120_0) (fun _ => rfl)).squeeze S768 squeezes_S1x768_S768) f3
    ∗ heldOwn (F := F) c ((M3.slice (Rect.unit (s := S128x768) ![121, 0] S1x768.size inb_S128x768_S1x768_121_0) (fun _ => rfl)).squeeze S768 squeezes_S1x768_S768) f3
    ∗ heldOwn (F := F) c ((M3.slice (Rect.unit (s := S128x768) ![122, 0] S1x768.size inb_S128x768_S1x768_122_0) (fun _ => rfl)).squeeze S768 squeezes_S1x768_S768) f3
    ∗ heldOwn (F := F) c ((M3.slice (Rect.unit (s := S128x768) ![123, 0] S1x768.size inb_S128x768_S1x768_123_0) (fun _ => rfl)).squeeze S768 squeezes_S1x768_S768) f3
    ∗ heldOwn (F := F) c ((M3.slice (Rect.unit (s := S128x768) ![124, 0] S1x768.size inb_S128x768_S1x768_124_0) (fun _ => rfl)).squeeze S768 squeezes_S1x768_S768) f3
    ∗ heldOwn (F := F) c ((M3.slice (Rect.unit (s := S128x768) ![125, 0] S1x768.size inb_S128x768_S1x768_125_0) (fun _ => rfl)).squeeze S768 squeezes_S1x768_S768) f3
    ∗ heldOwn (F := F) c ((M3.slice (Rect.unit (s := S128x768) ![126, 0] S1x768.size inb_S128x768_S1x768_126_0) (fun _ => rfl)).squeeze S768 squeezes_S1x768_S768) f3
    ∗ heldOwn (F := F) c ((M3.slice (Rect.unit (s := S128x768) ![127, 0] S1x768.size inb_S128x768_S1x768_127_0) (fun _ => rfl)).squeeze S768 squeezes_S1x768_S768) f3)

/-- The 128 semaphores at zero. -/
def semsChain (c : Dev nD) : sProp 𝕄 :=
  iprop(semVal ((c : Thread nD τ), SemLoc.dma 2) 0
    ∗ semVal ((c : Thread nD τ), SemLoc.dma 3) 0
    ∗ semVal ((c : Thread nD τ), SemLoc.dma 4) 0
    ∗ semVal ((c : Thread nD τ), SemLoc.dma 5) 0
    ∗ semVal ((c : Thread nD τ), SemLoc.dma 6) 0
    ∗ semVal ((c : Thread nD τ), SemLoc.dma 7) 0
    ∗ semVal ((c : Thread nD τ), SemLoc.dma 8) 0
    ∗ semVal ((c : Thread nD τ), SemLoc.dma 9) 0
    ∗ semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0
    ∗ semVal ((c : Thread nD τ), SemLoc.dma 23) 0
    ∗ semVal ((c : Thread nD τ), SemLoc.dma 24) 0
    ∗ semVal ((c : Thread nD τ), SemLoc.dma 25) 0
    ∗ semVal ((c : Thread nD τ), SemLoc.dma 26) 0
    ∗ semVal ((c : Thread nD τ), SemLoc.dma 27) 0
    ∗ semVal ((c : Thread nD τ), SemLoc.dma 28) 0
    ∗ semVal ((c : Thread nD τ), SemLoc.dma 29) 0
    ∗ semVal ((c : Thread nD τ), SemLoc.dma 30) 0
    ∗ semVal ((c : Thread nD τ), SemLoc.dma 31) 0
    ∗ semVal ((c : Thread nD τ), SemLoc.dma 32) 0
    ∗ semVal ((c : Thread nD τ), SemLoc.dma 33) 0
    ∗ semVal ((c : Thread nD τ), SemLoc.dma 34) 0
    ∗ semVal ((c : Thread nD τ), SemLoc.dma 35) 0
    ∗ semVal ((c : Thread nD τ), SemLoc.dma 36) 0
    ∗ semVal ((c : Thread nD τ), SemLoc.dma 37) 0
    ∗ semVal ((c : Thread nD τ), SemLoc.dma 38) 0
    ∗ semVal ((c : Thread nD τ), SemLoc.dma 39) 0
    ∗ semVal ((c : Thread nD τ), SemLoc.dma 40) 0
    ∗ semVal ((c : Thread nD τ), SemLoc.dma 41) 0
    ∗ semVal ((c : Thread nD τ), SemLoc.dma 42) 0
    ∗ semVal ((c : Thread nD τ), SemLoc.dma 43) 0
    ∗ semVal ((c : Thread nD τ), SemLoc.dma 44) 0
    ∗ semVal ((c : Thread nD τ), SemLoc.dma 45) 0
    ∗ semVal ((c : Thread nD τ), SemLoc.dma 46) 0
    ∗ semVal ((c : Thread nD τ), SemLoc.dma 47) 0
    ∗ semVal ((c : Thread nD τ), SemLoc.dma 48) 0
    ∗ semVal ((c : Thread nD τ), SemLoc.dma 49) 0
    ∗ semVal ((c : Thread nD τ), SemLoc.dma 50) 0
    ∗ semVal ((c : Thread nD τ), SemLoc.dma 51) 0
    ∗ semVal ((c : Thread nD τ), SemLoc.dma 52) 0
    ∗ semVal ((c : Thread nD τ), SemLoc.dma 53) 0
    ∗ semVal ((c : Thread nD τ), SemLoc.dma 54) 0
    ∗ semVal ((c : Thread nD τ), SemLoc.dma 55) 0
    ∗ semVal ((c : Thread nD τ), SemLoc.dma 56) 0
    ∗ semVal ((c : Thread nD τ), SemLoc.dma 57) 0
    ∗ semVal ((c : Thread nD τ), SemLoc.dma 58) 0
    ∗ semVal ((c : Thread nD τ), SemLoc.dma 59) 0
    ∗ semVal ((c : Thread nD τ), SemLoc.dma 60) 0
    ∗ semVal ((c : Thread nD τ), SemLoc.dma 61) 0
    ∗ semVal ((c : Thread nD τ), SemLoc.dma 62) 0
    ∗ semVal ((c : Thread nD τ), SemLoc.dma 63) 0
    ∗ semVal ((c : Thread nD τ), SemLoc.dma 64) 0
    ∗ semVal ((c : Thread nD τ), SemLoc.dma 65) 0
    ∗ semVal ((c : Thread nD τ), SemLoc.dma 66) 0
    ∗ semVal ((c : Thread nD τ), SemLoc.dma 67) 0
    ∗ semVal ((c : Thread nD τ), SemLoc.dma 68) 0
    ∗ semVal ((c : Thread nD τ), SemLoc.dma 69) 0
    ∗ semVal ((c : Thread nD τ), SemLoc.dma 70) 0
    ∗ semVal ((c : Thread nD τ), SemLoc.dma 71) 0
    ∗ semVal ((c : Thread nD τ), SemLoc.dma 72) 0
    ∗ semVal ((c : Thread nD τ), SemLoc.dma 73) 0
    ∗ semVal ((c : Thread nD τ), SemLoc.dma 74) 0
    ∗ semVal ((c : Thread nD τ), SemLoc.dma 75) 0
    ∗ semVal ((c : Thread nD τ), SemLoc.dma 76) 0
    ∗ semVal ((c : Thread nD τ), SemLoc.dma 77) 0
    ∗ semVal ((c : Thread nD τ), SemLoc.dma 78) 0
    ∗ semVal ((c : Thread nD τ), SemLoc.dma 79) 0
    ∗ semVal ((c : Thread nD τ), SemLoc.dma 80) 0
    ∗ semVal ((c : Thread nD τ), SemLoc.dma 81) 0
    ∗ semVal ((c : Thread nD τ), SemLoc.dma 82) 0
    ∗ semVal ((c : Thread nD τ), SemLoc.dma 83) 0
    ∗ semVal ((c : Thread nD τ), SemLoc.dma 84) 0
    ∗ semVal ((c : Thread nD τ), SemLoc.dma 85) 0
    ∗ semVal ((c : Thread nD τ), SemLoc.dma 86) 0
    ∗ semVal ((c : Thread nD τ), SemLoc.dma 87) 0
    ∗ semVal ((c : Thread nD τ), SemLoc.dma 88) 0
    ∗ semVal ((c : Thread nD τ), SemLoc.dma 89) 0
    ∗ semVal ((c : Thread nD τ), SemLoc.dma 90) 0
    ∗ semVal ((c : Thread nD τ), SemLoc.dma 91) 0
    ∗ semVal ((c : Thread nD τ), SemLoc.dma 92) 0
    ∗ semVal ((c : Thread nD τ), SemLoc.dma 93) 0
    ∗ semVal ((c : Thread nD τ), SemLoc.dma 94) 0
    ∗ semVal ((c : Thread nD τ), SemLoc.dma 95) 0
    ∗ semVal ((c : Thread nD τ), SemLoc.dma 96) 0
    ∗ semVal ((c : Thread nD τ), SemLoc.dma 97) 0
    ∗ semVal ((c : Thread nD τ), SemLoc.dma 98) 0
    ∗ semVal ((c : Thread nD τ), SemLoc.dma 99) 0
    ∗ semVal ((c : Thread nD τ), SemLoc.dma 100) 0
    ∗ semVal ((c : Thread nD τ), SemLoc.dma 101) 0
    ∗ semVal ((c : Thread nD τ), SemLoc.dma 102) 0
    ∗ semVal ((c : Thread nD τ), SemLoc.dma 103) 0
    ∗ semVal ((c : Thread nD τ), SemLoc.dma 104) 0
    ∗ semVal ((c : Thread nD τ), SemLoc.dma 105) 0
    ∗ semVal ((c : Thread nD τ), SemLoc.dma 106) 0
    ∗ semVal ((c : Thread nD τ), SemLoc.dma 107) 0
    ∗ semVal ((c : Thread nD τ), SemLoc.dma 108) 0
    ∗ semVal ((c : Thread nD τ), SemLoc.dma 109) 0
    ∗ semVal ((c : Thread nD τ), SemLoc.dma 110) 0
    ∗ semVal ((c : Thread nD τ), SemLoc.dma 111) 0
    ∗ semVal ((c : Thread nD τ), SemLoc.dma 112) 0
    ∗ semVal ((c : Thread nD τ), SemLoc.dma 113) 0
    ∗ semVal ((c : Thread nD τ), SemLoc.dma 114) 0
    ∗ semVal ((c : Thread nD τ), SemLoc.dma 115) 0
    ∗ semVal ((c : Thread nD τ), SemLoc.dma 116) 0
    ∗ semVal ((c : Thread nD τ), SemLoc.dma 117) 0
    ∗ semVal ((c : Thread nD τ), SemLoc.dma 118) 0
    ∗ semVal ((c : Thread nD τ), SemLoc.dma 119) 0
    ∗ semVal ((c : Thread nD τ), SemLoc.dma 120) 0
    ∗ semVal ((c : Thread nD τ), SemLoc.dma 121) 0
    ∗ semVal ((c : Thread nD τ), SemLoc.dma 122) 0
    ∗ semVal ((c : Thread nD τ), SemLoc.dma 123) 0
    ∗ semVal ((c : Thread nD τ), SemLoc.dma 124) 0
    ∗ semVal ((c : Thread nD τ), SemLoc.dma 125) 0
    ∗ semVal ((c : Thread nD τ), SemLoc.dma 126) 0
    ∗ semVal ((c : Thread nD τ), SemLoc.dma 127) 0
    ∗ semVal ((c : Thread nD τ), SemLoc.dma 128) 0
    ∗ semVal ((c : Thread nD τ), SemLoc.dma 129) 0)

/-- The block's 128 rows after the step: row j overwritten whole by row j of the step's result. -/
def rowsOutChain (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) : sProp 𝕄 :=
  iprop(rowOut (F := F) c ((M3.slice (Rect.unit (s := S128x768) ![0, 0] S1x768.size inb_S128x768_S1x768_0_0) (fun _ => rfl)).squeeze S768 squeezes_S1x768_S768) f3 (rowVal i ftok fW ⟨0, by decide⟩)
    ∗ rowOut (F := F) c ((M3.slice (Rect.unit (s := S128x768) ![1, 0] S1x768.size inb_S128x768_S1x768_1_0) (fun _ => rfl)).squeeze S768 squeezes_S1x768_S768) f3 (rowVal i ftok fW ⟨1, by decide⟩)
    ∗ rowOut (F := F) c ((M3.slice (Rect.unit (s := S128x768) ![2, 0] S1x768.size inb_S128x768_S1x768_2_0) (fun _ => rfl)).squeeze S768 squeezes_S1x768_S768) f3 (rowVal i ftok fW ⟨2, by decide⟩)
    ∗ rowOut (F := F) c ((M3.slice (Rect.unit (s := S128x768) ![3, 0] S1x768.size inb_S128x768_S1x768_3_0) (fun _ => rfl)).squeeze S768 squeezes_S1x768_S768) f3 (rowVal i ftok fW ⟨3, by decide⟩)
    ∗ rowOut (F := F) c ((M3.slice (Rect.unit (s := S128x768) ![4, 0] S1x768.size inb_S128x768_S1x768_4_0) (fun _ => rfl)).squeeze S768 squeezes_S1x768_S768) f3 (rowVal i ftok fW ⟨4, by decide⟩)
    ∗ rowOut (F := F) c ((M3.slice (Rect.unit (s := S128x768) ![5, 0] S1x768.size inb_S128x768_S1x768_5_0) (fun _ => rfl)).squeeze S768 squeezes_S1x768_S768) f3 (rowVal i ftok fW ⟨5, by decide⟩)
    ∗ rowOut (F := F) c ((M3.slice (Rect.unit (s := S128x768) ![6, 0] S1x768.size inb_S128x768_S1x768_6_0) (fun _ => rfl)).squeeze S768 squeezes_S1x768_S768) f3 (rowVal i ftok fW ⟨6, by decide⟩)
    ∗ rowOut (F := F) c ((M3.slice (Rect.unit (s := S128x768) ![7, 0] S1x768.size inb_S128x768_S1x768_7_0) (fun _ => rfl)).squeeze S768 squeezes_S1x768_S768) f3 (rowVal i ftok fW ⟨7, by decide⟩)
    ∗ rowOut (F := F) c ((M3.slice (Rect.unit (s := S128x768) ![8, 0] S1x768.size inb_S128x768_S1x768_8_0) (fun _ => rfl)).squeeze S768 squeezes_S1x768_S768) f3 (rowVal i ftok fW ⟨8, by decide⟩)
    ∗ rowOut (F := F) c ((M3.slice (Rect.unit (s := S128x768) ![9, 0] S1x768.size inb_S128x768_S1x768_9_0) (fun _ => rfl)).squeeze S768 squeezes_S1x768_S768) f3 (rowVal i ftok fW ⟨9, by decide⟩)
    ∗ rowOut (F := F) c ((M3.slice (Rect.unit (s := S128x768) ![10, 0] S1x768.size inb_S128x768_S1x768_10_0) (fun _ => rfl)).squeeze S768 squeezes_S1x768_S768) f3 (rowVal i ftok fW ⟨10, by decide⟩)
    ∗ rowOut (F := F) c ((M3.slice (Rect.unit (s := S128x768) ![11, 0] S1x768.size inb_S128x768_S1x768_11_0) (fun _ => rfl)).squeeze S768 squeezes_S1x768_S768) f3 (rowVal i ftok fW ⟨11, by decide⟩)
    ∗ rowOut (F := F) c ((M3.slice (Rect.unit (s := S128x768) ![12, 0] S1x768.size inb_S128x768_S1x768_12_0) (fun _ => rfl)).squeeze S768 squeezes_S1x768_S768) f3 (rowVal i ftok fW ⟨12, by decide⟩)
    ∗ rowOut (F := F) c ((M3.slice (Rect.unit (s := S128x768) ![13, 0] S1x768.size inb_S128x768_S1x768_13_0) (fun _ => rfl)).squeeze S768 squeezes_S1x768_S768) f3 (rowVal i ftok fW ⟨13, by decide⟩)
    ∗ rowOut (F := F) c ((M3.slice (Rect.unit (s := S128x768) ![14, 0] S1x768.size inb_S128x768_S1x768_14_0) (fun _ => rfl)).squeeze S768 squeezes_S1x768_S768) f3 (rowVal i ftok fW ⟨14, by decide⟩)
    ∗ rowOut (F := F) c ((M3.slice (Rect.unit (s := S128x768) ![15, 0] S1x768.size inb_S128x768_S1x768_15_0) (fun _ => rfl)).squeeze S768 squeezes_S1x768_S768) f3 (rowVal i ftok fW ⟨15, by decide⟩)
    ∗ rowOut (F := F) c ((M3.slice (Rect.unit (s := S128x768) ![16, 0] S1x768.size inb_S128x768_S1x768_16_0) (fun _ => rfl)).squeeze S768 squeezes_S1x768_S768) f3 (rowVal i ftok fW ⟨16, by decide⟩)
    ∗ rowOut (F := F) c ((M3.slice (Rect.unit (s := S128x768) ![17, 0] S1x768.size inb_S128x768_S1x768_17_0) (fun _ => rfl)).squeeze S768 squeezes_S1x768_S768) f3 (rowVal i ftok fW ⟨17, by decide⟩)
    ∗ rowOut (F := F) c ((M3.slice (Rect.unit (s := S128x768) ![18, 0] S1x768.size inb_S128x768_S1x768_18_0) (fun _ => rfl)).squeeze S768 squeezes_S1x768_S768) f3 (rowVal i ftok fW ⟨18, by decide⟩)
    ∗ rowOut (F := F) c ((M3.slice (Rect.unit (s := S128x768) ![19, 0] S1x768.size inb_S128x768_S1x768_19_0) (fun _ => rfl)).squeeze S768 squeezes_S1x768_S768) f3 (rowVal i ftok fW ⟨19, by decide⟩)
    ∗ rowOut (F := F) c ((M3.slice (Rect.unit (s := S128x768) ![20, 0] S1x768.size inb_S128x768_S1x768_20_0) (fun _ => rfl)).squeeze S768 squeezes_S1x768_S768) f3 (rowVal i ftok fW ⟨20, by decide⟩)
    ∗ rowOut (F := F) c ((M3.slice (Rect.unit (s := S128x768) ![21, 0] S1x768.size inb_S128x768_S1x768_21_0) (fun _ => rfl)).squeeze S768 squeezes_S1x768_S768) f3 (rowVal i ftok fW ⟨21, by decide⟩)
    ∗ rowOut (F := F) c ((M3.slice (Rect.unit (s := S128x768) ![22, 0] S1x768.size inb_S128x768_S1x768_22_0) (fun _ => rfl)).squeeze S768 squeezes_S1x768_S768) f3 (rowVal i ftok fW ⟨22, by decide⟩)
    ∗ rowOut (F := F) c ((M3.slice (Rect.unit (s := S128x768) ![23, 0] S1x768.size inb_S128x768_S1x768_23_0) (fun _ => rfl)).squeeze S768 squeezes_S1x768_S768) f3 (rowVal i ftok fW ⟨23, by decide⟩)
    ∗ rowOut (F := F) c ((M3.slice (Rect.unit (s := S128x768) ![24, 0] S1x768.size inb_S128x768_S1x768_24_0) (fun _ => rfl)).squeeze S768 squeezes_S1x768_S768) f3 (rowVal i ftok fW ⟨24, by decide⟩)
    ∗ rowOut (F := F) c ((M3.slice (Rect.unit (s := S128x768) ![25, 0] S1x768.size inb_S128x768_S1x768_25_0) (fun _ => rfl)).squeeze S768 squeezes_S1x768_S768) f3 (rowVal i ftok fW ⟨25, by decide⟩)
    ∗ rowOut (F := F) c ((M3.slice (Rect.unit (s := S128x768) ![26, 0] S1x768.size inb_S128x768_S1x768_26_0) (fun _ => rfl)).squeeze S768 squeezes_S1x768_S768) f3 (rowVal i ftok fW ⟨26, by decide⟩)
    ∗ rowOut (F := F) c ((M3.slice (Rect.unit (s := S128x768) ![27, 0] S1x768.size inb_S128x768_S1x768_27_0) (fun _ => rfl)).squeeze S768 squeezes_S1x768_S768) f3 (rowVal i ftok fW ⟨27, by decide⟩)
    ∗ rowOut (F := F) c ((M3.slice (Rect.unit (s := S128x768) ![28, 0] S1x768.size inb_S128x768_S1x768_28_0) (fun _ => rfl)).squeeze S768 squeezes_S1x768_S768) f3 (rowVal i ftok fW ⟨28, by decide⟩)
    ∗ rowOut (F := F) c ((M3.slice (Rect.unit (s := S128x768) ![29, 0] S1x768.size inb_S128x768_S1x768_29_0) (fun _ => rfl)).squeeze S768 squeezes_S1x768_S768) f3 (rowVal i ftok fW ⟨29, by decide⟩)
    ∗ rowOut (F := F) c ((M3.slice (Rect.unit (s := S128x768) ![30, 0] S1x768.size inb_S128x768_S1x768_30_0) (fun _ => rfl)).squeeze S768 squeezes_S1x768_S768) f3 (rowVal i ftok fW ⟨30, by decide⟩)
    ∗ rowOut (F := F) c ((M3.slice (Rect.unit (s := S128x768) ![31, 0] S1x768.size inb_S128x768_S1x768_31_0) (fun _ => rfl)).squeeze S768 squeezes_S1x768_S768) f3 (rowVal i ftok fW ⟨31, by decide⟩)
    ∗ rowOut (F := F) c ((M3.slice (Rect.unit (s := S128x768) ![32, 0] S1x768.size inb_S128x768_S1x768_32_0) (fun _ => rfl)).squeeze S768 squeezes_S1x768_S768) f3 (rowVal i ftok fW ⟨32, by decide⟩)
    ∗ rowOut (F := F) c ((M3.slice (Rect.unit (s := S128x768) ![33, 0] S1x768.size inb_S128x768_S1x768_33_0) (fun _ => rfl)).squeeze S768 squeezes_S1x768_S768) f3 (rowVal i ftok fW ⟨33, by decide⟩)
    ∗ rowOut (F := F) c ((M3.slice (Rect.unit (s := S128x768) ![34, 0] S1x768.size inb_S128x768_S1x768_34_0) (fun _ => rfl)).squeeze S768 squeezes_S1x768_S768) f3 (rowVal i ftok fW ⟨34, by decide⟩)
    ∗ rowOut (F := F) c ((M3.slice (Rect.unit (s := S128x768) ![35, 0] S1x768.size inb_S128x768_S1x768_35_0) (fun _ => rfl)).squeeze S768 squeezes_S1x768_S768) f3 (rowVal i ftok fW ⟨35, by decide⟩)
    ∗ rowOut (F := F) c ((M3.slice (Rect.unit (s := S128x768) ![36, 0] S1x768.size inb_S128x768_S1x768_36_0) (fun _ => rfl)).squeeze S768 squeezes_S1x768_S768) f3 (rowVal i ftok fW ⟨36, by decide⟩)
    ∗ rowOut (F := F) c ((M3.slice (Rect.unit (s := S128x768) ![37, 0] S1x768.size inb_S128x768_S1x768_37_0) (fun _ => rfl)).squeeze S768 squeezes_S1x768_S768) f3 (rowVal i ftok fW ⟨37, by decide⟩)
    ∗ rowOut (F := F) c ((M3.slice (Rect.unit (s := S128x768) ![38, 0] S1x768.size inb_S128x768_S1x768_38_0) (fun _ => rfl)).squeeze S768 squeezes_S1x768_S768) f3 (rowVal i ftok fW ⟨38, by decide⟩)
    ∗ rowOut (F := F) c ((M3.slice (Rect.unit (s := S128x768) ![39, 0] S1x768.size inb_S128x768_S1x768_39_0) (fun _ => rfl)).squeeze S768 squeezes_S1x768_S768) f3 (rowVal i ftok fW ⟨39, by decide⟩)
    ∗ rowOut (F := F) c ((M3.slice (Rect.unit (s := S128x768) ![40, 0] S1x768.size inb_S128x768_S1x768_40_0) (fun _ => rfl)).squeeze S768 squeezes_S1x768_S768) f3 (rowVal i ftok fW ⟨40, by decide⟩)
    ∗ rowOut (F := F) c ((M3.slice (Rect.unit (s := S128x768) ![41, 0] S1x768.size inb_S128x768_S1x768_41_0) (fun _ => rfl)).squeeze S768 squeezes_S1x768_S768) f3 (rowVal i ftok fW ⟨41, by decide⟩)
    ∗ rowOut (F := F) c ((M3.slice (Rect.unit (s := S128x768) ![42, 0] S1x768.size inb_S128x768_S1x768_42_0) (fun _ => rfl)).squeeze S768 squeezes_S1x768_S768) f3 (rowVal i ftok fW ⟨42, by decide⟩)
    ∗ rowOut (F := F) c ((M3.slice (Rect.unit (s := S128x768) ![43, 0] S1x768.size inb_S128x768_S1x768_43_0) (fun _ => rfl)).squeeze S768 squeezes_S1x768_S768) f3 (rowVal i ftok fW ⟨43, by decide⟩)
    ∗ rowOut (F := F) c ((M3.slice (Rect.unit (s := S128x768) ![44, 0] S1x768.size inb_S128x768_S1x768_44_0) (fun _ => rfl)).squeeze S768 squeezes_S1x768_S768) f3 (rowVal i ftok fW ⟨44, by decide⟩)
    ∗ rowOut (F := F) c ((M3.slice (Rect.unit (s := S128x768) ![45, 0] S1x768.size inb_S128x768_S1x768_45_0) (fun _ => rfl)).squeeze S768 squeezes_S1x768_S768) f3 (rowVal i ftok fW ⟨45, by decide⟩)
    ∗ rowOut (F := F) c ((M3.slice (Rect.unit (s := S128x768) ![46, 0] S1x768.size inb_S128x768_S1x768_46_0) (fun _ => rfl)).squeeze S768 squeezes_S1x768_S768) f3 (rowVal i ftok fW ⟨46, by decide⟩)
    ∗ rowOut (F := F) c ((M3.slice (Rect.unit (s := S128x768) ![47, 0] S1x768.size inb_S128x768_S1x768_47_0) (fun _ => rfl)).squeeze S768 squeezes_S1x768_S768) f3 (rowVal i ftok fW ⟨47, by decide⟩)
    ∗ rowOut (F := F) c ((M3.slice (Rect.unit (s := S128x768) ![48, 0] S1x768.size inb_S128x768_S1x768_48_0) (fun _ => rfl)).squeeze S768 squeezes_S1x768_S768) f3 (rowVal i ftok fW ⟨48, by decide⟩)
    ∗ rowOut (F := F) c ((M3.slice (Rect.unit (s := S128x768) ![49, 0] S1x768.size inb_S128x768_S1x768_49_0) (fun _ => rfl)).squeeze S768 squeezes_S1x768_S768) f3 (rowVal i ftok fW ⟨49, by decide⟩)
    ∗ rowOut (F := F) c ((M3.slice (Rect.unit (s := S128x768) ![50, 0] S1x768.size inb_S128x768_S1x768_50_0) (fun _ => rfl)).squeeze S768 squeezes_S1x768_S768) f3 (rowVal i ftok fW ⟨50, by decide⟩)
    ∗ rowOut (F := F) c ((M3.slice (Rect.unit (s := S128x768) ![51, 0] S1x768.size inb_S128x768_S1x768_51_0) (fun _ => rfl)).squeeze S768 squeezes_S1x768_S768) f3 (rowVal i ftok fW ⟨51, by decide⟩)
    ∗ rowOut (F := F) c ((M3.slice (Rect.unit (s := S128x768) ![52, 0] S1x768.size inb_S128x768_S1x768_52_0) (fun _ => rfl)).squeeze S768 squeezes_S1x768_S768) f3 (rowVal i ftok fW ⟨52, by decide⟩)
    ∗ rowOut (F := F) c ((M3.slice (Rect.unit (s := S128x768) ![53, 0] S1x768.size inb_S128x768_S1x768_53_0) (fun _ => rfl)).squeeze S768 squeezes_S1x768_S768) f3 (rowVal i ftok fW ⟨53, by decide⟩)
    ∗ rowOut (F := F) c ((M3.slice (Rect.unit (s := S128x768) ![54, 0] S1x768.size inb_S128x768_S1x768_54_0) (fun _ => rfl)).squeeze S768 squeezes_S1x768_S768) f3 (rowVal i ftok fW ⟨54, by decide⟩)
    ∗ rowOut (F := F) c ((M3.slice (Rect.unit (s := S128x768) ![55, 0] S1x768.size inb_S128x768_S1x768_55_0) (fun _ => rfl)).squeeze S768 squeezes_S1x768_S768) f3 (rowVal i ftok fW ⟨55, by decide⟩)
    ∗ rowOut (F := F) c ((M3.slice (Rect.unit (s := S128x768) ![56, 0] S1x768.size inb_S128x768_S1x768_56_0) (fun _ => rfl)).squeeze S768 squeezes_S1x768_S768) f3 (rowVal i ftok fW ⟨56, by decide⟩)
    ∗ rowOut (F := F) c ((M3.slice (Rect.unit (s := S128x768) ![57, 0] S1x768.size inb_S128x768_S1x768_57_0) (fun _ => rfl)).squeeze S768 squeezes_S1x768_S768) f3 (rowVal i ftok fW ⟨57, by decide⟩)
    ∗ rowOut (F := F) c ((M3.slice (Rect.unit (s := S128x768) ![58, 0] S1x768.size inb_S128x768_S1x768_58_0) (fun _ => rfl)).squeeze S768 squeezes_S1x768_S768) f3 (rowVal i ftok fW ⟨58, by decide⟩)
    ∗ rowOut (F := F) c ((M3.slice (Rect.unit (s := S128x768) ![59, 0] S1x768.size inb_S128x768_S1x768_59_0) (fun _ => rfl)).squeeze S768 squeezes_S1x768_S768) f3 (rowVal i ftok fW ⟨59, by decide⟩)
    ∗ rowOut (F := F) c ((M3.slice (Rect.unit (s := S128x768) ![60, 0] S1x768.size inb_S128x768_S1x768_60_0) (fun _ => rfl)).squeeze S768 squeezes_S1x768_S768) f3 (rowVal i ftok fW ⟨60, by decide⟩)
    ∗ rowOut (F := F) c ((M3.slice (Rect.unit (s := S128x768) ![61, 0] S1x768.size inb_S128x768_S1x768_61_0) (fun _ => rfl)).squeeze S768 squeezes_S1x768_S768) f3 (rowVal i ftok fW ⟨61, by decide⟩)
    ∗ rowOut (F := F) c ((M3.slice (Rect.unit (s := S128x768) ![62, 0] S1x768.size inb_S128x768_S1x768_62_0) (fun _ => rfl)).squeeze S768 squeezes_S1x768_S768) f3 (rowVal i ftok fW ⟨62, by decide⟩)
    ∗ rowOut (F := F) c ((M3.slice (Rect.unit (s := S128x768) ![63, 0] S1x768.size inb_S128x768_S1x768_63_0) (fun _ => rfl)).squeeze S768 squeezes_S1x768_S768) f3 (rowVal i ftok fW ⟨63, by decide⟩)
    ∗ rowOut (F := F) c ((M3.slice (Rect.unit (s := S128x768) ![64, 0] S1x768.size inb_S128x768_S1x768_64_0) (fun _ => rfl)).squeeze S768 squeezes_S1x768_S768) f3 (rowVal i ftok fW ⟨64, by decide⟩)
    ∗ rowOut (F := F) c ((M3.slice (Rect.unit (s := S128x768) ![65, 0] S1x768.size inb_S128x768_S1x768_65_0) (fun _ => rfl)).squeeze S768 squeezes_S1x768_S768) f3 (rowVal i ftok fW ⟨65, by decide⟩)
    ∗ rowOut (F := F) c ((M3.slice (Rect.unit (s := S128x768) ![66, 0] S1x768.size inb_S128x768_S1x768_66_0) (fun _ => rfl)).squeeze S768 squeezes_S1x768_S768) f3 (rowVal i ftok fW ⟨66, by decide⟩)
    ∗ rowOut (F := F) c ((M3.slice (Rect.unit (s := S128x768) ![67, 0] S1x768.size inb_S128x768_S1x768_67_0) (fun _ => rfl)).squeeze S768 squeezes_S1x768_S768) f3 (rowVal i ftok fW ⟨67, by decide⟩)
    ∗ rowOut (F := F) c ((M3.slice (Rect.unit (s := S128x768) ![68, 0] S1x768.size inb_S128x768_S1x768_68_0) (fun _ => rfl)).squeeze S768 squeezes_S1x768_S768) f3 (rowVal i ftok fW ⟨68, by decide⟩)
    ∗ rowOut (F := F) c ((M3.slice (Rect.unit (s := S128x768) ![69, 0] S1x768.size inb_S128x768_S1x768_69_0) (fun _ => rfl)).squeeze S768 squeezes_S1x768_S768) f3 (rowVal i ftok fW ⟨69, by decide⟩)
    ∗ rowOut (F := F) c ((M3.slice (Rect.unit (s := S128x768) ![70, 0] S1x768.size inb_S128x768_S1x768_70_0) (fun _ => rfl)).squeeze S768 squeezes_S1x768_S768) f3 (rowVal i ftok fW ⟨70, by decide⟩)
    ∗ rowOut (F := F) c ((M3.slice (Rect.unit (s := S128x768) ![71, 0] S1x768.size inb_S128x768_S1x768_71_0) (fun _ => rfl)).squeeze S768 squeezes_S1x768_S768) f3 (rowVal i ftok fW ⟨71, by decide⟩)
    ∗ rowOut (F := F) c ((M3.slice (Rect.unit (s := S128x768) ![72, 0] S1x768.size inb_S128x768_S1x768_72_0) (fun _ => rfl)).squeeze S768 squeezes_S1x768_S768) f3 (rowVal i ftok fW ⟨72, by decide⟩)
    ∗ rowOut (F := F) c ((M3.slice (Rect.unit (s := S128x768) ![73, 0] S1x768.size inb_S128x768_S1x768_73_0) (fun _ => rfl)).squeeze S768 squeezes_S1x768_S768) f3 (rowVal i ftok fW ⟨73, by decide⟩)
    ∗ rowOut (F := F) c ((M3.slice (Rect.unit (s := S128x768) ![74, 0] S1x768.size inb_S128x768_S1x768_74_0) (fun _ => rfl)).squeeze S768 squeezes_S1x768_S768) f3 (rowVal i ftok fW ⟨74, by decide⟩)
    ∗ rowOut (F := F) c ((M3.slice (Rect.unit (s := S128x768) ![75, 0] S1x768.size inb_S128x768_S1x768_75_0) (fun _ => rfl)).squeeze S768 squeezes_S1x768_S768) f3 (rowVal i ftok fW ⟨75, by decide⟩)
    ∗ rowOut (F := F) c ((M3.slice (Rect.unit (s := S128x768) ![76, 0] S1x768.size inb_S128x768_S1x768_76_0) (fun _ => rfl)).squeeze S768 squeezes_S1x768_S768) f3 (rowVal i ftok fW ⟨76, by decide⟩)
    ∗ rowOut (F := F) c ((M3.slice (Rect.unit (s := S128x768) ![77, 0] S1x768.size inb_S128x768_S1x768_77_0) (fun _ => rfl)).squeeze S768 squeezes_S1x768_S768) f3 (rowVal i ftok fW ⟨77, by decide⟩)
    ∗ rowOut (F := F) c ((M3.slice (Rect.unit (s := S128x768) ![78, 0] S1x768.size inb_S128x768_S1x768_78_0) (fun _ => rfl)).squeeze S768 squeezes_S1x768_S768) f3 (rowVal i ftok fW ⟨78, by decide⟩)
    ∗ rowOut (F := F) c ((M3.slice (Rect.unit (s := S128x768) ![79, 0] S1x768.size inb_S128x768_S1x768_79_0) (fun _ => rfl)).squeeze S768 squeezes_S1x768_S768) f3 (rowVal i ftok fW ⟨79, by decide⟩)
    ∗ rowOut (F := F) c ((M3.slice (Rect.unit (s := S128x768) ![80, 0] S1x768.size inb_S128x768_S1x768_80_0) (fun _ => rfl)).squeeze S768 squeezes_S1x768_S768) f3 (rowVal i ftok fW ⟨80, by decide⟩)
    ∗ rowOut (F := F) c ((M3.slice (Rect.unit (s := S128x768) ![81, 0] S1x768.size inb_S128x768_S1x768_81_0) (fun _ => rfl)).squeeze S768 squeezes_S1x768_S768) f3 (rowVal i ftok fW ⟨81, by decide⟩)
    ∗ rowOut (F := F) c ((M3.slice (Rect.unit (s := S128x768) ![82, 0] S1x768.size inb_S128x768_S1x768_82_0) (fun _ => rfl)).squeeze S768 squeezes_S1x768_S768) f3 (rowVal i ftok fW ⟨82, by decide⟩)
    ∗ rowOut (F := F) c ((M3.slice (Rect.unit (s := S128x768) ![83, 0] S1x768.size inb_S128x768_S1x768_83_0) (fun _ => rfl)).squeeze S768 squeezes_S1x768_S768) f3 (rowVal i ftok fW ⟨83, by decide⟩)
    ∗ rowOut (F := F) c ((M3.slice (Rect.unit (s := S128x768) ![84, 0] S1x768.size inb_S128x768_S1x768_84_0) (fun _ => rfl)).squeeze S768 squeezes_S1x768_S768) f3 (rowVal i ftok fW ⟨84, by decide⟩)
    ∗ rowOut (F := F) c ((M3.slice (Rect.unit (s := S128x768) ![85, 0] S1x768.size inb_S128x768_S1x768_85_0) (fun _ => rfl)).squeeze S768 squeezes_S1x768_S768) f3 (rowVal i ftok fW ⟨85, by decide⟩)
    ∗ rowOut (F := F) c ((M3.slice (Rect.unit (s := S128x768) ![86, 0] S1x768.size inb_S128x768_S1x768_86_0) (fun _ => rfl)).squeeze S768 squeezes_S1x768_S768) f3 (rowVal i ftok fW ⟨86, by decide⟩)
    ∗ rowOut (F := F) c ((M3.slice (Rect.unit (s := S128x768) ![87, 0] S1x768.size inb_S128x768_S1x768_87_0) (fun _ => rfl)).squeeze S768 squeezes_S1x768_S768) f3 (rowVal i ftok fW ⟨87, by decide⟩)
    ∗ rowOut (F := F) c ((M3.slice (Rect.unit (s := S128x768) ![88, 0] S1x768.size inb_S128x768_S1x768_88_0) (fun _ => rfl)).squeeze S768 squeezes_S1x768_S768) f3 (rowVal i ftok fW ⟨88, by decide⟩)
    ∗ rowOut (F := F) c ((M3.slice (Rect.unit (s := S128x768) ![89, 0] S1x768.size inb_S128x768_S1x768_89_0) (fun _ => rfl)).squeeze S768 squeezes_S1x768_S768) f3 (rowVal i ftok fW ⟨89, by decide⟩)
    ∗ rowOut (F := F) c ((M3.slice (Rect.unit (s := S128x768) ![90, 0] S1x768.size inb_S128x768_S1x768_90_0) (fun _ => rfl)).squeeze S768 squeezes_S1x768_S768) f3 (rowVal i ftok fW ⟨90, by decide⟩)
    ∗ rowOut (F := F) c ((M3.slice (Rect.unit (s := S128x768) ![91, 0] S1x768.size inb_S128x768_S1x768_91_0) (fun _ => rfl)).squeeze S768 squeezes_S1x768_S768) f3 (rowVal i ftok fW ⟨91, by decide⟩)
    ∗ rowOut (F := F) c ((M3.slice (Rect.unit (s := S128x768) ![92, 0] S1x768.size inb_S128x768_S1x768_92_0) (fun _ => rfl)).squeeze S768 squeezes_S1x768_S768) f3 (rowVal i ftok fW ⟨92, by decide⟩)
    ∗ rowOut (F := F) c ((M3.slice (Rect.unit (s := S128x768) ![93, 0] S1x768.size inb_S128x768_S1x768_93_0) (fun _ => rfl)).squeeze S768 squeezes_S1x768_S768) f3 (rowVal i ftok fW ⟨93, by decide⟩)
    ∗ rowOut (F := F) c ((M3.slice (Rect.unit (s := S128x768) ![94, 0] S1x768.size inb_S128x768_S1x768_94_0) (fun _ => rfl)).squeeze S768 squeezes_S1x768_S768) f3 (rowVal i ftok fW ⟨94, by decide⟩)
    ∗ rowOut (F := F) c ((M3.slice (Rect.unit (s := S128x768) ![95, 0] S1x768.size inb_S128x768_S1x768_95_0) (fun _ => rfl)).squeeze S768 squeezes_S1x768_S768) f3 (rowVal i ftok fW ⟨95, by decide⟩)
    ∗ rowOut (F := F) c ((M3.slice (Rect.unit (s := S128x768) ![96, 0] S1x768.size inb_S128x768_S1x768_96_0) (fun _ => rfl)).squeeze S768 squeezes_S1x768_S768) f3 (rowVal i ftok fW ⟨96, by decide⟩)
    ∗ rowOut (F := F) c ((M3.slice (Rect.unit (s := S128x768) ![97, 0] S1x768.size inb_S128x768_S1x768_97_0) (fun _ => rfl)).squeeze S768 squeezes_S1x768_S768) f3 (rowVal i ftok fW ⟨97, by decide⟩)
    ∗ rowOut (F := F) c ((M3.slice (Rect.unit (s := S128x768) ![98, 0] S1x768.size inb_S128x768_S1x768_98_0) (fun _ => rfl)).squeeze S768 squeezes_S1x768_S768) f3 (rowVal i ftok fW ⟨98, by decide⟩)
    ∗ rowOut (F := F) c ((M3.slice (Rect.unit (s := S128x768) ![99, 0] S1x768.size inb_S128x768_S1x768_99_0) (fun _ => rfl)).squeeze S768 squeezes_S1x768_S768) f3 (rowVal i ftok fW ⟨99, by decide⟩)
    ∗ rowOut (F := F) c ((M3.slice (Rect.unit (s := S128x768) ![100, 0] S1x768.size inb_S128x768_S1x768_100_0) (fun _ => rfl)).squeeze S768 squeezes_S1x768_S768) f3 (rowVal i ftok fW ⟨100, by decide⟩)
    ∗ rowOut (F := F) c ((M3.slice (Rect.unit (s := S128x768) ![101, 0] S1x768.size inb_S128x768_S1x768_101_0) (fun _ => rfl)).squeeze S768 squeezes_S1x768_S768) f3 (rowVal i ftok fW ⟨101, by decide⟩)
    ∗ rowOut (F := F) c ((M3.slice (Rect.unit (s := S128x768) ![102, 0] S1x768.size inb_S128x768_S1x768_102_0) (fun _ => rfl)).squeeze S768 squeezes_S1x768_S768) f3 (rowVal i ftok fW ⟨102, by decide⟩)
    ∗ rowOut (F := F) c ((M3.slice (Rect.unit (s := S128x768) ![103, 0] S1x768.size inb_S128x768_S1x768_103_0) (fun _ => rfl)).squeeze S768 squeezes_S1x768_S768) f3 (rowVal i ftok fW ⟨103, by decide⟩)
    ∗ rowOut (F := F) c ((M3.slice (Rect.unit (s := S128x768) ![104, 0] S1x768.size inb_S128x768_S1x768_104_0) (fun _ => rfl)).squeeze S768 squeezes_S1x768_S768) f3 (rowVal i ftok fW ⟨104, by decide⟩)
    ∗ rowOut (F := F) c ((M3.slice (Rect.unit (s := S128x768) ![105, 0] S1x768.size inb_S128x768_S1x768_105_0) (fun _ => rfl)).squeeze S768 squeezes_S1x768_S768) f3 (rowVal i ftok fW ⟨105, by decide⟩)
    ∗ rowOut (F := F) c ((M3.slice (Rect.unit (s := S128x768) ![106, 0] S1x768.size inb_S128x768_S1x768_106_0) (fun _ => rfl)).squeeze S768 squeezes_S1x768_S768) f3 (rowVal i ftok fW ⟨106, by decide⟩)
    ∗ rowOut (F := F) c ((M3.slice (Rect.unit (s := S128x768) ![107, 0] S1x768.size inb_S128x768_S1x768_107_0) (fun _ => rfl)).squeeze S768 squeezes_S1x768_S768) f3 (rowVal i ftok fW ⟨107, by decide⟩)
    ∗ rowOut (F := F) c ((M3.slice (Rect.unit (s := S128x768) ![108, 0] S1x768.size inb_S128x768_S1x768_108_0) (fun _ => rfl)).squeeze S768 squeezes_S1x768_S768) f3 (rowVal i ftok fW ⟨108, by decide⟩)
    ∗ rowOut (F := F) c ((M3.slice (Rect.unit (s := S128x768) ![109, 0] S1x768.size inb_S128x768_S1x768_109_0) (fun _ => rfl)).squeeze S768 squeezes_S1x768_S768) f3 (rowVal i ftok fW ⟨109, by decide⟩)
    ∗ rowOut (F := F) c ((M3.slice (Rect.unit (s := S128x768) ![110, 0] S1x768.size inb_S128x768_S1x768_110_0) (fun _ => rfl)).squeeze S768 squeezes_S1x768_S768) f3 (rowVal i ftok fW ⟨110, by decide⟩)
    ∗ rowOut (F := F) c ((M3.slice (Rect.unit (s := S128x768) ![111, 0] S1x768.size inb_S128x768_S1x768_111_0) (fun _ => rfl)).squeeze S768 squeezes_S1x768_S768) f3 (rowVal i ftok fW ⟨111, by decide⟩)
    ∗ rowOut (F := F) c ((M3.slice (Rect.unit (s := S128x768) ![112, 0] S1x768.size inb_S128x768_S1x768_112_0) (fun _ => rfl)).squeeze S768 squeezes_S1x768_S768) f3 (rowVal i ftok fW ⟨112, by decide⟩)
    ∗ rowOut (F := F) c ((M3.slice (Rect.unit (s := S128x768) ![113, 0] S1x768.size inb_S128x768_S1x768_113_0) (fun _ => rfl)).squeeze S768 squeezes_S1x768_S768) f3 (rowVal i ftok fW ⟨113, by decide⟩)
    ∗ rowOut (F := F) c ((M3.slice (Rect.unit (s := S128x768) ![114, 0] S1x768.size inb_S128x768_S1x768_114_0) (fun _ => rfl)).squeeze S768 squeezes_S1x768_S768) f3 (rowVal i ftok fW ⟨114, by decide⟩)
    ∗ rowOut (F := F) c ((M3.slice (Rect.unit (s := S128x768) ![115, 0] S1x768.size inb_S128x768_S1x768_115_0) (fun _ => rfl)).squeeze S768 squeezes_S1x768_S768) f3 (rowVal i ftok fW ⟨115, by decide⟩)
    ∗ rowOut (F := F) c ((M3.slice (Rect.unit (s := S128x768) ![116, 0] S1x768.size inb_S128x768_S1x768_116_0) (fun _ => rfl)).squeeze S768 squeezes_S1x768_S768) f3 (rowVal i ftok fW ⟨116, by decide⟩)
    ∗ rowOut (F := F) c ((M3.slice (Rect.unit (s := S128x768) ![117, 0] S1x768.size inb_S128x768_S1x768_117_0) (fun _ => rfl)).squeeze S768 squeezes_S1x768_S768) f3 (rowVal i ftok fW ⟨117, by decide⟩)
    ∗ rowOut (F := F) c ((M3.slice (Rect.unit (s := S128x768) ![118, 0] S1x768.size inb_S128x768_S1x768_118_0) (fun _ => rfl)).squeeze S768 squeezes_S1x768_S768) f3 (rowVal i ftok fW ⟨118, by decide⟩)
    ∗ rowOut (F := F) c ((M3.slice (Rect.unit (s := S128x768) ![119, 0] S1x768.size inb_S128x768_S1x768_119_0) (fun _ => rfl)).squeeze S768 squeezes_S1x768_S768) f3 (rowVal i ftok fW ⟨119, by decide⟩)
    ∗ rowOut (F := F) c ((M3.slice (Rect.unit (s := S128x768) ![120, 0] S1x768.size inb_S128x768_S1x768_120_0) (fun _ => rfl)).squeeze S768 squeezes_S1x768_S768) f3 (rowVal i ftok fW ⟨120, by decide⟩)
    ∗ rowOut (F := F) c ((M3.slice (Rect.unit (s := S128x768) ![121, 0] S1x768.size inb_S128x768_S1x768_121_0) (fun _ => rfl)).squeeze S768 squeezes_S1x768_S768) f3 (rowVal i ftok fW ⟨121, by decide⟩)
    ∗ rowOut (F := F) c ((M3.slice (Rect.unit (s := S128x768) ![122, 0] S1x768.size inb_S128x768_S1x768_122_0) (fun _ => rfl)).squeeze S768 squeezes_S1x768_S768) f3 (rowVal i ftok fW ⟨122, by decide⟩)
    ∗ rowOut (F := F) c ((M3.slice (Rect.unit (s := S128x768) ![123, 0] S1x768.size inb_S128x768_S1x768_123_0) (fun _ => rfl)).squeeze S768 squeezes_S1x768_S768) f3 (rowVal i ftok fW ⟨123, by decide⟩)
    ∗ rowOut (F := F) c ((M3.slice (Rect.unit (s := S128x768) ![124, 0] S1x768.size inb_S128x768_S1x768_124_0) (fun _ => rfl)).squeeze S768 squeezes_S1x768_S768) f3 (rowVal i ftok fW ⟨124, by decide⟩)
    ∗ rowOut (F := F) c ((M3.slice (Rect.unit (s := S128x768) ![125, 0] S1x768.size inb_S128x768_S1x768_125_0) (fun _ => rfl)).squeeze S768 squeezes_S1x768_S768) f3 (rowVal i ftok fW ⟨125, by decide⟩)
    ∗ rowOut (F := F) c ((M3.slice (Rect.unit (s := S128x768) ![126, 0] S1x768.size inb_S128x768_S1x768_126_0) (fun _ => rfl)).squeeze S768 squeezes_S1x768_S768) f3 (rowVal i ftok fW ⟨126, by decide⟩)
    ∗ rowOut (F := F) c ((M3.slice (Rect.unit (s := S128x768) ![127, 0] S1x768.size inb_S128x768_S1x768_127_0) (fun _ => rfl)).squeeze S768 squeezes_S1x768_S768) f3 (rowVal i ftok fW ⟨127, by decide⟩))

set_option maxRecDepth 65536 in
theorem toksChain_eq (c : Dev nD) (fW : Bf (F := F) c (Memref.whole main_arg1)) :
    toksChain c fW = bigSepL (List.finRange 128) (tokH (F := F) c fW) := rfl
set_option maxRecDepth 65536 in
theorem rowsInChain_eq (c : Dev nD) (M3 : Memref sig .tc .vmem S128x768 .f32) (f3 : Buf (Elt F) (M3.view.loc (c : Thread nD τ))) :
    rowsInChain c M3 f3 = bigSepL (List.finRange 128) (rowH (F := F) c M3 f3) := rfl
set_option maxRecDepth 65536 in
theorem semsChain_eq (c : Dev nD) :
    semsChain (F := F) c = bigSepL (List.finRange 128) (semH (F := F) c) := rfl
set_option maxRecDepth 65536 in
theorem rowsOutChain_eq (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) :
    rowsOutChain c i M3 ftok fW f3 = bigSepL (List.finRange 128) (rowOutH (F := F) c i M3 ftok fW f3) := rfl

set_option maxHeartbeats 40000000 in
set_option maxRecDepth 65536 in
theorem kernelRunRows (c : Dev nD) (i : grid0.Coords) (M3 : Memref sig .tc .vmem S128x768 .f32) (h3 : M3.IsWhole)
    (ftok : Bf (F := F) c (Memref.whole main_v0)) (fW : Bf (F := F) c (Memref.whole main_arg1))
    (f3 : Buf (Elt F) (M3.view.loc (c : Thread nD τ)))
    (htok : ∀ y : S32768.Idx, (ftok y).toNat < 50257)
    (W : Waits sig Unit) (Q : PUnit → sProp 𝕄) :
    iprop(pt c (Memref.whole main_v0) ftok ∗ toksChain c fW ∗ rowsInChain c M3 f3 ∗ semsChain (F := F) c ∗ owes (c : Thread nD τ) 0 W
        ∗ (iprop(pt c (Memref.whole main_v0) ftok ∗ toksChain c fW ∗ rowsOutChain c i M3 ftok fW f3 ∗ semsChain (F := F) c
              ∗ ∃ W, owes (c : Thread nD τ) 0 W) -∗ Q ⟨⟩))
    ⊢ wp frame (wpE (defs₀ (F := F)) Variants.none c none) Set.univ
        (cc0__gather_kernel i (Memref.whole main_v0) (Memref.isWhole_whole _) (Memref.whole main_arg1) (Memref.isWhole_whole _) M3 h3 cc0_scratch0) Q := by
  unfold toksChain rowsInChain semsChain rowsOutChain
  iintro ⟨Ht, ⟨HW0, HW1, HW2, HW3, HW4, HW5, HW6, HW7, HW8, HW9, HW10, HW11, HW12, HW13, HW14, HW15, HW16, HW17, HW18, HW19, HW20, HW21, HW22, HW23, HW24, HW25, HW26, HW27, HW28, HW29, HW30, HW31, HW32, HW33, HW34, HW35, HW36, HW37, HW38, HW39, HW40, HW41, HW42, HW43, HW44, HW45, HW46, HW47, HW48, HW49, HW50, HW51, HW52, HW53, HW54, HW55, HW56, HW57, HW58, HW59, HW60, HW61, HW62, HW63, HW64, HW65, HW66, HW67, HW68, HW69, HW70, HW71, HW72, HW73, HW74, HW75, HW76, HW77, HW78, HW79, HW80, HW81, HW82, HW83, HW84, HW85, HW86, HW87, HW88, HW89, HW90, HW91, HW92, HW93, HW94, HW95, HW96, HW97, HW98, HW99, HW100, HW101, HW102, HW103, HW104, HW105, HW106, HW107, HW108, HW109, HW110, HW111, HW112, HW113, HW114, HW115, HW116, HW117, HW118, HW119, HW120, HW121, HW122, HW123, HW124, HW125, HW126, HW127⟩, ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩, ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩, HO, Hk⟩
  sl_exec_parts! (disch := exact chk_of_lt _ (htok _))
  sl_step
  iapply Hk
  isplitl [Ht]; · iexact Ht
  isplitl [HW0 HW1 HW2 HW3 HW4 HW5 HW6 HW7 HW8 HW9 HW10 HW11 HW12 HW13 HW14 HW15 HW16 HW17 HW18 HW19 HW20 HW21 HW22 HW23 HW24 HW25 HW26 HW27 HW28 HW29 HW30 HW31 HW32 HW33 HW34 HW35 HW36 HW37 HW38 HW39 HW40 HW41 HW42 HW43 HW44 HW45 HW46 HW47 HW48 HW49 HW50 HW51 HW52 HW53 HW54 HW55 HW56 HW57 HW58 HW59 HW60 HW61 HW62 HW63 HW64 HW65 HW66 HW67 HW68 HW69 HW70 HW71 HW72 HW73 HW74 HW75 HW76 HW77 HW78 HW79 HW80 HW81 HW82 HW83 HW84 HW85 HW86 HW87 HW88 HW89 HW90 HW91 HW92 HW93 HW94 HW95 HW96 HW97 HW98 HW99 HW100 HW101 HW102 HW103 HW104 HW105 HW106 HW107 HW108 HW109 HW110 HW111 HW112 HW113 HW114 HW115 HW116 HW117 HW118 HW119 HW120 HW121 HW122 HW123 HW124 HW125 HW126 HW127]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    isplitl [HW8]; · iexact HW8
    isplitl [HW9]; · iexact HW9
    isplitl [HW10]; · iexact HW10
    isplitl [HW11]; · iexact HW11
    isplitl [HW12]; · iexact HW12
    isplitl [HW13]; · iexact HW13
    isplitl [HW14]; · iexact HW14
    isplitl [HW15]; · iexact HW15
    isplitl [HW16]; · iexact HW16
    isplitl [HW17]; · iexact HW17
    isplitl [HW18]; · iexact HW18
    isplitl [HW19]; · iexact HW19
    isplitl [HW20]; · iexact HW20
    isplitl [HW21]; · iexact HW21
    isplitl [HW22]; · iexact HW22
    isplitl [HW23]; · iexact HW23
    isplitl [HW24]; · iexact HW24
    isplitl [HW25]; · iexact HW25
    isplitl [HW26]; · iexact HW26
    isplitl [HW27]; · iexact HW27
    isplitl [HW28]; · iexact HW28
    isplitl [HW29]; · iexact HW29
    isplitl [HW30]; · iexact HW30
    isplitl [HW31]; · iexact HW31
    isplitl [HW32]; · iexact HW32
    isplitl [HW33]; · iexact HW33
    isplitl [HW34]; · iexact HW34
    isplitl [HW35]; · iexact HW35
    isplitl [HW36]; · iexact HW36
    isplitl [HW37]; · iexact HW37
    isplitl [HW38]; · iexact HW38
    isplitl [HW39]; · iexact HW39
    isplitl [HW40]; · iexact HW40
    isplitl [HW41]; · iexact HW41
    isplitl [HW42]; · iexact HW42
    isplitl [HW43]; · iexact HW43
    isplitl [HW44]; · iexact HW44
    isplitl [HW45]; · iexact HW45
    isplitl [HW46]; · iexact HW46
    isplitl [HW47]; · iexact HW47
    isplitl [HW48]; · iexact HW48
    isplitl [HW49]; · iexact HW49
    isplitl [HW50]; · iexact HW50
    isplitl [HW51]; · iexact HW51
    isplitl [HW52]; · iexact HW52
    isplitl [HW53]; · iexact HW53
    isplitl [HW54]; · iexact HW54
    isplitl [HW55]; · iexact HW55
    isplitl [HW56]; · iexact HW56
    isplitl [HW57]; · iexact HW57
    isplitl [HW58]; · iexact HW58
    isplitl [HW59]; · iexact HW59
    isplitl [HW60]; · iexact HW60
    isplitl [HW61]; · iexact HW61
    isplitl [HW62]; · iexact HW62
    isplitl [HW63]; · iexact HW63
    isplitl [HW64]; · iexact HW64
    isplitl [HW65]; · iexact HW65
    isplitl [HW66]; · iexact HW66
    isplitl [HW67]; · iexact HW67
    isplitl [HW68]; · iexact HW68
    isplitl [HW69]; · iexact HW69
    isplitl [HW70]; · iexact HW70
    isplitl [HW71]; · iexact HW71
    isplitl [HW72]; · iexact HW72
    isplitl [HW73]; · iexact HW73
    isplitl [HW74]; · iexact HW74
    isplitl [HW75]; · iexact HW75
    isplitl [HW76]; · iexact HW76
    isplitl [HW77]; · iexact HW77
    isplitl [HW78]; · iexact HW78
    isplitl [HW79]; · iexact HW79
    isplitl [HW80]; · iexact HW80
    isplitl [HW81]; · iexact HW81
    isplitl [HW82]; · iexact HW82
    isplitl [HW83]; · iexact HW83
    isplitl [HW84]; · iexact HW84
    isplitl [HW85]; · iexact HW85
    isplitl [HW86]; · iexact HW86
    isplitl [HW87]; · iexact HW87
    isplitl [HW88]; · iexact HW88
    isplitl [HW89]; · iexact HW89
    isplitl [HW90]; · iexact HW90
    isplitl [HW91]; · iexact HW91
    isplitl [HW92]; · iexact HW92
    isplitl [HW93]; · iexact HW93
    isplitl [HW94]; · iexact HW94
    isplitl [HW95]; · iexact HW95
    isplitl [HW96]; · iexact HW96
    isplitl [HW97]; · iexact HW97
    isplitl [HW98]; · iexact HW98
    isplitl [HW99]; · iexact HW99
    isplitl [HW100]; · iexact HW100
    isplitl [HW101]; · iexact HW101
    isplitl [HW102]; · iexact HW102
    isplitl [HW103]; · iexact HW103
    isplitl [HW104]; · iexact HW104
    isplitl [HW105]; · iexact HW105
    isplitl [HW106]; · iexact HW106
    isplitl [HW107]; · iexact HW107
    isplitl [HW108]; · iexact HW108
    isplitl [HW109]; · iexact HW109
    isplitl [HW110]; · iexact HW110
    isplitl [HW111]; · iexact HW111
    isplitl [HW112]; · iexact HW112
    isplitl [HW113]; · iexact HW113
    isplitl [HW114]; · iexact HW114
    isplitl [HW115]; · iexact HW115
    isplitl [HW116]; · iexact HW116
    isplitl [HW117]; · iexact HW117
    isplitl [HW118]; · iexact HW118
    isplitl [HW119]; · iexact HW119
    isplitl [HW120]; · iexact HW120
    isplitl [HW121]; · iexact HW121
    isplitl [HW122]; · iexact HW122
    isplitl [HW123]; · iexact HW123
    isplitl [HW124]; · iexact HW124
    isplitl [HW125]; · iexact HW125
    isplitl [HW126]; · iexact HW126
    iexact HW127
  isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
  · isplitl [HR0]; · (unfold rowOut; iexists _; isplitr; swap; (· iexact HR0); ipureintro; exact payload_fact c i ftok fW htok ⟨0, by decide⟩ _ (k0_off1_eq i) _ _ _)
    isplitl [HR1]; · (unfold rowOut; iexists _; isplitr; swap; (· iexact HR1); ipureintro; exact payload_fact c i ftok fW htok ⟨1, by decide⟩ _ (k0_off3_eq i) _ _ _)
    isplitl [HR2]; · (unfold rowOut; iexists _; isplitr; swap; (· iexact HR2); ipureintro; exact payload_fact c i ftok fW htok ⟨2, by decide⟩ _ (k0_off5_eq i) _ _ _)
    isplitl [HR3]; · (unfold rowOut; iexists _; isplitr; swap; (· iexact HR3); ipureintro; exact payload_fact c i ftok fW htok ⟨3, by decide⟩ _ (k0_off7_eq i) _ _ _)
    isplitl [HR4]; · (unfold rowOut; iexists _; isplitr; swap; (· iexact HR4); ipureintro; exact payload_fact c i ftok fW htok ⟨4, by decide⟩ _ (k0_off9_eq i) _ _ _)
    isplitl [HR5]; · (unfold rowOut; iexists _; isplitr; swap; (· iexact HR5); ipureintro; exact payload_fact c i ftok fW htok ⟨5, by decide⟩ _ (k0_off11_eq i) _ _ _)
    isplitl [HR6]; · (unfold rowOut; iexists _; isplitr; swap; (· iexact HR6); ipureintro; exact payload_fact c i ftok fW htok ⟨6, by decide⟩ _ (k0_off13_eq i) _ _ _)
    isplitl [HR7]; · (unfold rowOut; iexists _; isplitr; swap; (· iexact HR7); ipureintro; exact payload_fact c i ftok fW htok ⟨7, by decide⟩ _ (k0_off15_eq i) _ _ _)
    isplitl [HR8]; · (unfold rowOut; iexists _; isplitr; swap; (· iexact HR8); ipureintro; exact payload_fact c i ftok fW htok ⟨8, by decide⟩ _ (k0_off17_eq i) _ _ _)
    isplitl [HR9]; · (unfold rowOut; iexists _; isplitr; swap; (· iexact HR9); ipureintro; exact payload_fact c i ftok fW htok ⟨9, by decide⟩ _ (k0_off19_eq i) _ _ _)
    isplitl [HR10]; · (unfold rowOut; iexists _; isplitr; swap; (· iexact HR10); ipureintro; exact payload_fact c i ftok fW htok ⟨10, by decide⟩ _ (k0_off21_eq i) _ _ _)
    isplitl [HR11]; · (unfold rowOut; iexists _; isplitr; swap; (· iexact HR11); ipureintro; exact payload_fact c i ftok fW htok ⟨11, by decide⟩ _ (k0_off23_eq i) _ _ _)
    isplitl [HR12]; · (unfold rowOut; iexists _; isplitr; swap; (· iexact HR12); ipureintro; exact payload_fact c i ftok fW htok ⟨12, by decide⟩ _ (k0_off25_eq i) _ _ _)
    isplitl [HR13]; · (unfold rowOut; iexists _; isplitr; swap; (· iexact HR13); ipureintro; exact payload_fact c i ftok fW htok ⟨13, by decide⟩ _ (k0_off27_eq i) _ _ _)
    isplitl [HR14]; · (unfold rowOut; iexists _; isplitr; swap; (· iexact HR14); ipureintro; exact payload_fact c i ftok fW htok ⟨14, by decide⟩ _ (k0_off29_eq i) _ _ _)
    isplitl [HR15]; · (unfold rowOut; iexists _; isplitr; swap; (· iexact HR15); ipureintro; exact payload_fact c i ftok fW htok ⟨15, by decide⟩ _ (k0_off31_eq i) _ _ _)
    isplitl [HR16]; · (unfold rowOut; iexists _; isplitr; swap; (· iexact HR16); ipureintro; exact payload_fact c i ftok fW htok ⟨16, by decide⟩ _ (k0_off33_eq i) _ _ _)
    isplitl [HR17]; · (unfold rowOut; iexists _; isplitr; swap; (· iexact HR17); ipureintro; exact payload_fact c i ftok fW htok ⟨17, by decide⟩ _ (k0_off35_eq i) _ _ _)
    isplitl [HR18]; · (unfold rowOut; iexists _; isplitr; swap; (· iexact HR18); ipureintro; exact payload_fact c i ftok fW htok ⟨18, by decide⟩ _ (k0_off37_eq i) _ _ _)
    isplitl [HR19]; · (unfold rowOut; iexists _; isplitr; swap; (· iexact HR19); ipureintro; exact payload_fact c i ftok fW htok ⟨19, by decide⟩ _ (k0_off39_eq i) _ _ _)
    isplitl [HR20]; · (unfold rowOut; iexists _; isplitr; swap; (· iexact HR20); ipureintro; exact payload_fact c i ftok fW htok ⟨20, by decide⟩ _ (k0_off41_eq i) _ _ _)
    isplitl [HR21]; · (unfold rowOut; iexists _; isplitr; swap; (· iexact HR21); ipureintro; exact payload_fact c i ftok fW htok ⟨21, by decide⟩ _ (k0_off43_eq i) _ _ _)
    isplitl [HR22]; · (unfold rowOut; iexists _; isplitr; swap; (· iexact HR22); ipureintro; exact payload_fact c i ftok fW htok ⟨22, by decide⟩ _ (k0_off45_eq i) _ _ _)
    isplitl [HR23]; · (unfold rowOut; iexists _; isplitr; swap; (· iexact HR23); ipureintro; exact payload_fact c i ftok fW htok ⟨23, by decide⟩ _ (k0_off47_eq i) _ _ _)
    isplitl [HR24]; · (unfold rowOut; iexists _; isplitr; swap; (· iexact HR24); ipureintro; exact payload_fact c i ftok fW htok ⟨24, by decide⟩ _ (k0_off49_eq i) _ _ _)
    isplitl [HR25]; · (unfold rowOut; iexists _; isplitr; swap; (· iexact HR25); ipureintro; exact payload_fact c i ftok fW htok ⟨25, by decide⟩ _ (k0_off51_eq i) _ _ _)
    isplitl [HR26]; · (unfold rowOut; iexists _; isplitr; swap; (· iexact HR26); ipureintro; exact payload_fact c i ftok fW htok ⟨26, by decide⟩ _ (k0_off53_eq i) _ _ _)
    isplitl [HR27]; · (unfold rowOut; iexists _; isplitr; swap; (· iexact HR27); ipureintro; exact payload_fact c i ftok fW htok ⟨27, by decide⟩ _ (k0_off55_eq i) _ _ _)
    isplitl [HR28]; · (unfold rowOut; iexists _; isplitr; swap; (· iexact HR28); ipureintro; exact payload_fact c i ftok fW htok ⟨28, by decide⟩ _ (k0_off57_eq i) _ _ _)
    isplitl [HR29]; · (unfold rowOut; iexists _; isplitr; swap; (· iexact HR29); ipureintro; exact payload_fact c i ftok fW htok ⟨29, by decide⟩ _ (k0_off59_eq i) _ _ _)
    isplitl [HR30]; · (unfold rowOut; iexists _; isplitr; swap; (· iexact HR30); ipureintro; exact payload_fact c i ftok fW htok ⟨30, by decide⟩ _ (k0_off61_eq i) _ _ _)
    isplitl [HR31]; · (unfold rowOut; iexists _; isplitr; swap; (· iexact HR31); ipureintro; exact payload_fact c i ftok fW htok ⟨31, by decide⟩ _ (k0_off63_eq i) _ _ _)
    isplitl [HR32]; · (unfold rowOut; iexists _; isplitr; swap; (· iexact HR32); ipureintro; exact payload_fact c i ftok fW htok ⟨32, by decide⟩ _ (k0_off65_eq i) _ _ _)
    isplitl [HR33]; · (unfold rowOut; iexists _; isplitr; swap; (· iexact HR33); ipureintro; exact payload_fact c i ftok fW htok ⟨33, by decide⟩ _ (k0_off67_eq i) _ _ _)
    isplitl [HR34]; · (unfold rowOut; iexists _; isplitr; swap; (· iexact HR34); ipureintro; exact payload_fact c i ftok fW htok ⟨34, by decide⟩ _ (k0_off69_eq i) _ _ _)
    isplitl [HR35]; · (unfold rowOut; iexists _; isplitr; swap; (· iexact HR35); ipureintro; exact payload_fact c i ftok fW htok ⟨35, by decide⟩ _ (k0_off71_eq i) _ _ _)
    isplitl [HR36]; · (unfold rowOut; iexists _; isplitr; swap; (· iexact HR36); ipureintro; exact payload_fact c i ftok fW htok ⟨36, by decide⟩ _ (k0_off73_eq i) _ _ _)
    isplitl [HR37]; · (unfold rowOut; iexists _; isplitr; swap; (· iexact HR37); ipureintro; exact payload_fact c i ftok fW htok ⟨37, by decide⟩ _ (k0_off75_eq i) _ _ _)
    isplitl [HR38]; · (unfold rowOut; iexists _; isplitr; swap; (· iexact HR38); ipureintro; exact payload_fact c i ftok fW htok ⟨38, by decide⟩ _ (k0_off77_eq i) _ _ _)
    isplitl [HR39]; · (unfold rowOut; iexists _; isplitr; swap; (· iexact HR39); ipureintro; exact payload_fact c i ftok fW htok ⟨39, by decide⟩ _ (k0_off79_eq i) _ _ _)
    isplitl [HR40]; · (unfold rowOut; iexists _; isplitr; swap; (· iexact HR40); ipureintro; exact payload_fact c i ftok fW htok ⟨40, by decide⟩ _ (k0_off81_eq i) _ _ _)
    isplitl [HR41]; · (unfold rowOut; iexists _; isplitr; swap; (· iexact HR41); ipureintro; exact payload_fact c i ftok fW htok ⟨41, by decide⟩ _ (k0_off83_eq i) _ _ _)
    isplitl [HR42]; · (unfold rowOut; iexists _; isplitr; swap; (· iexact HR42); ipureintro; exact payload_fact c i ftok fW htok ⟨42, by decide⟩ _ (k0_off85_eq i) _ _ _)
    isplitl [HR43]; · (unfold rowOut; iexists _; isplitr; swap; (· iexact HR43); ipureintro; exact payload_fact c i ftok fW htok ⟨43, by decide⟩ _ (k0_off87_eq i) _ _ _)
    isplitl [HR44]; · (unfold rowOut; iexists _; isplitr; swap; (· iexact HR44); ipureintro; exact payload_fact c i ftok fW htok ⟨44, by decide⟩ _ (k0_off89_eq i) _ _ _)
    isplitl [HR45]; · (unfold rowOut; iexists _; isplitr; swap; (· iexact HR45); ipureintro; exact payload_fact c i ftok fW htok ⟨45, by decide⟩ _ (k0_off91_eq i) _ _ _)
    isplitl [HR46]; · (unfold rowOut; iexists _; isplitr; swap; (· iexact HR46); ipureintro; exact payload_fact c i ftok fW htok ⟨46, by decide⟩ _ (k0_off93_eq i) _ _ _)
    isplitl [HR47]; · (unfold rowOut; iexists _; isplitr; swap; (· iexact HR47); ipureintro; exact payload_fact c i ftok fW htok ⟨47, by decide⟩ _ (k0_off95_eq i) _ _ _)
    isplitl [HR48]; · (unfold rowOut; iexists _; isplitr; swap; (· iexact HR48); ipureintro; exact payload_fact c i ftok fW htok ⟨48, by decide⟩ _ (k0_off97_eq i) _ _ _)
    isplitl [HR49]; · (unfold rowOut; iexists _; isplitr; swap; (· iexact HR49); ipureintro; exact payload_fact c i ftok fW htok ⟨49, by decide⟩ _ (k0_off99_eq i) _ _ _)
    isplitl [HR50]; · (unfold rowOut; iexists _; isplitr; swap; (· iexact HR50); ipureintro; exact payload_fact c i ftok fW htok ⟨50, by decide⟩ _ (k0_off101_eq i) _ _ _)
    isplitl [HR51]; · (unfold rowOut; iexists _; isplitr; swap; (· iexact HR51); ipureintro; exact payload_fact c i ftok fW htok ⟨51, by decide⟩ _ (k0_off103_eq i) _ _ _)
    isplitl [HR52]; · (unfold rowOut; iexists _; isplitr; swap; (· iexact HR52); ipureintro; exact payload_fact c i ftok fW htok ⟨52, by decide⟩ _ (k0_off105_eq i) _ _ _)
    isplitl [HR53]; · (unfold rowOut; iexists _; isplitr; swap; (· iexact HR53); ipureintro; exact payload_fact c i ftok fW htok ⟨53, by decide⟩ _ (k0_off107_eq i) _ _ _)
    isplitl [HR54]; · (unfold rowOut; iexists _; isplitr; swap; (· iexact HR54); ipureintro; exact payload_fact c i ftok fW htok ⟨54, by decide⟩ _ (k0_off109_eq i) _ _ _)
    isplitl [HR55]; · (unfold rowOut; iexists _; isplitr; swap; (· iexact HR55); ipureintro; exact payload_fact c i ftok fW htok ⟨55, by decide⟩ _ (k0_off111_eq i) _ _ _)
    isplitl [HR56]; · (unfold rowOut; iexists _; isplitr; swap; (· iexact HR56); ipureintro; exact payload_fact c i ftok fW htok ⟨56, by decide⟩ _ (k0_off113_eq i) _ _ _)
    isplitl [HR57]; · (unfold rowOut; iexists _; isplitr; swap; (· iexact HR57); ipureintro; exact payload_fact c i ftok fW htok ⟨57, by decide⟩ _ (k0_off115_eq i) _ _ _)
    isplitl [HR58]; · (unfold rowOut; iexists _; isplitr; swap; (· iexact HR58); ipureintro; exact payload_fact c i ftok fW htok ⟨58, by decide⟩ _ (k0_off117_eq i) _ _ _)
    isplitl [HR59]; · (unfold rowOut; iexists _; isplitr; swap; (· iexact HR59); ipureintro; exact payload_fact c i ftok fW htok ⟨59, by decide⟩ _ (k0_off119_eq i) _ _ _)
    isplitl [HR60]; · (unfold rowOut; iexists _; isplitr; swap; (· iexact HR60); ipureintro; exact payload_fact c i ftok fW htok ⟨60, by decide⟩ _ (k0_off121_eq i) _ _ _)
    isplitl [HR61]; · (unfold rowOut; iexists _; isplitr; swap; (· iexact HR61); ipureintro; exact payload_fact c i ftok fW htok ⟨61, by decide⟩ _ (k0_off123_eq i) _ _ _)
    isplitl [HR62]; · (unfold rowOut; iexists _; isplitr; swap; (· iexact HR62); ipureintro; exact payload_fact c i ftok fW htok ⟨62, by decide⟩ _ (k0_off125_eq i) _ _ _)
    isplitl [HR63]; · (unfold rowOut; iexists _; isplitr; swap; (· iexact HR63); ipureintro; exact payload_fact c i ftok fW htok ⟨63, by decide⟩ _ (k0_off127_eq i) _ _ _)
    isplitl [HR64]; · (unfold rowOut; iexists _; isplitr; swap; (· iexact HR64); ipureintro; exact payload_fact c i ftok fW htok ⟨64, by decide⟩ _ (k0_off129_eq i) _ _ _)
    isplitl [HR65]; · (unfold rowOut; iexists _; isplitr; swap; (· iexact HR65); ipureintro; exact payload_fact c i ftok fW htok ⟨65, by decide⟩ _ (k0_off131_eq i) _ _ _)
    isplitl [HR66]; · (unfold rowOut; iexists _; isplitr; swap; (· iexact HR66); ipureintro; exact payload_fact c i ftok fW htok ⟨66, by decide⟩ _ (k0_off133_eq i) _ _ _)
    isplitl [HR67]; · (unfold rowOut; iexists _; isplitr; swap; (· iexact HR67); ipureintro; exact payload_fact c i ftok fW htok ⟨67, by decide⟩ _ (k0_off135_eq i) _ _ _)
    isplitl [HR68]; · (unfold rowOut; iexists _; isplitr; swap; (· iexact HR68); ipureintro; exact payload_fact c i ftok fW htok ⟨68, by decide⟩ _ (k0_off137_eq i) _ _ _)
    isplitl [HR69]; · (unfold rowOut; iexists _; isplitr; swap; (· iexact HR69); ipureintro; exact payload_fact c i ftok fW htok ⟨69, by decide⟩ _ (k0_off139_eq i) _ _ _)
    isplitl [HR70]; · (unfold rowOut; iexists _; isplitr; swap; (· iexact HR70); ipureintro; exact payload_fact c i ftok fW htok ⟨70, by decide⟩ _ (k0_off141_eq i) _ _ _)
    isplitl [HR71]; · (unfold rowOut; iexists _; isplitr; swap; (· iexact HR71); ipureintro; exact payload_fact c i ftok fW htok ⟨71, by decide⟩ _ (k0_off143_eq i) _ _ _)
    isplitl [HR72]; · (unfold rowOut; iexists _; isplitr; swap; (· iexact HR72); ipureintro; exact payload_fact c i ftok fW htok ⟨72, by decide⟩ _ (k0_off145_eq i) _ _ _)
    isplitl [HR73]; · (unfold rowOut; iexists _; isplitr; swap; (· iexact HR73); ipureintro; exact payload_fact c i ftok fW htok ⟨73, by decide⟩ _ (k0_off147_eq i) _ _ _)
    isplitl [HR74]; · (unfold rowOut; iexists _; isplitr; swap; (· iexact HR74); ipureintro; exact payload_fact c i ftok fW htok ⟨74, by decide⟩ _ (k0_off149_eq i) _ _ _)
    isplitl [HR75]; · (unfold rowOut; iexists _; isplitr; swap; (· iexact HR75); ipureintro; exact payload_fact c i ftok fW htok ⟨75, by decide⟩ _ (k0_off151_eq i) _ _ _)
    isplitl [HR76]; · (unfold rowOut; iexists _; isplitr; swap; (· iexact HR76); ipureintro; exact payload_fact c i ftok fW htok ⟨76, by decide⟩ _ (k0_off153_eq i) _ _ _)
    isplitl [HR77]; · (unfold rowOut; iexists _; isplitr; swap; (· iexact HR77); ipureintro; exact payload_fact c i ftok fW htok ⟨77, by decide⟩ _ (k0_off155_eq i) _ _ _)
    isplitl [HR78]; · (unfold rowOut; iexists _; isplitr; swap; (· iexact HR78); ipureintro; exact payload_fact c i ftok fW htok ⟨78, by decide⟩ _ (k0_off157_eq i) _ _ _)
    isplitl [HR79]; · (unfold rowOut; iexists _; isplitr; swap; (· iexact HR79); ipureintro; exact payload_fact c i ftok fW htok ⟨79, by decide⟩ _ (k0_off159_eq i) _ _ _)
    isplitl [HR80]; · (unfold rowOut; iexists _; isplitr; swap; (· iexact HR80); ipureintro; exact payload_fact c i ftok fW htok ⟨80, by decide⟩ _ (k0_off161_eq i) _ _ _)
    isplitl [HR81]; · (unfold rowOut; iexists _; isplitr; swap; (· iexact HR81); ipureintro; exact payload_fact c i ftok fW htok ⟨81, by decide⟩ _ (k0_off163_eq i) _ _ _)
    isplitl [HR82]; · (unfold rowOut; iexists _; isplitr; swap; (· iexact HR82); ipureintro; exact payload_fact c i ftok fW htok ⟨82, by decide⟩ _ (k0_off165_eq i) _ _ _)
    isplitl [HR83]; · (unfold rowOut; iexists _; isplitr; swap; (· iexact HR83); ipureintro; exact payload_fact c i ftok fW htok ⟨83, by decide⟩ _ (k0_off167_eq i) _ _ _)
    isplitl [HR84]; · (unfold rowOut; iexists _; isplitr; swap; (· iexact HR84); ipureintro; exact payload_fact c i ftok fW htok ⟨84, by decide⟩ _ (k0_off169_eq i) _ _ _)
    isplitl [HR85]; · (unfold rowOut; iexists _; isplitr; swap; (· iexact HR85); ipureintro; exact payload_fact c i ftok fW htok ⟨85, by decide⟩ _ (k0_off171_eq i) _ _ _)
    isplitl [HR86]; · (unfold rowOut; iexists _; isplitr; swap; (· iexact HR86); ipureintro; exact payload_fact c i ftok fW htok ⟨86, by decide⟩ _ (k0_off173_eq i) _ _ _)
    isplitl [HR87]; · (unfold rowOut; iexists _; isplitr; swap; (· iexact HR87); ipureintro; exact payload_fact c i ftok fW htok ⟨87, by decide⟩ _ (k0_off175_eq i) _ _ _)
    isplitl [HR88]; · (unfold rowOut; iexists _; isplitr; swap; (· iexact HR88); ipureintro; exact payload_fact c i ftok fW htok ⟨88, by decide⟩ _ (k0_off177_eq i) _ _ _)
    isplitl [HR89]; · (unfold rowOut; iexists _; isplitr; swap; (· iexact HR89); ipureintro; exact payload_fact c i ftok fW htok ⟨89, by decide⟩ _ (k0_off179_eq i) _ _ _)
    isplitl [HR90]; · (unfold rowOut; iexists _; isplitr; swap; (· iexact HR90); ipureintro; exact payload_fact c i ftok fW htok ⟨90, by decide⟩ _ (k0_off181_eq i) _ _ _)
    isplitl [HR91]; · (unfold rowOut; iexists _; isplitr; swap; (· iexact HR91); ipureintro; exact payload_fact c i ftok fW htok ⟨91, by decide⟩ _ (k0_off183_eq i) _ _ _)
    isplitl [HR92]; · (unfold rowOut; iexists _; isplitr; swap; (· iexact HR92); ipureintro; exact payload_fact c i ftok fW htok ⟨92, by decide⟩ _ (k0_off185_eq i) _ _ _)
    isplitl [HR93]; · (unfold rowOut; iexists _; isplitr; swap; (· iexact HR93); ipureintro; exact payload_fact c i ftok fW htok ⟨93, by decide⟩ _ (k0_off187_eq i) _ _ _)
    isplitl [HR94]; · (unfold rowOut; iexists _; isplitr; swap; (· iexact HR94); ipureintro; exact payload_fact c i ftok fW htok ⟨94, by decide⟩ _ (k0_off189_eq i) _ _ _)
    isplitl [HR95]; · (unfold rowOut; iexists _; isplitr; swap; (· iexact HR95); ipureintro; exact payload_fact c i ftok fW htok ⟨95, by decide⟩ _ (k0_off191_eq i) _ _ _)
    isplitl [HR96]; · (unfold rowOut; iexists _; isplitr; swap; (· iexact HR96); ipureintro; exact payload_fact c i ftok fW htok ⟨96, by decide⟩ _ (k0_off193_eq i) _ _ _)
    isplitl [HR97]; · (unfold rowOut; iexists _; isplitr; swap; (· iexact HR97); ipureintro; exact payload_fact c i ftok fW htok ⟨97, by decide⟩ _ (k0_off195_eq i) _ _ _)
    isplitl [HR98]; · (unfold rowOut; iexists _; isplitr; swap; (· iexact HR98); ipureintro; exact payload_fact c i ftok fW htok ⟨98, by decide⟩ _ (k0_off197_eq i) _ _ _)
    isplitl [HR99]; · (unfold rowOut; iexists _; isplitr; swap; (· iexact HR99); ipureintro; exact payload_fact c i ftok fW htok ⟨99, by decide⟩ _ (k0_off199_eq i) _ _ _)
    isplitl [HR100]; · (unfold rowOut; iexists _; isplitr; swap; (· iexact HR100); ipureintro; exact payload_fact c i ftok fW htok ⟨100, by decide⟩ _ (k0_off201_eq i) _ _ _)
    isplitl [HR101]; · (unfold rowOut; iexists _; isplitr; swap; (· iexact HR101); ipureintro; exact payload_fact c i ftok fW htok ⟨101, by decide⟩ _ (k0_off203_eq i) _ _ _)
    isplitl [HR102]; · (unfold rowOut; iexists _; isplitr; swap; (· iexact HR102); ipureintro; exact payload_fact c i ftok fW htok ⟨102, by decide⟩ _ (k0_off205_eq i) _ _ _)
    isplitl [HR103]; · (unfold rowOut; iexists _; isplitr; swap; (· iexact HR103); ipureintro; exact payload_fact c i ftok fW htok ⟨103, by decide⟩ _ (k0_off207_eq i) _ _ _)
    isplitl [HR104]; · (unfold rowOut; iexists _; isplitr; swap; (· iexact HR104); ipureintro; exact payload_fact c i ftok fW htok ⟨104, by decide⟩ _ (k0_off209_eq i) _ _ _)
    isplitl [HR105]; · (unfold rowOut; iexists _; isplitr; swap; (· iexact HR105); ipureintro; exact payload_fact c i ftok fW htok ⟨105, by decide⟩ _ (k0_off211_eq i) _ _ _)
    isplitl [HR106]; · (unfold rowOut; iexists _; isplitr; swap; (· iexact HR106); ipureintro; exact payload_fact c i ftok fW htok ⟨106, by decide⟩ _ (k0_off213_eq i) _ _ _)
    isplitl [HR107]; · (unfold rowOut; iexists _; isplitr; swap; (· iexact HR107); ipureintro; exact payload_fact c i ftok fW htok ⟨107, by decide⟩ _ (k0_off215_eq i) _ _ _)
    isplitl [HR108]; · (unfold rowOut; iexists _; isplitr; swap; (· iexact HR108); ipureintro; exact payload_fact c i ftok fW htok ⟨108, by decide⟩ _ (k0_off217_eq i) _ _ _)
    isplitl [HR109]; · (unfold rowOut; iexists _; isplitr; swap; (· iexact HR109); ipureintro; exact payload_fact c i ftok fW htok ⟨109, by decide⟩ _ (k0_off219_eq i) _ _ _)
    isplitl [HR110]; · (unfold rowOut; iexists _; isplitr; swap; (· iexact HR110); ipureintro; exact payload_fact c i ftok fW htok ⟨110, by decide⟩ _ (k0_off221_eq i) _ _ _)
    isplitl [HR111]; · (unfold rowOut; iexists _; isplitr; swap; (· iexact HR111); ipureintro; exact payload_fact c i ftok fW htok ⟨111, by decide⟩ _ (k0_off223_eq i) _ _ _)
    isplitl [HR112]; · (unfold rowOut; iexists _; isplitr; swap; (· iexact HR112); ipureintro; exact payload_fact c i ftok fW htok ⟨112, by decide⟩ _ (k0_off225_eq i) _ _ _)
    isplitl [HR113]; · (unfold rowOut; iexists _; isplitr; swap; (· iexact HR113); ipureintro; exact payload_fact c i ftok fW htok ⟨113, by decide⟩ _ (k0_off227_eq i) _ _ _)
    isplitl [HR114]; · (unfold rowOut; iexists _; isplitr; swap; (· iexact HR114); ipureintro; exact payload_fact c i ftok fW htok ⟨114, by decide⟩ _ (k0_off229_eq i) _ _ _)
    isplitl [HR115]; · (unfold rowOut; iexists _; isplitr; swap; (· iexact HR115); ipureintro; exact payload_fact c i ftok fW htok ⟨115, by decide⟩ _ (k0_off231_eq i) _ _ _)
    isplitl [HR116]; · (unfold rowOut; iexists _; isplitr; swap; (· iexact HR116); ipureintro; exact payload_fact c i ftok fW htok ⟨116, by decide⟩ _ (k0_off233_eq i) _ _ _)
    isplitl [HR117]; · (unfold rowOut; iexists _; isplitr; swap; (· iexact HR117); ipureintro; exact payload_fact c i ftok fW htok ⟨117, by decide⟩ _ (k0_off235_eq i) _ _ _)
    isplitl [HR118]; · (unfold rowOut; iexists _; isplitr; swap; (· iexact HR118); ipureintro; exact payload_fact c i ftok fW htok ⟨118, by decide⟩ _ (k0_off237_eq i) _ _ _)
    isplitl [HR119]; · (unfold rowOut; iexists _; isplitr; swap; (· iexact HR119); ipureintro; exact payload_fact c i ftok fW htok ⟨119, by decide⟩ _ (k0_off239_eq i) _ _ _)
    isplitl [HR120]; · (unfold rowOut; iexists _; isplitr; swap; (· iexact HR120); ipureintro; exact payload_fact c i ftok fW htok ⟨120, by decide⟩ _ (k0_off241_eq i) _ _ _)
    isplitl [HR121]; · (unfold rowOut; iexists _; isplitr; swap; (· iexact HR121); ipureintro; exact payload_fact c i ftok fW htok ⟨121, by decide⟩ _ (k0_off243_eq i) _ _ _)
    isplitl [HR122]; · (unfold rowOut; iexists _; isplitr; swap; (· iexact HR122); ipureintro; exact payload_fact c i ftok fW htok ⟨122, by decide⟩ _ (k0_off245_eq i) _ _ _)
    isplitl [HR123]; · (unfold rowOut; iexists _; isplitr; swap; (· iexact HR123); ipureintro; exact payload_fact c i ftok fW htok ⟨123, by decide⟩ _ (k0_off247_eq i) _ _ _)
    isplitl [HR124]; · (unfold rowOut; iexists _; isplitr; swap; (· iexact HR124); ipureintro; exact payload_fact c i ftok fW htok ⟨124, by decide⟩ _ (k0_off249_eq i) _ _ _)
    isplitl [HR125]; · (unfold rowOut; iexists _; isplitr; swap; (· iexact HR125); ipureintro; exact payload_fact c i ftok fW htok ⟨125, by decide⟩ _ (k0_off251_eq i) _ _ _)
    isplitl [HR126]; · (unfold rowOut; iexists _; isplitr; swap; (· iexact HR126); ipureintro; exact payload_fact c i ftok fW htok ⟨126, by decide⟩ _ (k0_off253_eq i) _ _ _)
    (unfold rowOut; iexists _; isplitr; swap; (· iexact HR127); ipureintro; exact payload_fact c i ftok fW htok ⟨127, by decide⟩ _ (k0_off255_eq i) _ _ _)
  isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    isplitl [HS25]; · iexact HS25
    isplitl [HS26]; · iexact HS26
    isplitl [HS27]; · iexact HS27
    isplitl [HS28]; · iexact HS28
    isplitl [HS29]; · iexact HS29
    isplitl [HS30]; · iexact HS30
    isplitl [HS31]; · iexact HS31
    isplitl [HS32]; · iexact HS32
    isplitl [HS33]; · iexact HS33
    isplitl [HS34]; · iexact HS34
    isplitl [HS35]; · iexact HS35
    isplitl [HS36]; · iexact HS36
    isplitl [HS37]; · iexact HS37
    isplitl [HS38]; · iexact HS38
    isplitl [HS39]; · iexact HS39
    isplitl [HS40]; · iexact HS40
    isplitl [HS41]; · iexact HS41
    isplitl [HS42]; · iexact HS42
    isplitl [HS43]; · iexact HS43
    isplitl [HS44]; · iexact HS44
    isplitl [HS45]; · iexact HS45
    isplitl [HS46]; · iexact HS46
    isplitl [HS47]; · iexact HS47
    isplitl [HS48]; · iexact HS48
    isplitl [HS49]; · iexact HS49
    isplitl [HS50]; · iexact HS50
    isplitl [HS51]; · iexact HS51
    isplitl [HS52]; · iexact HS52
    isplitl [HS53]; · iexact HS53
    isplitl [HS54]; · iexact HS54
    isplitl [HS55]; · iexact HS55
    isplitl [HS56]; · iexact HS56
    isplitl [HS57]; · iexact HS57
    isplitl [HS58]; · iexact HS58
    isplitl [HS59]; · iexact HS59
    isplitl [HS60]; · iexact HS60
    isplitl [HS61]; · iexact HS61
    isplitl [HS62]; · iexact HS62
    isplitl [HS63]; · iexact HS63
    isplitl [HS64]; · iexact HS64
    isplitl [HS65]; · iexact HS65
    isplitl [HS66]; · iexact HS66
    isplitl [HS67]; · iexact HS67
    isplitl [HS68]; · iexact HS68
    isplitl [HS69]; · iexact HS69
    isplitl [HS70]; · iexact HS70
    isplitl [HS71]; · iexact HS71
    isplitl [HS72]; · iexact HS72
    isplitl [HS73]; · iexact HS73
    isplitl [HS74]; · iexact HS74
    isplitl [HS75]; · iexact HS75
    isplitl [HS76]; · iexact HS76
    isplitl [HS77]; · iexact HS77
    isplitl [HS78]; · iexact HS78
    isplitl [HS79]; · iexact HS79
    isplitl [HS80]; · iexact HS80
    isplitl [HS81]; · iexact HS81
    isplitl [HS82]; · iexact HS82
    isplitl [HS83]; · iexact HS83
    isplitl [HS84]; · iexact HS84
    isplitl [HS85]; · iexact HS85
    isplitl [HS86]; · iexact HS86
    isplitl [HS87]; · iexact HS87
    isplitl [HS88]; · iexact HS88
    isplitl [HS89]; · iexact HS89
    isplitl [HS90]; · iexact HS90
    isplitl [HS91]; · iexact HS91
    isplitl [HS92]; · iexact HS92
    isplitl [HS93]; · iexact HS93
    isplitl [HS94]; · iexact HS94
    isplitl [HS95]; · iexact HS95
    isplitl [HS96]; · iexact HS96
    isplitl [HS97]; · iexact HS97
    isplitl [HS98]; · iexact HS98
    isplitl [HS99]; · iexact HS99
    isplitl [HS100]; · iexact HS100
    isplitl [HS101]; · iexact HS101
    isplitl [HS102]; · iexact HS102
    isplitl [HS103]; · iexact HS103
    isplitl [HS104]; · iexact HS104
    isplitl [HS105]; · iexact HS105
    isplitl [HS106]; · iexact HS106
    isplitl [HS107]; · iexact HS107
    isplitl [HS108]; · iexact HS108
    isplitl [HS109]; · iexact HS109
    isplitl [HS110]; · iexact HS110
    isplitl [HS111]; · iexact HS111
    isplitl [HS112]; · iexact HS112
    isplitl [HS113]; · iexact HS113
    isplitl [HS114]; · iexact HS114
    isplitl [HS115]; · iexact HS115
    isplitl [HS116]; · iexact HS116
    isplitl [HS117]; · iexact HS117
    isplitl [HS118]; · iexact HS118
    isplitl [HS119]; · iexact HS119
    isplitl [HS120]; · iexact HS120
    isplitl [HS121]; · iexact HS121
    isplitl [HS122]; · iexact HS122
    isplitl [HS123]; · iexact HS123
    isplitl [HS124]; · iexact HS124
    isplitl [HS125]; · iexact HS125
    isplitl [HS126]; · iexact HS126
    iexact HS127
  iexists _; iexact HO

end Cert.Kernel.Body

end
-- ==== Proof.RowsJoinK.lean ====
/-
  The output block as its 128 rows.

  The 128 × 768 block owned whole is its 128 rows, each row's elements held on their own (`rows_split`); and the rows,
  row `j` overwritten whole by a payload `P j`, are the block owned at the array whose row `j` is `P j` (`rows_join`).
  The rows are the unit-row rectangles of the block: they differ in their first coordinate, so they are pairwise
  disjoint, and every element of the block lies in the row of its first coordinate.
-/
import proofs.«413693_j16020228014144_1_alg».proof.Proof.RowsK

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-! ### A memref held slice by slice, each slice named through a squeeze

The three facts below are about any memref and any finite family of pairwise disjoint unit-stride rectangles that
cover its shape, each rectangle's slice renamed by dropping unit axes. Dropping unit axes moves no element, so the
memref's elements are the disjoint union of the renamed slices' elements: holding the memref's elements at contents
`g` is holding each renamed slice's at `g`; renamed slices held at contents of their own join to the memref's elements
at contents that agree with each slice's on that slice; and an element that a slice's whole-piece write covers reads
as the piece's payload. -/

section Squeezed

variable {n : Nat} {tp : Topo} {sg : RefSig} {Val : EltTy → Type}
variable {Ix : Type} [DecidableEq Ix] {Name : Type} [DecidableEq Name] {U : Type} [URA U] {Lvl : Type}

/-- A memref's elements at contents `g` are each renamed slice's elements at `g`. -/
theorem pointsTo_squeezed_rects (c : Thread n tp) {sp : Space} {sh s' : Shape} {e : EltTy} (m : Memref sg c.2.kind sp sh e)
    (q : PosShare TreeShare) {T : Type} [Fintype T] (r : T → Rect sh) (hr : ∀ t a, (r t).stride a = 1)
    (hq : ∀ t, (r t).shape.Squeezes s') (hd : ∀ t t', t ≠ t' → Disjoint (r t).set (r t').set)
    (hcov : (Finset.univ : Finset T).biUnion (fun t => (r t).set) = Finset.univ) (g : m.view.ty.Contents Val) :
    (m.view.loc c ↦[m.view.set]{q} g : sProp (MT n tp sg Ix Val Name U Lvl))
      = bigSep Finset.univ fun t =>
          (((m.slice (r t) (hr t)).squeeze s' (hq t)).view.loc c ↦[((m.slice (r t) (hr t)).squeeze s' (hq t)).view.set]{q} g) := by
  rw [pointsTo_rects c m q r hr hd hcov g]
  refine BI.bigSep_congr fun t _ => ?_
  rw [owns_slice_read]
  show _ = (m.view.loc c ↦[((m.view.slice (r t)).reshape s' (hq t).numel_eq).set]{q} g)
  rw [View.set_reshape]

/-- Renamed slices held at contents of their own join to the memref's elements at contents agreeing with each slice's
    on every element of that slice. -/
theorem pointsTo_squeezed_rects_join (c : Thread n tp) {sp : Space} {sh s' : Shape} {e : EltTy} (m : Memref sg c.2.kind sp sh e)
    (q : PosShare TreeShare) {T : Type} [Fintype T] (r : T → Rect sh) (hr : ∀ t a, (r t).stride a = 1)
    (hq : ∀ t, (r t).shape.Squeezes s') (hd : ∀ t t', t ≠ t' → Disjoint (r t).set (r t').set)
    (hcov : (Finset.univ : Finset T).biUnion (fun t => (r t).set) = Finset.univ)
    (fs : T → m.view.ty.Contents Val) (f₀ : m.view.ty.Contents Val) :
    bigSep Finset.univ (fun t =>
        (((m.slice (r t) (hr t)).squeeze s' (hq t)).view.loc c ↦[((m.slice (r t) (hr t)).squeeze s' (hq t)).view.set]{q} fs t))
      ⊢ (iprop(∃ g, ⌜∀ (t : T) (x : s'.Idx), g (((m.slice (r t) (hr t)).squeeze s' (hq t)).view.emb x)
                      = fs t (((m.slice (r t) (hr t)).squeeze s' (hq t)).view.emb x)⌝
            ∗ m.view.loc c ↦[m.view.set]{q} g) : sProp (MT n tp sg Ix Val Name U Lvl)) := by
  have hS : ∀ t, ((m.slice (r t) (hr t)).squeeze s' (hq t)).view.set = (m.view.slice (r t)).set := fun t =>
    View.set_reshape (v := m.view.slice (r t)) (hq t).numel_eq
  have hdv : ∀ t ∈ (Finset.univ : Finset T), ∀ t' ∈ (Finset.univ : Finset T), t ≠ t' →
      Disjoint ((m.slice (r t) (hr t)).squeeze s' (hq t)).view.set ((m.slice (r t') (hr t')).squeeze s' (hq t')).view.set := by
    intro t _ t' _ h
    rw [hS, hS, View.set_slice, View.set_slice]
    exact (Finset.disjoint_map _).mpr (hd t t' h)
  have hset : m.view.set = (Finset.univ : Finset T).biUnion fun t => ((m.slice (r t) (hr t)).squeeze s' (hq t)).view.set := by
    ext i; constructor
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [hS, View.set_slice]; exact Finset.mem_map_of_mem _ hx⟩
    · intro hi
      obtain ⟨t, -, hi⟩ := Finset.mem_biUnion.mp hi
      rw [hS] at hi
      exact View.set_slice_subset _ _ hi
  refine (show bigSep Finset.univ (fun t => (m.view.loc c ↦[((m.slice (r t) (hr t)).squeeze s' (hq t)).view.set]{q} fs t)) ⊢ _ from ?_)
  refine (pointsTo_biUnion_join (ℓ := m.view.loc c) (q := q) Finset.univ
    (fun t => ((m.slice (r t) (hr t)).squeeze s' (hq t)).view.set) fs f₀ hdv).trans ?_
  iintro ⟨%g, %hg, H⟩
  iexists g
  isplitr
  · ipureintro
    intro t x
    exact hg t (Finset.mem_univ t) _ (View.emb_mem_set _ x)
  · rw [hset]; iexact H

/-- Contents that agree, at the element under index `x` of a renamed slice, with the slice overwritten whole by the
    payload `p`, read as `p x` through the memref at the index `y` of that element. -/
theorem read_of_squeezed_whole_write {κ : Kind} {sp : Space} {sh s' : Shape} {e : EltTy} (m : Memref sg κ sp sh e) (r : Rect sh)
    (hr : ∀ a, r.stride a = 1) (hq : r.shape.Squeezes s') (g f : m.view.ty.Contents Val) (p : s'.Idx → Val e) (x : s'.Idx) (y : sh.Idx)
    (hy : m.view.emb y = ((m.slice r hr).squeeze s' hq).view.emb x)
    (hg : g (((m.slice r hr).squeeze s' hq).view.emb x)
      = ((m.slice r hr).squeeze s' hq).view.writes Val f [⟨Rect.whole s', p⟩] (((m.slice r hr).squeeze s' hq).view.emb x)) :
    m.view.read Val g y = p x := by
  rw [View.read_apply, hy, hg, ← View.write_univ_eq_writes_whole, View.writes_nil,
    View.write_emb_of_mem _ _ (Finset.mem_univ x), cast_cast, cast_eq]

end Squeezed

/-- The rectangle of row `j` in the block: one row high, all 768 columns wide. -/
abbrev rowRect (j : Fin 128) : Rect S128x768 := Rect.unit (s := S128x768) ![j.val, 0] S1x768.size (rowInb j)

/-- Two different rows share no element: they are apart along the row axis. -/
theorem rowRect_disjoint (j j' : Fin 128) (h : j ≠ j') : Disjoint (rowRect j).set (rowRect j').set := by
  have hv : j.val ≠ j'.val := fun e => h (Fin.ext e)
  refine Rect.unit_disjoint (0 : Fin 2) ?_
  show j.val + 1 ≤ j'.val ∨ j'.val + 1 ≤ j.val
  omega

/-- Every element of the block lies in a row: the one its first coordinate names. -/
theorem rowRect_cover : (Finset.univ : Finset (Fin 128)).biUnion (fun j => (rowRect j).set) = Finset.univ := by
  ext i
  simp only [Finset.mem_biUnion, Finset.mem_univ, true_and, iff_true]
  refine ⟨⟨(i 0).val, (i 0).isLt⟩, Rect.mem_set_unit.mpr fun a => ?_⟩
  have h1 : (i 1).val < 768 := (i 1).isLt
  fin_cases a
  · show (i 0).val ≤ (i 0).val ∧ (i 0).val < (i 0).val + 1; omega
  · show 0 ≤ (i 1).val ∧ (i 1).val < 0 + 768; omega

/-- The block's elements at contents `f` are its 128 rows' elements, each row held on its own at `f`. -/
theorem rows_pointsTo (c : Dev nD) (M3 : Memref sig .tc .vmem S128x768 .f32) (f : Buf (Elt F) (M3.view.loc (c : Thread nD τ))) :
    (M3.view.loc (c : Thread nD τ) ↦[M3.view.set]{fullShare} f : sProp 𝕄)
      = bigSep Finset.univ fun j : Fin 128 => heldOwn (F := F) c (rowM M3 j) f :=
  pointsTo_squeezed_rects (c : Thread nD τ) M3 fullShare rowRect (fun _ _ => rfl) (fun _ => squeezes_S1x768_S768)
    rowRect_disjoint rowRect_cover f

/-- Element `(j, k)` of the block is element `k` of row `j`. -/
theorem rowM_emb (M3 : Memref sig .tc .vmem S128x768 .f32) (y : S128x768.Idx) :
    M3.view.emb y = (rowM M3 (⟨(y 0).val, (y 0).isLt⟩ : Fin 128)).view.emb (ValueIdx.ix1 (⟨(y 1).val, (y 1).isLt⟩ : Fin 768)) := by
  rw [show (rowM M3 (⟨(y 0).val, (y 0).isLt⟩ : Fin 128)).view.emb (ValueIdx.ix1 (⟨(y 1).val, (y 1).isLt⟩ : Fin 768)) = _ from
    unitRow_emb M3 (y 0).val (rowInb (⟨(y 0).val, (y 0).isLt⟩ : Fin 128)) (ValueIdx.ix1 (⟨(y 1).val, (y 1).isLt⟩ : Fin 768))]
  congr 1
  funext a
  fin_cases a <;> rfl

/-- The block owned at any contents is its 128 rows, each held on its own at one buffer contents. -/
theorem rows_split (c : Dev nD) (M3 : Memref sig .tc .vmem S128x768 .f32) (h3 : M3.IsWhole) (X3 : S128x768.Idx → Elt F .f32) :
    (owns (c : Thread nD τ) M3 fullShare X3 : sProp 𝕄)
      ⊢ iprop(∃ f3 : Buf (Elt F) (M3.view.loc (c : Thread nD τ)), bigSep Finset.univ fun j : Fin 128 => heldOwn (F := F) c (rowM M3 j) f3) := by
  unfold owns
  iintro ⟨%f, -, H⟩
  iexists f
  rw [← rows_pointsTo]
  iexact H

/-- The 128 rows, row `j` overwritten whole by the payload `P j`, are the block owned at those rows. -/
theorem rows_join (c : Dev nD) (M3 : Memref sig .tc .vmem S128x768 .f32) (h3 : M3.IsWhole)
    (f3 : Buf (Elt F) (M3.view.loc (c : Thread nD τ))) (P : Fin 128 → S768.Idx → Elt F .f32) :
    (bigSep Finset.univ fun j : Fin 128 =>
        heldOwn (F := F) c (rowM M3 j) ((rowM M3 j).view.writes (Elt F) f3 [⟨Rect.whole S768, P j⟩]) : sProp 𝕄)
      ⊢ owns (c : Thread nD τ) M3 fullShare
          (fun y : S128x768.Idx => P (⟨(y 0).val, (y 0).isLt⟩ : Fin 128) (ValueIdx.ix1 (⟨(y 1).val, (y 1).isLt⟩ : Fin 768))) := by
  refine (pointsTo_squeezed_rects_join (c : Thread nD τ) M3 fullShare rowRect (fun _ _ => rfl) (fun _ => squeezes_S1x768_S768)
    rowRect_disjoint rowRect_cover (fun j : Fin 128 => (rowM M3 j).view.writes (Elt F) f3 [⟨Rect.whole S768, P j⟩]) f3).trans ?_
  unfold owns
  iintro ⟨%g, %hg, H⟩
  iexists g
  isplitr
  · ipureintro
    funext y
    exact read_of_squeezed_whole_write M3 (rowRect (⟨(y 0).val, (y 0).isLt⟩ : Fin 128)) (fun _ => rfl) squeezes_S1x768_S768 g f3
      (P (⟨(y 0).val, (y 0).isLt⟩ : Fin 128)) (ValueIdx.ix1 (⟨(y 1).val, (y 1).isLt⟩ : Fin 768)) y (rowM_emb M3 y)
      (hg (⟨(y 0).val, (y 0).isLt⟩ : Fin 128) (ValueIdx.ix1 (⟨(y 1).val, (y 1).isLt⟩ : Fin 768)))
  · iexact H

end Cert.Kernel.Body

end
-- ==== Proof.KernelRunK.lean ====
/-
  One grid step of the kernel body, from the block owned whole.

  The pipeline hands the body the output block's staging buffer owned whole, the embedding table held whole and the 128
  semaphores as one family. The run of the body (`kernelRunRows`) wants them piece by piece: the table as one read
  share per semaphore cell — 128 transfers read it at once, two of them possibly the same row —, the block as its 128
  rows, the semaphores one by one. This module takes them apart, runs the body, and puts them back: the shares rejoin
  to the table whole, and the 128 rows, row `j` overwritten by the table row token `128 · i + j` names, are the block
  owned at `gathered`.
-/
import proofs.«413693_j16020228014144_1_alg».proof.Proof.BodyRunK
import proofs.«413693_j16020228014144_1_alg».proof.Proof.RowsJoinK

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- A family over the 128 rows, conjoined, is its members listed in order. -/
theorem bigSep_rows (Φ : Fin 128 → sProp 𝕄) : bigSep Finset.univ Φ = bigSepL (List.finRange 128) Φ :=
  bigSep_univ_eq_bigSepL (List.finRange 128) (List.toFinset_finRange 128).symm (List.nodup_finRange 128) Φ

/-- Halving a share `a` times and then `k` times more is halving it `k + a` times. -/
theorem shareDrop_add (q : PosShare TreeShare) (a k : ℕ) :
    Transfers.shareDrop (Transfers.shareDrop q a) k = Transfers.shareDrop q (k + a) := by
  induction k with
  | zero => rw [Nat.zero_add]; rfl
  | succ k ih =>
    rw [Nat.succ_add]
    show (Transfers.shareDrop (Transfers.shareDrop q a) k).left = (Transfers.shareDrop q (k + a)).left
    rw [ih]

/-- What is left of the table's full share beside the 128 cells' read shares: the two shares split off first (cells 0
    and 1 are the pipeline's own, which read nothing of the table) and the remainder after all 130. -/
def toksRest (c : Dev nD) (fW : Bf (F := F) c (Memref.whole main_arg1)) : sProp 𝕄 :=
  iprop(((Memref.whole main_arg1).view.loc (c : Thread nD τ) ↦{Transfers.shareDrop (Transfers.shareDrop fullShare 2) 128} fW)
    ∗ bigSep Finset.univ (fun k : Fin 2 => (Memref.whole main_arg1).view.loc (c : Thread nD τ) ↦{Transfers.shareTok fullShare 2 k} fW))

/-- The 128 read shares as the second split names them are the shares by cell number. -/
theorem toks_family (c : Dev nD) (fW : Bf (F := F) c (Memref.whole main_arg1)) :
    (bigSep Finset.univ fun k : Fin 128 =>
        ((Memref.whole main_arg1).view.loc (c : Thread nD τ) ↦{Transfers.shareTok (Transfers.shareDrop fullShare 2) 128 k} fW : sProp 𝕄))
      = toksChain c fW := by
  rw [toksChain_eq, ← bigSep_rows]
  refine bigSep_congr fun k _ => ?_
  show (_ ↦{Transfers.shareTokN (Transfers.shareDrop fullShare 2) k.val} fW : sProp 𝕄) = _
  unfold Transfers.shareTokN
  rw [shareDrop_add]
  rfl

/-- The table held whole is the 128 cells' read shares and the rest; -/
theorem toks_split (c : Dev nD) (fW : Bf (F := F) c (Memref.whole main_arg1)) :
    pt c (Memref.whole main_arg1) fW ⊢ iprop(toksRest c fW ∗ toksChain c fW) := by
  unfold toksRest
  rw [← toks_family]
  iintro H
  ihave H := (Transfers.pointsTo_toks_split (Ix := Unit) (Name := ℕ) (U := UU nD τ) (Lvl := ℕ) fullShare 2) $$ H
  icases H with ⟨Hd, H01⟩
  ihave Hd := (Transfers.pointsTo_toks_split (Ix := Unit) (Name := ℕ) (U := UU nD τ) (Lvl := ℕ) (Transfers.shareDrop fullShare 2) 128) $$ Hd
  icases Hd with ⟨Hd, Ht⟩
  isplitl [Hd H01]
  · isplitl [Hd]; · iexact Hd
    iexact H01
  iexact Ht

/-- and they join back to it. -/
theorem toks_join (c : Dev nD) (fW : Bf (F := F) c (Memref.whole main_arg1)) :
    iprop(toksRest c fW ∗ toksChain c fW) ⊢ pt c (Memref.whole main_arg1) fW := by
  unfold toksRest
  rw [← toks_family]
  iintro ⟨⟨Hd, H01⟩, Ht⟩
  iapply (Transfers.pointsTo_toks_join (Ix := Unit) (Name := ℕ) (U := UU nD τ) (Lvl := ℕ) fullShare 2)
  isplitl [Hd Ht]
  · iapply (Transfers.pointsTo_toks_join (Ix := Unit) (Name := ℕ) (U := UU nD τ) (Lvl := ℕ) (Transfers.shareDrop fullShare 2) 128)
    isplitl [Hd]; · iexact Hd
    iexact Ht
  iexact H01

/-- The kernel's 128 semaphores at zero, as a family and listed, are the same. -/
theorem sems_eq (c : Dev nD) :
    (Pipeline.ownSems0 (Ix := Unit) (Name := ℕ) (U := UU nD τ) (Lvl := ℕ) (Val := Elt F) (τ := τ) osem c : sProp 𝕄) = semsChain (F := F) c := by
  rw [semsChain_eq, ← bigSep_rows]; rfl

/-- The block's rows, held each on its own, as a family and listed, are the same; -/
theorem rows_in (c : Dev nD) (M3 : Memref sig .tc .vmem S128x768 .f32) (f3 : Buf (Elt F) (M3.view.loc (c : Thread nD τ))) :
    (bigSep Finset.univ fun j : Fin 128 => heldOwn (F := F) c (rowM M3 j) f3 : sProp 𝕄) ⊢ rowsInChain c M3 f3 := by
  rw [rowsInChain_eq, ← bigSep_rows]

/-- and the rows after the step, row `j` overwritten by row `j` of the step's result, are the block owned at `gathered`. -/
theorem rows_out (c : Dev nD) (i : grid0.Coords) (M3 : Memref sig .tc .vmem S128x768 .f32) (h3 : M3.IsWhole)
    (ftok : Bf (F := F) c (Memref.whole main_v0)) (fW : Bf (F := F) c (Memref.whole main_arg1))
    (f3 : Buf (Elt F) (M3.view.loc (c : Thread nD τ))) :
    rowsOutChain c i M3 ftok fW f3 ⊢ owns (c : Thread nD τ) M3 fullShare (gathered i ftok fW) := by
  rw [rowsOutChain_eq, ← bigSep_rows, gathered_eq_rows]
  exact (bigSep_mono (fun j _ => rowOut_elim (F := F) c (rowM M3 j) f3 (rowVal i ftok fW j))).trans
    (rows_join (F := F) c M3 h3 f3 (rowVal i ftok fW))

/-- ONE GRID STEP. From the token table and the embedding table held whole, the output window's staging buffer owned
    at any contents, the 128 semaphores at zero and the core owing nothing — every token word naming a table row —, the
    kernel body runs to its return: it starts the 128 row copies, each on its own semaphore, waits for each, and hands
    back the two tables as they were, the staging buffer owned at the 128 gathered rows, the semaphores at zero. -/
theorem kernelRun (c : Dev nD) (i : grid0.Coords) (M3 : Memref sig .tc .vmem S128x768 .f32) (h3 : M3.IsWhole)
    (ftok : Bf (F := F) c (Memref.whole main_v0)) (fW : Bf (F := F) c (Memref.whole main_arg1))
    (X3 : S128x768.Idx → Elt F .f32)
    (htok : ∀ y : S32768.Idx, (ftok y).toNat < 50257)
    (W : Waits sig Unit) (Q : PUnit → sProp 𝕄) :
    iprop(pt c (Memref.whole main_v0) ftok ∗ pt c (Memref.whole main_arg1) fW ∗ owns (c : Thread nD τ) M3 fullShare X3
        ∗ Pipeline.ownSems0 (Ix := Unit) (Name := ℕ) (U := UU nD τ) (Lvl := ℕ) (Val := Elt F) (τ := τ) osem c
        ∗ owes (c : Thread nD τ) 0 W
        ∗ (iprop(pt c (Memref.whole main_v0) ftok ∗ pt c (Memref.whole main_arg1) fW
              ∗ owns (c : Thread nD τ) M3 fullShare (gathered i ftok fW)
              ∗ Pipeline.ownSems0 (Ix := Unit) (Name := ℕ) (U := UU nD τ) (Lvl := ℕ) (Val := Elt F) (τ := τ) osem c
              ∗ ∃ W, owes (c : Thread nD τ) 0 W) -∗ Q ⟨⟩))
    ⊢ wp frame (wpE (defs₀ (F := F)) Variants.none c none) Set.univ
        (cc0__gather_kernel i (Memref.whole main_v0) (Memref.isWhole_whole _) (Memref.whole main_arg1) (Memref.isWhole_whole _) M3 h3 cc0_scratch0) Q := by
  rw [sems_eq]
  iintro ⟨Ht, HW, H3, Hs, HO, Hk⟩
  ihave Hr := (rows_split (F := F) c M3 h3 X3) $$ H3
  icases Hr with ⟨%f3, Hr⟩
  ihave HW := (toks_split c fW) $$ HW
  icases HW with ⟨HWr, HWt⟩
  iapply (kernelRunRows c i M3 h3 ftok fW f3 htok W Q)
  isplitl [Ht]; · iexact Ht
  isplitl [HWt]; · iexact HWt
  isplitl [Hr]
  · iapply (rows_in c M3 f3); iexact Hr
  isplitl [Hs]; · iexact Hs
  isplitl [HO]; · iexact HO
  iintro ⟨Ht, HWt, Hr, Hs, HO⟩
  iapply Hk
  isplitl [Ht]; · iexact Ht
  isplitl [HWr HWt]
  · iapply (toks_join c fW)
    isplitl [HWr] <;> iassumption
  isplitl [Hr]
  · iapply (rows_out c i M3 h3 ftok fW f3); iexact Hr
  isplitl [Hs]; · iexact Hs
  iexact HO

end Cert.Kernel.Body

end
-- ==== Proof.LaunchK.lean ====
/-
  The launch of the embedding lookup's kernel program.

  @main flattens the token array into the table the kernel region reads its row numbers from, runs one kernel region
  over a grid of 256 steps — step t gathers, by 128 row copies of its own, the table rows that tokens 128 t … 128 t + 127
  name into the output window's staging buffer, which the pipeline writes back as block t of the 32768 × 768 result —,
  and reshapes that result to 8 × 4096 × 768. This module runs @main as three segments: the first reshape, the region,
  the last reshape. The region's invariant holds the embedding table and the token table whole (the body's copies read
  both) beside the kernel's 128 semaphores at zero; the token array and the final result's buffer bypass the region.
  Every token word names a table row because the flattened table is the token array read in row-major order, and
  every word of that array is below 50257 by hypothesis. The run ends with the final result's buffer at the
  reshape of what the pipeline's write-backs left in the region's result, and both arguments as launched.
-/
import proofs.«413693_j16020228014144_1_alg».proof.Proof.DataK
import proofs.«413693_j16020228014144_1_alg».proof.Proof.KernelRunK
import Idealize.ShloMosaic.Lib.Pipeline.Regions
import Idealize.ShloMosaic.Lib.Pipeline.FrameSuffix

noncomputable section

namespace Cert.Kernel.Launch

open Cert.Kernel Cert.Kernel.Gen Cert.Kernel.Body Cert.Kernel.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The kernel's body has no loop of its own: no variant is needed. -/
abbrev 𝒱₀ : Variants := Variants.none
/-- No core owes another anything (one device): no level is assigned. -/
abbrev L : GSem nD τ sig → Finset Unit := fun _ => ∅
abbrev lv : GSem nD τ sig → Unit → ℕ := fun _ _ => 0

/-- What rides beside the buffers through every segment: the core owing nothing. -/
abbrev R (c : Dev nD) : sProp 𝕄 := iprop(∃ W, owes (c : Thread nD τ) (0 : CellTallies nD τ sig Unit) W)

/-! ## What the buffers hold when the region is entered -/

/-- The prefetched table is the token array read in row-major order. -/
theorem V_v0 (c : Dev nD) :
    V m ρ c main_v0 = fun i => shapeCast S32768 (m ((c.tc : Thread nD τ).loc main_arg0)) shapeCasts_S8x4096_S32768 i := by
  show StableHlo.after hostOps0 (V₀ m ρ c) (Proc.devRef .tc main_v0) = _
  rw [StableHlo.after_cons, StableHlo.after_nil, StableHlo.reshape_result]
  rfl

/-- The first reshape writes the table only: every other buffer reaches the region as launched. -/
theorem V_of_ne (c : Dev nD) (b : Ref sig .tc) (hb : b ≠ main_v0) : V m ρ c b = m ((c.tc : Thread nD τ).loc b) :=
  StableHlo.after_of_forall_not_mem (b := Proc.devRef .tc b) hostOps0 (V₀ m ρ c) fun op hop => by
    simp only [List.mem_cons, List.mem_nil_iff, or_false] at hop
    subst hop
    simp only [StableHlo.reshape_writes, Finset.mem_singleton]
    exact StableHlo.devRef_ne_of_ne hb

/-- Every word of the table names a row: it is a word of the token array. -/
theorem tok_lt (htok : ∀ (c : Dev nD) (y : S8x4096.Idx), (m ((c.tc : Thread nD τ).loc main_arg0) y).toNat < 50257) (c : Dev nD)
    (y : S32768.Idx) : (V m ρ c main_v0 y).toNat < 50257 := by
  rw [V_v0]; exact htok c _

/-! ## A core's unscoped buffers, sorted -/

include m ρ in
/-- A core's unscoped buffers at contents `W`: the region's result array, the token table, and the three buffers that
    bypass the region (the token array, the embedding table, the final result). -/
theorem unscopedBufs_eq (c : Dev nD) (W : (b : Ref sig .tc) → Buf (Elt F) ((c.tc : Thread nD τ).loc b)) :
    (unscopedBufs c W : sProp 𝕄)
      = iprop((((c.tc : Thread nD τ).loc main_v1) ↦{fullShare} W main_v1)
          ∗ (((c.tc : Thread nD τ).loc main_v0) ↦{fullShare} W main_v0)
          ∗ (((c.tc : Thread nD τ).loc main_arg0) ↦{fullShare} W main_arg0)
          ∗ (((c.tc : Thread nD τ).loc main_arg1) ↦{fullShare} W main_arg1)
          ∗ (((c.tc : Thread nD τ).loc main_v2) ↦{fullShare} W main_v2)) := by
  rw [Pipeline.unscopedBufs_split (Pipeline.pin (pcfgs (F := F)) (adm m ρ)) 0 (launch0 (F := F)).win.arr_unscoped (launch0 (F := F)).win.arr_inj c W,
    Pipeline.unscopedRest_split (launch0 (F := F)).pre c W, unscopedRestP0_eq c W, bigSep_W0]
  unfold Pipeline.prefHeld; rw [bigSep_W0]
  rfl

/-- The pipeline's one array is the region's result. -/
theorem arrays_eq' (c : Dev nD) (A : (w : Fin (Pipeline.pin (pcfgs (F := F)) (adm m ρ) 0).W) →
      Buf (Elt F) (((Pipeline.pin (pcfgs (F := F)) (adm m ρ) 0).spec w).arr.view.loc (c.tc : Thread nD τ))) :
    ((dats m ρ 0 c).arrays A : sProp 𝕄) = (((c.tc : Thread nD τ).loc main_v1) ↦{fullShare} A 0) := by
  rw [Pipeline.arrays_eq (Pipeline.pin (pcfgs (F := F)) (adm m ρ)) (dats m ρ) 0 c (launch0 (F := F)).arr_whole ((dats m ρ 0 c).share_full fun _ => rfl) A, bigSep_W0]

/-- The token table held at the flattened tokens, as one points-to. -/
theorem prefHeld_tbl (c : Dev nD) :
    (Pipeline.prefHeld (Ix := Unit) (Name := ℕ) (U := UU nD τ) (Lvl := ℕ) pre0 c (fun _ => fullShare) (tbl m ρ) : sProp 𝕄)
      = (((c.tc : Thread nD τ).loc main_v0) ↦{fullShare} V m ρ c main_v0) := by
  obtain rfl : c = 0 := Subsingleton.elim _ _
  unfold Pipeline.prefHeld; rw [bigSep_W0]
  rfl

/-! ## The body obligation -/

/-- ONE GRID STEP, as the pipeline asks it: from the invariant — the embedding table, the token table, the 128
    semaphores at zero —, the core owing nothing and the output window's current staging buffer at whatever it
    held, the body runs to the invariant again, nothing owed, and the staging buffer at the 128 rows the step's
    tokens name. The invariant and the staging buffer are taken apart, the body's triple applied (every table word
    names a row: `tok_lt`), and its post put back together. -/
theorem body_obligation (htok : ∀ (c : Dev nD) (y : S8x4096.Idx), (m ((c.tc : Thread nD τ).loc main_arg0) y).toNat < 50257) (c : Dev nD) :
    BodyObligation (dats m ρ 0 c) (defs₀ (F := F)) 𝒱₀ () Set.univ := fun t => by
  obtain rfl : c = 0 := Subsingleton.elim _ _
  rw [bigSep_W0, bigSep_W0]
  dsimp only []
  rw [show (dats m ρ 0 0).Φ t.castSucc = Φc m ρ 0 from rfl, show (dats m ρ 0 0).Φ t.succ = Φc m ρ 0 from rfl]
  unfold Φc Dat.owesAt Pipeline.owesWithin Pipeline.prefHeld; rw [scopedRest0_eq, bigSep_W0]
  rw [show (dats m ρ 0 0).owed t.castSucc = 0 from rfl, show (dats m ρ 0 0).owed t.succ = 0 from rfl]
  iintro ⟨⟨HW, Htok, Hsems, -⟩, ⟨%W, %hW, HO⟩, ⟨%d0, H0⟩⟩
  iapply (kernelRun (0 : Dev nD) (grid0.coords t) (stage0_0 ((Pipeline.pin (pcfgs (F := F)) (adm m ρ) 0).slots t 0)) (hstage0_0 _)
    (V m ρ 0 main_v0) (V m ρ 0 main_arg1) ((dats m ρ 0 0).before 0 t d0) (tok_lt m ρ htok 0) W)
  isplitl [Htok]; · iexact Htok
  isplitl [HW]; · iexact HW
  isplitl [H0]; · iexact H0
  isplitl [Hsems]; · iexact Hsems
  isplitl [HO]; · iexact HO
  iintro ⟨Htok, HW, H0, Hsems, ⟨%W', HO⟩⟩
  isplitl [HW Htok Hsems]
  · isplitl [HW]; · iexact HW
    isplitl [Htok]; · iexact Htok
    isplitl [Hsems]; · iexact Hsems
    iempintro
  isplitl [HO]
  · iexists W'; isplitr; · ipureintro; exact fun _ _ => Or.inl trivial
    iexact HO
  dsimp only [dats]; iexact H0

/-- The kernel's 128 semaphores are scoped, pairwise distinct (cell `2 + k` determines `k`), and none is a staging
    buffer's (those are cells 0 and 1). -/
theorem ownSemFacts : Pipeline.OwnSemFacts spec0 osem where
  isScoped := by decide
  inj := fun _ _ h => Fin.natAdd_injective _ _ (SemLoc.dma.inj h)
  disj := by decide

/-- The launch element: the pipeline library's at the two staging cells and the pipeline's transfers; no counter yet. -/
def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

/-! ## @main as three segments -/

/-- THE FIRST HOST SEGMENT: the reshape of the token array into the table, over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- What the region leaves in the unscoped buffers: its result array at what the 256 write-backs made of it, every
    other buffer as the region found it. -/
abbrev Vx (c : Dev nD) : Valuation τ sig (Elt F) :=
  Pipeline.withArrays spec0 c (StableHlo.after hostOps0 (V₀ m ρ c)) fun w => (dats m ρ 0 c).arrAt w (Pipeline.pin (pcfgs (F := F)) (adm m ρ) 0).N

/-- It holds the region's result at what the write-backs left, -/
theorem Vx_v1 (c : Dev nD) :
    Vx m ρ c (Proc.devRef .tc main_v1) = (dats m ρ 0 c).arrAt 0 (Pipeline.pin (pcfgs (F := F)) (adm m ρ) 0).N :=
  Pipeline.withArrays_arr spec0 (launch0 (F := F)).win.arr_inj c _ _ 0

/-- and every other buffer as the region found it. -/
theorem Vx_of_ne (c : Dev nD) (b : Ref sig .tc) (hb : b ≠ main_v1) : Vx m ρ c (Proc.devRef .tc b) = V m ρ c b :=
  Pipeline.withArrays_of_ne spec0 c _ _ b fun w => by
    obtain rfl : w = 0 := Subsingleton.elim _ _
    exact fun h => hb h.symm

/-- The last reshape writes the final result: the region's result in row-major order at the final shape; -/
theorem after1_v2 (c : Dev nD) :
    StableHlo.after hostOps1 (Vx m ρ c) (Proc.devRef .tc main_v2)
      = fun i => shapeCast S8x4096x768 ((dats m ρ 0 c).arrAt 0 (Pipeline.pin (pcfgs (F := F)) (adm m ρ) 0).N) shapeCasts_S32768x768_S8x4096x768 i := by
  rw [StableHlo.after_cons, StableHlo.after_nil, StableHlo.reshape_result, Vx_v1]
  rfl

/-- it writes no other buffer. -/
theorem after1_of_ne (c : Dev nD) (b : Ref sig .tc) (hb : b ≠ main_v2) :
    StableHlo.after hostOps1 (Vx m ρ c) (Proc.devRef .tc b) = Vx m ρ c (Proc.devRef .tc b) :=
  StableHlo.after_of_forall_not_mem (b := Proc.devRef .tc b) hostOps1 (Vx m ρ c) fun op hop => by
    simp only [List.mem_cons, List.mem_nil_iff, or_false] at hop
    subst hop
    simp only [StableHlo.reshape_writes, Finset.mem_singleton]
    exact StableHlo.devRef_ne_of_ne hb

/-- THE LAST HOST SEGMENT: the reshape of the region's result into the final result, over the unscoped buffers as
    the region left them. -/
def seg1 : Pipeline.HostSeg (Name := ℕ) (U := UU nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m ρ) R

-- the library's lemmas over `(pcfgs p).spec` meet the pinned configuration's only when unification may unfold plain
-- definitions in a metavariable's type
set_option backward.isDefEq.respectTransparency.types false in
/-- THE REGION: entered from what the first reshape left. Of the unscoped buffers the result array goes to the
    pipeline, the token table to the pipeline's account of its prefetched tables and from there into the invariant,
    the embedding table with the kernel's 128 semaphores into the invariant (the body's copies read the one and
    complete on the others), and the token array and the final result's buffer bypass the region. At the exit the
    invariant gives the two tables back, and the unscoped buffers are put together again, the result array at what
    the write-backs left. -/
def reg0 (htok : ∀ (c : Dev nD) (y : S8x4096.Idx), (m ((c.tc : Thread nD τ).loc main_arg0) y).toNat < 50257) :
    Pipeline.RegionSeg (pcfgs (F := F)) (adm m ρ) (dats m ρ) () defs₀ 𝒱₀ L lv 0 where
  win := (launch0 (F := F)).win.to₀
  block_pos := (launch0 (F := F)).block_pos
  stage_whole := (launch0 (F := F)).stage_whole
  K := Fin 128
  osem := osem
  ho := ownSemFacts
  hbody c := (body_obligation m ρ htok c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (Vx m ρ c) ∗ R c)
  X c := iprop(pt c (Memref.whole main_arg1) (V m ρ c main_arg1)
    ∗ Pipeline.ownSems0 (Ix := Unit) (Name := ℕ) (U := UU nD τ) (Lvl := ℕ) (Val := Elt F) (τ := τ) osem c)
  Y c := iprop(pt c (Memref.whole main_arg1) (V m ρ c main_arg1)
    ∗ Pipeline.prefHeld (Ix := Unit) (Name := ℕ) (U := UU nD τ) (Lvl := ℕ) pre0 c (fun _ => fullShare) (tbl m ρ))
  Z c := iprop((((c : Thread nD τ).loc main_arg0) ↦{fullShare} V m ρ c main_arg0) ∗ (((c : Thread nD τ).loc main_v2) ↦{fullShare} V m ρ c main_v2))
  hentry c := by
    rw [show StableHlo.held (c : Thread nD τ) (Pipeline.ucRefs τ sig) (StableHlo.after hostOps0 (V₀ m ρ c)) = unscopedBufs c (V m ρ c)
        from (Pipeline.unscopedBufs_held c _).symm,
      unscopedBufs_eq m ρ, arrays_eq', prefHeld_tbl]
    iintro ⟨⟨⟨Hv1, Hv0, H0, H1, H2⟩, HO⟩, Hos, -⟩
    imodintro
    isplitl [Hv1]; · iexact Hv1
    isplitl [Hv0]; · iexact Hv0
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    iexact H2
  hin c := by
    rw [show (dats m ρ 0 c).Φ 0 = Φc m ρ c from rfl]; unfold Φc
    iintro ⟨⟨H1, Hos⟩, Hpf, Hr⟩
    isplitl [H1]; · iexact H1
    isplitl [Hpf]; · iexact Hpf
    isplitl [Hos] <;> iassumption
  hout c := by
    rw [show (dats m ρ 0 c).Φ (Fin.last (Pipeline.pin (pcfgs (F := F)) (adm m ρ) 0).N) = Φc m ρ c from rfl]; unfold Φc
    iintro ⟨H1, Hpf, Hos, Hr⟩
    isplitl [H1 Hpf]
    · isplitl [H1] <;> iassumption
    isplitl [Hos] <;> iassumption
  hexit c := by
    rw [show StableHlo.held (c : Thread nD τ) (Pipeline.ucRefs τ sig) (Vx m ρ c) = unscopedBufs c (fun b => Vx m ρ c b)
        from (Pipeline.unscopedBufs_held c _).symm,
      unscopedBufs_eq m ρ, arrays_eq', prefHeld_tbl, Vx_v1, Vx_of_ne m ρ c main_v0 (by decide), Vx_of_ne m ρ c main_arg0 (by decide),
      Vx_of_ne m ρ c main_arg1 (by decide), Vx_of_ne m ρ c main_v2 (by decide)]
    iintro ⟨Hv1, HO, ⟨H1, Hv0⟩, H0, H2⟩
    imodintro
    isplitr [HO]
    · isplitl [Hv1]; · iexact Hv1
      isplitl [Hv0]; · iexact Hv0
      isplitl [H0]; · iexact H0
      isplitl [H1]; · iexact H1
      iexact H2
    · unfold Pipeline.Dat.owesAt Pipeline.owesWithin
      icases HO with ⟨%W, -, HO⟩; iexists W; iexact HO

/-- @main as the list of the three. -/
abbrev segs (htok : ∀ (c : Dev nD) (y : S8x4096.Idx), (m ((c.tc : Thread nD τ).loc main_arg0) y).toNat < 50257) :
    List (Pipeline.Seg (pcfgs (F := F)) (adm m ρ) (dats m ρ) () defs₀ 𝒱₀ L lv) :=
  [.host (seg0 m ρ), .region (reg0 m ρ htok), .host (seg1 m ρ)]

/-- What the last segment leaves: the unscoped buffers after the last reshape. -/
abbrev Tₙ (c : Dev nD) : sProp 𝕄 :=
  StableHlo.held (c : Thread nD τ) (Pipeline.ucRefs τ sig) (StableHlo.after hostOps1 (Vx m ρ c))

-- the launch theorem's implicit arguments are found by unifying its conclusion with this one, which takes unfolding
-- plain definitions in a metavariable's type
set_option backward.isDefEq.respectTransparency.types false in
/-- THE RUN. At the compiled mesh, from any memory with zero counters whose token words are all below 50257: every
    weakly fair execution of @main on the TensorCores terminates, nothing faulting, and every final state has the
    final result at the reshape of what the pipeline's 256 write-backs made of the region's result array, and both
    argument arrays as launched. The three reads at the end are of the unscoped buffers after the last reshape: the
    final result is that reshape's, the arguments are written by neither reshape nor by the region. -/
theorem run_main (htok : ∀ (c : Dev nD) (y : S8x4096.Idx), (m ((c.tc : Thread nD τ).loc main_arg0) y).toNat < 50257) :
    θ_run defs (onTc (τ := τ) (main (F := F))) (s₀ m ρ) (fun r => ∀ c : Dev nD,
      r.2.mem ((c.tc : Thread nD τ).loc main_v2)
          = shapeCast S8x4096x768 ((dats m ρ 0 c).arrAt 0 (Pipeline.pin (pcfgs (F := F)) (adm m ρ) 0).N) shapeCasts_S32768x768_S8x4096x768
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m ρ) (dats m ρ) () (cellOf_inj (adm m ρ)) EP defs₀ 𝒱₀ L lv m ρ main (segs m ρ htok)
    (fun c Q => by rw [main_segs (adm m ρ) (dats m ρ) () 𝒱₀ L lv (seg0 m ρ) (seg1 m ρ) (reg0 m ρ htok) rfl rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => Entails.of_eq rfl, fun _ => Entails.of_eq rfl⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => s.mem ((c.tc : Thread nD τ).loc main_v2)
          = shapeCast S8x4096x768 ((dats m ρ 0 c).arrAt 0 (Pipeline.pin (pcfgs (F := F)) (adm m ρ) 0).N) shapeCasts_S32768x768_S8x4096x768
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ]
      rw [show StableHlo.held (c : Thread nD τ) (Pipeline.ucRefs τ sig) (StableHlo.after hostOps1 (Vx m ρ c))
          = unscopedBufs c (fun b => StableHlo.after hostOps1 (Vx m ρ c) b) from (Pipeline.unscopedBufs_held c _).symm,
        unscopedBufs_eq m ρ, after1_v2, after1_of_ne m ρ c main_arg0 (by decide), after1_of_ne m ρ c main_arg1 (by decide),
        Vx_of_ne m ρ c main_arg0 (by decide), Vx_of_ne m ρ c main_arg1 (by decide), V_of_ne m ρ c main_arg0 (by decide), V_of_ne m ρ c main_arg1 (by decide)]
      iintro ⟨⟨-, -, H0, H1, H2⟩, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ h => h)

end Cert.Kernel.Launch

end
-- ==== Proof.BodyI.lean ====
/-
  The kernel body's vocabulary: the resource algebra its run is stated in, the kernel's own semaphores, and the value
  one grid step leaves in the output block.
-/
import proofs.«413693_j16020228014144_1_alg».proof.Proof.Gen.KernelIdeal
import proofs.«413693_j16020228014144_1_alg».proof.Proof.Gen.KernelIdeal.Skeleton
import proofs.«413693_j16020228014144_1_alg».proof.Proof.Spec
import Idealize.ShloMosaic.Lib.Tactic
import Idealize.ShloMosaic.Lib.Pipeline.Kit

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-- The resource algebra: the rounds library's for the pipeline's staging cells, beside the counters the transfers'
    invariants take their tokens from. -/
abbrev UU (nD : Nat) (τ : Topo) : Type := UR sig nD τ × Counters

local notation "𝕄" => MT nD τ sig Unit (Elt F) ℕ (UU nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own semaphores: the 128 scratch DMA semaphores, cells 2 to 129 of the pool (cells 0 and 1 are the
    output window's two staging buffers'). Copy `j` of a grid step completes on cell `2 + j`. -/
abbrev osem : Fin 128 → SemLoc sig := fun k => .dma (Fin.natAdd 2 k)

/-- What a grid step leaves in the output window's staging buffer: row `j` of the block is the table row that token
    `128 · i + j` of the flattened token array names. -/
def gathered (i : grid0.Coords) (ftok : S32768.Idx → BitVec 32) (fW : S50257x768.Idx → Elt F .f32) :
    S128x768.Idx → Elt F .f32 :=
  fun y => fW (ValueIdx.ix2 (Cert.Spec.rowOf (ftok (ValueIdx.ix1 (⟨128 * (i 0).val + (y 0).val, by
    have h0 : (i 0).val < 256 := (i 0).isLt
    have h1 : (y 0).val < 128 := (y 0).isLt
    omega⟩ : Fin 32768)))) (⟨(y 1).val, (y 1).isLt⟩ : Fin 768))

end Cert.KernelIdeal.Body

end
-- ==== Proof.DataI.lean ====
/-
  The pipeline's proof data for the one kernel region.

  @main is a reshape of the token array to 32768 words (the prefetched table), the kernel region over a grid of 256
  steps with one output window of 128 × 768 blocks, and a reshape of the 32768 × 768 result to 8 × 4096 × 768.
  `V` is what the buffers hold when the region is entered (the first reshape has run). The prefetched table is
  pinned at the flattened tokens (`adm`). After grid step `t` the output window's staging buffer holds the 128 table
  rows that tokens `128 t … 128 t + 127` name (`Body.gathered`); between steps the kernel's invariant `Φc` holds the
  embedding table whole, the token table, the 128 semaphores at zero and the scoped buffers no window stages.
-/
import proofs.«413693_j16020228014144_1_alg».proof.Proof.BodyI
import proofs.«413693_j16020228014144_1_alg».proof.Proof.Gen.KernelIdeal.Launch
import Idealize.ShloMosaic.Lib.Pipeline.Regions

noncomputable section

namespace Cert.KernelIdeal.Data

open Cert.KernelIdeal Cert.KernelIdeal.Gen Cert.KernelIdeal.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the token array has been flattened into the table. -/
abbrev V (c : Dev nD) (b : Ref sig .tc) : Buf (Elt F) ((c : Thread nD τ).loc b) := StableHlo.after hostOps0 (V₀ m ρ c) b

/-- The prefetched table's contents on core 0 … the program is compiled for one device; the table is the same
    function of the memory on every core. -/
abbrev tbl : pre0.Contents (Elt F) := fun k => match k with | ⟨0, _⟩ => V m ρ 0 main_v0

/-- The table's admissible contents: the index maps do not read it, so any contents are admissible. -/
abbrev adm : (p : Fin 1) → (pcfgs (F := F) p).Adm := fun _ => ⟨tbl m ρ, trivial⟩

/-- The invariant between grid steps: the embedding table whole at its launch contents, the token table at the
    flattened tokens, the kernel's 128 semaphores at zero, the scoped buffers no window stages. -/
def Φc (c : Dev nD) : sProp 𝕄 :=
  iprop(pt c (Memref.whole main_arg1) (V m ρ c main_arg1)
    ∗ Pipeline.prefHeld (Ix := Unit) (Name := ℕ) (U := UU nD τ) (Lvl := ℕ) pre0 c (fun _ => fullShare) (tbl m ρ)
    ∗ Pipeline.ownSems0 (Ix := Unit) (Name := ℕ) (U := UU nD τ) (Lvl := ℕ) (Val := Elt F) (τ := τ) osem c
    ∗ Pipeline.scopedRest (Ix := Unit) (Name := ℕ) (U := UU nD τ) (Lvl := ℕ) (Val := Elt F) spec0 c)

/-- The proof data on core `c`: the result array at its entry contents; after step `t` the staging buffer at the
    128 gathered rows; the invariant; nothing owed; the full share. -/
def dats (_ : Fin 1) (c : Dev nD) : Dat τ (Elt F) Unit ℕ (UU nD τ) ℕ (Pipeline.pin (pcfgs (F := F)) (adm m ρ) 0) c where
  A w := V m ρ c (Pipeline.arrRef spec0 w)
  after w t := match w with | ⟨0, _⟩ => gathered (grid0.coords t) (V m ρ c main_v0) (V m ρ c main_arg1)
  Φ _ := Φc m ρ c
  q _ := fullShare
  owed _ := 0

end Cert.KernelIdeal.Data

end
-- ==== Proof.RowsI.lean ====
/-
  The output block row by row, and what one row copy moves.

  A grid step fills the 128 × 768 staging block one row at a time: copy `j` moves one row of the embedding table — the
  row a token word names — into row `j` of the block. This module states the block as its 128 rows (each row's elements
  held on their own: `rows_split`, `rows_join`), what a scalar read of the token table returns (`tok_read`), and what
  the copy's source row reads as (`row_payload`): entry `k` of the payload is entry `(w, k)` of the table, `w` the word.
-/
import proofs.«413693_j16020228014144_1_alg».proof.Proof.BodyI

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- A memref's window held by exactly its own elements, at the buffer contents `f`. -/
abbrev heldOwn (c : Dev nD) {sp : Space} {S : Shape} {e : EltTy} (M : Memref sig .tc sp S e) (f : Buf (Elt F) (M.view.loc (c : Thread nD τ))) : sProp 𝕄 :=
  M.view.loc (c : Thread nD τ) ↦[M.view.set]{fullShare} f

/-- Row `j` of the block lies inside it. -/
theorem rowInb (j : Fin 128) : ∀ a, (![j.val, 0] : Fin 2 → Nat) a + S1x768.size a ≤ S128x768.size a := by
  intro a; fin_cases a
  · show j.val + 1 ≤ 128; omega
  · show 0 + 768 ≤ 768; omega

/-- Row `j` of the staging block as the kernel names a copy's destination: the unit-row slice, its unit axis dropped. -/
abbrev rowM (M3 : Memref sig .tc .vmem S128x768 .f32) (j : Fin 128) : Memref sig .tc .vmem S768 .f32 :=
  (M3.slice (Rect.unit (s := S128x768) ![j.val, 0] S1x768.size (rowInb j)) (fun _ => rfl)).squeeze S768 squeezes_S1x768_S768

/-- The table row a word names as the kernel names a copy's source: the unit-row slice at the word, its unit axis dropped. -/
abbrev srcRow (w : BitVec 32) (hw : ∀ a, (![w.toNat, 0] : Fin 2 → Nat) a + S1x768.size a ≤ S50257x768.size a) :
    Memref sig .tc .hbm S768 .f32 :=
  ((Memref.whole main_arg1).slice (Rect.unit (s := S50257x768) ![w.toNat, 0] S1x768.size hw) (fun _ => rfl)).squeeze S768 squeezes_S1x768_S768

/-- A word below the table's 50257 rows names a row inside the table. -/
theorem chk_of_lt (t : BitVec 32) (h : t.toNat < 50257) :
    ∀ a, (![t.toNat, 0] : Fin 2 → Nat) a + S1x768.size a ≤ S50257x768.size a := by
  intro a; fin_cases a
  · show t.toNat + 1 ≤ 50257; omega
  · show 0 + 768 ≤ 768; omega

/-- The element under index `y` of a unit row of a two-axis memref, its unit axis dropped, is the memref's element at
    `(r, y)`: the squeeze puts the unit coordinate `0` back in front, and the unit rectangle adds its offsets `(r, 0)`. -/
theorem unitRow_emb {κ : Kind} {sp : Space} {e : EltTy} {n : Nat} (M : Memref sig κ sp (⟨2, ![n, 768]⟩ : Shape) e) (r : Nat)
    (h : ∀ a, (![r, 0] : Fin 2 → Nat) a + S1x768.size a ≤ (⟨2, ![n, 768]⟩ : Shape).size a) (y : S768.Idx) :
    ((M.slice (Rect.unit (s := (⟨2, ![n, 768]⟩ : Shape)) ![r, 0] S1x768.size h) (fun _ => rfl)).squeeze S768 squeezes_S1x768_S768).view.emb y
      = M.view.emb (ValueIdx.ix2 (⟨r, by have := h 0; simp only [S1x768] at this; exact this⟩ : Fin n) (⟨(y 0).val, (y 0).isLt⟩ : Fin 768)) := by
  show M.view.emb ((Rect.unit (s := (⟨2, ![n, 768]⟩ : Shape)) ![r, 0] S1x768.size h).emb (Shape.reshapeEquiv squeezes_S1x768_S768.numel_eq y)) = _
  congr 1
  have hy : Shape.reshapeEquiv squeezes_S1x768_S768.numel_eq y = Fin.cons ⟨0, Nat.one_pos⟩ y :=
    Shape.reshapeEquiv_cons_one (n := 1) (d := ![768]) squeezes_S1x768_S768.numel_eq y
  rw [hy]
  funext a
  apply Fin.ext
  fin_cases a
  · show r + 1 * 0 = r; omega
  · show 0 + 1 * (y 0).val = (y 0).val; omega

/-- A scalar read of the token table at a one-word rectangle is the table's word at the rectangle's offset. -/
theorem tok_read (c : Dev nD) (ftok : Bf (F := F) c (Memref.whole main_v0)) (off : Fin 1 → Nat)
    (h : ∀ a, off a + S1.size a ≤ S32768.size a) (hn : 0 < S1.numel) :
    View.readAt (Elt F) (Memref.whole main_v0).view (Rect.unit (s := S32768) off S1.size h).toLoadRect ftok (Shape.Idx.first hn)
      = ftok (ValueIdx.ix1 (⟨off 0, by have := h 0; simp only [S1, S32768] at this; exact this⟩ : Fin 32768)) := by
  show ftok ((Rect.unit (s := S32768) off S1.size h).emb (Shape.Idx.first hn)) = _
  congr 1
  funext a
  apply Fin.ext
  fin_cases a
  show off 0 + 1 * 0 = off 0
  omega

/-- What a row copy moves: entry `k` of the payload is entry `(w, k)` of the table. -/
theorem row_payload (c : Dev nD) (fW : Bf (F := F) c (Memref.whole main_arg1)) (w : BitVec 32)
    (hw : ∀ a, (![w.toNat, 0] : Fin 2 → Nat) a + S1x768.size a ≤ S50257x768.size a) :
    ReadAs.same.apply (View.read (Elt F) (srcRow w hw).view fW)
      = fun y : S768.Idx => fW (ValueIdx.ix2 (⟨w.toNat, by have := hw 0; simp only [S1x768, S50257x768] at this; exact this⟩ : Fin 50257) (⟨(y 0).val, (y 0).isLt⟩ : Fin 768)) := by
  funext y
  show fW ((srcRow w hw).view.emb y) = _
  congr 1
  exact unitRow_emb (Memref.whole main_arg1) w.toNat hw y

end Cert.KernelIdeal.Body

end
-- ==== Proof.RowValI.lean ====
/-
  One row of a grid step's result, and that a row copy's payload is that row.

  `rowVal i ftok fW j` is row `j` of the block grid step `i` produces: the table row that token `128 · i + j` names.
  A copy's payload is read off the table at the word the kernel loaded; the loaded word is the token table's word at
  offset `128 · i + j`, and a word below 50257 names the row of its own value: so the payload is `rowVal`.
-/
import proofs.«413693_j16020228014144_1_alg».proof.Proof.RowsI

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- Row `j` of what grid step `i` leaves in the block: the table row token `128 · i + j` names. -/
def rowVal (i : grid0.Coords) (ftok : S32768.Idx → BitVec 32) (fW : S50257x768.Idx → Elt F .f32) (j : Fin 128) :
    S768.Idx → Elt F .f32 :=
  fun y => fW (ValueIdx.ix2 (Cert.Spec.rowOf (ftok (ValueIdx.ix1 (⟨128 * (i 0).val + j.val, by
    have h0 : (i 0).val < 256 := (i 0).isLt
    have h1 : j.val < 128 := j.isLt
    omega⟩ : Fin 32768)))) (⟨(y 0).val, (y 0).isLt⟩ : Fin 768))

/-- The block of `gathered` is its rows. -/
theorem gathered_eq_rows (i : grid0.Coords) (ftok : S32768.Idx → BitVec 32) (fW : S50257x768.Idx → Elt F .f32) :
    gathered i ftok fW
      = fun y : S128x768.Idx => rowVal i ftok fW (⟨(y 0).val, (y 0).isLt⟩ : Fin 128) (ValueIdx.ix1 (⟨(y 1).val, (y 1).isLt⟩ : Fin 768)) :=
  rfl

/-- The payload of copy `j` of grid step `i` — the table read at the row the loaded word names, the word read off the
    token table at the step's `j`-th offset — is row `j` of the step's result. -/
theorem payload_fact (c : Dev nD) (i : grid0.Coords) (ftok : Bf (F := F) c (Memref.whole main_v0))
    (fW : Bf (F := F) c (Memref.whole main_arg1)) (htok : ∀ y : S32768.Idx, (ftok y).toNat < 50257) (j : Fin 128)
    (off : Fin 1 → Nat) (hoff : off = ![128 * (i 0).val + j.val])
    (h : ∀ a, off a + S1.size a ≤ S32768.size a) (hn : 0 < S1.numel)
    (hw : ∀ a, (![(View.readAt (Elt F) (Memref.whole main_v0).view (Rect.unit (s := S32768) off S1.size h).toLoadRect ftok (Shape.Idx.first hn)).toNat, 0] : Fin 2 → Nat) a + S1x768.size a ≤ S50257x768.size a) :
    ReadAs.same.apply (View.read (Elt F)
        (srcRow (View.readAt (Elt F) (Memref.whole main_v0).view (Rect.unit (s := S32768) off S1.size h).toLoadRect ftok (Shape.Idx.first hn)) hw).view fW)
      = rowVal i ftok fW j := by
  subst hoff
  rw [row_payload]
  funext y
  unfold rowVal
  refine congrArg fW (congrArg (fun r => ValueIdx.ix2 r _) (Fin.ext ?_))
  rw [Cert.Spec.rowOf_val _ (htok _)]
  show (View.readAt (Elt F) (Memref.whole main_v0).view _ ftok _).toNat = _
  rw [tok_read]
  rfl

/-- A row of the block overwritten whole by a payload that equals `v`: the form in which a run that names its payloads
    hands the row back. -/
def rowOut (c : Dev nD) (M : Memref sig .tc .vmem S768 .f32) (f3 : Buf (Elt F) (M.view.loc (c : Thread nD τ)))
    (v : S768.Idx → Elt F .f32) : sProp 𝕄 :=
  iprop(∃ P : S768.Idx → Elt F .f32, ⌜P = v⌝ ∗ heldOwn (F := F) c M (M.view.writes (Elt F) f3 [⟨Rect.whole S768, P⟩]))

/-- It is the row overwritten by `v`. -/
theorem rowOut_elim (c : Dev nD) (M : Memref sig .tc .vmem S768 .f32) (f3 : Buf (Elt F) (M.view.loc (c : Thread nD τ)))
    (v : S768.Idx → Elt F .f32) :
    rowOut (F := F) c M f3 v ⊢ heldOwn (F := F) c M (M.view.writes (Elt F) f3 [⟨Rect.whole S768, v⟩]) := by
  unfold rowOut
  iintro ⟨%P, %hP, H⟩
  subst hP
  iexact H

/-! The four families the run's context is made of, by row `j`. -/

/-- The table's read share for semaphore cell `2 + j`. -/
abbrev tokH (c : Dev nD) (fW : Bf (F := F) c (Memref.whole main_arg1)) (j : Fin 128) : sProp 𝕄 :=
  (Memref.whole main_arg1).view.loc (c : Thread nD τ) ↦{Transfers.shareTokN fullShare (j.val + 2)} fW
/-- Row `j` of the block, held on its own. -/
abbrev rowH (c : Dev nD) (M3 : Memref sig .tc .vmem S128x768 .f32) (f3 : Buf (Elt F) (M3.view.loc (c : Thread nD τ))) (j : Fin 128) : sProp 𝕄 :=
  heldOwn (F := F) c (rowM M3 j) f3
/-- Semaphore `j` of the kernel's 128 at zero. -/
abbrev semH (c : Dev nD) (j : Fin 128) : sProp 𝕄 := semVal ((c : Thread nD τ), osem j) 0
/-- Row `j` after the step. -/
abbrev rowOutH (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) (j : Fin 128) : sProp 𝕄 :=
  rowOut (F := F) c (rowM M3 j) f3 (rowVal i ftok fW j)

end Cert.KernelIdeal.Body

end
-- ==== Proof.BodyRunI.lean ====
/- One grid step of the kernel body, run on the block held row by row.

  The body starts 128 row copies, copy j from the table row its loaded token word names into row j of the block, on
  semaphore 2 + j, and then waits for each. While they are all in flight the table is read by 128 transfers at once: it is
  held as one read share per semaphore cell; the block is held as its 128 rows, each row's elements on their own, so that
  each copy takes exactly its own row. Every token word is below the table's 50257 rows, which is what each copy's source
  row being inside the table asks. After the waits every share and every row is back, row j overwritten whole by copy j's
  payload, which is row j of the step's result (payload_fact). The four chains below are the families tokH, rowH, semH and
  rowOutH written out member by member, as the run meets them.
-/
import proofs.«413693_j16020228014144_1_alg».proof.Proof.RowValI

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- The table's 128 read shares, one per semaphore cell 2 … 129. -/
def toksChain (c : Dev nD) (fW : Bf (F := F) c (Memref.whole main_arg1)) : sProp 𝕄 :=
  iprop(((Memref.whole main_arg1).view.loc (c : Thread nD τ) ↦{Transfers.shareTokN fullShare 2} fW)
    ∗ ((Memref.whole main_arg1).view.loc (c : Thread nD τ) ↦{Transfers.shareTokN fullShare 3} fW)
    ∗ ((Memref.whole main_arg1).view.loc (c : Thread nD τ) ↦{Transfers.shareTokN fullShare 4} fW)
    ∗ ((Memref.whole main_arg1).view.loc (c : Thread nD τ) ↦{Transfers.shareTokN fullShare 5} fW)
    ∗ ((Memref.whole main_arg1).view.loc (c : Thread nD τ) ↦{Transfers.shareTokN fullShare 6} fW)
    ∗ ((Memref.whole main_arg1).view.loc (c : Thread nD τ) ↦{Transfers.shareTokN fullShare 7} fW)
    ∗ ((Memref.whole main_arg1).view.loc (c : Thread nD τ) ↦{Transfers.shareTokN fullShare 8} fW)
    ∗ ((Memref.whole main_arg1).view.loc (c : Thread nD τ) ↦{Transfers.shareTokN fullShare 9} fW)
    ∗ ((Memref.whole main_arg1).view.loc (c : Thread nD τ) ↦{Transfers.shareTokN fullShare 10} fW)
    ∗ ((Memref.whole main_arg1).view.loc (c : Thread nD τ) ↦{Transfers.shareTokN fullShare 11} fW)
    ∗ ((Memref.whole main_arg1).view.loc (c : Thread nD τ) ↦{Transfers.shareTokN fullShare 12} fW)
    ∗ ((Memref.whole main_arg1).view.loc (c : Thread nD τ) ↦{Transfers.shareTokN fullShare 13} fW)
    ∗ ((Memref.whole main_arg1).view.loc (c : Thread nD τ) ↦{Transfers.shareTokN fullShare 14} fW)
    ∗ ((Memref.whole main_arg1).view.loc (c : Thread nD τ) ↦{Transfers.shareTokN fullShare 15} fW)
    ∗ ((Memref.whole main_arg1).view.loc (c : Thread nD τ) ↦{Transfers.shareTokN fullShare 16} fW)
    ∗ ((Memref.whole main_arg1).view.loc (c : Thread nD τ) ↦{Transfers.shareTokN fullShare 17} fW)
    ∗ ((Memref.whole main_arg1).view.loc (c : Thread nD τ) ↦{Transfers.shareTokN fullShare 18} fW)
    ∗ ((Memref.whole main_arg1).view.loc (c : Thread nD τ) ↦{Transfers.shareTokN fullShare 19} fW)
    ∗ ((Memref.whole main_arg1).view.loc (c : Thread nD τ) ↦{Transfers.shareTokN fullShare 20} fW)
    ∗ ((Memref.whole main_arg1).view.loc (c : Thread nD τ) ↦{Transfers.shareTokN fullShare 21} fW)
    ∗ ((Memref.whole main_arg1).view.loc (c : Thread nD τ) ↦{Transfers.shareTokN fullShare 22} fW)
    ∗ ((Memref.whole main_arg1).view.loc (c : Thread nD τ) ↦{Transfers.shareTokN fullShare 23} fW)
    ∗ ((Memref.whole main_arg1).view.loc (c : Thread nD τ) ↦{Transfers.shareTokN fullShare 24} fW)
    ∗ ((Memref.whole main_arg1).view.loc (c : Thread nD τ) ↦{Transfers.shareTokN fullShare 25} fW)
    ∗ ((Memref.whole main_arg1).view.loc (c : Thread nD τ) ↦{Transfers.shareTokN fullShare 26} fW)
    ∗ ((Memref.whole main_arg1).view.loc (c : Thread nD τ) ↦{Transfers.shareTokN fullShare 27} fW)
    ∗ ((Memref.whole main_arg1).view.loc (c : Thread nD τ) ↦{Transfers.shareTokN fullShare 28} fW)
    ∗ ((Memref.whole main_arg1).view.loc (c : Thread nD τ) ↦{Transfers.shareTokN fullShare 29} fW)
    ∗ ((Memref.whole main_arg1).view.loc (c : Thread nD τ) ↦{Transfers.shareTokN fullShare 30} fW)
    ∗ ((Memref.whole main_arg1).view.loc (c : Thread nD τ) ↦{Transfers.shareTokN fullShare 31} fW)
    ∗ ((Memref.whole main_arg1).view.loc (c : Thread nD τ) ↦{Transfers.shareTokN fullShare 32} fW)
    ∗ ((Memref.whole main_arg1).view.loc (c : Thread nD τ) ↦{Transfers.shareTokN fullShare 33} fW)
    ∗ ((Memref.whole main_arg1).view.loc (c : Thread nD τ) ↦{Transfers.shareTokN fullShare 34} fW)
    ∗ ((Memref.whole main_arg1).view.loc (c : Thread nD τ) ↦{Transfers.shareTokN fullShare 35} fW)
    ∗ ((Memref.whole main_arg1).view.loc (c : Thread nD τ) ↦{Transfers.shareTokN fullShare 36} fW)
    ∗ ((Memref.whole main_arg1).view.loc (c : Thread nD τ) ↦{Transfers.shareTokN fullShare 37} fW)
    ∗ ((Memref.whole main_arg1).view.loc (c : Thread nD τ) ↦{Transfers.shareTokN fullShare 38} fW)
    ∗ ((Memref.whole main_arg1).view.loc (c : Thread nD τ) ↦{Transfers.shareTokN fullShare 39} fW)
    ∗ ((Memref.whole main_arg1).view.loc (c : Thread nD τ) ↦{Transfers.shareTokN fullShare 40} fW)
    ∗ ((Memref.whole main_arg1).view.loc (c : Thread nD τ) ↦{Transfers.shareTokN fullShare 41} fW)
    ∗ ((Memref.whole main_arg1).view.loc (c : Thread nD τ) ↦{Transfers.shareTokN fullShare 42} fW)
    ∗ ((Memref.whole main_arg1).view.loc (c : Thread nD τ) ↦{Transfers.shareTokN fullShare 43} fW)
    ∗ ((Memref.whole main_arg1).view.loc (c : Thread nD τ) ↦{Transfers.shareTokN fullShare 44} fW)
    ∗ ((Memref.whole main_arg1).view.loc (c : Thread nD τ) ↦{Transfers.shareTokN fullShare 45} fW)
    ∗ ((Memref.whole main_arg1).view.loc (c : Thread nD τ) ↦{Transfers.shareTokN fullShare 46} fW)
    ∗ ((Memref.whole main_arg1).view.loc (c : Thread nD τ) ↦{Transfers.shareTokN fullShare 47} fW)
    ∗ ((Memref.whole main_arg1).view.loc (c : Thread nD τ) ↦{Transfers.shareTokN fullShare 48} fW)
    ∗ ((Memref.whole main_arg1).view.loc (c : Thread nD τ) ↦{Transfers.shareTokN fullShare 49} fW)
    ∗ ((Memref.whole main_arg1).view.loc (c : Thread nD τ) ↦{Transfers.shareTokN fullShare 50} fW)
    ∗ ((Memref.whole main_arg1).view.loc (c : Thread nD τ) ↦{Transfers.shareTokN fullShare 51} fW)
    ∗ ((Memref.whole main_arg1).view.loc (c : Thread nD τ) ↦{Transfers.shareTokN fullShare 52} fW)
    ∗ ((Memref.whole main_arg1).view.loc (c : Thread nD τ) ↦{Transfers.shareTokN fullShare 53} fW)
    ∗ ((Memref.whole main_arg1).view.loc (c : Thread nD τ) ↦{Transfers.shareTokN fullShare 54} fW)
    ∗ ((Memref.whole main_arg1).view.loc (c : Thread nD τ) ↦{Transfers.shareTokN fullShare 55} fW)
    ∗ ((Memref.whole main_arg1).view.loc (c : Thread nD τ) ↦{Transfers.shareTokN fullShare 56} fW)
    ∗ ((Memref.whole main_arg1).view.loc (c : Thread nD τ) ↦{Transfers.shareTokN fullShare 57} fW)
    ∗ ((Memref.whole main_arg1).view.loc (c : Thread nD τ) ↦{Transfers.shareTokN fullShare 58} fW)
    ∗ ((Memref.whole main_arg1).view.loc (c : Thread nD τ) ↦{Transfers.shareTokN fullShare 59} fW)
    ∗ ((Memref.whole main_arg1).view.loc (c : Thread nD τ) ↦{Transfers.shareTokN fullShare 60} fW)
    ∗ ((Memref.whole main_arg1).view.loc (c : Thread nD τ) ↦{Transfers.shareTokN fullShare 61} fW)
    ∗ ((Memref.whole main_arg1).view.loc (c : Thread nD τ) ↦{Transfers.shareTokN fullShare 62} fW)
    ∗ ((Memref.whole main_arg1).view.loc (c : Thread nD τ) ↦{Transfers.shareTokN fullShare 63} fW)
    ∗ ((Memref.whole main_arg1).view.loc (c : Thread nD τ) ↦{Transfers.shareTokN fullShare 64} fW)
    ∗ ((Memref.whole main_arg1).view.loc (c : Thread nD τ) ↦{Transfers.shareTokN fullShare 65} fW)
    ∗ ((Memref.whole main_arg1).view.loc (c : Thread nD τ) ↦{Transfers.shareTokN fullShare 66} fW)
    ∗ ((Memref.whole main_arg1).view.loc (c : Thread nD τ) ↦{Transfers.shareTokN fullShare 67} fW)
    ∗ ((Memref.whole main_arg1).view.loc (c : Thread nD τ) ↦{Transfers.shareTokN fullShare 68} fW)
    ∗ ((Memref.whole main_arg1).view.loc (c : Thread nD τ) ↦{Transfers.shareTokN fullShare 69} fW)
    ∗ ((Memref.whole main_arg1).view.loc (c : Thread nD τ) ↦{Transfers.shareTokN fullShare 70} fW)
    ∗ ((Memref.whole main_arg1).view.loc (c : Thread nD τ) ↦{Transfers.shareTokN fullShare 71} fW)
    ∗ ((Memref.whole main_arg1).view.loc (c : Thread nD τ) ↦{Transfers.shareTokN fullShare 72} fW)
    ∗ ((Memref.whole main_arg1).view.loc (c : Thread nD τ) ↦{Transfers.shareTokN fullShare 73} fW)
    ∗ ((Memref.whole main_arg1).view.loc (c : Thread nD τ) ↦{Transfers.shareTokN fullShare 74} fW)
    ∗ ((Memref.whole main_arg1).view.loc (c : Thread nD τ) ↦{Transfers.shareTokN fullShare 75} fW)
    ∗ ((Memref.whole main_arg1).view.loc (c : Thread nD τ) ↦{Transfers.shareTokN fullShare 76} fW)
    ∗ ((Memref.whole main_arg1).view.loc (c : Thread nD τ) ↦{Transfers.shareTokN fullShare 77} fW)
    ∗ ((Memref.whole main_arg1).view.loc (c : Thread nD τ) ↦{Transfers.shareTokN fullShare 78} fW)
    ∗ ((Memref.whole main_arg1).view.loc (c : Thread nD τ) ↦{Transfers.shareTokN fullShare 79} fW)
    ∗ ((Memref.whole main_arg1).view.loc (c : Thread nD τ) ↦{Transfers.shareTokN fullShare 80} fW)
    ∗ ((Memref.whole main_arg1).view.loc (c : Thread nD τ) ↦{Transfers.shareTokN fullShare 81} fW)
    ∗ ((Memref.whole main_arg1).view.loc (c : Thread nD τ) ↦{Transfers.shareTokN fullShare 82} fW)
    ∗ ((Memref.whole main_arg1).view.loc (c : Thread nD τ) ↦{Transfers.shareTokN fullShare 83} fW)
    ∗ ((Memref.whole main_arg1).view.loc (c : Thread nD τ) ↦{Transfers.shareTokN fullShare 84} fW)
    ∗ ((Memref.whole main_arg1).view.loc (c : Thread nD τ) ↦{Transfers.shareTokN fullShare 85} fW)
    ∗ ((Memref.whole main_arg1).view.loc (c : Thread nD τ) ↦{Transfers.shareTokN fullShare 86} fW)
    ∗ ((Memref.whole main_arg1).view.loc (c : Thread nD τ) ↦{Transfers.shareTokN fullShare 87} fW)
    ∗ ((Memref.whole main_arg1).view.loc (c : Thread nD τ) ↦{Transfers.shareTokN fullShare 88} fW)
    ∗ ((Memref.whole main_arg1).view.loc (c : Thread nD τ) ↦{Transfers.shareTokN fullShare 89} fW)
    ∗ ((Memref.whole main_arg1).view.loc (c : Thread nD τ) ↦{Transfers.shareTokN fullShare 90} fW)
    ∗ ((Memref.whole main_arg1).view.loc (c : Thread nD τ) ↦{Transfers.shareTokN fullShare 91} fW)
    ∗ ((Memref.whole main_arg1).view.loc (c : Thread nD τ) ↦{Transfers.shareTokN fullShare 92} fW)
    ∗ ((Memref.whole main_arg1).view.loc (c : Thread nD τ) ↦{Transfers.shareTokN fullShare 93} fW)
    ∗ ((Memref.whole main_arg1).view.loc (c : Thread nD τ) ↦{Transfers.shareTokN fullShare 94} fW)
    ∗ ((Memref.whole main_arg1).view.loc (c : Thread nD τ) ↦{Transfers.shareTokN fullShare 95} fW)
    ∗ ((Memref.whole main_arg1).view.loc (c : Thread nD τ) ↦{Transfers.shareTokN fullShare 96} fW)
    ∗ ((Memref.whole main_arg1).view.loc (c : Thread nD τ) ↦{Transfers.shareTokN fullShare 97} fW)
    ∗ ((Memref.whole main_arg1).view.loc (c : Thread nD τ) ↦{Transfers.shareTokN fullShare 98} fW)
    ∗ ((Memref.whole main_arg1).view.loc (c : Thread nD τ) ↦{Transfers.shareTokN fullShare 99} fW)
    ∗ ((Memref.whole main_arg1).view.loc (c : Thread nD τ) ↦{Transfers.shareTokN fullShare 100} fW)
    ∗ ((Memref.whole main_arg1).view.loc (c : Thread nD τ) ↦{Transfers.shareTokN fullShare 101} fW)
    ∗ ((Memref.whole main_arg1).view.loc (c : Thread nD τ) ↦{Transfers.shareTokN fullShare 102} fW)
    ∗ ((Memref.whole main_arg1).view.loc (c : Thread nD τ) ↦{Transfers.shareTokN fullShare 103} fW)
    ∗ ((Memref.whole main_arg1).view.loc (c : Thread nD τ) ↦{Transfers.shareTokN fullShare 104} fW)
    ∗ ((Memref.whole main_arg1).view.loc (c : Thread nD τ) ↦{Transfers.shareTokN fullShare 105} fW)
    ∗ ((Memref.whole main_arg1).view.loc (c : Thread nD τ) ↦{Transfers.shareTokN fullShare 106} fW)
    ∗ ((Memref.whole main_arg1).view.loc (c : Thread nD τ) ↦{Transfers.shareTokN fullShare 107} fW)
    ∗ ((Memref.whole main_arg1).view.loc (c : Thread nD τ) ↦{Transfers.shareTokN fullShare 108} fW)
    ∗ ((Memref.whole main_arg1).view.loc (c : Thread nD τ) ↦{Transfers.shareTokN fullShare 109} fW)
    ∗ ((Memref.whole main_arg1).view.loc (c : Thread nD τ) ↦{Transfers.shareTokN fullShare 110} fW)
    ∗ ((Memref.whole main_arg1).view.loc (c : Thread nD τ) ↦{Transfers.shareTokN fullShare 111} fW)
    ∗ ((Memref.whole main_arg1).view.loc (c : Thread nD τ) ↦{Transfers.shareTokN fullShare 112} fW)
    ∗ ((Memref.whole main_arg1).view.loc (c : Thread nD τ) ↦{Transfers.shareTokN fullShare 113} fW)
    ∗ ((Memref.whole main_arg1).view.loc (c : Thread nD τ) ↦{Transfers.shareTokN fullShare 114} fW)
    ∗ ((Memref.whole main_arg1).view.loc (c : Thread nD τ) ↦{Transfers.shareTokN fullShare 115} fW)
    ∗ ((Memref.whole main_arg1).view.loc (c : Thread nD τ) ↦{Transfers.shareTokN fullShare 116} fW)
    ∗ ((Memref.whole main_arg1).view.loc (c : Thread nD τ) ↦{Transfers.shareTokN fullShare 117} fW)
    ∗ ((Memref.whole main_arg1).view.loc (c : Thread nD τ) ↦{Transfers.shareTokN fullShare 118} fW)
    ∗ ((Memref.whole main_arg1).view.loc (c : Thread nD τ) ↦{Transfers.shareTokN fullShare 119} fW)
    ∗ ((Memref.whole main_arg1).view.loc (c : Thread nD τ) ↦{Transfers.shareTokN fullShare 120} fW)
    ∗ ((Memref.whole main_arg1).view.loc (c : Thread nD τ) ↦{Transfers.shareTokN fullShare 121} fW)
    ∗ ((Memref.whole main_arg1).view.loc (c : Thread nD τ) ↦{Transfers.shareTokN fullShare 122} fW)
    ∗ ((Memref.whole main_arg1).view.loc (c : Thread nD τ) ↦{Transfers.shareTokN fullShare 123} fW)
    ∗ ((Memref.whole main_arg1).view.loc (c : Thread nD τ) ↦{Transfers.shareTokN fullShare 124} fW)
    ∗ ((Memref.whole main_arg1).view.loc (c : Thread nD τ) ↦{Transfers.shareTokN fullShare 125} fW)
    ∗ ((Memref.whole main_arg1).view.loc (c : Thread nD τ) ↦{Transfers.shareTokN fullShare 126} fW)
    ∗ ((Memref.whole main_arg1).view.loc (c : Thread nD τ) ↦{Transfers.shareTokN fullShare 127} fW)
    ∗ ((Memref.whole main_arg1).view.loc (c : Thread nD τ) ↦{Transfers.shareTokN fullShare 128} fW)
    ∗ ((Memref.whole main_arg1).view.loc (c : Thread nD τ) ↦{Transfers.shareTokN fullShare 129} fW))

/-- The block's 128 rows, each held on its own, at one buffer contents. -/
def rowsInChain (c : Dev nD) (M3 : Memref sig .tc .vmem S128x768 .f32) (f3 : Buf (Elt F) (M3.view.loc (c : Thread nD τ))) : sProp 𝕄 :=
  iprop(heldOwn (F := F) c ((M3.slice (Rect.unit (s := S128x768) ![0, 0] S1x768.size inb_S128x768_S1x768_0_0) (fun _ => rfl)).squeeze S768 squeezes_S1x768_S768) f3
    ∗ heldOwn (F := F) c ((M3.slice (Rect.unit (s := S128x768) ![1, 0] S1x768.size inb_S128x768_S1x768_1_0) (fun _ => rfl)).squeeze S768 squeezes_S1x768_S768) f3
    ∗ heldOwn (F := F) c ((M3.slice (Rect.unit (s := S128x768) ![2, 0] S1x768.size inb_S128x768_S1x768_2_0) (fun _ => rfl)).squeeze S768 squeezes_S1x768_S768) f3
    ∗ heldOwn (F := F) c ((M3.slice (Rect.unit (s := S128x768) ![3, 0] S1x768.size inb_S128x768_S1x768_3_0) (fun _ => rfl)).squeeze S768 squeezes_S1x768_S768) f3
    ∗ heldOwn (F := F) c ((M3.slice (Rect.unit (s := S128x768) ![4, 0] S1x768.size inb_S128x768_S1x768_4_0) (fun _ => rfl)).squeeze S768 squeezes_S1x768_S768) f3
    ∗ heldOwn (F := F) c ((M3.slice (Rect.unit (s := S128x768) ![5, 0] S1x768.size inb_S128x768_S1x768_5_0) (fun _ => rfl)).squeeze S768 squeezes_S1x768_S768) f3
    ∗ heldOwn (F := F) c ((M3.slice (Rect.unit (s := S128x768) ![6, 0] S1x768.size inb_S128x768_S1x768_6_0) (fun _ => rfl)).squeeze S768 squeezes_S1x768_S768) f3
    ∗ heldOwn (F := F) c ((M3.slice (Rect.unit (s := S128x768) ![7, 0] S1x768.size inb_S128x768_S1x768_7_0) (fun _ => rfl)).squeeze S768 squeezes_S1x768_S768) f3
    ∗ heldOwn (F := F) c ((M3.slice (Rect.unit (s := S128x768) ![8, 0] S1x768.size inb_S128x768_S1x768_8_0) (fun _ => rfl)).squeeze S768 squeezes_S1x768_S768) f3
    ∗ heldOwn (F := F) c ((M3.slice (Rect.unit (s := S128x768) ![9, 0] S1x768.size inb_S128x768_S1x768_9_0) (fun _ => rfl)).squeeze S768 squeezes_S1x768_S768) f3
    ∗ heldOwn (F := F) c ((M3.slice (Rect.unit (s := S128x768) ![10, 0] S1x768.size inb_S128x768_S1x768_10_0) (fun _ => rfl)).squeeze S768 squeezes_S1x768_S768) f3
    ∗ heldOwn (F := F) c ((M3.slice (Rect.unit (s := S128x768) ![11, 0] S1x768.size inb_S128x768_S1x768_11_0) (fun _ => rfl)).squeeze S768 squeezes_S1x768_S768) f3
    ∗ heldOwn (F := F) c ((M3.slice (Rect.unit (s := S128x768) ![12, 0] S1x768.size inb_S128x768_S1x768_12_0) (fun _ => rfl)).squeeze S768 squeezes_S1x768_S768) f3
    ∗ heldOwn (F := F) c ((M3.slice (Rect.unit (s := S128x768) ![13, 0] S1x768.size inb_S128x768_S1x768_13_0) (fun _ => rfl)).squeeze S768 squeezes_S1x768_S768) f3
    ∗ heldOwn (F := F) c ((M3.slice (Rect.unit (s := S128x768) ![14, 0] S1x768.size inb_S128x768_S1x768_14_0) (fun _ => rfl)).squeeze S768 squeezes_S1x768_S768) f3
    ∗ heldOwn (F := F) c ((M3.slice (Rect.unit (s := S128x768) ![15, 0] S1x768.size inb_S128x768_S1x768_15_0) (fun _ => rfl)).squeeze S768 squeezes_S1x768_S768) f3
    ∗ heldOwn (F := F) c ((M3.slice (Rect.unit (s := S128x768) ![16, 0] S1x768.size inb_S128x768_S1x768_16_0) (fun _ => rfl)).squeeze S768 squeezes_S1x768_S768) f3
    ∗ heldOwn (F := F) c ((M3.slice (Rect.unit (s := S128x768) ![17, 0] S1x768.size inb_S128x768_S1x768_17_0) (fun _ => rfl)).squeeze S768 squeezes_S1x768_S768) f3
    ∗ heldOwn (F := F) c ((M3.slice (Rect.unit (s := S128x768) ![18, 0] S1x768.size inb_S128x768_S1x768_18_0) (fun _ => rfl)).squeeze S768 squeezes_S1x768_S768) f3
    ∗ heldOwn (F := F) c ((M3.slice (Rect.unit (s := S128x768) ![19, 0] S1x768.size inb_S128x768_S1x768_19_0) (fun _ => rfl)).squeeze S768 squeezes_S1x768_S768) f3
    ∗ heldOwn (F := F) c ((M3.slice (Rect.unit (s := S128x768) ![20, 0] S1x768.size inb_S128x768_S1x768_20_0) (fun _ => rfl)).squeeze S768 squeezes_S1x768_S768) f3
    ∗ heldOwn (F := F) c ((M3.slice (Rect.unit (s := S128x768) ![21, 0] S1x768.size inb_S128x768_S1x768_21_0) (fun _ => rfl)).squeeze S768 squeezes_S1x768_S768) f3
    ∗ heldOwn (F := F) c ((M3.slice (Rect.unit (s := S128x768) ![22, 0] S1x768.size inb_S128x768_S1x768_22_0) (fun _ => rfl)).squeeze S768 squeezes_S1x768_S768) f3
    ∗ heldOwn (F := F) c ((M3.slice (Rect.unit (s := S128x768) ![23, 0] S1x768.size inb_S128x768_S1x768_23_0) (fun _ => rfl)).squeeze S768 squeezes_S1x768_S768) f3
    ∗ heldOwn (F := F) c ((M3.slice (Rect.unit (s := S128x768) ![24, 0] S1x768.size inb_S128x768_S1x768_24_0) (fun _ => rfl)).squeeze S768 squeezes_S1x768_S768) f3
    ∗ heldOwn (F := F) c ((M3.slice (Rect.unit (s := S128x768) ![25, 0] S1x768.size inb_S128x768_S1x768_25_0) (fun _ => rfl)).squeeze S768 squeezes_S1x768_S768) f3
    ∗ heldOwn (F := F) c ((M3.slice (Rect.unit (s := S128x768) ![26, 0] S1x768.size inb_S128x768_S1x768_26_0) (fun _ => rfl)).squeeze S768 squeezes_S1x768_S768) f3
    ∗ heldOwn (F := F) c ((M3.slice (Rect.unit (s := S128x768) ![27, 0] S1x768.size inb_S128x768_S1x768_27_0) (fun _ => rfl)).squeeze S768 squeezes_S1x768_S768) f3
    ∗ heldOwn (F := F) c ((M3.slice (Rect.unit (s := S128x768) ![28, 0] S1x768.size inb_S128x768_S1x768_28_0) (fun _ => rfl)).squeeze S768 squeezes_S1x768_S768) f3
    ∗ heldOwn (F := F) c ((M3.slice (Rect.unit (s := S128x768) ![29, 0] S1x768.size inb_S128x768_S1x768_29_0) (fun _ => rfl)).squeeze S768 squeezes_S1x768_S768) f3
    ∗ heldOwn (F := F) c ((M3.slice (Rect.unit (s := S128x768) ![30, 0] S1x768.size inb_S128x768_S1x768_30_0) (fun _ => rfl)).squeeze S768 squeezes_S1x768_S768) f3
    ∗ heldOwn (F := F) c ((M3.slice (Rect.unit (s := S128x768) ![31, 0] S1x768.size inb_S128x768_S1x768_31_0) (fun _ => rfl)).squeeze S768 squeezes_S1x768_S768) f3
    ∗ heldOwn (F := F) c ((M3.slice (Rect.unit (s := S128x768) ![32, 0] S1x768.size inb_S128x768_S1x768_32_0) (fun _ => rfl)).squeeze S768 squeezes_S1x768_S768) f3
    ∗ heldOwn (F := F) c ((M3.slice (Rect.unit (s := S128x768) ![33, 0] S1x768.size inb_S128x768_S1x768_33_0) (fun _ => rfl)).squeeze S768 squeezes_S1x768_S768) f3
    ∗ heldOwn (F := F) c ((M3.slice (Rect.unit (s := S128x768) ![34, 0] S1x768.size inb_S128x768_S1x768_34_0) (fun _ => rfl)).squeeze S768 squeezes_S1x768_S768) f3
    ∗ heldOwn (F := F) c ((M3.slice (Rect.unit (s := S128x768) ![35, 0] S1x768.size inb_S128x768_S1x768_35_0) (fun _ => rfl)).squeeze S768 squeezes_S1x768_S768) f3
    ∗ heldOwn (F := F) c ((M3.slice (Rect.unit (s := S128x768) ![36, 0] S1x768.size inb_S128x768_S1x768_36_0) (fun _ => rfl)).squeeze S768 squeezes_S1x768_S768) f3
    ∗ heldOwn (F := F) c ((M3.slice (Rect.unit (s := S128x768) ![37, 0] S1x768.size inb_S128x768_S1x768_37_0) (fun _ => rfl)).squeeze S768 squeezes_S1x768_S768) f3
    ∗ heldOwn (F := F) c ((M3.slice (Rect.unit (s := S128x768) ![38, 0] S1x768.size inb_S128x768_S1x768_38_0) (fun _ => rfl)).squeeze S768 squeezes_S1x768_S768) f3
    ∗ heldOwn (F := F) c ((M3.slice (Rect.unit (s := S128x768) ![39, 0] S1x768.size inb_S128x768_S1x768_39_0) (fun _ => rfl)).squeeze S768 squeezes_S1x768_S768) f3
    ∗ heldOwn (F := F) c ((M3.slice (Rect.unit (s := S128x768) ![40, 0] S1x768.size inb_S128x768_S1x768_40_0) (fun _ => rfl)).squeeze S768 squeezes_S1x768_S768) f3
    ∗ heldOwn (F := F) c ((M3.slice (Rect.unit (s := S128x768) ![41, 0] S1x768.size inb_S128x768_S1x768_41_0) (fun _ => rfl)).squeeze S768 squeezes_S1x768_S768) f3
    ∗ heldOwn (F := F) c ((M3.slice (Rect.unit (s := S128x768) ![42, 0] S1x768.size inb_S128x768_S1x768_42_0) (fun _ => rfl)).squeeze S768 squeezes_S1x768_S768) f3
    ∗ heldOwn (F := F) c ((M3.slice (Rect.unit (s := S128x768) ![43, 0] S1x768.size inb_S128x768_S1x768_43_0) (fun _ => rfl)).squeeze S768 squeezes_S1x768_S768) f3
    ∗ heldOwn (F := F) c ((M3.slice (Rect.unit (s := S128x768) ![44, 0] S1x768.size inb_S128x768_S1x768_44_0) (fun _ => rfl)).squeeze S768 squeezes_S1x768_S768) f3
    ∗ heldOwn (F := F) c ((M3.slice (Rect.unit (s := S128x768) ![45, 0] S1x768.size inb_S128x768_S1x768_45_0) (fun _ => rfl)).squeeze S768 squeezes_S1x768_S768) f3
    ∗ heldOwn (F := F) c ((M3.slice (Rect.unit (s := S128x768) ![46, 0] S1x768.size inb_S128x768_S1x768_46_0) (fun _ => rfl)).squeeze S768 squeezes_S1x768_S768) f3
    ∗ heldOwn (F := F) c ((M3.slice (Rect.unit (s := S128x768) ![47, 0] S1x768.size inb_S128x768_S1x768_47_0) (fun _ => rfl)).squeeze S768 squeezes_S1x768_S768) f3
    ∗ heldOwn (F := F) c ((M3.slice (Rect.unit (s := S128x768) ![48, 0] S1x768.size inb_S128x768_S1x768_48_0) (fun _ => rfl)).squeeze S768 squeezes_S1x768_S768) f3
    ∗ heldOwn (F := F) c ((M3.slice (Rect.unit (s := S128x768) ![49, 0] S1x768.size inb_S128x768_S1x768_49_0) (fun _ => rfl)).squeeze S768 squeezes_S1x768_S768) f3
    ∗ heldOwn (F := F) c ((M3.slice (Rect.unit (s := S128x768) ![50, 0] S1x768.size inb_S128x768_S1x768_50_0) (fun _ => rfl)).squeeze S768 squeezes_S1x768_S768) f3
    ∗ heldOwn (F := F) c ((M3.slice (Rect.unit (s := S128x768) ![51, 0] S1x768.size inb_S128x768_S1x768_51_0) (fun _ => rfl)).squeeze S768 squeezes_S1x768_S768) f3
    ∗ heldOwn (F := F) c ((M3.slice (Rect.unit (s := S128x768) ![52, 0] S1x768.size inb_S128x768_S1x768_52_0) (fun _ => rfl)).squeeze S768 squeezes_S1x768_S768) f3
    ∗ heldOwn (F := F) c ((M3.slice (Rect.unit (s := S128x768) ![53, 0] S1x768.size inb_S128x768_S1x768_53_0) (fun _ => rfl)).squeeze S768 squeezes_S1x768_S768) f3
    ∗ heldOwn (F := F) c ((M3.slice (Rect.unit (s := S128x768) ![54, 0] S1x768.size inb_S128x768_S1x768_54_0) (fun _ => rfl)).squeeze S768 squeezes_S1x768_S768) f3
    ∗ heldOwn (F := F) c ((M3.slice (Rect.unit (s := S128x768) ![55, 0] S1x768.size inb_S128x768_S1x768_55_0) (fun _ => rfl)).squeeze S768 squeezes_S1x768_S768) f3
    ∗ heldOwn (F := F) c ((M3.slice (Rect.unit (s := S128x768) ![56, 0] S1x768.size inb_S128x768_S1x768_56_0) (fun _ => rfl)).squeeze S768 squeezes_S1x768_S768) f3
    ∗ heldOwn (F := F) c ((M3.slice (Rect.unit (s := S128x768) ![57, 0] S1x768.size inb_S128x768_S1x768_57_0) (fun _ => rfl)).squeeze S768 squeezes_S1x768_S768) f3
    ∗ heldOwn (F := F) c ((M3.slice (Rect.unit (s := S128x768) ![58, 0] S1x768.size inb_S128x768_S1x768_58_0) (fun _ => rfl)).squeeze S768 squeezes_S1x768_S768) f3
    ∗ heldOwn (F := F) c ((M3.slice (Rect.unit (s := S128x768) ![59, 0] S1x768.size inb_S128x768_S1x768_59_0) (fun _ => rfl)).squeeze S768 squeezes_S1x768_S768) f3
    ∗ heldOwn (F := F) c ((M3.slice (Rect.unit (s := S128x768) ![60, 0] S1x768.size inb_S128x768_S1x768_60_0) (fun _ => rfl)).squeeze S768 squeezes_S1x768_S768) f3
    ∗ heldOwn (F := F) c ((M3.slice (Rect.unit (s := S128x768) ![61, 0] S1x768.size inb_S128x768_S1x768_61_0) (fun _ => rfl)).squeeze S768 squeezes_S1x768_S768) f3
    ∗ heldOwn (F := F) c ((M3.slice (Rect.unit (s := S128x768) ![62, 0] S1x768.size inb_S128x768_S1x768_62_0) (fun _ => rfl)).squeeze S768 squeezes_S1x768_S768) f3
    ∗ heldOwn (F := F) c ((M3.slice (Rect.unit (s := S128x768) ![63, 0] S1x768.size inb_S128x768_S1x768_63_0) (fun _ => rfl)).squeeze S768 squeezes_S1x768_S768) f3
    ∗ heldOwn (F := F) c ((M3.slice (Rect.unit (s := S128x768) ![64, 0] S1x768.size inb_S128x768_S1x768_64_0) (fun _ => rfl)).squeeze S768 squeezes_S1x768_S768) f3
    ∗ heldOwn (F := F) c ((M3.slice (Rect.unit (s := S128x768) ![65, 0] S1x768.size inb_S128x768_S1x768_65_0) (fun _ => rfl)).squeeze S768 squeezes_S1x768_S768) f3
    ∗ heldOwn (F := F) c ((M3.slice (Rect.unit (s := S128x768) ![66, 0] S1x768.size inb_S128x768_S1x768_66_0) (fun _ => rfl)).squeeze S768 squeezes_S1x768_S768) f3
    ∗ heldOwn (F := F) c ((M3.slice (Rect.unit (s := S128x768) ![67, 0] S1x768.size inb_S128x768_S1x768_67_0) (fun _ => rfl)).squeeze S768 squeezes_S1x768_S768) f3
    ∗ heldOwn (F := F) c ((M3.slice (Rect.unit (s := S128x768) ![68, 0] S1x768.size inb_S128x768_S1x768_68_0) (fun _ => rfl)).squeeze S768 squeezes_S1x768_S768) f3
    ∗ heldOwn (F := F) c ((M3.slice (Rect.unit (s := S128x768) ![69, 0] S1x768.size inb_S128x768_S1x768_69_0) (fun _ => rfl)).squeeze S768 squeezes_S1x768_S768) f3
    ∗ heldOwn (F := F) c ((M3.slice (Rect.unit (s := S128x768) ![70, 0] S1x768.size inb_S128x768_S1x768_70_0) (fun _ => rfl)).squeeze S768 squeezes_S1x768_S768) f3
    ∗ heldOwn (F := F) c ((M3.slice (Rect.unit (s := S128x768) ![71, 0] S1x768.size inb_S128x768_S1x768_71_0) (fun _ => rfl)).squeeze S768 squeezes_S1x768_S768) f3
    ∗ heldOwn (F := F) c ((M3.slice (Rect.unit (s := S128x768) ![72, 0] S1x768.size inb_S128x768_S1x768_72_0) (fun _ => rfl)).squeeze S768 squeezes_S1x768_S768) f3
    ∗ heldOwn (F := F) c ((M3.slice (Rect.unit (s := S128x768) ![73, 0] S1x768.size inb_S128x768_S1x768_73_0) (fun _ => rfl)).squeeze S768 squeezes_S1x768_S768) f3
    ∗ heldOwn (F := F) c ((M3.slice (Rect.unit (s := S128x768) ![74, 0] S1x768.size inb_S128x768_S1x768_74_0) (fun _ => rfl)).squeeze S768 squeezes_S1x768_S768) f3
    ∗ heldOwn (F := F) c ((M3.slice (Rect.unit (s := S128x768) ![75, 0] S1x768.size inb_S128x768_S1x768_75_0) (fun _ => rfl)).squeeze S768 squeezes_S1x768_S768) f3
    ∗ heldOwn (F := F) c ((M3.slice (Rect.unit (s := S128x768) ![76, 0] S1x768.size inb_S128x768_S1x768_76_0) (fun _ => rfl)).squeeze S768 squeezes_S1x768_S768) f3
    ∗ heldOwn (F := F) c ((M3.slice (Rect.unit (s := S128x768) ![77, 0] S1x768.size inb_S128x768_S1x768_77_0) (fun _ => rfl)).squeeze S768 squeezes_S1x768_S768) f3
    ∗ heldOwn (F := F) c ((M3.slice (Rect.unit (s := S128x768) ![78, 0] S1x768.size inb_S128x768_S1x768_78_0) (fun _ => rfl)).squeeze S768 squeezes_S1x768_S768) f3
    ∗ heldOwn (F := F) c ((M3.slice (Rect.unit (s := S128x768) ![79, 0] S1x768.size inb_S128x768_S1x768_79_0) (fun _ => rfl)).squeeze S768 squeezes_S1x768_S768) f3
    ∗ heldOwn (F := F) c ((M3.slice (Rect.unit (s := S128x768) ![80, 0] S1x768.size inb_S128x768_S1x768_80_0) (fun _ => rfl)).squeeze S768 squeezes_S1x768_S768) f3
    ∗ heldOwn (F := F) c ((M3.slice (Rect.unit (s := S128x768) ![81, 0] S1x768.size inb_S128x768_S1x768_81_0) (fun _ => rfl)).squeeze S768 squeezes_S1x768_S768) f3
    ∗ heldOwn (F := F) c ((M3.slice (Rect.unit (s := S128x768) ![82, 0] S1x768.size inb_S128x768_S1x768_82_0) (fun _ => rfl)).squeeze S768 squeezes_S1x768_S768) f3
    ∗ heldOwn (F := F) c ((M3.slice (Rect.unit (s := S128x768) ![83, 0] S1x768.size inb_S128x768_S1x768_83_0) (fun _ => rfl)).squeeze S768 squeezes_S1x768_S768) f3
    ∗ heldOwn (F := F) c ((M3.slice (Rect.unit (s := S128x768) ![84, 0] S1x768.size inb_S128x768_S1x768_84_0) (fun _ => rfl)).squeeze S768 squeezes_S1x768_S768) f3
    ∗ heldOwn (F := F) c ((M3.slice (Rect.unit (s := S128x768) ![85, 0] S1x768.size inb_S128x768_S1x768_85_0) (fun _ => rfl)).squeeze S768 squeezes_S1x768_S768) f3
    ∗ heldOwn (F := F) c ((M3.slice (Rect.unit (s := S128x768) ![86, 0] S1x768.size inb_S128x768_S1x768_86_0) (fun _ => rfl)).squeeze S768 squeezes_S1x768_S768) f3
    ∗ heldOwn (F := F) c ((M3.slice (Rect.unit (s := S128x768) ![87, 0] S1x768.size inb_S128x768_S1x768_87_0) (fun _ => rfl)).squeeze S768 squeezes_S1x768_S768) f3
    ∗ heldOwn (F := F) c ((M3.slice (Rect.unit (s := S128x768) ![88, 0] S1x768.size inb_S128x768_S1x768_88_0) (fun _ => rfl)).squeeze S768 squeezes_S1x768_S768) f3
    ∗ heldOwn (F := F) c ((M3.slice (Rect.unit (s := S128x768) ![89, 0] S1x768.size inb_S128x768_S1x768_89_0) (fun _ => rfl)).squeeze S768 squeezes_S1x768_S768) f3
    ∗ heldOwn (F := F) c ((M3.slice (Rect.unit (s := S128x768) ![90, 0] S1x768.size inb_S128x768_S1x768_90_0) (fun _ => rfl)).squeeze S768 squeezes_S1x768_S768) f3
    ∗ heldOwn (F := F) c ((M3.slice (Rect.unit (s := S128x768) ![91, 0] S1x768.size inb_S128x768_S1x768_91_0) (fun _ => rfl)).squeeze S768 squeezes_S1x768_S768) f3
    ∗ heldOwn (F := F) c ((M3.slice (Rect.unit (s := S128x768) ![92, 0] S1x768.size inb_S128x768_S1x768_92_0) (fun _ => rfl)).squeeze S768 squeezes_S1x768_S768) f3
    ∗ heldOwn (F := F) c ((M3.slice (Rect.unit (s := S128x768) ![93, 0] S1x768.size inb_S128x768_S1x768_93_0) (fun _ => rfl)).squeeze S768 squeezes_S1x768_S768) f3
    ∗ heldOwn (F := F) c ((M3.slice (Rect.unit (s := S128x768) ![94, 0] S1x768.size inb_S128x768_S1x768_94_0) (fun _ => rfl)).squeeze S768 squeezes_S1x768_S768) f3
    ∗ heldOwn (F := F) c ((M3.slice (Rect.unit (s := S128x768) ![95, 0] S1x768.size inb_S128x768_S1x768_95_0) (fun _ => rfl)).squeeze S768 squeezes_S1x768_S768) f3
    ∗ heldOwn (F := F) c ((M3.slice (Rect.unit (s := S128x768) ![96, 0] S1x768.size inb_S128x768_S1x768_96_0) (fun _ => rfl)).squeeze S768 squeezes_S1x768_S768) f3
    ∗ heldOwn (F := F) c ((M3.slice (Rect.unit (s := S128x768) ![97, 0] S1x768.size inb_S128x768_S1x768_97_0) (fun _ => rfl)).squeeze S768 squeezes_S1x768_S768) f3
    ∗ heldOwn (F := F) c ((M3.slice (Rect.unit (s := S128x768) ![98, 0] S1x768.size inb_S128x768_S1x768_98_0) (fun _ => rfl)).squeeze S768 squeezes_S1x768_S768) f3
    ∗ heldOwn (F := F) c ((M3.slice (Rect.unit (s := S128x768) ![99, 0] S1x768.size inb_S128x768_S1x768_99_0) (fun _ => rfl)).squeeze S768 squeezes_S1x768_S768) f3
    ∗ heldOwn (F := F) c ((M3.slice (Rect.unit (s := S128x768) ![100, 0] S1x768.size inb_S128x768_S1x768_100_0) (fun _ => rfl)).squeeze S768 squeezes_S1x768_S768) f3
    ∗ heldOwn (F := F) c ((M3.slice (Rect.unit (s := S128x768) ![101, 0] S1x768.size inb_S128x768_S1x768_101_0) (fun _ => rfl)).squeeze S768 squeezes_S1x768_S768) f3
    ∗ heldOwn (F := F) c ((M3.slice (Rect.unit (s := S128x768) ![102, 0] S1x768.size inb_S128x768_S1x768_102_0) (fun _ => rfl)).squeeze S768 squeezes_S1x768_S768) f3
    ∗ heldOwn (F := F) c ((M3.slice (Rect.unit (s := S128x768) ![103, 0] S1x768.size inb_S128x768_S1x768_103_0) (fun _ => rfl)).squeeze S768 squeezes_S1x768_S768) f3
    ∗ heldOwn (F := F) c ((M3.slice (Rect.unit (s := S128x768) ![104, 0] S1x768.size inb_S128x768_S1x768_104_0) (fun _ => rfl)).squeeze S768 squeezes_S1x768_S768) f3
    ∗ heldOwn (F := F) c ((M3.slice (Rect.unit (s := S128x768) ![105, 0] S1x768.size inb_S128x768_S1x768_105_0) (fun _ => rfl)).squeeze S768 squeezes_S1x768_S768) f3
    ∗ heldOwn (F := F) c ((M3.slice (Rect.unit (s := S128x768) ![106, 0] S1x768.size inb_S128x768_S1x768_106_0) (fun _ => rfl)).squeeze S768 squeezes_S1x768_S768) f3
    ∗ heldOwn (F := F) c ((M3.slice (Rect.unit (s := S128x768) ![107, 0] S1x768.size inb_S128x768_S1x768_107_0) (fun _ => rfl)).squeeze S768 squeezes_S1x768_S768) f3
    ∗ heldOwn (F := F) c ((M3.slice (Rect.unit (s := S128x768) ![108, 0] S1x768.size inb_S128x768_S1x768_108_0) (fun _ => rfl)).squeeze S768 squeezes_S1x768_S768) f3
    ∗ heldOwn (F := F) c ((M3.slice (Rect.unit (s := S128x768) ![109, 0] S1x768.size inb_S128x768_S1x768_109_0) (fun _ => rfl)).squeeze S768 squeezes_S1x768_S768) f3
    ∗ heldOwn (F := F) c ((M3.slice (Rect.unit (s := S128x768) ![110, 0] S1x768.size inb_S128x768_S1x768_110_0) (fun _ => rfl)).squeeze S768 squeezes_S1x768_S768) f3
    ∗ heldOwn (F := F) c ((M3.slice (Rect.unit (s := S128x768) ![111, 0] S1x768.size inb_S128x768_S1x768_111_0) (fun _ => rfl)).squeeze S768 squeezes_S1x768_S768) f3
    ∗ heldOwn (F := F) c ((M3.slice (Rect.unit (s := S128x768) ![112, 0] S1x768.size inb_S128x768_S1x768_112_0) (fun _ => rfl)).squeeze S768 squeezes_S1x768_S768) f3
    ∗ heldOwn (F := F) c ((M3.slice (Rect.unit (s := S128x768) ![113, 0] S1x768.size inb_S128x768_S1x768_113_0) (fun _ => rfl)).squeeze S768 squeezes_S1x768_S768) f3
    ∗ heldOwn (F := F) c ((M3.slice (Rect.unit (s := S128x768) ![114, 0] S1x768.size inb_S128x768_S1x768_114_0) (fun _ => rfl)).squeeze S768 squeezes_S1x768_S768) f3
    ∗ heldOwn (F := F) c ((M3.slice (Rect.unit (s := S128x768) ![115, 0] S1x768.size inb_S128x768_S1x768_115_0) (fun _ => rfl)).squeeze S768 squeezes_S1x768_S768) f3
    ∗ heldOwn (F := F) c ((M3.slice (Rect.unit (s := S128x768) ![116, 0] S1x768.size inb_S128x768_S1x768_116_0) (fun _ => rfl)).squeeze S768 squeezes_S1x768_S768) f3
    ∗ heldOwn (F := F) c ((M3.slice (Rect.unit (s := S128x768) ![117, 0] S1x768.size inb_S128x768_S1x768_117_0) (fun _ => rfl)).squeeze S768 squeezes_S1x768_S768) f3
    ∗ heldOwn (F := F) c ((M3.slice (Rect.unit (s := S128x768) ![118, 0] S1x768.size inb_S128x768_S1x768_118_0) (fun _ => rfl)).squeeze S768 squeezes_S1x768_S768) f3
    ∗ heldOwn (F := F) c ((M3.slice (Rect.unit (s := S128x768) ![119, 0] S1x768.size inb_S128x768_S1x768_119_0) (fun _ => rfl)).squeeze S768 squeezes_S1x768_S768) f3
    ∗ heldOwn (F := F) c ((M3.slice (Rect.unit (s := S128x768) ![120, 0] S1x768.size inb_S128x768_S1x768_120_0) (fun _ => rfl)).squeeze S768 squeezes_S1x768_S768) f3
    ∗ heldOwn (F := F) c ((M3.slice (Rect.unit (s := S128x768) ![121, 0] S1x768.size inb_S128x768_S1x768_121_0) (fun _ => rfl)).squeeze S768 squeezes_S1x768_S768) f3
    ∗ heldOwn (F := F) c ((M3.slice (Rect.unit (s := S128x768) ![122, 0] S1x768.size inb_S128x768_S1x768_122_0) (fun _ => rfl)).squeeze S768 squeezes_S1x768_S768) f3
    ∗ heldOwn (F := F) c ((M3.slice (Rect.unit (s := S128x768) ![123, 0] S1x768.size inb_S128x768_S1x768_123_0) (fun _ => rfl)).squeeze S768 squeezes_S1x768_S768) f3
    ∗ heldOwn (F := F) c ((M3.slice (Rect.unit (s := S128x768) ![124, 0] S1x768.size inb_S128x768_S1x768_124_0) (fun _ => rfl)).squeeze S768 squeezes_S1x768_S768) f3
    ∗ heldOwn (F := F) c ((M3.slice (Rect.unit (s := S128x768) ![125, 0] S1x768.size inb_S128x768_S1x768_125_0) (fun _ => rfl)).squeeze S768 squeezes_S1x768_S768) f3
    ∗ heldOwn (F := F) c ((M3.slice (Rect.unit (s := S128x768) ![126, 0] S1x768.size inb_S128x768_S1x768_126_0) (fun _ => rfl)).squeeze S768 squeezes_S1x768_S768) f3
    ∗ heldOwn (F := F) c ((M3.slice (Rect.unit (s := S128x768) ![127, 0] S1x768.size inb_S128x768_S1x768_127_0) (fun _ => rfl)).squeeze S768 squeezes_S1x768_S768) f3)

/-- The 128 semaphores at zero. -/
def semsChain (c : Dev nD) : sProp 𝕄 :=
  iprop(semVal ((c : Thread nD τ), SemLoc.dma 2) 0
    ∗ semVal ((c : Thread nD τ), SemLoc.dma 3) 0
    ∗ semVal ((c : Thread nD τ), SemLoc.dma 4) 0
    ∗ semVal ((c : Thread nD τ), SemLoc.dma 5) 0
    ∗ semVal ((c : Thread nD τ), SemLoc.dma 6) 0
    ∗ semVal ((c : Thread nD τ), SemLoc.dma 7) 0
    ∗ semVal ((c : Thread nD τ), SemLoc.dma 8) 0
    ∗ semVal ((c : Thread nD τ), SemLoc.dma 9) 0
    ∗ semVal ((c : Thread nD τ), SemLoc.dma 10) 0
    ∗ semVal ((c : Thread nD τ), SemLoc.dma 11) 0
    ∗ semVal ((c : Thread nD τ), SemLoc.dma 12) 0
    ∗ semVal ((c : Thread nD τ), SemLoc.dma 13) 0
    ∗ semVal ((c : Thread nD τ), SemLoc.dma 14) 0
    ∗ semVal ((c : Thread nD τ), SemLoc.dma 15) 0
    ∗ semVal ((c : Thread nD τ), SemLoc.dma 16) 0
    ∗ semVal ((c : Thread nD τ), SemLoc.dma 17) 0
    ∗ semVal ((c : Thread nD τ), SemLoc.dma 18) 0
    ∗ semVal ((c : Thread nD τ), SemLoc.dma 19) 0
    ∗ semVal ((c : Thread nD τ), SemLoc.dma 20) 0
    ∗ semVal ((c : Thread nD τ), SemLoc.dma 21) 0
    ∗ semVal ((c : Thread nD τ), SemLoc.dma 22) 0
    ∗ semVal ((c : Thread nD τ), SemLoc.dma 23) 0
    ∗ semVal ((c : Thread nD τ), SemLoc.dma 24) 0
    ∗ semVal ((c : Thread nD τ), SemLoc.dma 25) 0
    ∗ semVal ((c : Thread nD τ), SemLoc.dma 26) 0
    ∗ semVal ((c : Thread nD τ), SemLoc.dma 27) 0
    ∗ semVal ((c : Thread nD τ), SemLoc.dma 28) 0
    ∗ semVal ((c : Thread nD τ), SemLoc.dma 29) 0
    ∗ semVal ((c : Thread nD τ), SemLoc.dma 30) 0
    ∗ semVal ((c : Thread nD τ), SemLoc.dma 31) 0
    ∗ semVal ((c : Thread nD τ), SemLoc.dma 32) 0
    ∗ semVal ((c : Thread nD τ), SemLoc.dma 33) 0
    ∗ semVal ((c : Thread nD τ), SemLoc.dma 34) 0
    ∗ semVal ((c : Thread nD τ), SemLoc.dma 35) 0
    ∗ semVal ((c : Thread nD τ), SemLoc.dma 36) 0
    ∗ semVal ((c : Thread nD τ), SemLoc.dma 37) 0
    ∗ semVal ((c : Thread nD τ), SemLoc.dma 38) 0
    ∗ semVal ((c : Thread nD τ), SemLoc.dma 39) 0
    ∗ semVal ((c : Thread nD τ), SemLoc.dma 40) 0
    ∗ semVal ((c : Thread nD τ), SemLoc.dma 41) 0
    ∗ semVal ((c : Thread nD τ), SemLoc.dma 42) 0
    ∗ semVal ((c : Thread nD τ), SemLoc.dma 43) 0
    ∗ semVal ((c : Thread nD τ), SemLoc.dma 44) 0
    ∗ semVal ((c : Thread nD τ), SemLoc.dma 45) 0
    ∗ semVal ((c : Thread nD τ), SemLoc.dma 46) 0
    ∗ semVal ((c : Thread nD τ), SemLoc.dma 47) 0
    ∗ semVal ((c : Thread nD τ), SemLoc.dma 48) 0
    ∗ semVal ((c : Thread nD τ), SemLoc.dma 49) 0
    ∗ semVal ((c : Thread nD τ), SemLoc.dma 50) 0
    ∗ semVal ((c : Thread nD τ), SemLoc.dma 51) 0
    ∗ semVal ((c : Thread nD τ), SemLoc.dma 52) 0
    ∗ semVal ((c : Thread nD τ), SemLoc.dma 53) 0
    ∗ semVal ((c : Thread nD τ), SemLoc.dma 54) 0
    ∗ semVal ((c : Thread nD τ), SemLoc.dma 55) 0
    ∗ semVal ((c : Thread nD τ), SemLoc.dma 56) 0
    ∗ semVal ((c : Thread nD τ), SemLoc.dma 57) 0
    ∗ semVal ((c : Thread nD τ), SemLoc.dma 58) 0
    ∗ semVal ((c : Thread nD τ), SemLoc.dma 59) 0
    ∗ semVal ((c : Thread nD τ), SemLoc.dma 60) 0
    ∗ semVal ((c : Thread nD τ), SemLoc.dma 61) 0
    ∗ semVal ((c : Thread nD τ), SemLoc.dma 62) 0
    ∗ semVal ((c : Thread nD τ), SemLoc.dma 63) 0
    ∗ semVal ((c : Thread nD τ), SemLoc.dma 64) 0
    ∗ semVal ((c : Thread nD τ), SemLoc.dma 65) 0
    ∗ semVal ((c : Thread nD τ), SemLoc.dma 66) 0
    ∗ semVal ((c : Thread nD τ), SemLoc.dma 67) 0
    ∗ semVal ((c : Thread nD τ), SemLoc.dma 68) 0
    ∗ semVal ((c : Thread nD τ), SemLoc.dma 69) 0
    ∗ semVal ((c : Thread nD τ), SemLoc.dma 70) 0
    ∗ semVal ((c : Thread nD τ), SemLoc.dma 71) 0
    ∗ semVal ((c : Thread nD τ), SemLoc.dma 72) 0
    ∗ semVal ((c : Thread nD τ), SemLoc.dma 73) 0
    ∗ semVal ((c : Thread nD τ), SemLoc.dma 74) 0
    ∗ semVal ((c : Thread nD τ), SemLoc.dma 75) 0
    ∗ semVal ((c : Thread nD τ), SemLoc.dma 76) 0
    ∗ semVal ((c : Thread nD τ), SemLoc.dma 77) 0
    ∗ semVal ((c : Thread nD τ), SemLoc.dma 78) 0
    ∗ semVal ((c : Thread nD τ), SemLoc.dma 79) 0
    ∗ semVal ((c : Thread nD τ), SemLoc.dma 80) 0
    ∗ semVal ((c : Thread nD τ), SemLoc.dma 81) 0
    ∗ semVal ((c : Thread nD τ), SemLoc.dma 82) 0
    ∗ semVal ((c : Thread nD τ), SemLoc.dma 83) 0
    ∗ semVal ((c : Thread nD τ), SemLoc.dma 84) 0
    ∗ semVal ((c : Thread nD τ), SemLoc.dma 85) 0
    ∗ semVal ((c : Thread nD τ), SemLoc.dma 86) 0
    ∗ semVal ((c : Thread nD τ), SemLoc.dma 87) 0
    ∗ semVal ((c : Thread nD τ), SemLoc.dma 88) 0
    ∗ semVal ((c : Thread nD τ), SemLoc.dma 89) 0
    ∗ semVal ((c : Thread nD τ), SemLoc.dma 90) 0
    ∗ semVal ((c : Thread nD τ), SemLoc.dma 91) 0
    ∗ semVal ((c : Thread nD τ), SemLoc.dma 92) 0
    ∗ semVal ((c : Thread nD τ), SemLoc.dma 93) 0
    ∗ semVal ((c : Thread nD τ), SemLoc.dma 94) 0
    ∗ semVal ((c : Thread nD τ), SemLoc.dma 95) 0
    ∗ semVal ((c : Thread nD τ), SemLoc.dma 96) 0
    ∗ semVal ((c : Thread nD τ), SemLoc.dma 97) 0
    ∗ semVal ((c : Thread nD τ), SemLoc.dma 98) 0
    ∗ semVal ((c : Thread nD τ), SemLoc.dma 99) 0
    ∗ semVal ((c : Thread nD τ), SemLoc.dma 100) 0
    ∗ semVal ((c : Thread nD τ), SemLoc.dma 101) 0
    ∗ semVal ((c : Thread nD τ), SemLoc.dma 102) 0
    ∗ semVal ((c : Thread nD τ), SemLoc.dma 103) 0
    ∗ semVal ((c : Thread nD τ), SemLoc.dma 104) 0
    ∗ semVal ((c : Thread nD τ), SemLoc.dma 105) 0
    ∗ semVal ((c : Thread nD τ), SemLoc.dma 106) 0
    ∗ semVal ((c : Thread nD τ), SemLoc.dma 107) 0
    ∗ semVal ((c : Thread nD τ), SemLoc.dma 108) 0
    ∗ semVal ((c : Thread nD τ), SemLoc.dma 109) 0
    ∗ semVal ((c : Thread nD τ), SemLoc.dma 110) 0
    ∗ semVal ((c : Thread nD τ), SemLoc.dma 111) 0
    ∗ semVal ((c : Thread nD τ), SemLoc.dma 112) 0
    ∗ semVal ((c : Thread nD τ), SemLoc.dma 113) 0
    ∗ semVal ((c : Thread nD τ), SemLoc.dma 114) 0
    ∗ semVal ((c : Thread nD τ), SemLoc.dma 115) 0
    ∗ semVal ((c : Thread nD τ), SemLoc.dma 116) 0
    ∗ semVal ((c : Thread nD τ), SemLoc.dma 117) 0
    ∗ semVal ((c : Thread nD τ), SemLoc.dma 118) 0
    ∗ semVal ((c : Thread nD τ), SemLoc.dma 119) 0
    ∗ semVal ((c : Thread nD τ), SemLoc.dma 120) 0
    ∗ semVal ((c : Thread nD τ), SemLoc.dma 121) 0
    ∗ semVal ((c : Thread nD τ), SemLoc.dma 122) 0
    ∗ semVal ((c : Thread nD τ), SemLoc.dma 123) 0
    ∗ semVal ((c : Thread nD τ), SemLoc.dma 124) 0
    ∗ semVal ((c : Thread nD τ), SemLoc.dma 125) 0
    ∗ semVal ((c : Thread nD τ), SemLoc.dma 126) 0
    ∗ semVal ((c : Thread nD τ), SemLoc.dma 127) 0
    ∗ semVal ((c : Thread nD τ), SemLoc.dma 128) 0
    ∗ semVal ((c : Thread nD τ), SemLoc.dma 129) 0)

/-- The block's 128 rows after the step: row j overwritten whole by row j of the step's result. -/
def rowsOutChain (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) : sProp 𝕄 :=
  iprop(rowOut (F := F) c ((M3.slice (Rect.unit (s := S128x768) ![0, 0] S1x768.size inb_S128x768_S1x768_0_0) (fun _ => rfl)).squeeze S768 squeezes_S1x768_S768) f3 (rowVal i ftok fW ⟨0, by decide⟩)
    ∗ rowOut (F := F) c ((M3.slice (Rect.unit (s := S128x768) ![1, 0] S1x768.size inb_S128x768_S1x768_1_0) (fun _ => rfl)).squeeze S768 squeezes_S1x768_S768) f3 (rowVal i ftok fW ⟨1, by decide⟩)
    ∗ rowOut (F := F) c ((M3.slice (Rect.unit (s := S128x768) ![2, 0] S1x768.size inb_S128x768_S1x768_2_0) (fun _ => rfl)).squeeze S768 squeezes_S1x768_S768) f3 (rowVal i ftok fW ⟨2, by decide⟩)
    ∗ rowOut (F := F) c ((M3.slice (Rect.unit (s := S128x768) ![3, 0] S1x768.size inb_S128x768_S1x768_3_0) (fun _ => rfl)).squeeze S768 squeezes_S1x768_S768) f3 (rowVal i ftok fW ⟨3, by decide⟩)
    ∗ rowOut (F := F) c ((M3.slice (Rect.unit (s := S128x768) ![4, 0] S1x768.size inb_S128x768_S1x768_4_0) (fun _ => rfl)).squeeze S768 squeezes_S1x768_S768) f3 (rowVal i ftok fW ⟨4, by decide⟩)
    ∗ rowOut (F := F) c ((M3.slice (Rect.unit (s := S128x768) ![5, 0] S1x768.size inb_S128x768_S1x768_5_0) (fun _ => rfl)).squeeze S768 squeezes_S1x768_S768) f3 (rowVal i ftok fW ⟨5, by decide⟩)
    ∗ rowOut (F := F) c ((M3.slice (Rect.unit (s := S128x768) ![6, 0] S1x768.size inb_S128x768_S1x768_6_0) (fun _ => rfl)).squeeze S768 squeezes_S1x768_S768) f3 (rowVal i ftok fW ⟨6, by decide⟩)
    ∗ rowOut (F := F) c ((M3.slice (Rect.unit (s := S128x768) ![7, 0] S1x768.size inb_S128x768_S1x768_7_0) (fun _ => rfl)).squeeze S768 squeezes_S1x768_S768) f3 (rowVal i ftok fW ⟨7, by decide⟩)
    ∗ rowOut (F := F) c ((M3.slice (Rect.unit (s := S128x768) ![8, 0] S1x768.size inb_S128x768_S1x768_8_0) (fun _ => rfl)).squeeze S768 squeezes_S1x768_S768) f3 (rowVal i ftok fW ⟨8, by decide⟩)
    ∗ rowOut (F := F) c ((M3.slice (Rect.unit (s := S128x768) ![9, 0] S1x768.size inb_S128x768_S1x768_9_0) (fun _ => rfl)).squeeze S768 squeezes_S1x768_S768) f3 (rowVal i ftok fW ⟨9, by decide⟩)
    ∗ rowOut (F := F) c ((M3.slice (Rect.unit (s := S128x768) ![10, 0] S1x768.size inb_S128x768_S1x768_10_0) (fun _ => rfl)).squeeze S768 squeezes_S1x768_S768) f3 (rowVal i ftok fW ⟨10, by decide⟩)
    ∗ rowOut (F := F) c ((M3.slice (Rect.unit (s := S128x768) ![11, 0] S1x768.size inb_S128x768_S1x768_11_0) (fun _ => rfl)).squeeze S768 squeezes_S1x768_S768) f3 (rowVal i ftok fW ⟨11, by decide⟩)
    ∗ rowOut (F := F) c ((M3.slice (Rect.unit (s := S128x768) ![12, 0] S1x768.size inb_S128x768_S1x768_12_0) (fun _ => rfl)).squeeze S768 squeezes_S1x768_S768) f3 (rowVal i ftok fW ⟨12, by decide⟩)
    ∗ rowOut (F := F) c ((M3.slice (Rect.unit (s := S128x768) ![13, 0] S1x768.size inb_S128x768_S1x768_13_0) (fun _ => rfl)).squeeze S768 squeezes_S1x768_S768) f3 (rowVal i ftok fW ⟨13, by decide⟩)
    ∗ rowOut (F := F) c ((M3.slice (Rect.unit (s := S128x768) ![14, 0] S1x768.size inb_S128x768_S1x768_14_0) (fun _ => rfl)).squeeze S768 squeezes_S1x768_S768) f3 (rowVal i ftok fW ⟨14, by decide⟩)
    ∗ rowOut (F := F) c ((M3.slice (Rect.unit (s := S128x768) ![15, 0] S1x768.size inb_S128x768_S1x768_15_0) (fun _ => rfl)).squeeze S768 squeezes_S1x768_S768) f3 (rowVal i ftok fW ⟨15, by decide⟩)
    ∗ rowOut (F := F) c ((M3.slice (Rect.unit (s := S128x768) ![16, 0] S1x768.size inb_S128x768_S1x768_16_0) (fun _ => rfl)).squeeze S768 squeezes_S1x768_S768) f3 (rowVal i ftok fW ⟨16, by decide⟩)
    ∗ rowOut (F := F) c ((M3.slice (Rect.unit (s := S128x768) ![17, 0] S1x768.size inb_S128x768_S1x768_17_0) (fun _ => rfl)).squeeze S768 squeezes_S1x768_S768) f3 (rowVal i ftok fW ⟨17, by decide⟩)
    ∗ rowOut (F := F) c ((M3.slice (Rect.unit (s := S128x768) ![18, 0] S1x768.size inb_S128x768_S1x768_18_0) (fun _ => rfl)).squeeze S768 squeezes_S1x768_S768) f3 (rowVal i ftok fW ⟨18, by decide⟩)
    ∗ rowOut (F := F) c ((M3.slice (Rect.unit (s := S128x768) ![19, 0] S1x768.size inb_S128x768_S1x768_19_0) (fun _ => rfl)).squeeze S768 squeezes_S1x768_S768) f3 (rowVal i ftok fW ⟨19, by decide⟩)
    ∗ rowOut (F := F) c ((M3.slice (Rect.unit (s := S128x768) ![20, 0] S1x768.size inb_S128x768_S1x768_20_0) (fun _ => rfl)).squeeze S768 squeezes_S1x768_S768) f3 (rowVal i ftok fW ⟨20, by decide⟩)
    ∗ rowOut (F := F) c ((M3.slice (Rect.unit (s := S128x768) ![21, 0] S1x768.size inb_S128x768_S1x768_21_0) (fun _ => rfl)).squeeze S768 squeezes_S1x768_S768) f3 (rowVal i ftok fW ⟨21, by decide⟩)
    ∗ rowOut (F := F) c ((M3.slice (Rect.unit (s := S128x768) ![22, 0] S1x768.size inb_S128x768_S1x768_22_0) (fun _ => rfl)).squeeze S768 squeezes_S1x768_S768) f3 (rowVal i ftok fW ⟨22, by decide⟩)
    ∗ rowOut (F := F) c ((M3.slice (Rect.unit (s := S128x768) ![23, 0] S1x768.size inb_S128x768_S1x768_23_0) (fun _ => rfl)).squeeze S768 squeezes_S1x768_S768) f3 (rowVal i ftok fW ⟨23, by decide⟩)
    ∗ rowOut (F := F) c ((M3.slice (Rect.unit (s := S128x768) ![24, 0] S1x768.size inb_S128x768_S1x768_24_0) (fun _ => rfl)).squeeze S768 squeezes_S1x768_S768) f3 (rowVal i ftok fW ⟨24, by decide⟩)
    ∗ rowOut (F := F) c ((M3.slice (Rect.unit (s := S128x768) ![25, 0] S1x768.size inb_S128x768_S1x768_25_0) (fun _ => rfl)).squeeze S768 squeezes_S1x768_S768) f3 (rowVal i ftok fW ⟨25, by decide⟩)
    ∗ rowOut (F := F) c ((M3.slice (Rect.unit (s := S128x768) ![26, 0] S1x768.size inb_S128x768_S1x768_26_0) (fun _ => rfl)).squeeze S768 squeezes_S1x768_S768) f3 (rowVal i ftok fW ⟨26, by decide⟩)
    ∗ rowOut (F := F) c ((M3.slice (Rect.unit (s := S128x768) ![27, 0] S1x768.size inb_S128x768_S1x768_27_0) (fun _ => rfl)).squeeze S768 squeezes_S1x768_S768) f3 (rowVal i ftok fW ⟨27, by decide⟩)
    ∗ rowOut (F := F) c ((M3.slice (Rect.unit (s := S128x768) ![28, 0] S1x768.size inb_S128x768_S1x768_28_0) (fun _ => rfl)).squeeze S768 squeezes_S1x768_S768) f3 (rowVal i ftok fW ⟨28, by decide⟩)
    ∗ rowOut (F := F) c ((M3.slice (Rect.unit (s := S128x768) ![29, 0] S1x768.size inb_S128x768_S1x768_29_0) (fun _ => rfl)).squeeze S768 squeezes_S1x768_S768) f3 (rowVal i ftok fW ⟨29, by decide⟩)
    ∗ rowOut (F := F) c ((M3.slice (Rect.unit (s := S128x768) ![30, 0] S1x768.size inb_S128x768_S1x768_30_0) (fun _ => rfl)).squeeze S768 squeezes_S1x768_S768) f3 (rowVal i ftok fW ⟨30, by decide⟩)
    ∗ rowOut (F := F) c ((M3.slice (Rect.unit (s := S128x768) ![31, 0] S1x768.size inb_S128x768_S1x768_31_0) (fun _ => rfl)).squeeze S768 squeezes_S1x768_S768) f3 (rowVal i ftok fW ⟨31, by decide⟩)
    ∗ rowOut (F := F) c ((M3.slice (Rect.unit (s := S128x768) ![32, 0] S1x768.size inb_S128x768_S1x768_32_0) (fun _ => rfl)).squeeze S768 squeezes_S1x768_S768) f3 (rowVal i ftok fW ⟨32, by decide⟩)
    ∗ rowOut (F := F) c ((M3.slice (Rect.unit (s := S128x768) ![33, 0] S1x768.size inb_S128x768_S1x768_33_0) (fun _ => rfl)).squeeze S768 squeezes_S1x768_S768) f3 (rowVal i ftok fW ⟨33, by decide⟩)
    ∗ rowOut (F := F) c ((M3.slice (Rect.unit (s := S128x768) ![34, 0] S1x768.size inb_S128x768_S1x768_34_0) (fun _ => rfl)).squeeze S768 squeezes_S1x768_S768) f3 (rowVal i ftok fW ⟨34, by decide⟩)
    ∗ rowOut (F := F) c ((M3.slice (Rect.unit (s := S128x768) ![35, 0] S1x768.size inb_S128x768_S1x768_35_0) (fun _ => rfl)).squeeze S768 squeezes_S1x768_S768) f3 (rowVal i ftok fW ⟨35, by decide⟩)
    ∗ rowOut (F := F) c ((M3.slice (Rect.unit (s := S128x768) ![36, 0] S1x768.size inb_S128x768_S1x768_36_0) (fun _ => rfl)).squeeze S768 squeezes_S1x768_S768) f3 (rowVal i ftok fW ⟨36, by decide⟩)
    ∗ rowOut (F := F) c ((M3.slice (Rect.unit (s := S128x768) ![37, 0] S1x768.size inb_S128x768_S1x768_37_0) (fun _ => rfl)).squeeze S768 squeezes_S1x768_S768) f3 (rowVal i ftok fW ⟨37, by decide⟩)
    ∗ rowOut (F := F) c ((M3.slice (Rect.unit (s := S128x768) ![38, 0] S1x768.size inb_S128x768_S1x768_38_0) (fun _ => rfl)).squeeze S768 squeezes_S1x768_S768) f3 (rowVal i ftok fW ⟨38, by decide⟩)
    ∗ rowOut (F := F) c ((M3.slice (Rect.unit (s := S128x768) ![39, 0] S1x768.size inb_S128x768_S1x768_39_0) (fun _ => rfl)).squeeze S768 squeezes_S1x768_S768) f3 (rowVal i ftok fW ⟨39, by decide⟩)
    ∗ rowOut (F := F) c ((M3.slice (Rect.unit (s := S128x768) ![40, 0] S1x768.size inb_S128x768_S1x768_40_0) (fun _ => rfl)).squeeze S768 squeezes_S1x768_S768) f3 (rowVal i ftok fW ⟨40, by decide⟩)
    ∗ rowOut (F := F) c ((M3.slice (Rect.unit (s := S128x768) ![41, 0] S1x768.size inb_S128x768_S1x768_41_0) (fun _ => rfl)).squeeze S768 squeezes_S1x768_S768) f3 (rowVal i ftok fW ⟨41, by decide⟩)
    ∗ rowOut (F := F) c ((M3.slice (Rect.unit (s := S128x768) ![42, 0] S1x768.size inb_S128x768_S1x768_42_0) (fun _ => rfl)).squeeze S768 squeezes_S1x768_S768) f3 (rowVal i ftok fW ⟨42, by decide⟩)
    ∗ rowOut (F := F) c ((M3.slice (Rect.unit (s := S128x768) ![43, 0] S1x768.size inb_S128x768_S1x768_43_0) (fun _ => rfl)).squeeze S768 squeezes_S1x768_S768) f3 (rowVal i ftok fW ⟨43, by decide⟩)
    ∗ rowOut (F := F) c ((M3.slice (Rect.unit (s := S128x768) ![44, 0] S1x768.size inb_S128x768_S1x768_44_0) (fun _ => rfl)).squeeze S768 squeezes_S1x768_S768) f3 (rowVal i ftok fW ⟨44, by decide⟩)
    ∗ rowOut (F := F) c ((M3.slice (Rect.unit (s := S128x768) ![45, 0] S1x768.size inb_S128x768_S1x768_45_0) (fun _ => rfl)).squeeze S768 squeezes_S1x768_S768) f3 (rowVal i ftok fW ⟨45, by decide⟩)
    ∗ rowOut (F := F) c ((M3.slice (Rect.unit (s := S128x768) ![46, 0] S1x768.size inb_S128x768_S1x768_46_0) (fun _ => rfl)).squeeze S768 squeezes_S1x768_S768) f3 (rowVal i ftok fW ⟨46, by decide⟩)
    ∗ rowOut (F := F) c ((M3.slice (Rect.unit (s := S128x768) ![47, 0] S1x768.size inb_S128x768_S1x768_47_0) (fun _ => rfl)).squeeze S768 squeezes_S1x768_S768) f3 (rowVal i ftok fW ⟨47, by decide⟩)
    ∗ rowOut (F := F) c ((M3.slice (Rect.unit (s := S128x768) ![48, 0] S1x768.size inb_S128x768_S1x768_48_0) (fun _ => rfl)).squeeze S768 squeezes_S1x768_S768) f3 (rowVal i ftok fW ⟨48, by decide⟩)
    ∗ rowOut (F := F) c ((M3.slice (Rect.unit (s := S128x768) ![49, 0] S1x768.size inb_S128x768_S1x768_49_0) (fun _ => rfl)).squeeze S768 squeezes_S1x768_S768) f3 (rowVal i ftok fW ⟨49, by decide⟩)
    ∗ rowOut (F := F) c ((M3.slice (Rect.unit (s := S128x768) ![50, 0] S1x768.size inb_S128x768_S1x768_50_0) (fun _ => rfl)).squeeze S768 squeezes_S1x768_S768) f3 (rowVal i ftok fW ⟨50, by decide⟩)
    ∗ rowOut (F := F) c ((M3.slice (Rect.unit (s := S128x768) ![51, 0] S1x768.size inb_S128x768_S1x768_51_0) (fun _ => rfl)).squeeze S768 squeezes_S1x768_S768) f3 (rowVal i ftok fW ⟨51, by decide⟩)
    ∗ rowOut (F := F) c ((M3.slice (Rect.unit (s := S128x768) ![52, 0] S1x768.size inb_S128x768_S1x768_52_0) (fun _ => rfl)).squeeze S768 squeezes_S1x768_S768) f3 (rowVal i ftok fW ⟨52, by decide⟩)
    ∗ rowOut (F := F) c ((M3.slice (Rect.unit (s := S128x768) ![53, 0] S1x768.size inb_S128x768_S1x768_53_0) (fun _ => rfl)).squeeze S768 squeezes_S1x768_S768) f3 (rowVal i ftok fW ⟨53, by decide⟩)
    ∗ rowOut (F := F) c ((M3.slice (Rect.unit (s := S128x768) ![54, 0] S1x768.size inb_S128x768_S1x768_54_0) (fun _ => rfl)).squeeze S768 squeezes_S1x768_S768) f3 (rowVal i ftok fW ⟨54, by decide⟩)
    ∗ rowOut (F := F) c ((M3.slice (Rect.unit (s := S128x768) ![55, 0] S1x768.size inb_S128x768_S1x768_55_0) (fun _ => rfl)).squeeze S768 squeezes_S1x768_S768) f3 (rowVal i ftok fW ⟨55, by decide⟩)
    ∗ rowOut (F := F) c ((M3.slice (Rect.unit (s := S128x768) ![56, 0] S1x768.size inb_S128x768_S1x768_56_0) (fun _ => rfl)).squeeze S768 squeezes_S1x768_S768) f3 (rowVal i ftok fW ⟨56, by decide⟩)
    ∗ rowOut (F := F) c ((M3.slice (Rect.unit (s := S128x768) ![57, 0] S1x768.size inb_S128x768_S1x768_57_0) (fun _ => rfl)).squeeze S768 squeezes_S1x768_S768) f3 (rowVal i ftok fW ⟨57, by decide⟩)
    ∗ rowOut (F := F) c ((M3.slice (Rect.unit (s := S128x768) ![58, 0] S1x768.size inb_S128x768_S1x768_58_0) (fun _ => rfl)).squeeze S768 squeezes_S1x768_S768) f3 (rowVal i ftok fW ⟨58, by decide⟩)
    ∗ rowOut (F := F) c ((M3.slice (Rect.unit (s := S128x768) ![59, 0] S1x768.size inb_S128x768_S1x768_59_0) (fun _ => rfl)).squeeze S768 squeezes_S1x768_S768) f3 (rowVal i ftok fW ⟨59, by decide⟩)
    ∗ rowOut (F := F) c ((M3.slice (Rect.unit (s := S128x768) ![60, 0] S1x768.size inb_S128x768_S1x768_60_0) (fun _ => rfl)).squeeze S768 squeezes_S1x768_S768) f3 (rowVal i ftok fW ⟨60, by decide⟩)
    ∗ rowOut (F := F) c ((M3.slice (Rect.unit (s := S128x768) ![61, 0] S1x768.size inb_S128x768_S1x768_61_0) (fun _ => rfl)).squeeze S768 squeezes_S1x768_S768) f3 (rowVal i ftok fW ⟨61, by decide⟩)
    ∗ rowOut (F := F) c ((M3.slice (Rect.unit (s := S128x768) ![62, 0] S1x768.size inb_S128x768_S1x768_62_0) (fun _ => rfl)).squeeze S768 squeezes_S1x768_S768) f3 (rowVal i ftok fW ⟨62, by decide⟩)
    ∗ rowOut (F := F) c ((M3.slice (Rect.unit (s := S128x768) ![63, 0] S1x768.size inb_S128x768_S1x768_63_0) (fun _ => rfl)).squeeze S768 squeezes_S1x768_S768) f3 (rowVal i ftok fW ⟨63, by decide⟩)
    ∗ rowOut (F := F) c ((M3.slice (Rect.unit (s := S128x768) ![64, 0] S1x768.size inb_S128x768_S1x768_64_0) (fun _ => rfl)).squeeze S768 squeezes_S1x768_S768) f3 (rowVal i ftok fW ⟨64, by decide⟩)
    ∗ rowOut (F := F) c ((M3.slice (Rect.unit (s := S128x768) ![65, 0] S1x768.size inb_S128x768_S1x768_65_0) (fun _ => rfl)).squeeze S768 squeezes_S1x768_S768) f3 (rowVal i ftok fW ⟨65, by decide⟩)
    ∗ rowOut (F := F) c ((M3.slice (Rect.unit (s := S128x768) ![66, 0] S1x768.size inb_S128x768_S1x768_66_0) (fun _ => rfl)).squeeze S768 squeezes_S1x768_S768) f3 (rowVal i ftok fW ⟨66, by decide⟩)
    ∗ rowOut (F := F) c ((M3.slice (Rect.unit (s := S128x768) ![67, 0] S1x768.size inb_S128x768_S1x768_67_0) (fun _ => rfl)).squeeze S768 squeezes_S1x768_S768) f3 (rowVal i ftok fW ⟨67, by decide⟩)
    ∗ rowOut (F := F) c ((M3.slice (Rect.unit (s := S128x768) ![68, 0] S1x768.size inb_S128x768_S1x768_68_0) (fun _ => rfl)).squeeze S768 squeezes_S1x768_S768) f3 (rowVal i ftok fW ⟨68, by decide⟩)
    ∗ rowOut (F := F) c ((M3.slice (Rect.unit (s := S128x768) ![69, 0] S1x768.size inb_S128x768_S1x768_69_0) (fun _ => rfl)).squeeze S768 squeezes_S1x768_S768) f3 (rowVal i ftok fW ⟨69, by decide⟩)
    ∗ rowOut (F := F) c ((M3.slice (Rect.unit (s := S128x768) ![70, 0] S1x768.size inb_S128x768_S1x768_70_0) (fun _ => rfl)).squeeze S768 squeezes_S1x768_S768) f3 (rowVal i ftok fW ⟨70, by decide⟩)
    ∗ rowOut (F := F) c ((M3.slice (Rect.unit (s := S128x768) ![71, 0] S1x768.size inb_S128x768_S1x768_71_0) (fun _ => rfl)).squeeze S768 squeezes_S1x768_S768) f3 (rowVal i ftok fW ⟨71, by decide⟩)
    ∗ rowOut (F := F) c ((M3.slice (Rect.unit (s := S128x768) ![72, 0] S1x768.size inb_S128x768_S1x768_72_0) (fun _ => rfl)).squeeze S768 squeezes_S1x768_S768) f3 (rowVal i ftok fW ⟨72, by decide⟩)
    ∗ rowOut (F := F) c ((M3.slice (Rect.unit (s := S128x768) ![73, 0] S1x768.size inb_S128x768_S1x768_73_0) (fun _ => rfl)).squeeze S768 squeezes_S1x768_S768) f3 (rowVal i ftok fW ⟨73, by decide⟩)
    ∗ rowOut (F := F) c ((M3.slice (Rect.unit (s := S128x768) ![74, 0] S1x768.size inb_S128x768_S1x768_74_0) (fun _ => rfl)).squeeze S768 squeezes_S1x768_S768) f3 (rowVal i ftok fW ⟨74, by decide⟩)
    ∗ rowOut (F := F) c ((M3.slice (Rect.unit (s := S128x768) ![75, 0] S1x768.size inb_S128x768_S1x768_75_0) (fun _ => rfl)).squeeze S768 squeezes_S1x768_S768) f3 (rowVal i ftok fW ⟨75, by decide⟩)
    ∗ rowOut (F := F) c ((M3.slice (Rect.unit (s := S128x768) ![76, 0] S1x768.size inb_S128x768_S1x768_76_0) (fun _ => rfl)).squeeze S768 squeezes_S1x768_S768) f3 (rowVal i ftok fW ⟨76, by decide⟩)
    ∗ rowOut (F := F) c ((M3.slice (Rect.unit (s := S128x768) ![77, 0] S1x768.size inb_S128x768_S1x768_77_0) (fun _ => rfl)).squeeze S768 squeezes_S1x768_S768) f3 (rowVal i ftok fW ⟨77, by decide⟩)
    ∗ rowOut (F := F) c ((M3.slice (Rect.unit (s := S128x768) ![78, 0] S1x768.size inb_S128x768_S1x768_78_0) (fun _ => rfl)).squeeze S768 squeezes_S1x768_S768) f3 (rowVal i ftok fW ⟨78, by decide⟩)
    ∗ rowOut (F := F) c ((M3.slice (Rect.unit (s := S128x768) ![79, 0] S1x768.size inb_S128x768_S1x768_79_0) (fun _ => rfl)).squeeze S768 squeezes_S1x768_S768) f3 (rowVal i ftok fW ⟨79, by decide⟩)
    ∗ rowOut (F := F) c ((M3.slice (Rect.unit (s := S128x768) ![80, 0] S1x768.size inb_S128x768_S1x768_80_0) (fun _ => rfl)).squeeze S768 squeezes_S1x768_S768) f3 (rowVal i ftok fW ⟨80, by decide⟩)
    ∗ rowOut (F := F) c ((M3.slice (Rect.unit (s := S128x768) ![81, 0] S1x768.size inb_S128x768_S1x768_81_0) (fun _ => rfl)).squeeze S768 squeezes_S1x768_S768) f3 (rowVal i ftok fW ⟨81, by decide⟩)
    ∗ rowOut (F := F) c ((M3.slice (Rect.unit (s := S128x768) ![82, 0] S1x768.size inb_S128x768_S1x768_82_0) (fun _ => rfl)).squeeze S768 squeezes_S1x768_S768) f3 (rowVal i ftok fW ⟨82, by decide⟩)
    ∗ rowOut (F := F) c ((M3.slice (Rect.unit (s := S128x768) ![83, 0] S1x768.size inb_S128x768_S1x768_83_0) (fun _ => rfl)).squeeze S768 squeezes_S1x768_S768) f3 (rowVal i ftok fW ⟨83, by decide⟩)
    ∗ rowOut (F := F) c ((M3.slice (Rect.unit (s := S128x768) ![84, 0] S1x768.size inb_S128x768_S1x768_84_0) (fun _ => rfl)).squeeze S768 squeezes_S1x768_S768) f3 (rowVal i ftok fW ⟨84, by decide⟩)
    ∗ rowOut (F := F) c ((M3.slice (Rect.unit (s := S128x768) ![85, 0] S1x768.size inb_S128x768_S1x768_85_0) (fun _ => rfl)).squeeze S768 squeezes_S1x768_S768) f3 (rowVal i ftok fW ⟨85, by decide⟩)
    ∗ rowOut (F := F) c ((M3.slice (Rect.unit (s := S128x768) ![86, 0] S1x768.size inb_S128x768_S1x768_86_0) (fun _ => rfl)).squeeze S768 squeezes_S1x768_S768) f3 (rowVal i ftok fW ⟨86, by decide⟩)
    ∗ rowOut (F := F) c ((M3.slice (Rect.unit (s := S128x768) ![87, 0] S1x768.size inb_S128x768_S1x768_87_0) (fun _ => rfl)).squeeze S768 squeezes_S1x768_S768) f3 (rowVal i ftok fW ⟨87, by decide⟩)
    ∗ rowOut (F := F) c ((M3.slice (Rect.unit (s := S128x768) ![88, 0] S1x768.size inb_S128x768_S1x768_88_0) (fun _ => rfl)).squeeze S768 squeezes_S1x768_S768) f3 (rowVal i ftok fW ⟨88, by decide⟩)
    ∗ rowOut (F := F) c ((M3.slice (Rect.unit (s := S128x768) ![89, 0] S1x768.size inb_S128x768_S1x768_89_0) (fun _ => rfl)).squeeze S768 squeezes_S1x768_S768) f3 (rowVal i ftok fW ⟨89, by decide⟩)
    ∗ rowOut (F := F) c ((M3.slice (Rect.unit (s := S128x768) ![90, 0] S1x768.size inb_S128x768_S1x768_90_0) (fun _ => rfl)).squeeze S768 squeezes_S1x768_S768) f3 (rowVal i ftok fW ⟨90, by decide⟩)
    ∗ rowOut (F := F) c ((M3.slice (Rect.unit (s := S128x768) ![91, 0] S1x768.size inb_S128x768_S1x768_91_0) (fun _ => rfl)).squeeze S768 squeezes_S1x768_S768) f3 (rowVal i ftok fW ⟨91, by decide⟩)
    ∗ rowOut (F := F) c ((M3.slice (Rect.unit (s := S128x768) ![92, 0] S1x768.size inb_S128x768_S1x768_92_0) (fun _ => rfl)).squeeze S768 squeezes_S1x768_S768) f3 (rowVal i ftok fW ⟨92, by decide⟩)
    ∗ rowOut (F := F) c ((M3.slice (Rect.unit (s := S128x768) ![93, 0] S1x768.size inb_S128x768_S1x768_93_0) (fun _ => rfl)).squeeze S768 squeezes_S1x768_S768) f3 (rowVal i ftok fW ⟨93, by decide⟩)
    ∗ rowOut (F := F) c ((M3.slice (Rect.unit (s := S128x768) ![94, 0] S1x768.size inb_S128x768_S1x768_94_0) (fun _ => rfl)).squeeze S768 squeezes_S1x768_S768) f3 (rowVal i ftok fW ⟨94, by decide⟩)
    ∗ rowOut (F := F) c ((M3.slice (Rect.unit (s := S128x768) ![95, 0] S1x768.size inb_S128x768_S1x768_95_0) (fun _ => rfl)).squeeze S768 squeezes_S1x768_S768) f3 (rowVal i ftok fW ⟨95, by decide⟩)
    ∗ rowOut (F := F) c ((M3.slice (Rect.unit (s := S128x768) ![96, 0] S1x768.size inb_S128x768_S1x768_96_0) (fun _ => rfl)).squeeze S768 squeezes_S1x768_S768) f3 (rowVal i ftok fW ⟨96, by decide⟩)
    ∗ rowOut (F := F) c ((M3.slice (Rect.unit (s := S128x768) ![97, 0] S1x768.size inb_S128x768_S1x768_97_0) (fun _ => rfl)).squeeze S768 squeezes_S1x768_S768) f3 (rowVal i ftok fW ⟨97, by decide⟩)
    ∗ rowOut (F := F) c ((M3.slice (Rect.unit (s := S128x768) ![98, 0] S1x768.size inb_S128x768_S1x768_98_0) (fun _ => rfl)).squeeze S768 squeezes_S1x768_S768) f3 (rowVal i ftok fW ⟨98, by decide⟩)
    ∗ rowOut (F := F) c ((M3.slice (Rect.unit (s := S128x768) ![99, 0] S1x768.size inb_S128x768_S1x768_99_0) (fun _ => rfl)).squeeze S768 squeezes_S1x768_S768) f3 (rowVal i ftok fW ⟨99, by decide⟩)
    ∗ rowOut (F := F) c ((M3.slice (Rect.unit (s := S128x768) ![100, 0] S1x768.size inb_S128x768_S1x768_100_0) (fun _ => rfl)).squeeze S768 squeezes_S1x768_S768) f3 (rowVal i ftok fW ⟨100, by decide⟩)
    ∗ rowOut (F := F) c ((M3.slice (Rect.unit (s := S128x768) ![101, 0] S1x768.size inb_S128x768_S1x768_101_0) (fun _ => rfl)).squeeze S768 squeezes_S1x768_S768) f3 (rowVal i ftok fW ⟨101, by decide⟩)
    ∗ rowOut (F := F) c ((M3.slice (Rect.unit (s := S128x768) ![102, 0] S1x768.size inb_S128x768_S1x768_102_0) (fun _ => rfl)).squeeze S768 squeezes_S1x768_S768) f3 (rowVal i ftok fW ⟨102, by decide⟩)
    ∗ rowOut (F := F) c ((M3.slice (Rect.unit (s := S128x768) ![103, 0] S1x768.size inb_S128x768_S1x768_103_0) (fun _ => rfl)).squeeze S768 squeezes_S1x768_S768) f3 (rowVal i ftok fW ⟨103, by decide⟩)
    ∗ rowOut (F := F) c ((M3.slice (Rect.unit (s := S128x768) ![104, 0] S1x768.size inb_S128x768_S1x768_104_0) (fun _ => rfl)).squeeze S768 squeezes_S1x768_S768) f3 (rowVal i ftok fW ⟨104, by decide⟩)
    ∗ rowOut (F := F) c ((M3.slice (Rect.unit (s := S128x768) ![105, 0] S1x768.size inb_S128x768_S1x768_105_0) (fun _ => rfl)).squeeze S768 squeezes_S1x768_S768) f3 (rowVal i ftok fW ⟨105, by decide⟩)
    ∗ rowOut (F := F) c ((M3.slice (Rect.unit (s := S128x768) ![106, 0] S1x768.size inb_S128x768_S1x768_106_0) (fun _ => rfl)).squeeze S768 squeezes_S1x768_S768) f3 (rowVal i ftok fW ⟨106, by decide⟩)
    ∗ rowOut (F := F) c ((M3.slice (Rect.unit (s := S128x768) ![107, 0] S1x768.size inb_S128x768_S1x768_107_0) (fun _ => rfl)).squeeze S768 squeezes_S1x768_S768) f3 (rowVal i ftok fW ⟨107, by decide⟩)
    ∗ rowOut (F := F) c ((M3.slice (Rect.unit (s := S128x768) ![108, 0] S1x768.size inb_S128x768_S1x768_108_0) (fun _ => rfl)).squeeze S768 squeezes_S1x768_S768) f3 (rowVal i ftok fW ⟨108, by decide⟩)
    ∗ rowOut (F := F) c ((M3.slice (Rect.unit (s := S128x768) ![109, 0] S1x768.size inb_S128x768_S1x768_109_0) (fun _ => rfl)).squeeze S768 squeezes_S1x768_S768) f3 (rowVal i ftok fW ⟨109, by decide⟩)
    ∗ rowOut (F := F) c ((M3.slice (Rect.unit (s := S128x768) ![110, 0] S1x768.size inb_S128x768_S1x768_110_0) (fun _ => rfl)).squeeze S768 squeezes_S1x768_S768) f3 (rowVal i ftok fW ⟨110, by decide⟩)
    ∗ rowOut (F := F) c ((M3.slice (Rect.unit (s := S128x768) ![111, 0] S1x768.size inb_S128x768_S1x768_111_0) (fun _ => rfl)).squeeze S768 squeezes_S1x768_S768) f3 (rowVal i ftok fW ⟨111, by decide⟩)
    ∗ rowOut (F := F) c ((M3.slice (Rect.unit (s := S128x768) ![112, 0] S1x768.size inb_S128x768_S1x768_112_0) (fun _ => rfl)).squeeze S768 squeezes_S1x768_S768) f3 (rowVal i ftok fW ⟨112, by decide⟩)
    ∗ rowOut (F := F) c ((M3.slice (Rect.unit (s := S128x768) ![113, 0] S1x768.size inb_S128x768_S1x768_113_0) (fun _ => rfl)).squeeze S768 squeezes_S1x768_S768) f3 (rowVal i ftok fW ⟨113, by decide⟩)
    ∗ rowOut (F := F) c ((M3.slice (Rect.unit (s := S128x768) ![114, 0] S1x768.size inb_S128x768_S1x768_114_0) (fun _ => rfl)).squeeze S768 squeezes_S1x768_S768) f3 (rowVal i ftok fW ⟨114, by decide⟩)
    ∗ rowOut (F := F) c ((M3.slice (Rect.unit (s := S128x768) ![115, 0] S1x768.size inb_S128x768_S1x768_115_0) (fun _ => rfl)).squeeze S768 squeezes_S1x768_S768) f3 (rowVal i ftok fW ⟨115, by decide⟩)
    ∗ rowOut (F := F) c ((M3.slice (Rect.unit (s := S128x768) ![116, 0] S1x768.size inb_S128x768_S1x768_116_0) (fun _ => rfl)).squeeze S768 squeezes_S1x768_S768) f3 (rowVal i ftok fW ⟨116, by decide⟩)
    ∗ rowOut (F := F) c ((M3.slice (Rect.unit (s := S128x768) ![117, 0] S1x768.size inb_S128x768_S1x768_117_0) (fun _ => rfl)).squeeze S768 squeezes_S1x768_S768) f3 (rowVal i ftok fW ⟨117, by decide⟩)
    ∗ rowOut (F := F) c ((M3.slice (Rect.unit (s := S128x768) ![118, 0] S1x768.size inb_S128x768_S1x768_118_0) (fun _ => rfl)).squeeze S768 squeezes_S1x768_S768) f3 (rowVal i ftok fW ⟨118, by decide⟩)
    ∗ rowOut (F := F) c ((M3.slice (Rect.unit (s := S128x768) ![119, 0] S1x768.size inb_S128x768_S1x768_119_0) (fun _ => rfl)).squeeze S768 squeezes_S1x768_S768) f3 (rowVal i ftok fW ⟨119, by decide⟩)
    ∗ rowOut (F := F) c ((M3.slice (Rect.unit (s := S128x768) ![120, 0] S1x768.size inb_S128x768_S1x768_120_0) (fun _ => rfl)).squeeze S768 squeezes_S1x768_S768) f3 (rowVal i ftok fW ⟨120, by decide⟩)
    ∗ rowOut (F := F) c ((M3.slice (Rect.unit (s := S128x768) ![121, 0] S1x768.size inb_S128x768_S1x768_121_0) (fun _ => rfl)).squeeze S768 squeezes_S1x768_S768) f3 (rowVal i ftok fW ⟨121, by decide⟩)
    ∗ rowOut (F := F) c ((M3.slice (Rect.unit (s := S128x768) ![122, 0] S1x768.size inb_S128x768_S1x768_122_0) (fun _ => rfl)).squeeze S768 squeezes_S1x768_S768) f3 (rowVal i ftok fW ⟨122, by decide⟩)
    ∗ rowOut (F := F) c ((M3.slice (Rect.unit (s := S128x768) ![123, 0] S1x768.size inb_S128x768_S1x768_123_0) (fun _ => rfl)).squeeze S768 squeezes_S1x768_S768) f3 (rowVal i ftok fW ⟨123, by decide⟩)
    ∗ rowOut (F := F) c ((M3.slice (Rect.unit (s := S128x768) ![124, 0] S1x768.size inb_S128x768_S1x768_124_0) (fun _ => rfl)).squeeze S768 squeezes_S1x768_S768) f3 (rowVal i ftok fW ⟨124, by decide⟩)
    ∗ rowOut (F := F) c ((M3.slice (Rect.unit (s := S128x768) ![125, 0] S1x768.size inb_S128x768_S1x768_125_0) (fun _ => rfl)).squeeze S768 squeezes_S1x768_S768) f3 (rowVal i ftok fW ⟨125, by decide⟩)
    ∗ rowOut (F := F) c ((M3.slice (Rect.unit (s := S128x768) ![126, 0] S1x768.size inb_S128x768_S1x768_126_0) (fun _ => rfl)).squeeze S768 squeezes_S1x768_S768) f3 (rowVal i ftok fW ⟨126, by decide⟩)
    ∗ rowOut (F := F) c ((M3.slice (Rect.unit (s := S128x768) ![127, 0] S1x768.size inb_S128x768_S1x768_127_0) (fun _ => rfl)).squeeze S768 squeezes_S1x768_S768) f3 (rowVal i ftok fW ⟨127, by decide⟩))

set_option maxRecDepth 65536 in
theorem toksChain_eq (c : Dev nD) (fW : Bf (F := F) c (Memref.whole main_arg1)) :
    toksChain c fW = bigSepL (List.finRange 128) (tokH (F := F) c fW) := rfl
set_option maxRecDepth 65536 in
theorem rowsInChain_eq (c : Dev nD) (M3 : Memref sig .tc .vmem S128x768 .f32) (f3 : Buf (Elt F) (M3.view.loc (c : Thread nD τ))) :
    rowsInChain c M3 f3 = bigSepL (List.finRange 128) (rowH (F := F) c M3 f3) := rfl
set_option maxRecDepth 65536 in
theorem semsChain_eq (c : Dev nD) :
    semsChain (F := F) c = bigSepL (List.finRange 128) (semH (F := F) c) := rfl
set_option maxRecDepth 65536 in
theorem rowsOutChain_eq (c : Dev nD) (i : grid0.Coords) (M3 : Memref sig .tc .vmem S128x768 .f32) (ftok : Bf (F := F) c (Memref.whole main_v0))
    (fW : Bf (F := F) c (Memref.whole main_arg1)) (f3 : Buf (Elt F) (M3.view.loc (c : Thread nD τ))) :
    rowsOutChain c i M3 ftok fW f3 = bigSepL (List.finRange 128) (rowOutH (F := F) c i M3 ftok fW f3) := rfl

set_option maxHeartbeats 40000000 in
set_option maxRecDepth 65536 in
theorem kernelRunRows (c : Dev nD) (i : grid0.Coords) (M3 : Memref sig .tc .vmem S128x768 .f32) (h3 : M3.IsWhole)
    (ftok : Bf (F := F) c (Memref.whole main_v0)) (fW : Bf (F := F) c (Memref.whole main_arg1))
    (f3 : Buf (Elt F) (M3.view.loc (c : Thread nD τ)))
    (htok : ∀ y : S32768.Idx, (ftok y).toNat < 50257)
    (W : Waits sig Unit) (Q : PUnit → sProp 𝕄) :
    iprop(pt c (Memref.whole main_v0) ftok ∗ toksChain c fW ∗ rowsInChain c M3 f3 ∗ semsChain (F := F) c ∗ owes (c : Thread nD τ) 0 W
        ∗ (iprop(pt c (Memref.whole main_v0) ftok ∗ toksChain c fW ∗ rowsOutChain c i M3 ftok fW f3 ∗ semsChain (F := F) c
              ∗ ∃ W, owes (c : Thread nD τ) 0 W) -∗ Q ⟨⟩))
    ⊢ wp frame (wpE (defs₀ (F := F)) Variants.none c none) Set.univ
        (cc0__gather_kernel i (Memref.whole main_v0) (Memref.isWhole_whole _) (Memref.whole main_arg1) (Memref.isWhole_whole _) M3 h3 cc0_scratch0) Q := by
  unfold toksChain rowsInChain semsChain rowsOutChain
  iintro ⟨Ht, ⟨HW0, HW1, HW2, HW3, HW4, HW5, HW6, HW7, HW8, HW9, HW10, HW11, HW12, HW13, HW14, HW15, HW16, HW17, HW18, HW19, HW20, HW21, HW22, HW23, HW24, HW25, HW26, HW27, HW28, HW29, HW30, HW31, HW32, HW33, HW34, HW35, HW36, HW37, HW38, HW39, HW40, HW41, HW42, HW43, HW44, HW45, HW46, HW47, HW48, HW49, HW50, HW51, HW52, HW53, HW54, HW55, HW56, HW57, HW58, HW59, HW60, HW61, HW62, HW63, HW64, HW65, HW66, HW67, HW68, HW69, HW70, HW71, HW72, HW73, HW74, HW75, HW76, HW77, HW78, HW79, HW80, HW81, HW82, HW83, HW84, HW85, HW86, HW87, HW88, HW89, HW90, HW91, HW92, HW93, HW94, HW95, HW96, HW97, HW98, HW99, HW100, HW101, HW102, HW103, HW104, HW105, HW106, HW107, HW108, HW109, HW110, HW111, HW112, HW113, HW114, HW115, HW116, HW117, HW118, HW119, HW120, HW121, HW122, HW123, HW124, HW125, HW126, HW127⟩, ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32, HR33, HR34, HR35, HR36, HR37, HR38, HR39, HR40, HR41, HR42, HR43, HR44, HR45, HR46, HR47, HR48, HR49, HR50, HR51, HR52, HR53, HR54, HR55, HR56, HR57, HR58, HR59, HR60, HR61, HR62, HR63, HR64, HR65, HR66, HR67, HR68, HR69, HR70, HR71, HR72, HR73, HR74, HR75, HR76, HR77, HR78, HR79, HR80, HR81, HR82, HR83, HR84, HR85, HR86, HR87, HR88, HR89, HR90, HR91, HR92, HR93, HR94, HR95, HR96, HR97, HR98, HR99, HR100, HR101, HR102, HR103, HR104, HR105, HR106, HR107, HR108, HR109, HR110, HR111, HR112, HR113, HR114, HR115, HR116, HR117, HR118, HR119, HR120, HR121, HR122, HR123, HR124, HR125, HR126, HR127⟩, ⟨HS0, HS1, HS2, HS3, HS4, HS5, HS6, HS7, HS8, HS9, HS10, HS11, HS12, HS13, HS14, HS15, HS16, HS17, HS18, HS19, HS20, HS21, HS22, HS23, HS24, HS25, HS26, HS27, HS28, HS29, HS30, HS31, HS32, HS33, HS34, HS35, HS36, HS37, HS38, HS39, HS40, HS41, HS42, HS43, HS44, HS45, HS46, HS47, HS48, HS49, HS50, HS51, HS52, HS53, HS54, HS55, HS56, HS57, HS58, HS59, HS60, HS61, HS62, HS63, HS64, HS65, HS66, HS67, HS68, HS69, HS70, HS71, HS72, HS73, HS74, HS75, HS76, HS77, HS78, HS79, HS80, HS81, HS82, HS83, HS84, HS85, HS86, HS87, HS88, HS89, HS90, HS91, HS92, HS93, HS94, HS95, HS96, HS97, HS98, HS99, HS100, HS101, HS102, HS103, HS104, HS105, HS106, HS107, HS108, HS109, HS110, HS111, HS112, HS113, HS114, HS115, HS116, HS117, HS118, HS119, HS120, HS121, HS122, HS123, HS124, HS125, HS126, HS127⟩, HO, Hk⟩
  sl_exec_parts! (disch := exact chk_of_lt _ (htok _))
  sl_step
  iapply Hk
  isplitl [Ht]; · iexact Ht
  isplitl [HW0 HW1 HW2 HW3 HW4 HW5 HW6 HW7 HW8 HW9 HW10 HW11 HW12 HW13 HW14 HW15 HW16 HW17 HW18 HW19 HW20 HW21 HW22 HW23 HW24 HW25 HW26 HW27 HW28 HW29 HW30 HW31 HW32 HW33 HW34 HW35 HW36 HW37 HW38 HW39 HW40 HW41 HW42 HW43 HW44 HW45 HW46 HW47 HW48 HW49 HW50 HW51 HW52 HW53 HW54 HW55 HW56 HW57 HW58 HW59 HW60 HW61 HW62 HW63 HW64 HW65 HW66 HW67 HW68 HW69 HW70 HW71 HW72 HW73 HW74 HW75 HW76 HW77 HW78 HW79 HW80 HW81 HW82 HW83 HW84 HW85 HW86 HW87 HW88 HW89 HW90 HW91 HW92 HW93 HW94 HW95 HW96 HW97 HW98 HW99 HW100 HW101 HW102 HW103 HW104 HW105 HW106 HW107 HW108 HW109 HW110 HW111 HW112 HW113 HW114 HW115 HW116 HW117 HW118 HW119 HW120 HW121 HW122 HW123 HW124 HW125 HW126 HW127]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    isplitl [HW8]; · iexact HW8
    isplitl [HW9]; · iexact HW9
    isplitl [HW10]; · iexact HW10
    isplitl [HW11]; · iexact HW11
    isplitl [HW12]; · iexact HW12
    isplitl [HW13]; · iexact HW13
    isplitl [HW14]; · iexact HW14
    isplitl [HW15]; · iexact HW15
    isplitl [HW16]; · iexact HW16
    isplitl [HW17]; · iexact HW17
    isplitl [HW18]; · iexact HW18
    isplitl [HW19]; · iexact HW19
    isplitl [HW20]; · iexact HW20
    isplitl [HW21]; · iexact HW21
    isplitl [HW22]; · iexact HW22
    isplitl [HW23]; · iexact HW23
    isplitl [HW24]; · iexact HW24
    isplitl [HW25]; · iexact HW25
    isplitl [HW26]; · iexact HW26
    isplitl [HW27]; · iexact HW27
    isplitl [HW28]; · iexact HW28
    isplitl [HW29]; · iexact HW29
    isplitl [HW30]; · iexact HW30
    isplitl [HW31]; · iexact HW31
    isplitl [HW32]; · iexact HW32
    isplitl [HW33]; · iexact HW33
    isplitl [HW34]; · iexact HW34
    isplitl [HW35]; · iexact HW35
    isplitl [HW36]; · iexact HW36
    isplitl [HW37]; · iexact HW37
    isplitl [HW38]; · iexact HW38
    isplitl [HW39]; · iexact HW39
    isplitl [HW40]; · iexact HW40
    isplitl [HW41]; · iexact HW41
    isplitl [HW42]; · iexact HW42
    isplitl [HW43]; · iexact HW43
    isplitl [HW44]; · iexact HW44
    isplitl [HW45]; · iexact HW45
    isplitl [HW46]; · iexact HW46
    isplitl [HW47]; · iexact HW47
    isplitl [HW48]; · iexact HW48
    isplitl [HW49]; · iexact HW49
    isplitl [HW50]; · iexact HW50
    isplitl [HW51]; · iexact HW51
    isplitl [HW52]; · iexact HW52
    isplitl [HW53]; · iexact HW53
    isplitl [HW54]; · iexact HW54
    isplitl [HW55]; · iexact HW55
    isplitl [HW56]; · iexact HW56
    isplitl [HW57]; · iexact HW57
    isplitl [HW58]; · iexact HW58
    isplitl [HW59]; · iexact HW59
    isplitl [HW60]; · iexact HW60
    isplitl [HW61]; · iexact HW61
    isplitl [HW62]; · iexact HW62
    isplitl [HW63]; · iexact HW63
    isplitl [HW64]; · iexact HW64
    isplitl [HW65]; · iexact HW65
    isplitl [HW66]; · iexact HW66
    isplitl [HW67]; · iexact HW67
    isplitl [HW68]; · iexact HW68
    isplitl [HW69]; · iexact HW69
    isplitl [HW70]; · iexact HW70
    isplitl [HW71]; · iexact HW71
    isplitl [HW72]; · iexact HW72
    isplitl [HW73]; · iexact HW73
    isplitl [HW74]; · iexact HW74
    isplitl [HW75]; · iexact HW75
    isplitl [HW76]; · iexact HW76
    isplitl [HW77]; · iexact HW77
    isplitl [HW78]; · iexact HW78
    isplitl [HW79]; · iexact HW79
    isplitl [HW80]; · iexact HW80
    isplitl [HW81]; · iexact HW81
    isplitl [HW82]; · iexact HW82
    isplitl [HW83]; · iexact HW83
    isplitl [HW84]; · iexact HW84
    isplitl [HW85]; · iexact HW85
    isplitl [HW86]; · iexact HW86
    isplitl [HW87]; · iexact HW87
    isplitl [HW88]; · iexact HW88
    isplitl [HW89]; · iexact HW89
    isplitl [HW90]; · iexact HW90
    isplitl [HW91]; · iexact HW91
    isplitl [HW92]; · iexact HW92
    isplitl [HW93]; · iexact HW93
    isplitl [HW94]; · iexact HW94
    isplitl [HW95]; · iexact HW95
    isplitl [HW96]; · iexact HW96
    isplitl [HW97]; · iexact HW97
    isplitl [HW98]; · iexact HW98
    isplitl [HW99]; · iexact HW99
    isplitl [HW100]; · iexact HW100
    isplitl [HW101]; · iexact HW101
    isplitl [HW102]; · iexact HW102
    isplitl [HW103]; · iexact HW103
    isplitl [HW104]; · iexact HW104
    isplitl [HW105]; · iexact HW105
    isplitl [HW106]; · iexact HW106
    isplitl [HW107]; · iexact HW107
    isplitl [HW108]; · iexact HW108
    isplitl [HW109]; · iexact HW109
    isplitl [HW110]; · iexact HW110
    isplitl [HW111]; · iexact HW111
    isplitl [HW112]; · iexact HW112
    isplitl [HW113]; · iexact HW113
    isplitl [HW114]; · iexact HW114
    isplitl [HW115]; · iexact HW115
    isplitl [HW116]; · iexact HW116
    isplitl [HW117]; · iexact HW117
    isplitl [HW118]; · iexact HW118
    isplitl [HW119]; · iexact HW119
    isplitl [HW120]; · iexact HW120
    isplitl [HW121]; · iexact HW121
    isplitl [HW122]; · iexact HW122
    isplitl [HW123]; · iexact HW123
    isplitl [HW124]; · iexact HW124
    isplitl [HW125]; · iexact HW125
    isplitl [HW126]; · iexact HW126
    iexact HW127
  isplitl [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 HR33 HR34 HR35 HR36 HR37 HR38 HR39 HR40 HR41 HR42 HR43 HR44 HR45 HR46 HR47 HR48 HR49 HR50 HR51 HR52 HR53 HR54 HR55 HR56 HR57 HR58 HR59 HR60 HR61 HR62 HR63 HR64 HR65 HR66 HR67 HR68 HR69 HR70 HR71 HR72 HR73 HR74 HR75 HR76 HR77 HR78 HR79 HR80 HR81 HR82 HR83 HR84 HR85 HR86 HR87 HR88 HR89 HR90 HR91 HR92 HR93 HR94 HR95 HR96 HR97 HR98 HR99 HR100 HR101 HR102 HR103 HR104 HR105 HR106 HR107 HR108 HR109 HR110 HR111 HR112 HR113 HR114 HR115 HR116 HR117 HR118 HR119 HR120 HR121 HR122 HR123 HR124 HR125 HR126 HR127]
  · isplitl [HR0]; · (unfold rowOut; iexists _; isplitr; swap; (· iexact HR0); ipureintro; exact payload_fact c i ftok fW htok ⟨0, by decide⟩ _ (k0_off1_eq i) _ _ _)
    isplitl [HR1]; · (unfold rowOut; iexists _; isplitr; swap; (· iexact HR1); ipureintro; exact payload_fact c i ftok fW htok ⟨1, by decide⟩ _ (k0_off3_eq i) _ _ _)
    isplitl [HR2]; · (unfold rowOut; iexists _; isplitr; swap; (· iexact HR2); ipureintro; exact payload_fact c i ftok fW htok ⟨2, by decide⟩ _ (k0_off5_eq i) _ _ _)
    isplitl [HR3]; · (unfold rowOut; iexists _; isplitr; swap; (· iexact HR3); ipureintro; exact payload_fact c i ftok fW htok ⟨3, by decide⟩ _ (k0_off7_eq i) _ _ _)
    isplitl [HR4]; · (unfold rowOut; iexists _; isplitr; swap; (· iexact HR4); ipureintro; exact payload_fact c i ftok fW htok ⟨4, by decide⟩ _ (k0_off9_eq i) _ _ _)
    isplitl [HR5]; · (unfold rowOut; iexists _; isplitr; swap; (· iexact HR5); ipureintro; exact payload_fact c i ftok fW htok ⟨5, by decide⟩ _ (k0_off11_eq i) _ _ _)
    isplitl [HR6]; · (unfold rowOut; iexists _; isplitr; swap; (· iexact HR6); ipureintro; exact payload_fact c i ftok fW htok ⟨6, by decide⟩ _ (k0_off13_eq i) _ _ _)
    isplitl [HR7]; · (unfold rowOut; iexists _; isplitr; swap; (· iexact HR7); ipureintro; exact payload_fact c i ftok fW htok ⟨7, by decide⟩ _ (k0_off15_eq i) _ _ _)
    isplitl [HR8]; · (unfold rowOut; iexists _; isplitr; swap; (· iexact HR8); ipureintro; exact payload_fact c i ftok fW htok ⟨8, by decide⟩ _ (k0_off17_eq i) _ _ _)
    isplitl [HR9]; · (unfold rowOut; iexists _; isplitr; swap; (· iexact HR9); ipureintro; exact payload_fact c i ftok fW htok ⟨9, by decide⟩ _ (k0_off19_eq i) _ _ _)
    isplitl [HR10]; · (unfold rowOut; iexists _; isplitr; swap; (· iexact HR10); ipureintro; exact payload_fact c i ftok fW htok ⟨10, by decide⟩ _ (k0_off21_eq i) _ _ _)
    isplitl [HR11]; · (unfold rowOut; iexists _; isplitr; swap; (· iexact HR11); ipureintro; exact payload_fact c i ftok fW htok ⟨11, by decide⟩ _ (k0_off23_eq i) _ _ _)
    isplitl [HR12]; · (unfold rowOut; iexists _; isplitr; swap; (· iexact HR12); ipureintro; exact payload_fact c i ftok fW htok ⟨12, by decide⟩ _ (k0_off25_eq i) _ _ _)
    isplitl [HR13]; · (unfold rowOut; iexists _; isplitr; swap; (· iexact HR13); ipureintro; exact payload_fact c i ftok fW htok ⟨13, by decide⟩ _ (k0_off27_eq i) _ _ _)
    isplitl [HR14]; · (unfold rowOut; iexists _; isplitr; swap; (· iexact HR14); ipureintro; exact payload_fact c i ftok fW htok ⟨14, by decide⟩ _ (k0_off29_eq i) _ _ _)
    isplitl [HR15]; · (unfold rowOut; iexists _; isplitr; swap; (· iexact HR15); ipureintro; exact payload_fact c i ftok fW htok ⟨15, by decide⟩ _ (k0_off31_eq i) _ _ _)
    isplitl [HR16]; · (unfold rowOut; iexists _; isplitr; swap; (· iexact HR16); ipureintro; exact payload_fact c i ftok fW htok ⟨16, by decide⟩ _ (k0_off33_eq i) _ _ _)
    isplitl [HR17]; · (unfold rowOut; iexists _; isplitr; swap; (· iexact HR17); ipureintro; exact payload_fact c i ftok fW htok ⟨17, by decide⟩ _ (k0_off35_eq i) _ _ _)
    isplitl [HR18]; · (unfold rowOut; iexists _; isplitr; swap; (· iexact HR18); ipureintro; exact payload_fact c i ftok fW htok ⟨18, by decide⟩ _ (k0_off37_eq i) _ _ _)
    isplitl [HR19]; · (unfold rowOut; iexists _; isplitr; swap; (· iexact HR19); ipureintro; exact payload_fact c i ftok fW htok ⟨19, by decide⟩ _ (k0_off39_eq i) _ _ _)
    isplitl [HR20]; · (unfold rowOut; iexists _; isplitr; swap; (· iexact HR20); ipureintro; exact payload_fact c i ftok fW htok ⟨20, by decide⟩ _ (k0_off41_eq i) _ _ _)
    isplitl [HR21]; · (unfold rowOut; iexists _; isplitr; swap; (· iexact HR21); ipureintro; exact payload_fact c i ftok fW htok ⟨21, by decide⟩ _ (k0_off43_eq i) _ _ _)
    isplitl [HR22]; · (unfold rowOut; iexists _; isplitr; swap; (· iexact HR22); ipureintro; exact payload_fact c i ftok fW htok ⟨22, by decide⟩ _ (k0_off45_eq i) _ _ _)
    isplitl [HR23]; · (unfold rowOut; iexists _; isplitr; swap; (· iexact HR23); ipureintro; exact payload_fact c i ftok fW htok ⟨23, by decide⟩ _ (k0_off47_eq i) _ _ _)
    isplitl [HR24]; · (unfold rowOut; iexists _; isplitr; swap; (· iexact HR24); ipureintro; exact payload_fact c i ftok fW htok ⟨24, by decide⟩ _ (k0_off49_eq i) _ _ _)
    isplitl [HR25]; · (unfold rowOut; iexists _; isplitr; swap; (· iexact HR25); ipureintro; exact payload_fact c i ftok fW htok ⟨25, by decide⟩ _ (k0_off51_eq i) _ _ _)
    isplitl [HR26]; · (unfold rowOut; iexists _; isplitr; swap; (· iexact HR26); ipureintro; exact payload_fact c i ftok fW htok ⟨26, by decide⟩ _ (k0_off53_eq i) _ _ _)
    isplitl [HR27]; · (unfold rowOut; iexists _; isplitr; swap; (· iexact HR27); ipureintro; exact payload_fact c i ftok fW htok ⟨27, by decide⟩ _ (k0_off55_eq i) _ _ _)
    isplitl [HR28]; · (unfold rowOut; iexists _; isplitr; swap; (· iexact HR28); ipureintro; exact payload_fact c i ftok fW htok ⟨28, by decide⟩ _ (k0_off57_eq i) _ _ _)
    isplitl [HR29]; · (unfold rowOut; iexists _; isplitr; swap; (· iexact HR29); ipureintro; exact payload_fact c i ftok fW htok ⟨29, by decide⟩ _ (k0_off59_eq i) _ _ _)
    isplitl [HR30]; · (unfold rowOut; iexists _; isplitr; swap; (· iexact HR30); ipureintro; exact payload_fact c i ftok fW htok ⟨30, by decide⟩ _ (k0_off61_eq i) _ _ _)
    isplitl [HR31]; · (unfold rowOut; iexists _; isplitr; swap; (· iexact HR31); ipureintro; exact payload_fact c i ftok fW htok ⟨31, by decide⟩ _ (k0_off63_eq i) _ _ _)
    isplitl [HR32]; · (unfold rowOut; iexists _; isplitr; swap; (· iexact HR32); ipureintro; exact payload_fact c i ftok fW htok ⟨32, by decide⟩ _ (k0_off65_eq i) _ _ _)
    isplitl [HR33]; · (unfold rowOut; iexists _; isplitr; swap; (· iexact HR33); ipureintro; exact payload_fact c i ftok fW htok ⟨33, by decide⟩ _ (k0_off67_eq i) _ _ _)
    isplitl [HR34]; · (unfold rowOut; iexists _; isplitr; swap; (· iexact HR34); ipureintro; exact payload_fact c i ftok fW htok ⟨34, by decide⟩ _ (k0_off69_eq i) _ _ _)
    isplitl [HR35]; · (unfold rowOut; iexists _; isplitr; swap; (· iexact HR35); ipureintro; exact payload_fact c i ftok fW htok ⟨35, by decide⟩ _ (k0_off71_eq i) _ _ _)
    isplitl [HR36]; · (unfold rowOut; iexists _; isplitr; swap; (· iexact HR36); ipureintro; exact payload_fact c i ftok fW htok ⟨36, by decide⟩ _ (k0_off73_eq i) _ _ _)
    isplitl [HR37]; · (unfold rowOut; iexists _; isplitr; swap; (· iexact HR37); ipureintro; exact payload_fact c i ftok fW htok ⟨37, by decide⟩ _ (k0_off75_eq i) _ _ _)
    isplitl [HR38]; · (unfold rowOut; iexists _; isplitr; swap; (· iexact HR38); ipureintro; exact payload_fact c i ftok fW htok ⟨38, by decide⟩ _ (k0_off77_eq i) _ _ _)
    isplitl [HR39]; · (unfold rowOut; iexists _; isplitr; swap; (· iexact HR39); ipureintro; exact payload_fact c i ftok fW htok ⟨39, by decide⟩ _ (k0_off79_eq i) _ _ _)
    isplitl [HR40]; · (unfold rowOut; iexists _; isplitr; swap; (· iexact HR40); ipureintro; exact payload_fact c i ftok fW htok ⟨40, by decide⟩ _ (k0_off81_eq i) _ _ _)
    isplitl [HR41]; · (unfold rowOut; iexists _; isplitr; swap; (· iexact HR41); ipureintro; exact payload_fact c i ftok fW htok ⟨41, by decide⟩ _ (k0_off83_eq i) _ _ _)
    isplitl [HR42]; · (unfold rowOut; iexists _; isplitr; swap; (· iexact HR42); ipureintro; exact payload_fact c i ftok fW htok ⟨42, by decide⟩ _ (k0_off85_eq i) _ _ _)
    isplitl [HR43]; · (unfold rowOut; iexists _; isplitr; swap; (· iexact HR43); ipureintro; exact payload_fact c i ftok fW htok ⟨43, by decide⟩ _ (k0_off87_eq i) _ _ _)
    isplitl [HR44]; · (unfold rowOut; iexists _; isplitr; swap; (· iexact HR44); ipureintro; exact payload_fact c i ftok fW htok ⟨44, by decide⟩ _ (k0_off89_eq i) _ _ _)
    isplitl [HR45]; · (unfold rowOut; iexists _; isplitr; swap; (· iexact HR45); ipureintro; exact payload_fact c i ftok fW htok ⟨45, by decide⟩ _ (k0_off91_eq i) _ _ _)
    isplitl [HR46]; · (unfold rowOut; iexists _; isplitr; swap; (· iexact HR46); ipureintro; exact payload_fact c i ftok fW htok ⟨46, by decide⟩ _ (k0_off93_eq i) _ _ _)
    isplitl [HR47]; · (unfold rowOut; iexists _; isplitr; swap; (· iexact HR47); ipureintro; exact payload_fact c i ftok fW htok ⟨47, by decide⟩ _ (k0_off95_eq i) _ _ _)
    isplitl [HR48]; · (unfold rowOut; iexists _; isplitr; swap; (· iexact HR48); ipureintro; exact payload_fact c i ftok fW htok ⟨48, by decide⟩ _ (k0_off97_eq i) _ _ _)
    isplitl [HR49]; · (unfold rowOut; iexists _; isplitr; swap; (· iexact HR49); ipureintro; exact payload_fact c i ftok fW htok ⟨49, by decide⟩ _ (k0_off99_eq i) _ _ _)
    isplitl [HR50]; · (unfold rowOut; iexists _; isplitr; swap; (· iexact HR50); ipureintro; exact payload_fact c i ftok fW htok ⟨50, by decide⟩ _ (k0_off101_eq i) _ _ _)
    isplitl [HR51]; · (unfold rowOut; iexists _; isplitr; swap; (· iexact HR51); ipureintro; exact payload_fact c i ftok fW htok ⟨51, by decide⟩ _ (k0_off103_eq i) _ _ _)
    isplitl [HR52]; · (unfold rowOut; iexists _; isplitr; swap; (· iexact HR52); ipureintro; exact payload_fact c i ftok fW htok ⟨52, by decide⟩ _ (k0_off105_eq i) _ _ _)
    isplitl [HR53]; · (unfold rowOut; iexists _; isplitr; swap; (· iexact HR53); ipureintro; exact payload_fact c i ftok fW htok ⟨53, by decide⟩ _ (k0_off107_eq i) _ _ _)
    isplitl [HR54]; · (unfold rowOut; iexists _; isplitr; swap; (· iexact HR54); ipureintro; exact payload_fact c i ftok fW htok ⟨54, by decide⟩ _ (k0_off109_eq i) _ _ _)
    isplitl [HR55]; · (unfold rowOut; iexists _; isplitr; swap; (· iexact HR55); ipureintro; exact payload_fact c i ftok fW htok ⟨55, by decide⟩ _ (k0_off111_eq i) _ _ _)
    isplitl [HR56]; · (unfold rowOut; iexists _; isplitr; swap; (· iexact HR56); ipureintro; exact payload_fact c i ftok fW htok ⟨56, by decide⟩ _ (k0_off113_eq i) _ _ _)
    isplitl [HR57]; · (unfold rowOut; iexists _; isplitr; swap; (· iexact HR57); ipureintro; exact payload_fact c i ftok fW htok ⟨57, by decide⟩ _ (k0_off115_eq i) _ _ _)
    isplitl [HR58]; · (unfold rowOut; iexists _; isplitr; swap; (· iexact HR58); ipureintro; exact payload_fact c i ftok fW htok ⟨58, by decide⟩ _ (k0_off117_eq i) _ _ _)
    isplitl [HR59]; · (unfold rowOut; iexists _; isplitr; swap; (· iexact HR59); ipureintro; exact payload_fact c i ftok fW htok ⟨59, by decide⟩ _ (k0_off119_eq i) _ _ _)
    isplitl [HR60]; · (unfold rowOut; iexists _; isplitr; swap; (· iexact HR60); ipureintro; exact payload_fact c i ftok fW htok ⟨60, by decide⟩ _ (k0_off121_eq i) _ _ _)
    isplitl [HR61]; · (unfold rowOut; iexists _; isplitr; swap; (· iexact HR61); ipureintro; exact payload_fact c i ftok fW htok ⟨61, by decide⟩ _ (k0_off123_eq i) _ _ _)
    isplitl [HR62]; · (unfold rowOut; iexists _; isplitr; swap; (· iexact HR62); ipureintro; exact payload_fact c i ftok fW htok ⟨62, by decide⟩ _ (k0_off125_eq i) _ _ _)
    isplitl [HR63]; · (unfold rowOut; iexists _; isplitr; swap; (· iexact HR63); ipureintro; exact payload_fact c i ftok fW htok ⟨63, by decide⟩ _ (k0_off127_eq i) _ _ _)
    isplitl [HR64]; · (unfold rowOut; iexists _; isplitr; swap; (· iexact HR64); ipureintro; exact payload_fact c i ftok fW htok ⟨64, by decide⟩ _ (k0_off129_eq i) _ _ _)
    isplitl [HR65]; · (unfold rowOut; iexists _; isplitr; swap; (· iexact HR65); ipureintro; exact payload_fact c i ftok fW htok ⟨65, by decide⟩ _ (k0_off131_eq i) _ _ _)
    isplitl [HR66]; · (unfold rowOut; iexists _; isplitr; swap; (· iexact HR66); ipureintro; exact payload_fact c i ftok fW htok ⟨66, by decide⟩ _ (k0_off133_eq i) _ _ _)
    isplitl [HR67]; · (unfold rowOut; iexists _; isplitr; swap; (· iexact HR67); ipureintro; exact payload_fact c i ftok fW htok ⟨67, by decide⟩ _ (k0_off135_eq i) _ _ _)
    isplitl [HR68]; · (unfold rowOut; iexists _; isplitr; swap; (· iexact HR68); ipureintro; exact payload_fact c i ftok fW htok ⟨68, by decide⟩ _ (k0_off137_eq i) _ _ _)
    isplitl [HR69]; · (unfold rowOut; iexists _; isplitr; swap; (· iexact HR69); ipureintro; exact payload_fact c i ftok fW htok ⟨69, by decide⟩ _ (k0_off139_eq i) _ _ _)
    isplitl [HR70]; · (unfold rowOut; iexists _; isplitr; swap; (· iexact HR70); ipureintro; exact payload_fact c i ftok fW htok ⟨70, by decide⟩ _ (k0_off141_eq i) _ _ _)
    isplitl [HR71]; · (unfold rowOut; iexists _; isplitr; swap; (· iexact HR71); ipureintro; exact payload_fact c i ftok fW htok ⟨71, by decide⟩ _ (k0_off143_eq i) _ _ _)
    isplitl [HR72]; · (unfold rowOut; iexists _; isplitr; swap; (· iexact HR72); ipureintro; exact payload_fact c i ftok fW htok ⟨72, by decide⟩ _ (k0_off145_eq i) _ _ _)
    isplitl [HR73]; · (unfold rowOut; iexists _; isplitr; swap; (· iexact HR73); ipureintro; exact payload_fact c i ftok fW htok ⟨73, by decide⟩ _ (k0_off147_eq i) _ _ _)
    isplitl [HR74]; · (unfold rowOut; iexists _; isplitr; swap; (· iexact HR74); ipureintro; exact payload_fact c i ftok fW htok ⟨74, by decide⟩ _ (k0_off149_eq i) _ _ _)
    isplitl [HR75]; · (unfold rowOut; iexists _; isplitr; swap; (· iexact HR75); ipureintro; exact payload_fact c i ftok fW htok ⟨75, by decide⟩ _ (k0_off151_eq i) _ _ _)
    isplitl [HR76]; · (unfold rowOut; iexists _; isplitr; swap; (· iexact HR76); ipureintro; exact payload_fact c i ftok fW htok ⟨76, by decide⟩ _ (k0_off153_eq i) _ _ _)
    isplitl [HR77]; · (unfold rowOut; iexists _; isplitr; swap; (· iexact HR77); ipureintro; exact payload_fact c i ftok fW htok ⟨77, by decide⟩ _ (k0_off155_eq i) _ _ _)
    isplitl [HR78]; · (unfold rowOut; iexists _; isplitr; swap; (· iexact HR78); ipureintro; exact payload_fact c i ftok fW htok ⟨78, by decide⟩ _ (k0_off157_eq i) _ _ _)
    isplitl [HR79]; · (unfold rowOut; iexists _; isplitr; swap; (· iexact HR79); ipureintro; exact payload_fact c i ftok fW htok ⟨79, by decide⟩ _ (k0_off159_eq i) _ _ _)
    isplitl [HR80]; · (unfold rowOut; iexists _; isplitr; swap; (· iexact HR80); ipureintro; exact payload_fact c i ftok fW htok ⟨80, by decide⟩ _ (k0_off161_eq i) _ _ _)
    isplitl [HR81]; · (unfold rowOut; iexists _; isplitr; swap; (· iexact HR81); ipureintro; exact payload_fact c i ftok fW htok ⟨81, by decide⟩ _ (k0_off163_eq i) _ _ _)
    isplitl [HR82]; · (unfold rowOut; iexists _; isplitr; swap; (· iexact HR82); ipureintro; exact payload_fact c i ftok fW htok ⟨82, by decide⟩ _ (k0_off165_eq i) _ _ _)
    isplitl [HR83]; · (unfold rowOut; iexists _; isplitr; swap; (· iexact HR83); ipureintro; exact payload_fact c i ftok fW htok ⟨83, by decide⟩ _ (k0_off167_eq i) _ _ _)
    isplitl [HR84]; · (unfold rowOut; iexists _; isplitr; swap; (· iexact HR84); ipureintro; exact payload_fact c i ftok fW htok ⟨84, by decide⟩ _ (k0_off169_eq i) _ _ _)
    isplitl [HR85]; · (unfold rowOut; iexists _; isplitr; swap; (· iexact HR85); ipureintro; exact payload_fact c i ftok fW htok ⟨85, by decide⟩ _ (k0_off171_eq i) _ _ _)
    isplitl [HR86]; · (unfold rowOut; iexists _; isplitr; swap; (· iexact HR86); ipureintro; exact payload_fact c i ftok fW htok ⟨86, by decide⟩ _ (k0_off173_eq i) _ _ _)
    isplitl [HR87]; · (unfold rowOut; iexists _; isplitr; swap; (· iexact HR87); ipureintro; exact payload_fact c i ftok fW htok ⟨87, by decide⟩ _ (k0_off175_eq i) _ _ _)
    isplitl [HR88]; · (unfold rowOut; iexists _; isplitr; swap; (· iexact HR88); ipureintro; exact payload_fact c i ftok fW htok ⟨88, by decide⟩ _ (k0_off177_eq i) _ _ _)
    isplitl [HR89]; · (unfold rowOut; iexists _; isplitr; swap; (· iexact HR89); ipureintro; exact payload_fact c i ftok fW htok ⟨89, by decide⟩ _ (k0_off179_eq i) _ _ _)
    isplitl [HR90]; · (unfold rowOut; iexists _; isplitr; swap; (· iexact HR90); ipureintro; exact payload_fact c i ftok fW htok ⟨90, by decide⟩ _ (k0_off181_eq i) _ _ _)
    isplitl [HR91]; · (unfold rowOut; iexists _; isplitr; swap; (· iexact HR91); ipureintro; exact payload_fact c i ftok fW htok ⟨91, by decide⟩ _ (k0_off183_eq i) _ _ _)
    isplitl [HR92]; · (unfold rowOut; iexists _; isplitr; swap; (· iexact HR92); ipureintro; exact payload_fact c i ftok fW htok ⟨92, by decide⟩ _ (k0_off185_eq i) _ _ _)
    isplitl [HR93]; · (unfold rowOut; iexists _; isplitr; swap; (· iexact HR93); ipureintro; exact payload_fact c i ftok fW htok ⟨93, by decide⟩ _ (k0_off187_eq i) _ _ _)
    isplitl [HR94]; · (unfold rowOut; iexists _; isplitr; swap; (· iexact HR94); ipureintro; exact payload_fact c i ftok fW htok ⟨94, by decide⟩ _ (k0_off189_eq i) _ _ _)
    isplitl [HR95]; · (unfold rowOut; iexists _; isplitr; swap; (· iexact HR95); ipureintro; exact payload_fact c i ftok fW htok ⟨95, by decide⟩ _ (k0_off191_eq i) _ _ _)
    isplitl [HR96]; · (unfold rowOut; iexists _; isplitr; swap; (· iexact HR96); ipureintro; exact payload_fact c i ftok fW htok ⟨96, by decide⟩ _ (k0_off193_eq i) _ _ _)
    isplitl [HR97]; · (unfold rowOut; iexists _; isplitr; swap; (· iexact HR97); ipureintro; exact payload_fact c i ftok fW htok ⟨97, by decide⟩ _ (k0_off195_eq i) _ _ _)
    isplitl [HR98]; · (unfold rowOut; iexists _; isplitr; swap; (· iexact HR98); ipureintro; exact payload_fact c i ftok fW htok ⟨98, by decide⟩ _ (k0_off197_eq i) _ _ _)
    isplitl [HR99]; · (unfold rowOut; iexists _; isplitr; swap; (· iexact HR99); ipureintro; exact payload_fact c i ftok fW htok ⟨99, by decide⟩ _ (k0_off199_eq i) _ _ _)
    isplitl [HR100]; · (unfold rowOut; iexists _; isplitr; swap; (· iexact HR100); ipureintro; exact payload_fact c i ftok fW htok ⟨100, by decide⟩ _ (k0_off201_eq i) _ _ _)
    isplitl [HR101]; · (unfold rowOut; iexists _; isplitr; swap; (· iexact HR101); ipureintro; exact payload_fact c i ftok fW htok ⟨101, by decide⟩ _ (k0_off203_eq i) _ _ _)
    isplitl [HR102]; · (unfold rowOut; iexists _; isplitr; swap; (· iexact HR102); ipureintro; exact payload_fact c i ftok fW htok ⟨102, by decide⟩ _ (k0_off205_eq i) _ _ _)
    isplitl [HR103]; · (unfold rowOut; iexists _; isplitr; swap; (· iexact HR103); ipureintro; exact payload_fact c i ftok fW htok ⟨103, by decide⟩ _ (k0_off207_eq i) _ _ _)
    isplitl [HR104]; · (unfold rowOut; iexists _; isplitr; swap; (· iexact HR104); ipureintro; exact payload_fact c i ftok fW htok ⟨104, by decide⟩ _ (k0_off209_eq i) _ _ _)
    isplitl [HR105]; · (unfold rowOut; iexists _; isplitr; swap; (· iexact HR105); ipureintro; exact payload_fact c i ftok fW htok ⟨105, by decide⟩ _ (k0_off211_eq i) _ _ _)
    isplitl [HR106]; · (unfold rowOut; iexists _; isplitr; swap; (· iexact HR106); ipureintro; exact payload_fact c i ftok fW htok ⟨106, by decide⟩ _ (k0_off213_eq i) _ _ _)
    isplitl [HR107]; · (unfold rowOut; iexists _; isplitr; swap; (· iexact HR107); ipureintro; exact payload_fact c i ftok fW htok ⟨107, by decide⟩ _ (k0_off215_eq i) _ _ _)
    isplitl [HR108]; · (unfold rowOut; iexists _; isplitr; swap; (· iexact HR108); ipureintro; exact payload_fact c i ftok fW htok ⟨108, by decide⟩ _ (k0_off217_eq i) _ _ _)
    isplitl [HR109]; · (unfold rowOut; iexists _; isplitr; swap; (· iexact HR109); ipureintro; exact payload_fact c i ftok fW htok ⟨109, by decide⟩ _ (k0_off219_eq i) _ _ _)
    isplitl [HR110]; · (unfold rowOut; iexists _; isplitr; swap; (· iexact HR110); ipureintro; exact payload_fact c i ftok fW htok ⟨110, by decide⟩ _ (k0_off221_eq i) _ _ _)
    isplitl [HR111]; · (unfold rowOut; iexists _; isplitr; swap; (· iexact HR111); ipureintro; exact payload_fact c i ftok fW htok ⟨111, by decide⟩ _ (k0_off223_eq i) _ _ _)
    isplitl [HR112]; · (unfold rowOut; iexists _; isplitr; swap; (· iexact HR112); ipureintro; exact payload_fact c i ftok fW htok ⟨112, by decide⟩ _ (k0_off225_eq i) _ _ _)
    isplitl [HR113]; · (unfold rowOut; iexists _; isplitr; swap; (· iexact HR113); ipureintro; exact payload_fact c i ftok fW htok ⟨113, by decide⟩ _ (k0_off227_eq i) _ _ _)
    isplitl [HR114]; · (unfold rowOut; iexists _; isplitr; swap; (· iexact HR114); ipureintro; exact payload_fact c i ftok fW htok ⟨114, by decide⟩ _ (k0_off229_eq i) _ _ _)
    isplitl [HR115]; · (unfold rowOut; iexists _; isplitr; swap; (· iexact HR115); ipureintro; exact payload_fact c i ftok fW htok ⟨115, by decide⟩ _ (k0_off231_eq i) _ _ _)
    isplitl [HR116]; · (unfold rowOut; iexists _; isplitr; swap; (· iexact HR116); ipureintro; exact payload_fact c i ftok fW htok ⟨116, by decide⟩ _ (k0_off233_eq i) _ _ _)
    isplitl [HR117]; · (unfold rowOut; iexists _; isplitr; swap; (· iexact HR117); ipureintro; exact payload_fact c i ftok fW htok ⟨117, by decide⟩ _ (k0_off235_eq i) _ _ _)
    isplitl [HR118]; · (unfold rowOut; iexists _; isplitr; swap; (· iexact HR118); ipureintro; exact payload_fact c i ftok fW htok ⟨118, by decide⟩ _ (k0_off237_eq i) _ _ _)
    isplitl [HR119]; · (unfold rowOut; iexists _; isplitr; swap; (· iexact HR119); ipureintro; exact payload_fact c i ftok fW htok ⟨119, by decide⟩ _ (k0_off239_eq i) _ _ _)
    isplitl [HR120]; · (unfold rowOut; iexists _; isplitr; swap; (· iexact HR120); ipureintro; exact payload_fact c i ftok fW htok ⟨120, by decide⟩ _ (k0_off241_eq i) _ _ _)
    isplitl [HR121]; · (unfold rowOut; iexists _; isplitr; swap; (· iexact HR121); ipureintro; exact payload_fact c i ftok fW htok ⟨121, by decide⟩ _ (k0_off243_eq i) _ _ _)
    isplitl [HR122]; · (unfold rowOut; iexists _; isplitr; swap; (· iexact HR122); ipureintro; exact payload_fact c i ftok fW htok ⟨122, by decide⟩ _ (k0_off245_eq i) _ _ _)
    isplitl [HR123]; · (unfold rowOut; iexists _; isplitr; swap; (· iexact HR123); ipureintro; exact payload_fact c i ftok fW htok ⟨123, by decide⟩ _ (k0_off247_eq i) _ _ _)
    isplitl [HR124]; · (unfold rowOut; iexists _; isplitr; swap; (· iexact HR124); ipureintro; exact payload_fact c i ftok fW htok ⟨124, by decide⟩ _ (k0_off249_eq i) _ _ _)
    isplitl [HR125]; · (unfold rowOut; iexists _; isplitr; swap; (· iexact HR125); ipureintro; exact payload_fact c i ftok fW htok ⟨125, by decide⟩ _ (k0_off251_eq i) _ _ _)
    isplitl [HR126]; · (unfold rowOut; iexists _; isplitr; swap; (· iexact HR126); ipureintro; exact payload_fact c i ftok fW htok ⟨126, by decide⟩ _ (k0_off253_eq i) _ _ _)
    (unfold rowOut; iexists _; isplitr; swap; (· iexact HR127); ipureintro; exact payload_fact c i ftok fW htok ⟨127, by decide⟩ _ (k0_off255_eq i) _ _ _)
  isplitl [HS0 HS1 HS2 HS3 HS4 HS5 HS6 HS7 HS8 HS9 HS10 HS11 HS12 HS13 HS14 HS15 HS16 HS17 HS18 HS19 HS20 HS21 HS22 HS23 HS24 HS25 HS26 HS27 HS28 HS29 HS30 HS31 HS32 HS33 HS34 HS35 HS36 HS37 HS38 HS39 HS40 HS41 HS42 HS43 HS44 HS45 HS46 HS47 HS48 HS49 HS50 HS51 HS52 HS53 HS54 HS55 HS56 HS57 HS58 HS59 HS60 HS61 HS62 HS63 HS64 HS65 HS66 HS67 HS68 HS69 HS70 HS71 HS72 HS73 HS74 HS75 HS76 HS77 HS78 HS79 HS80 HS81 HS82 HS83 HS84 HS85 HS86 HS87 HS88 HS89 HS90 HS91 HS92 HS93 HS94 HS95 HS96 HS97 HS98 HS99 HS100 HS101 HS102 HS103 HS104 HS105 HS106 HS107 HS108 HS109 HS110 HS111 HS112 HS113 HS114 HS115 HS116 HS117 HS118 HS119 HS120 HS121 HS122 HS123 HS124 HS125 HS126 HS127]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [HS22]; · iexact HS22
    isplitl [HS23]; · iexact HS23
    isplitl [HS24]; · iexact HS24
    isplitl [HS25]; · iexact HS25
    isplitl [HS26]; · iexact HS26
    isplitl [HS27]; · iexact HS27
    isplitl [HS28]; · iexact HS28
    isplitl [HS29]; · iexact HS29
    isplitl [HS30]; · iexact HS30
    isplitl [HS31]; · iexact HS31
    isplitl [HS32]; · iexact HS32
    isplitl [HS33]; · iexact HS33
    isplitl [HS34]; · iexact HS34
    isplitl [HS35]; · iexact HS35
    isplitl [HS36]; · iexact HS36
    isplitl [HS37]; · iexact HS37
    isplitl [HS38]; · iexact HS38
    isplitl [HS39]; · iexact HS39
    isplitl [HS40]; · iexact HS40
    isplitl [HS41]; · iexact HS41
    isplitl [HS42]; · iexact HS42
    isplitl [HS43]; · iexact HS43
    isplitl [HS44]; · iexact HS44
    isplitl [HS45]; · iexact HS45
    isplitl [HS46]; · iexact HS46
    isplitl [HS47]; · iexact HS47
    isplitl [HS48]; · iexact HS48
    isplitl [HS49]; · iexact HS49
    isplitl [HS50]; · iexact HS50
    isplitl [HS51]; · iexact HS51
    isplitl [HS52]; · iexact HS52
    isplitl [HS53]; · iexact HS53
    isplitl [HS54]; · iexact HS54
    isplitl [HS55]; · iexact HS55
    isplitl [HS56]; · iexact HS56
    isplitl [HS57]; · iexact HS57
    isplitl [HS58]; · iexact HS58
    isplitl [HS59]; · iexact HS59
    isplitl [HS60]; · iexact HS60
    isplitl [HS61]; · iexact HS61
    isplitl [HS62]; · iexact HS62
    isplitl [HS63]; · iexact HS63
    isplitl [HS64]; · iexact HS64
    isplitl [HS65]; · iexact HS65
    isplitl [HS66]; · iexact HS66
    isplitl [HS67]; · iexact HS67
    isplitl [HS68]; · iexact HS68
    isplitl [HS69]; · iexact HS69
    isplitl [HS70]; · iexact HS70
    isplitl [HS71]; · iexact HS71
    isplitl [HS72]; · iexact HS72
    isplitl [HS73]; · iexact HS73
    isplitl [HS74]; · iexact HS74
    isplitl [HS75]; · iexact HS75
    isplitl [HS76]; · iexact HS76
    isplitl [HS77]; · iexact HS77
    isplitl [HS78]; · iexact HS78
    isplitl [HS79]; · iexact HS79
    isplitl [HS80]; · iexact HS80
    isplitl [HS81]; · iexact HS81
    isplitl [HS82]; · iexact HS82
    isplitl [HS83]; · iexact HS83
    isplitl [HS84]; · iexact HS84
    isplitl [HS85]; · iexact HS85
    isplitl [HS86]; · iexact HS86
    isplitl [HS87]; · iexact HS87
    isplitl [HS88]; · iexact HS88
    isplitl [HS89]; · iexact HS89
    isplitl [HS90]; · iexact HS90
    isplitl [HS91]; · iexact HS91
    isplitl [HS92]; · iexact HS92
    isplitl [HS93]; · iexact HS93
    isplitl [HS94]; · iexact HS94
    isplitl [HS95]; · iexact HS95
    isplitl [HS96]; · iexact HS96
    isplitl [HS97]; · iexact HS97
    isplitl [HS98]; · iexact HS98
    isplitl [HS99]; · iexact HS99
    isplitl [HS100]; · iexact HS100
    isplitl [HS101]; · iexact HS101
    isplitl [HS102]; · iexact HS102
    isplitl [HS103]; · iexact HS103
    isplitl [HS104]; · iexact HS104
    isplitl [HS105]; · iexact HS105
    isplitl [HS106]; · iexact HS106
    isplitl [HS107]; · iexact HS107
    isplitl [HS108]; · iexact HS108
    isplitl [HS109]; · iexact HS109
    isplitl [HS110]; · iexact HS110
    isplitl [HS111]; · iexact HS111
    isplitl [HS112]; · iexact HS112
    isplitl [HS113]; · iexact HS113
    isplitl [HS114]; · iexact HS114
    isplitl [HS115]; · iexact HS115
    isplitl [HS116]; · iexact HS116
    isplitl [HS117]; · iexact HS117
    isplitl [HS118]; · iexact HS118
    isplitl [HS119]; · iexact HS119
    isplitl [HS120]; · iexact HS120
    isplitl [HS121]; · iexact HS121
    isplitl [HS122]; · iexact HS122
    isplitl [HS123]; · iexact HS123
    isplitl [HS124]; · iexact HS124
    isplitl [HS125]; · iexact HS125
    isplitl [HS126]; · iexact HS126
    iexact HS127
  iexists _; iexact HO

end Cert.KernelIdeal.Body

end
-- ==== Proof.RowsJoinI.lean ====
/-
  The output block as its 128 rows.

  The 128 × 768 block owned whole is its 128 rows, each row's elements held on their own (`rows_split`); and the rows,
  row `j` overwritten whole by a payload `P j`, are the block owned at the array whose row `j` is `P j` (`rows_join`).
  The rows are the unit-row rectangles of the block: they differ in their first coordinate, so they are pairwise
  disjoint, and every element of the block lies in the row of its first coordinate.
-/
import proofs.«413693_j16020228014144_1_alg».proof.Proof.RowsI

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-! ### A memref held slice by slice, each slice named through a squeeze

The three facts below are about any memref and any finite family of pairwise disjoint unit-stride rectangles that
cover its shape, each rectangle's slice renamed by dropping unit axes. Dropping unit axes moves no element, so the
memref's elements are the disjoint union of the renamed slices' elements: holding the memref's elements at contents
`g` is holding each renamed slice's at `g`; renamed slices held at contents of their own join to the memref's elements
at contents that agree with each slice's on that slice; and an element that a slice's whole-piece write covers reads
as the piece's payload. -/

section Squeezed

variable {n : Nat} {tp : Topo} {sg : RefSig} {Val : EltTy → Type}
variable {Ix : Type} [DecidableEq Ix] {Name : Type} [DecidableEq Name] {U : Type} [URA U] {Lvl : Type}

/-- A memref's elements at contents `g` are each renamed slice's elements at `g`. -/
theorem pointsTo_squeezed_rects (c : Thread n tp) {sp : Space} {sh s' : Shape} {e : EltTy} (m : Memref sg c.2.kind sp sh e)
    (q : PosShare TreeShare) {T : Type} [Fintype T] (r : T → Rect sh) (hr : ∀ t a, (r t).stride a = 1)
    (hq : ∀ t, (r t).shape.Squeezes s') (hd : ∀ t t', t ≠ t' → Disjoint (r t).set (r t').set)
    (hcov : (Finset.univ : Finset T).biUnion (fun t => (r t).set) = Finset.univ) (g : m.view.ty.Contents Val) :
    (m.view.loc c ↦[m.view.set]{q} g : sProp (MT n tp sg Ix Val Name U Lvl))
      = bigSep Finset.univ fun t =>
          (((m.slice (r t) (hr t)).squeeze s' (hq t)).view.loc c ↦[((m.slice (r t) (hr t)).squeeze s' (hq t)).view.set]{q} g) := by
  rw [pointsTo_rects c m q r hr hd hcov g]
  refine BI.bigSep_congr fun t _ => ?_
  rw [owns_slice_read]
  show _ = (m.view.loc c ↦[((m.view.slice (r t)).reshape s' (hq t).numel_eq).set]{q} g)
  rw [View.set_reshape]

/-- Renamed slices held at contents of their own join to the memref's elements at contents agreeing with each slice's
    on every element of that slice. -/
theorem pointsTo_squeezed_rects_join (c : Thread n tp) {sp : Space} {sh s' : Shape} {e : EltTy} (m : Memref sg c.2.kind sp sh e)
    (q : PosShare TreeShare) {T : Type} [Fintype T] (r : T → Rect sh) (hr : ∀ t a, (r t).stride a = 1)
    (hq : ∀ t, (r t).shape.Squeezes s') (hd : ∀ t t', t ≠ t' → Disjoint (r t).set (r t').set)
    (hcov : (Finset.univ : Finset T).biUnion (fun t => (r t).set) = Finset.univ)
    (fs : T → m.view.ty.Contents Val) (f₀ : m.view.ty.Contents Val) :
    bigSep Finset.univ (fun t =>
        (((m.slice (r t) (hr t)).squeeze s' (hq t)).view.loc c ↦[((m.slice (r t) (hr t)).squeeze s' (hq t)).view.set]{q} fs t))
      ⊢ (iprop(∃ g, ⌜∀ (t : T) (x : s'.Idx), g (((m.slice (r t) (hr t)).squeeze s' (hq t)).view.emb x)
                      = fs t (((m.slice (r t) (hr t)).squeeze s' (hq t)).view.emb x)⌝
            ∗ m.view.loc c ↦[m.view.set]{q} g) : sProp (MT n tp sg Ix Val Name U Lvl)) := by
  have hS : ∀ t, ((m.slice (r t) (hr t)).squeeze s' (hq t)).view.set = (m.view.slice (r t)).set := fun t =>
    View.set_reshape (v := m.view.slice (r t)) (hq t).numel_eq
  have hdv : ∀ t ∈ (Finset.univ : Finset T), ∀ t' ∈ (Finset.univ : Finset T), t ≠ t' →
      Disjoint ((m.slice (r t) (hr t)).squeeze s' (hq t)).view.set ((m.slice (r t') (hr t')).squeeze s' (hq t')).view.set := by
    intro t _ t' _ h
    rw [hS, hS, View.set_slice, View.set_slice]
    exact (Finset.disjoint_map _).mpr (hd t t' h)
  have hset : m.view.set = (Finset.univ : Finset T).biUnion fun t => ((m.slice (r t) (hr t)).squeeze s' (hq t)).view.set := by
    ext i; constructor
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ _, by rw [hS, View.set_slice]; exact Finset.mem_map_of_mem _ hx⟩
    · intro hi
      obtain ⟨t, -, hi⟩ := Finset.mem_biUnion.mp hi
      rw [hS] at hi
      exact View.set_slice_subset _ _ hi
  refine (show bigSep Finset.univ (fun t => (m.view.loc c ↦[((m.slice (r t) (hr t)).squeeze s' (hq t)).view.set]{q} fs t)) ⊢ _ from ?_)
  refine (pointsTo_biUnion_join (ℓ := m.view.loc c) (q := q) Finset.univ
    (fun t => ((m.slice (r t) (hr t)).squeeze s' (hq t)).view.set) fs f₀ hdv).trans ?_
  iintro ⟨%g, %hg, H⟩
  iexists g
  isplitr
  · ipureintro
    intro t x
    exact hg t (Finset.mem_univ t) _ (View.emb_mem_set _ x)
  · rw [hset]; iexact H

/-- Contents that agree, at the element under index `x` of a renamed slice, with the slice overwritten whole by the
    payload `p`, read as `p x` through the memref at the index `y` of that element. -/
theorem read_of_squeezed_whole_write {κ : Kind} {sp : Space} {sh s' : Shape} {e : EltTy} (m : Memref sg κ sp sh e) (r : Rect sh)
    (hr : ∀ a, r.stride a = 1) (hq : r.shape.Squeezes s') (g f : m.view.ty.Contents Val) (p : s'.Idx → Val e) (x : s'.Idx) (y : sh.Idx)
    (hy : m.view.emb y = ((m.slice r hr).squeeze s' hq).view.emb x)
    (hg : g (((m.slice r hr).squeeze s' hq).view.emb x)
      = ((m.slice r hr).squeeze s' hq).view.writes Val f [⟨Rect.whole s', p⟩] (((m.slice r hr).squeeze s' hq).view.emb x)) :
    m.view.read Val g y = p x := by
  rw [View.read_apply, hy, hg, ← View.write_univ_eq_writes_whole, View.writes_nil,
    View.write_emb_of_mem _ _ (Finset.mem_univ x), cast_cast, cast_eq]

end Squeezed

/-- The rectangle of row `j` in the block: one row high, all 768 columns wide. -/
abbrev rowRect (j : Fin 128) : Rect S128x768 := Rect.unit (s := S128x768) ![j.val, 0] S1x768.size (rowInb j)

/-- Two different rows share no element: they are apart along the row axis. -/
theorem rowRect_disjoint (j j' : Fin 128) (h : j ≠ j') : Disjoint (rowRect j).set (rowRect j').set := by
  have hv : j.val ≠ j'.val := fun e => h (Fin.ext e)
  refine Rect.unit_disjoint (0 : Fin 2) ?_
  show j.val + 1 ≤ j'.val ∨ j'.val + 1 ≤ j.val
  omega

/-- Every element of the block lies in a row: the one its first coordinate names. -/
theorem rowRect_cover : (Finset.univ : Finset (Fin 128)).biUnion (fun j => (rowRect j).set) = Finset.univ := by
  ext i
  simp only [Finset.mem_biUnion, Finset.mem_univ, true_and, iff_true]
  refine ⟨⟨(i 0).val, (i 0).isLt⟩, Rect.mem_set_unit.mpr fun a => ?_⟩
  have h1 : (i 1).val < 768 := (i 1).isLt
  fin_cases a
  · show (i 0).val ≤ (i 0).val ∧ (i 0).val < (i 0).val + 1; omega
  · show 0 ≤ (i 1).val ∧ (i 1).val < 0 + 768; omega

/-- The block's elements at contents `f` are its 128 rows' elements, each row held on its own at `f`. -/
theorem rows_pointsTo (c : Dev nD) (M3 : Memref sig .tc .vmem S128x768 .f32) (f : Buf (Elt F) (M3.view.loc (c : Thread nD τ))) :
    (M3.view.loc (c : Thread nD τ) ↦[M3.view.set]{fullShare} f : sProp 𝕄)
      = bigSep Finset.univ fun j : Fin 128 => heldOwn (F := F) c (rowM M3 j) f :=
  pointsTo_squeezed_rects (c : Thread nD τ) M3 fullShare rowRect (fun _ _ => rfl) (fun _ => squeezes_S1x768_S768)
    rowRect_disjoint rowRect_cover f

/-- Element `(j, k)` of the block is element `k` of row `j`. -/
theorem rowM_emb (M3 : Memref sig .tc .vmem S128x768 .f32) (y : S128x768.Idx) :
    M3.view.emb y = (rowM M3 (⟨(y 0).val, (y 0).isLt⟩ : Fin 128)).view.emb (ValueIdx.ix1 (⟨(y 1).val, (y 1).isLt⟩ : Fin 768)) := by
  rw [show (rowM M3 (⟨(y 0).val, (y 0).isLt⟩ : Fin 128)).view.emb (ValueIdx.ix1 (⟨(y 1).val, (y 1).isLt⟩ : Fin 768)) = _ from
    unitRow_emb M3 (y 0).val (rowInb (⟨(y 0).val, (y 0).isLt⟩ : Fin 128)) (ValueIdx.ix1 (⟨(y 1).val, (y 1).isLt⟩ : Fin 768))]
  congr 1
  funext a
  fin_cases a <;> rfl

/-- The block owned at any contents is its 128 rows, each held on its own at one buffer contents. -/
theorem rows_split (c : Dev nD) (M3 : Memref sig .tc .vmem S128x768 .f32) (h3 : M3.IsWhole) (X3 : S128x768.Idx → Elt F .f32) :
    (owns (c : Thread nD τ) M3 fullShare X3 : sProp 𝕄)
      ⊢ iprop(∃ f3 : Buf (Elt F) (M3.view.loc (c : Thread nD τ)), bigSep Finset.univ fun j : Fin 128 => heldOwn (F := F) c (rowM M3 j) f3) := by
  unfold owns
  iintro ⟨%f, -, H⟩
  iexists f
  rw [← rows_pointsTo]
  iexact H

/-- The 128 rows, row `j` overwritten whole by the payload `P j`, are the block owned at those rows. -/
theorem rows_join (c : Dev nD) (M3 : Memref sig .tc .vmem S128x768 .f32) (h3 : M3.IsWhole)
    (f3 : Buf (Elt F) (M3.view.loc (c : Thread nD τ))) (P : Fin 128 → S768.Idx → Elt F .f32) :
    (bigSep Finset.univ fun j : Fin 128 =>
        heldOwn (F := F) c (rowM M3 j) ((rowM M3 j).view.writes (Elt F) f3 [⟨Rect.whole S768, P j⟩]) : sProp 𝕄)
      ⊢ owns (c : Thread nD τ) M3 fullShare
          (fun y : S128x768.Idx => P (⟨(y 0).val, (y 0).isLt⟩ : Fin 128) (ValueIdx.ix1 (⟨(y 1).val, (y 1).isLt⟩ : Fin 768))) := by
  refine (pointsTo_squeezed_rects_join (c : Thread nD τ) M3 fullShare rowRect (fun _ _ => rfl) (fun _ => squeezes_S1x768_S768)
    rowRect_disjoint rowRect_cover (fun j : Fin 128 => (rowM M3 j).view.writes (Elt F) f3 [⟨Rect.whole S768, P j⟩]) f3).trans ?_
  unfold owns
  iintro ⟨%g, %hg, H⟩
  iexists g
  isplitr
  · ipureintro
    funext y
    exact read_of_squeezed_whole_write M3 (rowRect (⟨(y 0).val, (y 0).isLt⟩ : Fin 128)) (fun _ => rfl) squeezes_S1x768_S768 g f3
      (P (⟨(y 0).val, (y 0).isLt⟩ : Fin 128)) (ValueIdx.ix1 (⟨(y 1).val, (y 1).isLt⟩ : Fin 768)) y (rowM_emb M3 y)
      (hg (⟨(y 0).val, (y 0).isLt⟩ : Fin 128) (ValueIdx.ix1 (⟨(y 1).val, (y 1).isLt⟩ : Fin 768)))
  · iexact H

end Cert.KernelIdeal.Body

end
-- ==== Proof.KernelRunI.lean ====
/-
  One grid step of the kernel body, from the block owned whole.

  The pipeline hands the body the output block's staging buffer owned whole, the embedding table held whole and the 128
  semaphores as one family. The run of the body (`kernelRunRows`) wants them piece by piece: the table as one read
  share per semaphore cell — 128 transfers read it at once, two of them possibly the same row —, the block as its 128
  rows, the semaphores one by one. This module takes them apart, runs the body, and puts them back: the shares rejoin
  to the table whole, and the 128 rows, row `j` overwritten by the table row token `128 · i + j` names, are the block
  owned at `gathered`.
-/
import proofs.«413693_j16020228014144_1_alg».proof.Proof.BodyRunI
import proofs.«413693_j16020228014144_1_alg».proof.Proof.RowsJoinI

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UU nD τ) ℕ

/-- A family over the 128 rows, conjoined, is its members listed in order. -/
theorem bigSep_rows (Φ : Fin 128 → sProp 𝕄) : bigSep Finset.univ Φ = bigSepL (List.finRange 128) Φ :=
  bigSep_univ_eq_bigSepL (List.finRange 128) (List.toFinset_finRange 128).symm (List.nodup_finRange 128) Φ

/-- Halving a share `a` times and then `k` times more is halving it `k + a` times. -/
theorem shareDrop_add (q : PosShare TreeShare) (a k : ℕ) :
    Transfers.shareDrop (Transfers.shareDrop q a) k = Transfers.shareDrop q (k + a) := by
  induction k with
  | zero => rw [Nat.zero_add]; rfl
  | succ k ih =>
    rw [Nat.succ_add]
    show (Transfers.shareDrop (Transfers.shareDrop q a) k).left = (Transfers.shareDrop q (k + a)).left
    rw [ih]

/-- What is left of the table's full share beside the 128 cells' read shares: the two shares split off first (cells 0
    and 1 are the pipeline's own, which read nothing of the table) and the remainder after all 130. -/
def toksRest (c : Dev nD) (fW : Bf (F := F) c (Memref.whole main_arg1)) : sProp 𝕄 :=
  iprop(((Memref.whole main_arg1).view.loc (c : Thread nD τ) ↦{Transfers.shareDrop (Transfers.shareDrop fullShare 2) 128} fW)
    ∗ bigSep Finset.univ (fun k : Fin 2 => (Memref.whole main_arg1).view.loc (c : Thread nD τ) ↦{Transfers.shareTok fullShare 2 k} fW))

/-- The 128 read shares as the second split names them are the shares by cell number. -/
theorem toks_family (c : Dev nD) (fW : Bf (F := F) c (Memref.whole main_arg1)) :
    (bigSep Finset.univ fun k : Fin 128 =>
        ((Memref.whole main_arg1).view.loc (c : Thread nD τ) ↦{Transfers.shareTok (Transfers.shareDrop fullShare 2) 128 k} fW : sProp 𝕄))
      = toksChain c fW := by
  rw [toksChain_eq, ← bigSep_rows]
  refine bigSep_congr fun k _ => ?_
  show (_ ↦{Transfers.shareTokN (Transfers.shareDrop fullShare 2) k.val} fW : sProp 𝕄) = _
  unfold Transfers.shareTokN
  rw [shareDrop_add]
  rfl

/-- The table held whole is the 128 cells' read shares and the rest; -/
theorem toks_split (c : Dev nD) (fW : Bf (F := F) c (Memref.whole main_arg1)) :
    pt c (Memref.whole main_arg1) fW ⊢ iprop(toksRest c fW ∗ toksChain c fW) := by
  unfold toksRest
  rw [← toks_family]
  iintro H
  ihave H := (Transfers.pointsTo_toks_split (Ix := Unit) (Name := ℕ) (U := UU nD τ) (Lvl := ℕ) fullShare 2) $$ H
  icases H with ⟨Hd, H01⟩
  ihave Hd := (Transfers.pointsTo_toks_split (Ix := Unit) (Name := ℕ) (U := UU nD τ) (Lvl := ℕ) (Transfers.shareDrop fullShare 2) 128) $$ Hd
  icases Hd with ⟨Hd, Ht⟩
  isplitl [Hd H01]
  · isplitl [Hd]; · iexact Hd
    iexact H01
  iexact Ht

/-- and they join back to it. -/
theorem toks_join (c : Dev nD) (fW : Bf (F := F) c (Memref.whole main_arg1)) :
    iprop(toksRest c fW ∗ toksChain c fW) ⊢ pt c (Memref.whole main_arg1) fW := by
  unfold toksRest
  rw [← toks_family]
  iintro ⟨⟨Hd, H01⟩, Ht⟩
  iapply (Transfers.pointsTo_toks_join (Ix := Unit) (Name := ℕ) (U := UU nD τ) (Lvl := ℕ) fullShare 2)
  isplitl [Hd Ht]
  · iapply (Transfers.pointsTo_toks_join (Ix := Unit) (Name := ℕ) (U := UU nD τ) (Lvl := ℕ) (Transfers.shareDrop fullShare 2) 128)
    isplitl [Hd]; · iexact Hd
    iexact Ht
  iexact H01

/-- The kernel's 128 semaphores at zero, as a family and listed, are the same. -/
theorem sems_eq (c : Dev nD) :
    (Pipeline.ownSems0 (Ix := Unit) (Name := ℕ) (U := UU nD τ) (Lvl := ℕ) (Val := Elt F) (τ := τ) osem c : sProp 𝕄) = semsChain (F := F) c := by
  rw [semsChain_eq, ← bigSep_rows]; rfl

/-- The block's rows, held each on its own, as a family and listed, are the same; -/
theorem rows_in (c : Dev nD) (M3 : Memref sig .tc .vmem S128x768 .f32) (f3 : Buf (Elt F) (M3.view.loc (c : Thread nD τ))) :
    (bigSep Finset.univ fun j : Fin 128 => heldOwn (F := F) c (rowM M3 j) f3 : sProp 𝕄) ⊢ rowsInChain c M3 f3 := by
  rw [rowsInChain_eq, ← bigSep_rows]

/-- and the rows after the step, row `j` overwritten by row `j` of the step's result, are the block owned at `gathered`. -/
theorem rows_out (c : Dev nD) (i : grid0.Coords) (M3 : Memref sig .tc .vmem S128x768 .f32) (h3 : M3.IsWhole)
    (ftok : Bf (F := F) c (Memref.whole main_v0)) (fW : Bf (F := F) c (Memref.whole main_arg1))
    (f3 : Buf (Elt F) (M3.view.loc (c : Thread nD τ))) :
    rowsOutChain c i M3 ftok fW f3 ⊢ owns (c : Thread nD τ) M3 fullShare (gathered i ftok fW) := by
  rw [rowsOutChain_eq, ← bigSep_rows, gathered_eq_rows]
  exact (bigSep_mono (fun j _ => rowOut_elim (F := F) c (rowM M3 j) f3 (rowVal i ftok fW j))).trans
    (rows_join (F := F) c M3 h3 f3 (rowVal i ftok fW))

/-- ONE GRID STEP. From the token table and the embedding table held whole, the output window's staging buffer owned
    at any contents, the 128 semaphores at zero and the core owing nothing — every token word naming a table row —, the
    kernel body runs to its return: it starts the 128 row copies, each on its own semaphore, waits for each, and hands
    back the two tables as they were, the staging buffer owned at the 128 gathered rows, the semaphores at zero. -/
theorem kernelRun (c : Dev nD) (i : grid0.Coords) (M3 : Memref sig .tc .vmem S128x768 .f32) (h3 : M3.IsWhole)
    (ftok : Bf (F := F) c (Memref.whole main_v0)) (fW : Bf (F := F) c (Memref.whole main_arg1))
    (X3 : S128x768.Idx → Elt F .f32)
    (htok : ∀ y : S32768.Idx, (ftok y).toNat < 50257)
    (W : Waits sig Unit) (Q : PUnit → sProp 𝕄) :
    iprop(pt c (Memref.whole main_v0) ftok ∗ pt c (Memref.whole main_arg1) fW ∗ owns (c : Thread nD τ) M3 fullShare X3
        ∗ Pipeline.ownSems0 (Ix := Unit) (Name := ℕ) (U := UU nD τ) (Lvl := ℕ) (Val := Elt F) (τ := τ) osem c
        ∗ owes (c : Thread nD τ) 0 W
        ∗ (iprop(pt c (Memref.whole main_v0) ftok ∗ pt c (Memref.whole main_arg1) fW
              ∗ owns (c : Thread nD τ) M3 fullShare (gathered i ftok fW)
              ∗ Pipeline.ownSems0 (Ix := Unit) (Name := ℕ) (U := UU nD τ) (Lvl := ℕ) (Val := Elt F) (τ := τ) osem c
              ∗ ∃ W, owes (c : Thread nD τ) 0 W) -∗ Q ⟨⟩))
    ⊢ wp frame (wpE (defs₀ (F := F)) Variants.none c none) Set.univ
        (cc0__gather_kernel i (Memref.whole main_v0) (Memref.isWhole_whole _) (Memref.whole main_arg1) (Memref.isWhole_whole _) M3 h3 cc0_scratch0) Q := by
  rw [sems_eq]
  iintro ⟨Ht, HW, H3, Hs, HO, Hk⟩
  ihave Hr := (rows_split (F := F) c M3 h3 X3) $$ H3
  icases Hr with ⟨%f3, Hr⟩
  ihave HW := (toks_split c fW) $$ HW
  icases HW with ⟨HWr, HWt⟩
  iapply (kernelRunRows c i M3 h3 ftok fW f3 htok W Q)
  isplitl [Ht]; · iexact Ht
  isplitl [HWt]; · iexact HWt
  isplitl [Hr]
  · iapply (rows_in c M3 f3); iexact Hr
  isplitl [Hs]; · iexact Hs
  isplitl [HO]; · iexact HO
  iintro ⟨Ht, HWt, Hr, Hs, HO⟩
  iapply Hk
  isplitl [Ht]; · iexact Ht
  isplitl [HWr HWt]
  · iapply (toks_join c fW)
    isplitl [HWr] <;> iassumption
  isplitl [Hr]
  · iapply (rows_out c i M3 h3 ftok fW f3); iexact Hr
  isplitl [Hs]; · iexact Hs
  iexact HO

end Cert.KernelIdeal.Body

end
-- ==== Proof.LaunchI.lean ====
/-
  The launch of the embedding lookup's kernel program.

  @main flattens the token array into the table the kernel region reads its row numbers from, runs one kernel region
  over a grid of 256 steps — step t gathers, by 128 row copies of its own, the table rows that tokens 128 t … 128 t + 127
  name into the output window's staging buffer, which the pipeline writes back as block t of the 32768 × 768 result —,
  and reshapes that result to 8 × 4096 × 768. This module runs @main as three segments: the first reshape, the region,
  the last reshape. The region's invariant holds the embedding table and the token table whole (the body's copies read
  both) beside the kernel's 128 semaphores at zero; the token array and the final result's buffer bypass the region.
  Every token word names a table row because the flattened table is the token array read in row-major order, and
  every word of that array is below 50257 by hypothesis. The run ends with the final result's buffer at the
  reshape of what the pipeline's write-backs left in the region's result, and both arguments as launched.
-/
import proofs.«413693_j16020228014144_1_alg».proof.Proof.DataI
import proofs.«413693_j16020228014144_1_alg».proof.Proof.KernelRunI
import Idealize.ShloMosaic.Lib.Pipeline.Regions
import Idealize.ShloMosaic.Lib.Pipeline.FrameSuffix

noncomputable section

namespace Cert.KernelIdeal.Launch

open Cert.KernelIdeal Cert.KernelIdeal.Gen Cert.KernelIdeal.Body Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The kernel's body has no loop of its own: no variant is needed. -/
abbrev 𝒱₀ : Variants := Variants.none
/-- No core owes another anything (one device): no level is assigned. -/
abbrev L : GSem nD τ sig → Finset Unit := fun _ => ∅
abbrev lv : GSem nD τ sig → Unit → ℕ := fun _ _ => 0

/-- What rides beside the buffers through every segment: the core owing nothing. -/
abbrev R (c : Dev nD) : sProp 𝕄 := iprop(∃ W, owes (c : Thread nD τ) (0 : CellTallies nD τ sig Unit) W)

/-! ## What the buffers hold when the region is entered -/

/-- The prefetched table is the token array read in row-major order. -/
theorem V_v0 (c : Dev nD) :
    V m ρ c main_v0 = fun i => shapeCast S32768 (m ((c.tc : Thread nD τ).loc main_arg0)) shapeCasts_S8x4096_S32768 i := by
  show StableHlo.after hostOps0 (V₀ m ρ c) (Proc.devRef .tc main_v0) = _
  rw [StableHlo.after_cons, StableHlo.after_nil, StableHlo.reshape_result]
  rfl

/-- The first reshape writes the table only: every other buffer reaches the region as launched. -/
theorem V_of_ne (c : Dev nD) (b : Ref sig .tc) (hb : b ≠ main_v0) : V m ρ c b = m ((c.tc : Thread nD τ).loc b) :=
  StableHlo.after_of_forall_not_mem (b := Proc.devRef .tc b) hostOps0 (V₀ m ρ c) fun op hop => by
    simp only [List.mem_cons, List.mem_nil_iff, or_false] at hop
    subst hop
    simp only [StableHlo.reshape_writes, Finset.mem_singleton]
    exact StableHlo.devRef_ne_of_ne hb

/-- Every word of the table names a row: it is a word of the token array. -/
theorem tok_lt (htok : ∀ (c : Dev nD) (y : S8x4096.Idx), (m ((c.tc : Thread nD τ).loc main_arg0) y).toNat < 50257) (c : Dev nD)
    (y : S32768.Idx) : (V m ρ c main_v0 y).toNat < 50257 := by
  rw [V_v0]; exact htok c _

/-! ## A core's unscoped buffers, sorted -/

include m ρ in
/-- A core's unscoped buffers at contents `W`: the region's result array, the token table, and the three buffers that
    bypass the region (the token array, the embedding table, the final result). -/
theorem unscopedBufs_eq (c : Dev nD) (W : (b : Ref sig .tc) → Buf (Elt F) ((c.tc : Thread nD τ).loc b)) :
    (unscopedBufs c W : sProp 𝕄)
      = iprop((((c.tc : Thread nD τ).loc main_v1) ↦{fullShare} W main_v1)
          ∗ (((c.tc : Thread nD τ).loc main_v0) ↦{fullShare} W main_v0)
          ∗ (((c.tc : Thread nD τ).loc main_arg0) ↦{fullShare} W main_arg0)
          ∗ (((c.tc : Thread nD τ).loc main_arg1) ↦{fullShare} W main_arg1)
          ∗ (((c.tc : Thread nD τ).loc main_v2) ↦{fullShare} W main_v2)) := by
  rw [Pipeline.unscopedBufs_split (Pipeline.pin (pcfgs (F := F)) (adm m ρ)) 0 (launch0 (F := F)).win.arr_unscoped (launch0 (F := F)).win.arr_inj c W,
    Pipeline.unscopedRest_split (launch0 (F := F)).pre c W, unscopedRestP0_eq c W, bigSep_W0]
  unfold Pipeline.prefHeld; rw [bigSep_W0]
  rfl

/-- The pipeline's one array is the region's result. -/
theorem arrays_eq' (c : Dev nD) (A : (w : Fin (Pipeline.pin (pcfgs (F := F)) (adm m ρ) 0).W) →
      Buf (Elt F) (((Pipeline.pin (pcfgs (F := F)) (adm m ρ) 0).spec w).arr.view.loc (c.tc : Thread nD τ))) :
    ((dats m ρ 0 c).arrays A : sProp 𝕄) = (((c.tc : Thread nD τ).loc main_v1) ↦{fullShare} A 0) := by
  rw [Pipeline.arrays_eq (Pipeline.pin (pcfgs (F := F)) (adm m ρ)) (dats m ρ) 0 c (launch0 (F := F)).arr_whole ((dats m ρ 0 c).share_full fun _ => rfl) A, bigSep_W0]

/-- The token table held at the flattened tokens, as one points-to. -/
theorem prefHeld_tbl (c : Dev nD) :
    (Pipeline.prefHeld (Ix := Unit) (Name := ℕ) (U := UU nD τ) (Lvl := ℕ) pre0 c (fun _ => fullShare) (tbl m ρ) : sProp 𝕄)
      = (((c.tc : Thread nD τ).loc main_v0) ↦{fullShare} V m ρ c main_v0) := by
  obtain rfl : c = 0 := Subsingleton.elim _ _
  unfold Pipeline.prefHeld; rw [bigSep_W0]
  rfl

/-! ## The body obligation -/

/-- ONE GRID STEP, as the pipeline asks it: from the invariant — the embedding table, the token table, the 128
    semaphores at zero —, the core owing nothing and the output window's current staging buffer at whatever it
    held, the body runs to the invariant again, nothing owed, and the staging buffer at the 128 rows the step's
    tokens name. The invariant and the staging buffer are taken apart, the body's triple applied (every table word
    names a row: `tok_lt`), and its post put back together. -/
theorem body_obligation (htok : ∀ (c : Dev nD) (y : S8x4096.Idx), (m ((c.tc : Thread nD τ).loc main_arg0) y).toNat < 50257) (c : Dev nD) :
    BodyObligation (dats m ρ 0 c) (defs₀ (F := F)) 𝒱₀ () Set.univ := fun t => by
  obtain rfl : c = 0 := Subsingleton.elim _ _
  rw [bigSep_W0, bigSep_W0]
  dsimp only []
  rw [show (dats m ρ 0 0).Φ t.castSucc = Φc m ρ 0 from rfl, show (dats m ρ 0 0).Φ t.succ = Φc m ρ 0 from rfl]
  unfold Φc Dat.owesAt Pipeline.owesWithin Pipeline.prefHeld; rw [scopedRest0_eq, bigSep_W0]
  rw [show (dats m ρ 0 0).owed t.castSucc = 0 from rfl, show (dats m ρ 0 0).owed t.succ = 0 from rfl]
  iintro ⟨⟨HW, Htok, Hsems, -⟩, ⟨%W, %hW, HO⟩, ⟨%d0, H0⟩⟩
  iapply (kernelRun (0 : Dev nD) (grid0.coords t) (stage0_0 ((Pipeline.pin (pcfgs (F := F)) (adm m ρ) 0).slots t 0)) (hstage0_0 _)
    (V m ρ 0 main_v0) (V m ρ 0 main_arg1) ((dats m ρ 0 0).before 0 t d0) (tok_lt m ρ htok 0) W)
  isplitl [Htok]; · iexact Htok
  isplitl [HW]; · iexact HW
  isplitl [H0]; · iexact H0
  isplitl [Hsems]; · iexact Hsems
  isplitl [HO]; · iexact HO
  iintro ⟨Htok, HW, H0, Hsems, ⟨%W', HO⟩⟩
  isplitl [HW Htok Hsems]
  · isplitl [HW]; · iexact HW
    isplitl [Htok]; · iexact Htok
    isplitl [Hsems]; · iexact Hsems
    iempintro
  isplitl [HO]
  · iexists W'; isplitr; · ipureintro; exact fun _ _ => Or.inl trivial
    iexact HO
  dsimp only [dats]; iexact H0

/-- The kernel's 128 semaphores are scoped, pairwise distinct (cell `2 + k` determines `k`), and none is a staging
    buffer's (those are cells 0 and 1). -/
theorem ownSemFacts : Pipeline.OwnSemFacts spec0 osem where
  isScoped := by decide
  inj := fun _ _ h => Fin.natAdd_injective _ _ (SemLoc.dma.inj h)
  disj := by decide

/-- The launch element: the pipeline library's at the two staging cells and the pipeline's transfers; no counter yet. -/
def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

/-! ## @main as three segments -/

/-- THE FIRST HOST SEGMENT: the reshape of the token array into the table, over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- What the region leaves in the unscoped buffers: its result array at what the 256 write-backs made of it, every
    other buffer as the region found it. -/
abbrev Vx (c : Dev nD) : Valuation τ sig (Elt F) :=
  Pipeline.withArrays spec0 c (StableHlo.after hostOps0 (V₀ m ρ c)) fun w => (dats m ρ 0 c).arrAt w (Pipeline.pin (pcfgs (F := F)) (adm m ρ) 0).N

/-- It holds the region's result at what the write-backs left, -/
theorem Vx_v1 (c : Dev nD) :
    Vx m ρ c (Proc.devRef .tc main_v1) = (dats m ρ 0 c).arrAt 0 (Pipeline.pin (pcfgs (F := F)) (adm m ρ) 0).N :=
  Pipeline.withArrays_arr spec0 (launch0 (F := F)).win.arr_inj c _ _ 0

/-- and every other buffer as the region found it. -/
theorem Vx_of_ne (c : Dev nD) (b : Ref sig .tc) (hb : b ≠ main_v1) : Vx m ρ c (Proc.devRef .tc b) = V m ρ c b :=
  Pipeline.withArrays_of_ne spec0 c _ _ b fun w => by
    obtain rfl : w = 0 := Subsingleton.elim _ _
    exact fun h => hb h.symm

/-- The last reshape writes the final result: the region's result in row-major order at the final shape; -/
theorem after1_v2 (c : Dev nD) :
    StableHlo.after hostOps1 (Vx m ρ c) (Proc.devRef .tc main_v2)
      = fun i => shapeCast S8x4096x768 ((dats m ρ 0 c).arrAt 0 (Pipeline.pin (pcfgs (F := F)) (adm m ρ) 0).N) shapeCasts_S32768x768_S8x4096x768 i := by
  rw [StableHlo.after_cons, StableHlo.after_nil, StableHlo.reshape_result, Vx_v1]
  rfl

/-- it writes no other buffer. -/
theorem after1_of_ne (c : Dev nD) (b : Ref sig .tc) (hb : b ≠ main_v2) :
    StableHlo.after hostOps1 (Vx m ρ c) (Proc.devRef .tc b) = Vx m ρ c (Proc.devRef .tc b) :=
  StableHlo.after_of_forall_not_mem (b := Proc.devRef .tc b) hostOps1 (Vx m ρ c) fun op hop => by
    simp only [List.mem_cons, List.mem_nil_iff, or_false] at hop
    subst hop
    simp only [StableHlo.reshape_writes, Finset.mem_singleton]
    exact StableHlo.devRef_ne_of_ne hb

/-- THE LAST HOST SEGMENT: the reshape of the region's result into the final result, over the unscoped buffers as
    the region left them. -/
def seg1 : Pipeline.HostSeg (Name := ℕ) (U := UU nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m ρ) R

-- the library's lemmas over `(pcfgs p).spec` meet the pinned configuration's only when unification may unfold plain
-- definitions in a metavariable's type
set_option backward.isDefEq.respectTransparency.types false in
/-- THE REGION: entered from what the first reshape left. Of the unscoped buffers the result array goes to the
    pipeline, the token table to the pipeline's account of its prefetched tables and from there into the invariant,
    the embedding table with the kernel's 128 semaphores into the invariant (the body's copies read the one and
    complete on the others), and the token array and the final result's buffer bypass the region. At the exit the
    invariant gives the two tables back, and the unscoped buffers are put together again, the result array at what
    the write-backs left. -/
def reg0 (htok : ∀ (c : Dev nD) (y : S8x4096.Idx), (m ((c.tc : Thread nD τ).loc main_arg0) y).toNat < 50257) :
    Pipeline.RegionSeg (pcfgs (F := F)) (adm m ρ) (dats m ρ) () defs₀ 𝒱₀ L lv 0 where
  win := (launch0 (F := F)).win.to₀
  block_pos := (launch0 (F := F)).block_pos
  stage_whole := (launch0 (F := F)).stage_whole
  K := Fin 128
  osem := osem
  ho := ownSemFacts
  hbody c := (body_obligation m ρ htok c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (Vx m ρ c) ∗ R c)
  X c := iprop(pt c (Memref.whole main_arg1) (V m ρ c main_arg1)
    ∗ Pipeline.ownSems0 (Ix := Unit) (Name := ℕ) (U := UU nD τ) (Lvl := ℕ) (Val := Elt F) (τ := τ) osem c)
  Y c := iprop(pt c (Memref.whole main_arg1) (V m ρ c main_arg1)
    ∗ Pipeline.prefHeld (Ix := Unit) (Name := ℕ) (U := UU nD τ) (Lvl := ℕ) pre0 c (fun _ => fullShare) (tbl m ρ))
  Z c := iprop((((c : Thread nD τ).loc main_arg0) ↦{fullShare} V m ρ c main_arg0) ∗ (((c : Thread nD τ).loc main_v2) ↦{fullShare} V m ρ c main_v2))
  hentry c := by
    rw [show StableHlo.held (c : Thread nD τ) (Pipeline.ucRefs τ sig) (StableHlo.after hostOps0 (V₀ m ρ c)) = unscopedBufs c (V m ρ c)
        from (Pipeline.unscopedBufs_held c _).symm,
      unscopedBufs_eq m ρ, arrays_eq', prefHeld_tbl]
    iintro ⟨⟨⟨Hv1, Hv0, H0, H1, H2⟩, HO⟩, Hos, -⟩
    imodintro
    isplitl [Hv1]; · iexact Hv1
    isplitl [Hv0]; · iexact Hv0
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    iexact H2
  hin c := by
    rw [show (dats m ρ 0 c).Φ 0 = Φc m ρ c from rfl]; unfold Φc
    iintro ⟨⟨H1, Hos⟩, Hpf, Hr⟩
    isplitl [H1]; · iexact H1
    isplitl [Hpf]; · iexact Hpf
    isplitl [Hos] <;> iassumption
  hout c := by
    rw [show (dats m ρ 0 c).Φ (Fin.last (Pipeline.pin (pcfgs (F := F)) (adm m ρ) 0).N) = Φc m ρ c from rfl]; unfold Φc
    iintro ⟨H1, Hpf, Hos, Hr⟩
    isplitl [H1 Hpf]
    · isplitl [H1] <;> iassumption
    isplitl [Hos] <;> iassumption
  hexit c := by
    rw [show StableHlo.held (c : Thread nD τ) (Pipeline.ucRefs τ sig) (Vx m ρ c) = unscopedBufs c (fun b => Vx m ρ c b)
        from (Pipeline.unscopedBufs_held c _).symm,
      unscopedBufs_eq m ρ, arrays_eq', prefHeld_tbl, Vx_v1, Vx_of_ne m ρ c main_v0 (by decide), Vx_of_ne m ρ c main_arg0 (by decide),
      Vx_of_ne m ρ c main_arg1 (by decide), Vx_of_ne m ρ c main_v2 (by decide)]
    iintro ⟨Hv1, HO, ⟨H1, Hv0⟩, H0, H2⟩
    imodintro
    isplitr [HO]
    · isplitl [Hv1]; · iexact Hv1
      isplitl [Hv0]; · iexact Hv0
      isplitl [H0]; · iexact H0
      isplitl [H1]; · iexact H1
      iexact H2
    · unfold Pipeline.Dat.owesAt Pipeline.owesWithin
      icases HO with ⟨%W, -, HO⟩; iexists W; iexact HO

/-- @main as the list of the three. -/
abbrev segs (htok : ∀ (c : Dev nD) (y : S8x4096.Idx), (m ((c.tc : Thread nD τ).loc main_arg0) y).toNat < 50257) :
    List (Pipeline.Seg (pcfgs (F := F)) (adm m ρ) (dats m ρ) () defs₀ 𝒱₀ L lv) :=
  [.host (seg0 m ρ), .region (reg0 m ρ htok), .host (seg1 m ρ)]

/-- What the last segment leaves: the unscoped buffers after the last reshape. -/
abbrev Tₙ (c : Dev nD) : sProp 𝕄 :=
  StableHlo.held (c : Thread nD τ) (Pipeline.ucRefs τ sig) (StableHlo.after hostOps1 (Vx m ρ c))

-- the launch theorem's implicit arguments are found by unifying its conclusion with this one, which takes unfolding
-- plain definitions in a metavariable's type
set_option backward.isDefEq.respectTransparency.types false in
/-- THE RUN. At the compiled mesh, from any memory with zero counters whose token words are all below 50257: every
    weakly fair execution of @main on the TensorCores terminates, nothing faulting, and every final state has the
    final result at the reshape of what the pipeline's 256 write-backs made of the region's result array, and both
    argument arrays as launched. The three reads at the end are of the unscoped buffers after the last reshape: the
    final result is that reshape's, the arguments are written by neither reshape nor by the region. -/
theorem run_main (htok : ∀ (c : Dev nD) (y : S8x4096.Idx), (m ((c.tc : Thread nD τ).loc main_arg0) y).toNat < 50257) :
    θ_run defs (onTc (τ := τ) (main (F := F))) (s₀ m ρ) (fun r => ∀ c : Dev nD,
      r.2.mem ((c.tc : Thread nD τ).loc main_v2)
          = shapeCast S8x4096x768 ((dats m ρ 0 c).arrAt 0 (Pipeline.pin (pcfgs (F := F)) (adm m ρ) 0).N) shapeCasts_S32768x768_S8x4096x768
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) (adm m ρ) (dats m ρ) () (cellOf_inj (adm m ρ)) EP defs₀ 𝒱₀ L lv m ρ main (segs m ρ htok)
    (fun c Q => by rw [main_segs (adm m ρ) (dats m ρ) () 𝒱₀ L lv (seg0 m ρ) (seg1 m ρ) (reg0 m ρ htok) rfl rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => Entails.of_eq rfl, fun _ => Entails.of_eq rfl⟩)
    (hinit := by
      refine Pipeline.initEach L lv fun c => ?_
      rw [show unscopedBufs c (fun b => m ((c : Thread nD τ).loc b)) = StableHlo.held (c : Thread nD τ) (Pipeline.ucRefs τ sig) (V₀ m ρ c)
        from Pipeline.unscopedBufs_held c (V₀ m ρ c)]
      iintro ⟨⟨Hh, -, HO, -, -, -⟩, -⟩
      imodintro
      isplitl [Hh]; · iexact Hh
      iexists ∅; iexact HO)
    (QY := fun c s => s.mem ((c.tc : Thread nD τ).loc main_v2)
          = shapeCast S8x4096x768 ((dats m ρ 0 c).arrAt 0 (Pipeline.pin (pcfgs (F := F)) (adm m ρ) 0).N) shapeCasts_S32768x768_S8x4096x768
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ]
      rw [show StableHlo.held (c : Thread nD τ) (Pipeline.ucRefs τ sig) (StableHlo.after hostOps1 (Vx m ρ c))
          = unscopedBufs c (fun b => StableHlo.after hostOps1 (Vx m ρ c) b) from (Pipeline.unscopedBufs_held c _).symm,
        unscopedBufs_eq m ρ, after1_v2, after1_of_ne m ρ c main_arg0 (by decide), after1_of_ne m ρ c main_arg1 (by decide),
        Vx_of_ne m ρ c main_arg0 (by decide), Vx_of_ne m ρ c main_arg1 (by decide), V_of_ne m ρ c main_arg0 (by decide), V_of_ne m ρ c main_arg1 (by decide)]
      iintro ⟨⟨-, -, H0, H1, H2⟩, HSI⟩
      icombine HSI H0 gives %h0
      icombine HSI H1 gives %h1
      icombine HSI H2 gives %h2
      imodintro
      isplitr; · ipureintro; exact ⟨Buf.eq_of_forall_mem_univ h2, Buf.eq_of_forall_mem_univ h0, Buf.eq_of_forall_mem_univ h1⟩
      iexact HSI)
    (hQ := fun _ h => h)

end Cert.KernelIdeal.Launch

end
-- ==== Proof.OutValueI.lean ====
/-
  The result of the kernel program as one function of its two arguments.

  The program flattens the 8 × 4096 token array into a table of 32768 words, runs a grid of 256 steps each of which
  writes one 128 × 768 block of a 32768 × 768 array, and reshapes that array to 8 × 4096 × 768. After step t the
  block holds, in row j, the table row that word 128·t + j of the flattened tokens names.

  Four facts give the result array. (1) At the region's entry the embedding table is as launched, and the token
  table is the launched token array read in row-major order. (2) What step t writes back is block t of ONE function
  of the whole array, the lookup over the flattened tokens: element (n, k) is the table at the row word n names,
  column k; row 128·t + j of the array is row j of block t, the columns coincide. (3) Every element (n, k) lies in
  the block of step n / 128, and every step writes its block back, so the array ends holding that function.
  (4) Read through the final reshape at (b, s, k) it is read at row 4096·b + s, and word 4096·b + s of the
  flattened tokens is the token at (b, s): the result is the embedding lookup of the two arguments.
-/
import proofs.«413693_j16020228014144_1_alg».proof.Proof.DataI
import Idealize.ShloMosaic.Lib.Pipeline.Value
import Idealize.ShloMosaic.Lib.ValueIdx
import Idealize.ShloMosaic.Lib.StableHlo.Run

noncomputable section

namespace Cert.KernelIdeal.OutValue

open Cert.KernelIdeal Cert.KernelIdeal.Gen Cert.KernelIdeal.Body Cert.KernelIdeal.Data

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [∀ e, Nonempty (Elt F e)]

variable (m : (ℓ : Loc nD τ sig) → Buf (Elt F) ℓ) (ρ : Dev nD → PrngReg)

/-! ## The two tables when the region is entered -/

/-- The one host operation before the region writes the token table only. -/
theorem not_written (b : Ref sig .tc) (hb : b ≠ main_v0) :
    ∀ op ∈ (hostOps0 (F := F)), Proc.devRef (τ := τ) .tc b ∉ op.writes := by
  intro op hop
  simp only [List.mem_cons, List.mem_nil_iff, or_false] at hop
  subst hop
  simp only [StableHlo.reshape_writes, Finset.mem_singleton]
  exact StableHlo.devRef_ne_of_ne hb

/-- The embedding table reaches the region as launched. -/
theorem V_table (c : Dev nD) : V m ρ c main_arg1 = m ((c : Thread nD τ).loc main_arg1) :=
  StableHlo.after_of_forall_not_mem (b := Proc.devRef .tc main_arg1) hostOps0 (V₀ m ρ c) (not_written main_arg1 (by decide))

/-- The token table at the region's entry is the launched token array flattened. -/
theorem V_tokens (c : Dev nD) :
    (V m ρ c main_v0 : S32768.Idx → BitVec 32)
      = shapeCast S32768 (m ((c : Thread nD τ).loc main_arg0) : S8x4096.Idx → BitVec 32) shapeCasts_S8x4096_S32768 := by
  dsimp only [V, hostOps0]
  after_results
  rfl

/-! ## What a grid step writes back -/

/-- The pipeline's configuration, the token table pinned at the flattened tokens. -/
abbrev cfgP : Cfg sig Λ₀ := Pipeline.pin (pcfgs (F := F)) (adm m ρ) 0

/-- The output window's block index at grid coordinate i is (i, 0): the coordinate, below 256, survives its passage
    through a 32-bit word. -/
theorem blockIndex (i : grid0.Coords) : cc0_transform_1 i 0 = (i 0).val ∧ cc0_transform_1 i 1 = 0 := by
  constructor
  · show (BitVec.ofNat 32 (i 0).val).toNat = (i 0).val
    rw [BitVec.toNat_ofNat]
    exact Nat.mod_eq_of_lt (by have h : (i 0).val < 256 := (i 0).isLt; omega)
  · rfl

/-- On the one-axis grid the coordinate of point t is t. -/
theorem coords_val (t : Fin grid0.N) : ((grid0.coords t) 0).val = t.val := by
  have hs : grid0.stride 0 = 1 := by decide
  show t.val / grid0.stride 0 % 256 = t.val
  rw [hs, Nat.div_one]
  exact Nat.mod_eq_of_lt (Nat.lt_of_lt_of_eq t.isLt N_0)

/-- So the block index at point t is (t, 0). -/
theorem index_val (t : Fin (cfgP m ρ).N) :
    ((cfgP m ρ).win 0).index t (0 : Fin 2) = t.val ∧ ((cfgP m ρ).win 0).index t (1 : Fin 2) = 0 := by
  constructor
  · show cc0_transform_1 (grid0.coords t) 0 = t.val
    rw [(blockIndex _).1, coords_val]
  · show cc0_transform_1 (grid0.coords t) 1 = 0
    exact (blockIndex _).2

/-- Row j, column k of the block gathered at coordinate i is element (128·i + j, k) of the lookup over the flattened
    tokens. -/
theorem gathered_apply (i : grid0.Coords) (ftok : S32768.Idx → BitVec 32) (fW : S50257x768.Idx → Elt F .f32)
    (y : S128x768.Idx) (z : S32768x768.Idx)
    (h0 : (z 0).val = 128 * (i 0).val + (y 0).val) (h1 : (z 1).val = (y 1).val) :
    gathered i ftok fW y = Cert.Spec.embedFlat ftok fW z :=
  congrArg₂ (fun (r : Fin 32768) (k : Fin 768) => fW (ix2 (Cert.Spec.rowOf (ftok (ix1 r))) k))
    (Fin.ext h0.symm) (Fin.ext h1.symm)

/-- WHAT STEP t WRITES BACK is block t of the lookup over the flattened tokens. -/
theorem flushed_eq (c : Dev nD) (t : Fin (cfgP m ρ).N) :
    (dats m ρ 0 c).flushed 0 t
      = (((cfgP m ρ).win 0).blk t).view.read (Elt F)
          (Cert.Spec.embedFlat (V m ρ c main_v0) (V m ρ c main_arg1)) := by
  obtain ⟨e0, e1⟩ := index_val m ρ t
  funext y
  refine gathered_apply (grid0.coords t) _ _ _ _ ?_ ?_
  · show ((cfgP m ρ).win 0).index t (0 : Fin 2) * 128 + 1 * (y (0 : Fin 2)).val = 128 * ((grid0.coords t) 0).val + (y (0 : Fin 2)).val
    rw [e0, coords_val]
    omega
  · show ((cfgP m ρ).win 0).index t (1 : Fin 2) * 768 + 1 * (y (1 : Fin 2)).val = (y (1 : Fin 2)).val
    rw [e1]
    omega

/-! ## The blocks tile the array -/

/-- An element of the array is in step t's block iff each coordinate is in the block's range on its axis. -/
theorem mem_blk (t : Fin (cfgP m ρ).N) (i : S32768x768.Idx) :
    i ∈ (((cfgP m ρ).win 0).blk t).view.set
      ↔ ∀ a : Fin 2, ((cfgP m ρ).win 0).index t a * S128x768.size a ≤ (i a).val
          ∧ (i a).val < ((cfgP m ρ).win 0).index t a * S128x768.size a + S128x768.size a := by
  have h : (((cfgP m ρ).win 0).blk t).view.set = (((cfgP m ρ).win 0).rect t).set :=
    View.set_slice_whole main_v1 (((cfgP m ρ).win 0).rect t)
  exact (Eq.to_iff (congrArg (fun S : Finset S32768x768.Idx => i ∈ S) h)).trans Rect.mem_set_unit

/-- Every step writes its block back: the block index changes from each step to the next, and the last step always
    writes back. -/
theorem flush_all (t : Fin (cfgP m ρ).N) : ((cfgP m ρ).win 0).flush t = true := by
  unfold Window.flush
  rw [Bool.and_eq_true, Bool.or_eq_true, decide_eq_true_eq, decide_eq_true_eq]
  refine ⟨rfl, ?_⟩
  by_cases hlast : t.val + 1 = (cfgP m ρ).grid.N
  · exact Or.inl hlast
  · have hN : t.val < (cfgP m ρ).grid.N := t.isLt
    have hlt : t.val + 1 < (cfgP m ρ).grid.N := by omega
    refine Or.inr ⟨hlt, fun e => ?_⟩
    have e' : t.val + 1 = t.val :=
      (index_val m ρ ⟨t.val + 1, hlt⟩).1.symm.trans ((congrFun e (0 : Fin 2)).trans (index_val m ρ t).1)
    omega

/-- THE COVER: element (n, k) of the array lies in the block of step n / 128, which is written back. -/
theorem covered (i : S32768x768.Idx) :
    ∃ t : Fin (cfgP m ρ).N, ((cfgP m ρ).win 0).flush t = true ∧ i ∈ (((cfgP m ρ).win 0).blk t).view.set := by
  have hi0 : (i 0).val < 32768 := idx2_lt0 i
  have hi1 : (i 1).val < 768 := idx2_lt1 i
  have hlt : (i 0).val / 128 < (cfgP m ρ).N := Nat.lt_of_lt_of_eq (by omega) N_0.symm
  refine ⟨⟨(i 0).val / 128, hlt⟩, flush_all m ρ _, ?_⟩
  obtain ⟨e0, e1⟩ := index_val m ρ ⟨(i 0).val / 128, hlt⟩
  rw [mem_blk]
  intro a
  match a with
  | ⟨0, _⟩ =>
    show ((cfgP m ρ).win 0).index ⟨(i 0).val / 128, hlt⟩ (0 : Fin 2) * 128 ≤ (i 0).val
      ∧ (i 0).val < ((cfgP m ρ).win 0).index ⟨(i 0).val / 128, hlt⟩ (0 : Fin 2) * 128 + 128
    rw [e0]
    show (i 0).val / 128 * 128 ≤ (i 0).val ∧ (i 0).val < (i 0).val / 128 * 128 + 128
    omega
  | ⟨1, _⟩ =>
    show ((cfgP m ρ).win 0).index ⟨(i 0).val / 128, hlt⟩ (1 : Fin 2) * 768 ≤ (i 1).val
      ∧ (i 1).val < ((cfgP m ρ).win 0).index ⟨(i 0).val / 128, hlt⟩ (1 : Fin 2) * 768 + 768
    rw [e1]
    omega

/-! ## The result -/

/-- The result array after the grid is the lookup over the flattened tokens. -/
theorem arr_eq (c : Dev nD) :
    (dats m ρ 0 c).arrAt 0 (cfgP m ρ).N = Cert.Spec.embedFlat (V m ρ c main_v0) (V m ρ c main_arg1) :=
  (dats m ρ 0 c).arrAt_eq_of_cover 0 (Cert.Spec.embedFlat (V m ρ c main_v0) (V m ρ c main_arg1))
    (fun t _ => flushed_eq m ρ c t) (covered m ρ)

/-! ## The final reshape -/

/-- The lookup over the flattened tokens, read through the reshape to 8 × 4096 × 768, is the lookup over the token
    array: position (b, s, k) is position (4096·b + s, k) of the flat array, and word 4096·b + s of the flattened
    tokens is the token at (b, s). -/
theorem embedFlat_unflatten {α : Type} (tok : S8x4096.Idx → BitVec 32) (W : S50257x768.Idx → α) :
    shapeCast S8x4096x768 (Cert.Spec.embedFlat (shapeCast S32768 tok shapeCasts_S8x4096_S32768) W)
        shapeCasts_S32768x768_S8x4096x768
      = Cert.Spec.embed tok W := by
  funext i
  obtain ⟨b, s, k, rfl⟩ : ∃ b s k, i = ix3 b s k := ⟨i 0, i 1, i 2, eq_ix3 i⟩
  have hb : b.val < 8 := b.isLt
  have hs : s.val < 4096 := s.isLt
  rw [shapeCast_apply _ _ (ix3 b s k) (ix2 (⟨b.val * 4096 + s.val, by omega⟩ : Fin 32768) k)
    (by rw [Shape.rowMajor_val_two, Shape.rowMajor_val_three]; rfl)]
  show W (ix2 (Cert.Spec.rowOf (shapeCast S32768 tok shapeCasts_S8x4096_S32768
      (ix1 (⟨b.val * 4096 + s.val, by omega⟩ : Fin 32768)))) (⟨k.val, k.isLt⟩ : Fin 768))
    = W (ix2 (Cert.Spec.rowOf (tok (ix2 (⟨b.val, b.isLt⟩ : Fin 8) (⟨s.val, s.isLt⟩ : Fin 4096)))) (⟨k.val, k.isLt⟩ : Fin 768))
  rw [shapeCast_apply tok _ (ix1 (⟨b.val * 4096 + s.val, by omega⟩ : Fin 32768))
    (ix2 (⟨b.val, b.isLt⟩ : Fin 8) (⟨s.val, s.isLt⟩ : Fin 4096))
    (by rw [Shape.rowMajor_val_two, Shape.rowMajor_val_one]; rfl)]

/-- THE PROGRAM'S RESULT: the result array after the grid, read through the final reshape, is the embedding lookup of
    the launched token array in the launched table. -/
theorem out_eq (c : Dev nD) :
    shapeCast S8x4096x768 ((dats m ρ 0 c).arrAt 0 (Pipeline.pin (pcfgs (F := F)) (adm m ρ) 0).N) shapeCasts_S32768x768_S8x4096x768
      = Cert.Spec.embed (m ((c.tc : Thread nD τ).loc main_arg0)) (m ((c.tc : Thread nD τ).loc main_arg1)) := by
  rw [arr_eq, V_table, V_tokens]
  exact embedFlat_unflatten _ _

end Cert.KernelIdeal.OutValue

end
-- ==== Proof.lean ====
/-
  The embedding lookup `out[b, s, :] = W_E[tokens[b, s], :]`: the kernel against the reference.

  THE PRECONDITION. Every entry of the table is finite and every token is in `[0, 50257)`. Only the second half is
  used: a token word below 50257 names a row of the table (`TokRange.tok_lt`), which is what each of the kernel's row
  copies assumes of the word it loads, and where the reference's wrap-and-clamp of an index does nothing.
  THE KERNEL. The tokens are flattened to 32768 words; grid step `i` of 256 copies, for `j < 128`, the table row named
  by word `128 · i + j` into row `j` of its 128 × 768 output block, 128 copies in flight at once, each on its own
  semaphore, then waits for all of them (`Body.kernelRun`); the blocks tile the 32768 × 768 result, which is reshaped to
  8 × 4096 × 768 (`Launch.run_main`). Read as one function of the arguments the result is `Spec.embed`
  (`OutValue.out_eq`): entry `(b, s, k)` is entry `(tokens[b, s], k)` of the table.
  THE REFERENCE adds 50257 to negative tokens and gathers with clamped indices; on tokens in range both adjustments
  are the identity, and its result is `Spec.embed` too (`RefValue.run_embed`).
  No arithmetic is done on the table's entries, so the two results are equal entry by entry whatever the entries are.
  The three frames are the runs with the results dropped; the idealization rewrote nothing, so `preserves` is trivial.
-/
import proofs.«413693_j16020228014144_1_alg».proof.Defs
import proofs.«413693_j16020228014144_1_alg».proof.Proof.Gen.Kernel
import proofs.«413693_j16020228014144_1_alg».proof.Proof.Gen.KernelIdeal
import proofs.«413693_j16020228014144_1_alg».proof.Proof.Gen.ReferenceIdeal
import proofs.«413693_j16020228014144_1_alg».proof.Proof.Gen.Pre_finite_inputs
import proofs.«413693_j16020228014144_1_alg».proof.Proof.TokRange
import proofs.«413693_j16020228014144_1_alg».proof.Proof.RefValue
import proofs.«413693_j16020228014144_1_alg».proof.Proof.LaunchK
import proofs.«413693_j16020228014144_1_alg».proof.Proof.LaunchI
import proofs.«413693_j16020228014144_1_alg».proof.Proof.OutValueI

noncomputable section

namespace Cert.Proof

open Idealize.ShloMosaic Idealize.ShloMosaic.TcCoe Idealize.SL.Sem

/-- The precondition bounds every token word of the word-level program's memory; -/
theorem tok_lt_K (m : (ℓ : Loc Cert.Kernel.nD Cert.Kernel.τ Cert.Kernel.sig) → Buf (Elt Bits) ℓ) (h : Cert.Pre_Kernel m)
    (c : Dev Cert.Kernel.nD) (y : Cert.Kernel.S8x4096.Idx) :
    (m ((c.tc : Thread Cert.Kernel.nD Cert.Kernel.τ).loc Cert.Kernel.main_arg0) y).toNat < 50257 :=
  Cert.TokRange.tok_lt (F := Bits) _ _ (h c) y

/-- and of the idealized program's. -/
theorem tok_lt_KI (m : (ℓ : Loc Cert.KernelIdeal.nD Cert.KernelIdeal.τ Cert.KernelIdeal.sig) → Buf (Elt Ideal) ℓ)
    (h : Cert.Pre_KernelIdeal m) (c : Dev Cert.KernelIdeal.nD) (y : Cert.KernelIdeal.S8x4096.Idx) :
    (m ((c.tc : Thread Cert.KernelIdeal.nD Cert.KernelIdeal.τ).loc Cert.KernelIdeal.main_arg0) y).toNat < 50257 :=
  Cert.TokRange.tok_lt (F := Ideal) _ _ (h c) y

theorem frame_K : Cert.frame_Kernel := fun m ρ h =>
  (θ_run Cert.Kernel.defs _ _).mono (fun _ hr c => (hr c).2) (Cert.Kernel.Launch.run_main (F := Bits) m ρ (tok_lt_K m h))

theorem frame_KI : Cert.frame_KernelIdeal := fun m ρ h =>
  (θ_run Cert.KernelIdeal.defs _ _).mono (fun _ hr c => (hr c).2) (Cert.KernelIdeal.Launch.run_main (F := Ideal) m ρ (tok_lt_KI m h))

theorem frame_RI : Cert.frame_ReferenceIdeal := fun m ρ _ =>
  (θ_run Cert.ReferenceIdeal.defs _ _).mono (fun _ hr c => (hr c).2) (Cert.ReferenceIdeal.Value.run (F := Ideal) m ρ)

/-- Both programs end with the embedding lookup of the arguments. -/
theorem algebraic : Cert.algebraic_KernelIdeal_ReferenceIdeal := by
  intro m ρ m' ρ' hpre hagree
  refine ⟨fun c => Cert.Spec.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ hr c => ⟨(hr c).1.trans (Cert.KernelIdeal.OutValue.out_eq (F := Ideal) m ρ c), (hr c).2⟩)
      (Cert.KernelIdeal.Launch.run_main (F := Ideal) m ρ (tok_lt_KI m hpre))
  · refine (θ_run Cert.ReferenceIdeal.defs _ _).mono (fun _ hr c => ⟨(hr c).1.trans ?_, (hr c).2⟩)
      (Cert.ReferenceIdeal.RefValue.run_embed (F := Ideal) m' ρ' (fun c y => by rw [(hagree c).1]; exact tok_lt_KI m hpre c y))
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
